-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S4096x512 : Shape := ⟨2, ![4096, 512]⟩
abbrev S25 : Shape := ⟨1, ![25]⟩
abbrev S16 : Shape := ⟨1, ![16]⟩
abbrev S4 : Shape := ⟨1, ![4]⟩
abbrev S3 : Shape := ⟨1, ![3]⟩
abbrev S_ : Shape := ⟨0, ![]⟩
abbrev S1 : Shape := ⟨1, ![1]⟩
abbrev S32x512 : Shape := ⟨2, ![32, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .local _ .vmem, ⟨0, _⟩ => ⟨S2048x512, .f32⟩
  | .local _ .vmem, ⟨1, _⟩ => ⟨S4096x512, .f32⟩
  | _, _ => ⟨S2048x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v28 : BitVec 32 := Scalar.muli v9 c4_i32_17
  let v29 : BitVec 32 := Scalar.addi c0_i32 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v34 : BitVec 32 := Scalar.muli v2 c4_i32_21
  let v35 : BitVec 32 := Scalar.addi c0_i32_22 v34
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_23 : BitVec 32 := 2#32
  let v36 : BitVec 32 := Scalar.muli v10 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v42 : BitVec 32 := Scalar.muli v5 c2_i32_28
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v44 : BitVec 32 := Scalar.muli v11 c1_i32_29
  let v45 : BitVec 32 := Scalar.addi v43 v44
  v45.toNat
def k0_off1 (d0 : Dev nD) (c0_i32_30 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v46 : BitVec 32 := Scalar.muli v13 c512_i32
  let v47 : BitVec 32 := Scalar.addi v46 c0_i32_30
  let v48 : BitVec 32 := Scalar.addi v24 v47
  let c0_i32_37 : BitVec 32 := 0#32
  ![v48.toNat, 0]
def k0_off2 (d0 : Dev nD) (c0_i32_30 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v46 : BitVec 32 := Scalar.muli v13 c512_i32
  let v47 : BitVec 32 := Scalar.addi v46 c0_i32_30
  let c0_i32_38 : BitVec 32 := 0#32
  ![v47.toNat, 0]
def k0_dev4 (d0 : Dev nD) : Nat :=
  let c0_i32_34 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_33 : BitVec 32 := 4#32
  let v49 : BitVec 32 := Scalar.muli v9 c4_i32_33
  let v50 : BitVec 32 := Scalar.addi c0_i32_34 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v51 : BitVec 32 := Scalar.muli v5 c2_i32_35
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v53 : BitVec 32 := Scalar.muli v8 c1_i32_36
  let v54 : BitVec 32 := Scalar.addi v52 v53
  v54.toNat
def k0_dev5 (d0 : Dev nD) : Nat :=
  let c0_i32_43 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_42 : BitVec 32 := 4#32
  let v64 : BitVec 32 := Scalar.muli v9 c4_i32_42
  let v65 : BitVec 32 := Scalar.addi c0_i32_43 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v66 : BitVec 32 := Scalar.muli v5 c2_i32_44
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v68 : BitVec 32 := Scalar.muli v8 c1_i32_45
  let v69 : BitVec 32 := Scalar.addi v67 v68
  v69.toNat
def k0_dev6 (d0 : Dev nD) : Nat :=
  let c0_i32_52 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_51 : BitVec 32 := 4#32
  let v79 : BitVec 32 := Scalar.muli v9 c4_i32_51
  let v80 : BitVec 32 := Scalar.addi c0_i32_52 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v81 : BitVec 32 := Scalar.muli v5 c2_i32_53
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v83 : BitVec 32 := Scalar.muli v8 c1_i32_54
  let v84 : BitVec 32 := Scalar.addi v82 v83
  v84.toNat
def k0_dev7 (d0 : Dev nD) : Nat :=
  let c0_i32_61 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_60 : BitVec 32 := 4#32
  let v94 : BitVec 32 := Scalar.muli v9 c4_i32_60
  let v95 : BitVec 32 := Scalar.addi c0_i32_61 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v96 : BitVec 32 := Scalar.muli v5 c2_i32_62
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v98 : BitVec 32 := Scalar.muli v8 c1_i32_63
  let v99 : BitVec 32 := Scalar.addi v97 v98
  v99.toNat
def k0_dev8 (d0 : Dev nD) : Nat :=
  let c0_i32_70 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_69 : BitVec 32 := 4#32
  let v109 : BitVec 32 := Scalar.muli v9 c4_i32_69
  let v110 : BitVec 32 := Scalar.addi c0_i32_70 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v111 : BitVec 32 := Scalar.muli v5 c2_i32_71
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v113 : BitVec 32 := Scalar.muli v8 c1_i32_72
  let v114 : BitVec 32 := Scalar.addi v112 v113
  v114.toNat
def k0_dev9 (d0 : Dev nD) : Nat :=
  let c0_i32_78 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_77 : BitVec 32 := 4#32
  let v124 : BitVec 32 := Scalar.muli v9 c4_i32_77
  let v125 : BitVec 32 := Scalar.addi c0_i32_78 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v126 : BitVec 32 := Scalar.muli v5 c2_i32_79
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v128 : BitVec 32 := Scalar.muli v8 c1_i32_80
  let v129 : BitVec 32 := Scalar.addi v127 v128
  v129.toNat
def k0_dev10 (d0 : Dev nD) : Nat :=
  let c0_i32_86 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_85 : BitVec 32 := 4#32
  let v139 : BitVec 32 := Scalar.muli v9 c4_i32_85
  let v140 : BitVec 32 := Scalar.addi c0_i32_86 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v141 : BitVec 32 := Scalar.muli v5 c2_i32_87
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v143 : BitVec 32 := Scalar.muli v8 c1_i32_88
  let v144 : BitVec 32 := Scalar.addi v142 v143
  v144.toNat
def k0_dev11 (d0 : Dev nD) : Nat :=
  let c0_i32_94 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_93 : BitVec 32 := 4#32
  let v154 : BitVec 32 := Scalar.muli v9 c4_i32_93
  let v155 : BitVec 32 := Scalar.addi c0_i32_94 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v156 : BitVec 32 := Scalar.muli v5 c2_i32_95
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v158 : BitVec 32 := Scalar.muli v8 c1_i32_96
  let v159 : BitVec 32 := Scalar.addi v157 v158
  v159.toNat
def k0_dev12 (d0 : Dev nD) : Nat :=
  let c0_i32_102 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_101 : BitVec 32 := 4#32
  let v169 : BitVec 32 := Scalar.muli v9 c4_i32_101
  let v170 : BitVec 32 := Scalar.addi c0_i32_102 v169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v171 : BitVec 32 := Scalar.muli v5 c2_i32_103
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v173 : BitVec 32 := Scalar.muli v8 c1_i32_104
  let v174 : BitVec 32 := Scalar.addi v172 v173
  v174.toNat
def k0_dev13 (d0 : Dev nD) : Nat :=
  let c0_i32_110 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_109 : BitVec 32 := 4#32
  let v184 : BitVec 32 := Scalar.muli v9 c4_i32_109
  let v185 : BitVec 32 := Scalar.addi c0_i32_110 v184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v186 : BitVec 32 := Scalar.muli v5 c2_i32_111
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v188 : BitVec 32 := Scalar.muli v8 c1_i32_112
  let v189 : BitVec 32 := Scalar.addi v187 v188
  v189.toNat
def k0_dev14 (d0 : Dev nD) : Nat :=
  let c0_i32_118 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_117 : BitVec 32 := 4#32
  let v199 : BitVec 32 := Scalar.muli v9 c4_i32_117
  let v200 : BitVec 32 := Scalar.addi c0_i32_118 v199
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v201 : BitVec 32 := Scalar.muli v5 c2_i32_119
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v203 : BitVec 32 := Scalar.muli v8 c1_i32_120
  let v204 : BitVec 32 := Scalar.addi v202 v203
  v204.toNat
def k0_dev15 (d0 : Dev nD) : Nat :=
  let c0_i32_126 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_125 : BitVec 32 := 4#32
  let v214 : BitVec 32 := Scalar.muli v9 c4_i32_125
  let v215 : BitVec 32 := Scalar.addi c0_i32_126 v214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v216 : BitVec 32 := Scalar.muli v5 c2_i32_127
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v218 : BitVec 32 := Scalar.muli v8 c1_i32_128
  let v219 : BitVec 32 := Scalar.addi v217 v218
  v219.toNat
def k0_dev16 (d0 : Dev nD) : Nat :=
  let c0_i32_134 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_133 : BitVec 32 := 4#32
  let v229 : BitVec 32 := Scalar.muli v9 c4_i32_133
  let v230 : BitVec 32 := Scalar.addi c0_i32_134 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v231 : BitVec 32 := Scalar.muli v5 c2_i32_135
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v233 : BitVec 32 := Scalar.muli v8 c1_i32_136
  let v234 : BitVec 32 := Scalar.addi v232 v233
  v234.toNat
def k0_dev17 (d0 : Dev nD) : Nat :=
  let c0_i32_142 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_141 : BitVec 32 := 4#32
  let v244 : BitVec 32 := Scalar.muli v9 c4_i32_141
  let v245 : BitVec 32 := Scalar.addi c0_i32_142 v244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v246 : BitVec 32 := Scalar.muli v5 c2_i32_143
  let v247 : BitVec 32 := Scalar.addi v245 v246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v248 : BitVec 32 := Scalar.muli v8 c1_i32_144
  let v249 : BitVec 32 := Scalar.addi v247 v248
  v249.toNat
def k0_dev18 (d0 : Dev nD) : Nat :=
  let c0_i32_150 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_149 : BitVec 32 := 4#32
  let v259 : BitVec 32 := Scalar.muli v9 c4_i32_149
  let v260 : BitVec 32 := Scalar.addi c0_i32_150 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v261 : BitVec 32 := Scalar.muli v5 c2_i32_151
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v263 : BitVec 32 := Scalar.muli v8 c1_i32_152
  let v264 : BitVec 32 := Scalar.addi v262 v263
  v264.toNat
def k0_dev19 (d0 : Dev nD) : Nat :=
  let c0_i32_158 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_157 : BitVec 32 := 4#32
  let v274 : BitVec 32 := Scalar.muli v9 c4_i32_157
  let v275 : BitVec 32 := Scalar.addi c0_i32_158 v274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_159 : BitVec 32 := 2#32
  let v276 : BitVec 32 := Scalar.muli v5 c2_i32_159
  let v277 : BitVec 32 := Scalar.addi v275 v276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v278 : BitVec 32 := Scalar.muli v8 c1_i32_160
  let v279 : BitVec 32 := Scalar.addi v277 v278
  v279.toNat
def k0_off3 (d0 : Dev nD) (c0_i32_164 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c2_i32_12 : BitVec 32 := 2#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c512_i32_163 : BitVec 32 := 512#32
  let v286 : BitVec 32 := Scalar.muli v23 c512_i32_163
  let v287 : BitVec 32 := Scalar.addi v286 c0_i32_164
  let v288 : BitVec 32 := Scalar.addi v24 v287
  let c0_i32_170 : BitVec 32 := 0#32
  ![v288.toNat, 0]
def k0_off4 (d0 : Dev nD) (c0_i32_164 : BitVec 32) : Fin 2 → Nat :=
  let c2_i32_12 : BitVec 32 := 2#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c512_i32_163 : BitVec 32 := 512#32
  let v286 : BitVec 32 := Scalar.muli v23 c512_i32_163
  let v287 : BitVec 32 := Scalar.addi v286 c0_i32_164
  let c0_i32_171 : BitVec 32 := 0#32
  ![v287.toNat, 0]
def k0_dev20 (d0 : Dev nD) : Nat :=
  let c0_i32_167 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_166 : BitVec 32 := 4#32
  let v289 : BitVec 32 := Scalar.muli v9 c4_i32_166
  let v290 : BitVec 32 := Scalar.addi c0_i32_167 v289
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v291 : BitVec 32 := Scalar.muli v5 c2_i32_168
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v293 : BitVec 32 := Scalar.muli v8 c1_i32_169
  let v294 : BitVec 32 := Scalar.addi v292 v293
  v294.toNat
def k0_dev21 (d0 : Dev nD) : Nat :=
  let c0_i32_176 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_175 : BitVec 32 := 4#32
  let v304 : BitVec 32 := Scalar.muli v9 c4_i32_175
  let v305 : BitVec 32 := Scalar.addi c0_i32_176 v304
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_177 : BitVec 32 := 2#32
  let v306 : BitVec 32 := Scalar.muli v5 c2_i32_177
  let v307 : BitVec 32 := Scalar.addi v305 v306
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_178 : BitVec 32 := 1#32
  let v308 : BitVec 32 := Scalar.muli v8 c1_i32_178
  let v309 : BitVec 32 := Scalar.addi v307 v308
  v309.toNat
def k0_dev22 (d0 : Dev nD) : Nat :=
  let c0_i32_185 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_184 : BitVec 32 := 4#32
  let v319 : BitVec 32 := Scalar.muli v9 c4_i32_184
  let v320 : BitVec 32 := Scalar.addi c0_i32_185 v319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v321 : BitVec 32 := Scalar.muli v5 c2_i32_186
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v323 : BitVec 32 := Scalar.muli v8 c1_i32_187
  let v324 : BitVec 32 := Scalar.addi v322 v323
  v324.toNat
def k0_dev23 (d0 : Dev nD) : Nat :=
  let c0_i32_194 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_193 : BitVec 32 := 4#32
  let v334 : BitVec 32 := Scalar.muli v9 c4_i32_193
  let v335 : BitVec 32 := Scalar.addi c0_i32_194 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_195 : BitVec 32 := 2#32
  let v336 : BitVec 32 := Scalar.muli v5 c2_i32_195
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v338 : BitVec 32 := Scalar.muli v8 c1_i32_196
  let v339 : BitVec 32 := Scalar.addi v337 v338
  v339.toNat
def k0_dev24 (d0 : Dev nD) : Nat :=
  let c0_i32_203 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_202 : BitVec 32 := 4#32
  let v349 : BitVec 32 := Scalar.muli v9 c4_i32_202
  let v350 : BitVec 32 := Scalar.addi c0_i32_203 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v351 : BitVec 32 := Scalar.muli v5 c2_i32_204
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v353 : BitVec 32 := Scalar.muli v8 c1_i32_205
  let v354 : BitVec 32 := Scalar.addi v352 v353
  v354.toNat
def k0_dev25 (d0 : Dev nD) : Nat :=
  let c0_i32_212 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_211 : BitVec 32 := 4#32
  let v364 : BitVec 32 := Scalar.muli v9 c4_i32_211
  let v365 : BitVec 32 := Scalar.addi c0_i32_212 v364
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v366 : BitVec 32 := Scalar.muli v5 c2_i32_213
  let v367 : BitVec 32 := Scalar.addi v365 v366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_214 : BitVec 32 := 1#32
  let v368 : BitVec 32 := Scalar.muli v8 c1_i32_214
  let v369 : BitVec 32 := Scalar.addi v367 v368
  v369.toNat
def k0_dev26 (d0 : Dev nD) : Nat :=
  let c0_i32_221 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_220 : BitVec 32 := 4#32
  let v379 : BitVec 32 := Scalar.muli v9 c4_i32_220
  let v380 : BitVec 32 := Scalar.addi c0_i32_221 v379
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_222 : BitVec 32 := 2#32
  let v381 : BitVec 32 := Scalar.muli v5 c2_i32_222
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_223 : BitVec 32 := 1#32
  let v383 : BitVec 32 := Scalar.muli v8 c1_i32_223
  let v384 : BitVec 32 := Scalar.addi v382 v383
  v384.toNat
def k0_dev27 (d0 : Dev nD) : Nat :=
  let c0_i32_230 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_229 : BitVec 32 := 4#32
  let v394 : BitVec 32 := Scalar.muli v9 c4_i32_229
  let v395 : BitVec 32 := Scalar.addi c0_i32_230 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v396 : BitVec 32 := Scalar.muli v5 c2_i32_231
  let v397 : BitVec 32 := Scalar.addi v395 v396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v398 : BitVec 32 := Scalar.muli v8 c1_i32_232
  let v399 : BitVec 32 := Scalar.addi v397 v398
  v399.toNat
def k0_dev28 (d0 : Dev nD) : Nat :=
  let c0_i32_239 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_238 : BitVec 32 := 4#32
  let v409 : BitVec 32 := Scalar.muli v9 c4_i32_238
  let v410 : BitVec 32 := Scalar.addi c0_i32_239 v409
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_240 : BitVec 32 := 2#32
  let v411 : BitVec 32 := Scalar.muli v5 c2_i32_240
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_241 : BitVec 32 := 1#32
  let v413 : BitVec 32 := Scalar.muli v8 c1_i32_241
  let v414 : BitVec 32 := Scalar.addi v412 v413
  v414.toNat
def k0_off5 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c0_i32_244 : BitVec 32 := 0#32
  ![v24.toNat, 0]
def k0_off6 (d0 : Dev nD) (c0_i32_254 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c2048_i32_15 : BitVec 32 := 2048#32
  let v26 : BitVec 32 := Scalar.muli v25 c2048_i32_15
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32_253 : BitVec 32 := 512#32
  let v432 : BitVec 32 := Scalar.muli v13 c512_i32_253
  let v433 : BitVec 32 := Scalar.addi v26 v432
  let v434 : BitVec 32 := Scalar.addi v433 c0_i32_254
  let c0_i32_261 : BitVec 32 := 0#32
  ![v434.toNat, 0]
def k0_dev29 (d0 : Dev nD) : Nat :=
  let c0_i32_258 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_257 : BitVec 32 := 4#32
  let v435 : BitVec 32 := Scalar.muli v2 c4_i32_257
  let v436 : BitVec 32 := Scalar.addi c0_i32_258 v435
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_259 : BitVec 32 := 2#32
  let v437 : BitVec 32 := Scalar.muli v10 c2_i32_259
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_260 : BitVec 32 := 1#32
  let v439 : BitVec 32 := Scalar.muli v8 c1_i32_260
  let v440 : BitVec 32 := Scalar.addi v438 v439
  v440.toNat
def k0_dev30 (d0 : Dev nD) : Nat :=
  let c0_i32_266 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_265 : BitVec 32 := 4#32
  let v447 : BitVec 32 := Scalar.muli v2 c4_i32_265
  let v448 : BitVec 32 := Scalar.addi c0_i32_266 v447
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_267 : BitVec 32 := 2#32
  let v449 : BitVec 32 := Scalar.muli v5 c2_i32_267
  let v450 : BitVec 32 := Scalar.addi v448 v449
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_268 : BitVec 32 := 1#32
  let v451 : BitVec 32 := Scalar.muli v11 c1_i32_268
  let v452 : BitVec 32 := Scalar.addi v450 v451
  v452.toNat
def k0_dev31 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v472 : BitVec 32 := Scalar.muli v2 c4_i32_283
  let v473 : BitVec 32 := Scalar.addi c0_i32_284 v472
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_285 : BitVec 32 := 2#32
  let v474 : BitVec 32 := Scalar.muli v10 c2_i32_285
  let v475 : BitVec 32 := Scalar.addi v473 v474
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v476 : BitVec 32 := Scalar.muli v8 c1_i32_286
  let v477 : BitVec 32 := Scalar.addi v475 v476
  v477.toNat
def k0_dev32 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v484 : BitVec 32 := Scalar.muli v2 c4_i32_291
  let v485 : BitVec 32 := Scalar.addi c0_i32_292 v484
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v486 : BitVec 32 := Scalar.muli v5 c2_i32_293
  let v487 : BitVec 32 := Scalar.addi v485 v486
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_294 : BitVec 32 := 1#32
  let v488 : BitVec 32 := Scalar.muli v11 c1_i32_294
  let v489 : BitVec 32 := Scalar.addi v487 v488
  v489.toNat
def k0_dev33 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v509 : BitVec 32 := Scalar.muli v2 c4_i32_309
  let v510 : BitVec 32 := Scalar.addi c0_i32_310 v509
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_311 : BitVec 32 := 2#32
  let v511 : BitVec 32 := Scalar.muli v10 c2_i32_311
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_312 : BitVec 32 := 1#32
  let v513 : BitVec 32 := Scalar.muli v8 c1_i32_312
  let v514 : BitVec 32 := Scalar.addi v512 v513
  v514.toNat
def k0_dev34 (d0 : Dev nD) : Nat :=
  let c0_i32_318 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_317 : BitVec 32 := 4#32
  let v521 : BitVec 32 := Scalar.muli v2 c4_i32_317
  let v522 : BitVec 32 := Scalar.addi c0_i32_318 v521
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_319 : BitVec 32 := 2#32
  let v523 : BitVec 32 := Scalar.muli v5 c2_i32_319
  let v524 : BitVec 32 := Scalar.addi v522 v523
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_320 : BitVec 32 := 1#32
  let v525 : BitVec 32 := Scalar.muli v11 c1_i32_320
  let v526 : BitVec 32 := Scalar.addi v524 v525
  v526.toNat
def k0_dev35 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v546 : BitVec 32 := Scalar.muli v2 c4_i32_335
  let v547 : BitVec 32 := Scalar.addi c0_i32_336 v546
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_337 : BitVec 32 := 2#32
  let v548 : BitVec 32 := Scalar.muli v10 c2_i32_337
  let v549 : BitVec 32 := Scalar.addi v547 v548
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_338 : BitVec 32 := 1#32
  let v550 : BitVec 32 := Scalar.muli v8 c1_i32_338
  let v551 : BitVec 32 := Scalar.addi v549 v550
  v551.toNat
def k0_dev36 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v558 : BitVec 32 := Scalar.muli v2 c4_i32_343
  let v559 : BitVec 32 := Scalar.addi c0_i32_344 v558
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v560 : BitVec 32 := Scalar.muli v5 c2_i32_345
  let v561 : BitVec 32 := Scalar.addi v559 v560
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_346 : BitVec 32 := 1#32
  let v562 : BitVec 32 := Scalar.muli v11 c1_i32_346
  let v563 : BitVec 32 := Scalar.addi v561 v562
  v563.toNat
def k0_dev37 (d0 : Dev nD) : Nat :=
  let c0_i32_362 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_361 : BitVec 32 := 4#32
  let v583 : BitVec 32 := Scalar.muli v2 c4_i32_361
  let v584 : BitVec 32 := Scalar.addi c0_i32_362 v583
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_363 : BitVec 32 := 2#32
  let v585 : BitVec 32 := Scalar.muli v10 c2_i32_363
  let v586 : BitVec 32 := Scalar.addi v584 v585
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v587 : BitVec 32 := Scalar.muli v8 c1_i32_364
  let v588 : BitVec 32 := Scalar.addi v586 v587
  v588.toNat
def k0_dev38 (d0 : Dev nD) : Nat :=
  let c0_i32_370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_369 : BitVec 32 := 4#32
  let v595 : BitVec 32 := Scalar.muli v2 c4_i32_369
  let v596 : BitVec 32 := Scalar.addi c0_i32_370 v595
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_371 : BitVec 32 := 2#32
  let v597 : BitVec 32 := Scalar.muli v5 c2_i32_371
  let v598 : BitVec 32 := Scalar.addi v596 v597
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_372 : BitVec 32 := 1#32
  let v599 : BitVec 32 := Scalar.muli v11 c1_i32_372
  let v600 : BitVec 32 := Scalar.addi v598 v599
  v600.toNat
def k0_dev39 (d0 : Dev nD) : Nat :=
  let c0_i32_388 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_387 : BitVec 32 := 4#32
  let v620 : BitVec 32 := Scalar.muli v2 c4_i32_387
  let v621 : BitVec 32 := Scalar.addi c0_i32_388 v620
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_389 : BitVec 32 := 2#32
  let v622 : BitVec 32 := Scalar.muli v10 c2_i32_389
  let v623 : BitVec 32 := Scalar.addi v621 v622
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_390 : BitVec 32 := 1#32
  let v624 : BitVec 32 := Scalar.muli v8 c1_i32_390
  let v625 : BitVec 32 := Scalar.addi v623 v624
  v625.toNat
def k0_dev40 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_395 : BitVec 32 := 4#32
  let v632 : BitVec 32 := Scalar.muli v2 c4_i32_395
  let v633 : BitVec 32 := Scalar.addi c0_i32_396 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_397 : BitVec 32 := 2#32
  let v634 : BitVec 32 := Scalar.muli v5 c2_i32_397
  let v635 : BitVec 32 := Scalar.addi v633 v634
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_398 : BitVec 32 := 1#32
  let v636 : BitVec 32 := Scalar.muli v11 c1_i32_398
  let v637 : BitVec 32 := Scalar.addi v635 v636
  v637.toNat
def k0_dev41 (d0 : Dev nD) : Nat :=
  let c0_i32_414 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_413 : BitVec 32 := 4#32
  let v657 : BitVec 32 := Scalar.muli v2 c4_i32_413
  let v658 : BitVec 32 := Scalar.addi c0_i32_414 v657
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_415 : BitVec 32 := 2#32
  let v659 : BitVec 32 := Scalar.muli v10 c2_i32_415
  let v660 : BitVec 32 := Scalar.addi v658 v659
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_416 : BitVec 32 := 1#32
  let v661 : BitVec 32 := Scalar.muli v8 c1_i32_416
  let v662 : BitVec 32 := Scalar.addi v660 v661
  v662.toNat
def k0_dev42 (d0 : Dev nD) : Nat :=
  let c0_i32_422 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_421 : BitVec 32 := 4#32
  let v669 : BitVec 32 := Scalar.muli v2 c4_i32_421
  let v670 : BitVec 32 := Scalar.addi c0_i32_422 v669
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_423 : BitVec 32 := 2#32
  let v671 : BitVec 32 := Scalar.muli v5 c2_i32_423
  let v672 : BitVec 32 := Scalar.addi v670 v671
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_424 : BitVec 32 := 1#32
  let v673 : BitVec 32 := Scalar.muli v11 c1_i32_424
  let v674 : BitVec 32 := Scalar.addi v672 v673
  v674.toNat
def k0_dev43 (d0 : Dev nD) : Nat :=
  let c0_i32_440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_439 : BitVec 32 := 4#32
  let v694 : BitVec 32 := Scalar.muli v2 c4_i32_439
  let v695 : BitVec 32 := Scalar.addi c0_i32_440 v694
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_441 : BitVec 32 := 2#32
  let v696 : BitVec 32 := Scalar.muli v10 c2_i32_441
  let v697 : BitVec 32 := Scalar.addi v695 v696
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_442 : BitVec 32 := 1#32
  let v698 : BitVec 32 := Scalar.muli v8 c1_i32_442
  let v699 : BitVec 32 := Scalar.addi v697 v698
  v699.toNat
def k0_dev44 (d0 : Dev nD) : Nat :=
  let c0_i32_448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_447 : BitVec 32 := 4#32
  let v706 : BitVec 32 := Scalar.muli v2 c4_i32_447
  let v707 : BitVec 32 := Scalar.addi c0_i32_448 v706
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_449 : BitVec 32 := 2#32
  let v708 : BitVec 32 := Scalar.muli v5 c2_i32_449
  let v709 : BitVec 32 := Scalar.addi v707 v708
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_450 : BitVec 32 := 1#32
  let v710 : BitVec 32 := Scalar.muli v11 c1_i32_450
  let v711 : BitVec 32 := Scalar.addi v709 v710
  v711.toNat
def k0_dev45 (d0 : Dev nD) : Nat :=
  let c0_i32_466 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_465 : BitVec 32 := 4#32
  let v731 : BitVec 32 := Scalar.muli v2 c4_i32_465
  let v732 : BitVec 32 := Scalar.addi c0_i32_466 v731
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_467 : BitVec 32 := 2#32
  let v733 : BitVec 32 := Scalar.muli v10 c2_i32_467
  let v734 : BitVec 32 := Scalar.addi v732 v733
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_468 : BitVec 32 := 1#32
  let v735 : BitVec 32 := Scalar.muli v8 c1_i32_468
  let v736 : BitVec 32 := Scalar.addi v734 v735
  v736.toNat
def k0_dev46 (d0 : Dev nD) : Nat :=
  let c0_i32_474 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_473 : BitVec 32 := 4#32
  let v743 : BitVec 32 := Scalar.muli v2 c4_i32_473
  let v744 : BitVec 32 := Scalar.addi c0_i32_474 v743
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_475 : BitVec 32 := 2#32
  let v745 : BitVec 32 := Scalar.muli v5 c2_i32_475
  let v746 : BitVec 32 := Scalar.addi v744 v745
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_476 : BitVec 32 := 1#32
  let v747 : BitVec 32 := Scalar.muli v11 c1_i32_476
  let v748 : BitVec 32 := Scalar.addi v746 v747
  v748.toNat
def k0_dev47 (d0 : Dev nD) : Nat :=
  let c0_i32_492 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_491 : BitVec 32 := 4#32
  let v768 : BitVec 32 := Scalar.muli v2 c4_i32_491
  let v769 : BitVec 32 := Scalar.addi c0_i32_492 v768
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_493 : BitVec 32 := 2#32
  let v770 : BitVec 32 := Scalar.muli v10 c2_i32_493
  let v771 : BitVec 32 := Scalar.addi v769 v770
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_494 : BitVec 32 := 1#32
  let v772 : BitVec 32 := Scalar.muli v8 c1_i32_494
  let v773 : BitVec 32 := Scalar.addi v771 v772
  v773.toNat
def k0_dev48 (d0 : Dev nD) : Nat :=
  let c0_i32_500 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_499 : BitVec 32 := 4#32
  let v780 : BitVec 32 := Scalar.muli v2 c4_i32_499
  let v781 : BitVec 32 := Scalar.addi c0_i32_500 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_501 : BitVec 32 := 2#32
  let v782 : BitVec 32 := Scalar.muli v5 c2_i32_501
  let v783 : BitVec 32 := Scalar.addi v781 v782
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_502 : BitVec 32 := 1#32
  let v784 : BitVec 32 := Scalar.muli v11 c1_i32_502
  let v785 : BitVec 32 := Scalar.addi v783 v784
  v785.toNat
def k0_dev49 (d0 : Dev nD) : Nat :=
  let c0_i32_518 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_517 : BitVec 32 := 4#32
  let v805 : BitVec 32 := Scalar.muli v2 c4_i32_517
  let v806 : BitVec 32 := Scalar.addi c0_i32_518 v805
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_519 : BitVec 32 := 2#32
  let v807 : BitVec 32 := Scalar.muli v10 c2_i32_519
  let v808 : BitVec 32 := Scalar.addi v806 v807
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_520 : BitVec 32 := 1#32
  let v809 : BitVec 32 := Scalar.muli v8 c1_i32_520
  let v810 : BitVec 32 := Scalar.addi v808 v809
  v810.toNat
def k0_dev50 (d0 : Dev nD) : Nat :=
  let c0_i32_526 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_525 : BitVec 32 := 4#32
  let v817 : BitVec 32 := Scalar.muli v2 c4_i32_525
  let v818 : BitVec 32 := Scalar.addi c0_i32_526 v817
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_527 : BitVec 32 := 2#32
  let v819 : BitVec 32 := Scalar.muli v5 c2_i32_527
  let v820 : BitVec 32 := Scalar.addi v818 v819
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_528 : BitVec 32 := 1#32
  let v821 : BitVec 32 := Scalar.muli v11 c1_i32_528
  let v822 : BitVec 32 := Scalar.addi v820 v821
  v822.toNat
def k0_dev51 (d0 : Dev nD) : Nat :=
  let c0_i32_544 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_543 : BitVec 32 := 4#32
  let v842 : BitVec 32 := Scalar.muli v2 c4_i32_543
  let v843 : BitVec 32 := Scalar.addi c0_i32_544 v842
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_545 : BitVec 32 := 2#32
  let v844 : BitVec 32 := Scalar.muli v10 c2_i32_545
  let v845 : BitVec 32 := Scalar.addi v843 v844
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_546 : BitVec 32 := 1#32
  let v846 : BitVec 32 := Scalar.muli v8 c1_i32_546
  let v847 : BitVec 32 := Scalar.addi v845 v846
  v847.toNat
def k0_dev52 (d0 : Dev nD) : Nat :=
  let c0_i32_552 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_551 : BitVec 32 := 4#32
  let v854 : BitVec 32 := Scalar.muli v2 c4_i32_551
  let v855 : BitVec 32 := Scalar.addi c0_i32_552 v854
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_553 : BitVec 32 := 2#32
  let v856 : BitVec 32 := Scalar.muli v5 c2_i32_553
  let v857 : BitVec 32 := Scalar.addi v855 v856
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_554 : BitVec 32 := 1#32
  let v858 : BitVec 32 := Scalar.muli v11 c1_i32_554
  let v859 : BitVec 32 := Scalar.addi v857 v858
  v859.toNat
def k0_dev53 (d0 : Dev nD) : Nat :=
  let c0_i32_570 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_569 : BitVec 32 := 4#32
  let v879 : BitVec 32 := Scalar.muli v2 c4_i32_569
  let v880 : BitVec 32 := Scalar.addi c0_i32_570 v879
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_571 : BitVec 32 := 2#32
  let v881 : BitVec 32 := Scalar.muli v10 c2_i32_571
  let v882 : BitVec 32 := Scalar.addi v880 v881
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_572 : BitVec 32 := 1#32
  let v883 : BitVec 32 := Scalar.muli v8 c1_i32_572
  let v884 : BitVec 32 := Scalar.addi v882 v883
  v884.toNat
def k0_dev54 (d0 : Dev nD) : Nat :=
  let c0_i32_578 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_577 : BitVec 32 := 4#32
  let v891 : BitVec 32 := Scalar.muli v2 c4_i32_577
  let v892 : BitVec 32 := Scalar.addi c0_i32_578 v891
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_579 : BitVec 32 := 2#32
  let v893 : BitVec 32 := Scalar.muli v5 c2_i32_579
  let v894 : BitVec 32 := Scalar.addi v892 v893
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_580 : BitVec 32 := 1#32
  let v895 : BitVec 32 := Scalar.muli v11 c1_i32_580
  let v896 : BitVec 32 := Scalar.addi v894 v895
  v896.toNat
def k0_dev55 (d0 : Dev nD) : Nat :=
  let c0_i32_596 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_595 : BitVec 32 := 4#32
  let v916 : BitVec 32 := Scalar.muli v2 c4_i32_595
  let v917 : BitVec 32 := Scalar.addi c0_i32_596 v916
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_597 : BitVec 32 := 2#32
  let v918 : BitVec 32 := Scalar.muli v10 c2_i32_597
  let v919 : BitVec 32 := Scalar.addi v917 v918
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_598 : BitVec 32 := 1#32
  let v920 : BitVec 32 := Scalar.muli v8 c1_i32_598
  let v921 : BitVec 32 := Scalar.addi v919 v920
  v921.toNat
def k0_dev56 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_603 : BitVec 32 := 4#32
  let v928 : BitVec 32 := Scalar.muli v2 c4_i32_603
  let v929 : BitVec 32 := Scalar.addi c0_i32_604 v928
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_605 : BitVec 32 := 2#32
  let v930 : BitVec 32 := Scalar.muli v5 c2_i32_605
  let v931 : BitVec 32 := Scalar.addi v929 v930
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_606 : BitVec 32 := 1#32
  let v932 : BitVec 32 := Scalar.muli v11 c1_i32_606
  let v933 : BitVec 32 := Scalar.addi v931 v932
  v933.toNat
def k0_dev57 (d0 : Dev nD) : Nat :=
  let c0_i32_622 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_621 : BitVec 32 := 4#32
  let v953 : BitVec 32 := Scalar.muli v2 c4_i32_621
  let v954 : BitVec 32 := Scalar.addi c0_i32_622 v953
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_623 : BitVec 32 := 2#32
  let v955 : BitVec 32 := Scalar.muli v10 c2_i32_623
  let v956 : BitVec 32 := Scalar.addi v954 v955
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_624 : BitVec 32 := 1#32
  let v957 : BitVec 32 := Scalar.muli v8 c1_i32_624
  let v958 : BitVec 32 := Scalar.addi v956 v957
  v958.toNat
def k0_dev58 (d0 : Dev nD) : Nat :=
  let c0_i32_630 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_629 : BitVec 32 := 4#32
  let v965 : BitVec 32 := Scalar.muli v2 c4_i32_629
  let v966 : BitVec 32 := Scalar.addi c0_i32_630 v965
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_631 : BitVec 32 := 2#32
  let v967 : BitVec 32 := Scalar.muli v5 c2_i32_631
  let v968 : BitVec 32 := Scalar.addi v966 v967
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_632 : BitVec 32 := 1#32
  let v969 : BitVec 32 := Scalar.muli v11 c1_i32_632
  let v970 : BitVec 32 := Scalar.addi v968 v969
  v970.toNat
def k0_dev59 (d0 : Dev nD) : Nat :=
  let c0_i32_648 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_647 : BitVec 32 := 4#32
  let v990 : BitVec 32 := Scalar.muli v2 c4_i32_647
  let v991 : BitVec 32 := Scalar.addi c0_i32_648 v990
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_649 : BitVec 32 := 2#32
  let v992 : BitVec 32 := Scalar.muli v10 c2_i32_649
  let v993 : BitVec 32 := Scalar.addi v991 v992
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_650 : BitVec 32 := 1#32
  let v994 : BitVec 32 := Scalar.muli v8 c1_i32_650
  let v995 : BitVec 32 := Scalar.addi v993 v994
  v995.toNat
def k0_dev60 (d0 : Dev nD) : Nat :=
  let c0_i32_656 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_655 : BitVec 32 := 4#32
  let v1002 : BitVec 32 := Scalar.muli v2 c4_i32_655
  let v1003 : BitVec 32 := Scalar.addi c0_i32_656 v1002
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_657 : BitVec 32 := 2#32
  let v1004 : BitVec 32 := Scalar.muli v5 c2_i32_657
  let v1005 : BitVec 32 := Scalar.addi v1003 v1004
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_658 : BitVec 32 := 1#32
  let v1006 : BitVec 32 := Scalar.muli v11 c1_i32_658
  let v1007 : BitVec 32 := Scalar.addi v1005 v1006
  v1007.toNat
def k0_off7 (d0 : Dev nD) (c288_i32_814 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c2048_i32_15 : BitVec 32 := 2048#32
  let v26 : BitVec 32 := Scalar.muli v25 c2048_i32_15
  let c2_i32_10 : BitVec 32 := 2#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let v18 : BitVec 32 := Scalar.muli c2_i32_10 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.addi v18 v5
  let c512_i32_813 : BitVec 32 := 512#32
  let v1204 : BitVec 32 := Scalar.muli v19 c512_i32_813
  let v1205 : BitVec 32 := Scalar.addi v26 v1204
  let v1206 : BitVec 32 := Scalar.addi v1205 c288_i32_814
  let c0_i32_821 : BitVec 32 := 0#32
  ![v1206.toNat, 0]
def k0_dev61 (d0 : Dev nD) : Nat :=
  let c0_i32_818 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_817 : BitVec 32 := 4#32
  let v1207 : BitVec 32 := Scalar.muli v2 c4_i32_817
  let v1208 : BitVec 32 := Scalar.addi c0_i32_818 v1207
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_819 : BitVec 32 := 2#32
  let v1209 : BitVec 32 := Scalar.muli v10 c2_i32_819
  let v1210 : BitVec 32 := Scalar.addi v1208 v1209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_820 : BitVec 32 := 1#32
  let v1211 : BitVec 32 := Scalar.muli v8 c1_i32_820
  let v1212 : BitVec 32 := Scalar.addi v1210 v1211
  v1212.toNat
def k0_dev62 (d0 : Dev nD) : Nat :=
  let c0_i32_844 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_843 : BitVec 32 := 4#32
  let v1242 : BitVec 32 := Scalar.muli v2 c4_i32_843
  let v1243 : BitVec 32 := Scalar.addi c0_i32_844 v1242
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_845 : BitVec 32 := 2#32
  let v1244 : BitVec 32 := Scalar.muli v10 c2_i32_845
  let v1245 : BitVec 32 := Scalar.addi v1243 v1244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_846 : BitVec 32 := 1#32
  let v1246 : BitVec 32 := Scalar.muli v8 c1_i32_846
  let v1247 : BitVec 32 := Scalar.addi v1245 v1246
  v1247.toNat
def k0_dev63 (d0 : Dev nD) : Nat :=
  let c0_i32_870 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_869 : BitVec 32 := 4#32
  let v1277 : BitVec 32 := Scalar.muli v2 c4_i32_869
  let v1278 : BitVec 32 := Scalar.addi c0_i32_870 v1277
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_871 : BitVec 32 := 2#32
  let v1279 : BitVec 32 := Scalar.muli v10 c2_i32_871
  let v1280 : BitVec 32 := Scalar.addi v1278 v1279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_872 : BitVec 32 := 1#32
  let v1281 : BitVec 32 := Scalar.muli v8 c1_i32_872
  let v1282 : BitVec 32 := Scalar.addi v1280 v1281
  v1282.toNat
def k0_dev64 (d0 : Dev nD) : Nat :=
  let c0_i32_896 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_895 : BitVec 32 := 4#32
  let v1312 : BitVec 32 := Scalar.muli v2 c4_i32_895
  let v1313 : BitVec 32 := Scalar.addi c0_i32_896 v1312
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_897 : BitVec 32 := 2#32
  let v1314 : BitVec 32 := Scalar.muli v10 c2_i32_897
  let v1315 : BitVec 32 := Scalar.addi v1313 v1314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_898 : BitVec 32 := 1#32
  let v1316 : BitVec 32 := Scalar.muli v8 c1_i32_898
  let v1317 : BitVec 32 := Scalar.addi v1315 v1316
  v1317.toNat
def k0_off8 (d0 : Dev nD) (c416_i32_926 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c2048_i32_15 : BitVec 32 := 2048#32
  let v26 : BitVec 32 := Scalar.muli v25 c2048_i32_15
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c2_i32_7 v8
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v16 : BitVec 32 := Scalar.addi v14 v15
  let c512_i32_925 : BitVec 32 := 512#32
  let v1354 : BitVec 32 := Scalar.muli v16 c512_i32_925
  let v1355 : BitVec 32 := Scalar.addi v26 v1354
  let v1356 : BitVec 32 := Scalar.addi v1355 c416_i32_926
  let c0_i32_933 : BitVec 32 := 0#32
  ![v1356.toNat, 0]
def k0_dev65 (d0 : Dev nD) : Nat :=
  let c0_i32_930 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_929 : BitVec 32 := 4#32
  let v1357 : BitVec 32 := Scalar.muli v2 c4_i32_929
  let v1358 : BitVec 32 := Scalar.addi c0_i32_930 v1357
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_931 : BitVec 32 := 2#32
  let v1359 : BitVec 32 := Scalar.muli v5 c2_i32_931
  let v1360 : BitVec 32 := Scalar.addi v1358 v1359
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_932 : BitVec 32 := 1#32
  let v1361 : BitVec 32 := Scalar.muli v11 c1_i32_932
  let v1362 : BitVec 32 := Scalar.addi v1360 v1361
  v1362.toNat
def k0_dev66 (d0 : Dev nD) : Nat :=
  let c0_i32_956 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_955 : BitVec 32 := 4#32
  let v1392 : BitVec 32 := Scalar.muli v2 c4_i32_955
  let v1393 : BitVec 32 := Scalar.addi c0_i32_956 v1392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_957 : BitVec 32 := 2#32
  let v1394 : BitVec 32 := Scalar.muli v5 c2_i32_957
  let v1395 : BitVec 32 := Scalar.addi v1393 v1394
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_958 : BitVec 32 := 1#32
  let v1396 : BitVec 32 := Scalar.muli v11 c1_i32_958
  let v1397 : BitVec 32 := Scalar.addi v1395 v1396
  v1397.toNat
def k0_dev67 (d0 : Dev nD) : Nat :=
  let c0_i32_982 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_981 : BitVec 32 := 4#32
  let v1427 : BitVec 32 := Scalar.muli v2 c4_i32_981
  let v1428 : BitVec 32 := Scalar.addi c0_i32_982 v1427
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_983 : BitVec 32 := 2#32
  let v1429 : BitVec 32 := Scalar.muli v5 c2_i32_983
  let v1430 : BitVec 32 := Scalar.addi v1428 v1429
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_984 : BitVec 32 := 1#32
  let v1431 : BitVec 32 := Scalar.muli v11 c1_i32_984
  let v1432 : BitVec 32 := Scalar.addi v1430 v1431
  v1432.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S25_S1_0 : ∀ a, (![0] : Fin 1 → Nat) a + S1.size a ≤ S25.size a
  squeezes_S1_S_ : S1.Squeezes S_
  inb_S25_S1_1 : ∀ a, (![1] : Fin 1 → Nat) a + S1.size a ≤ S25.size a
  inb_S25_S1_2 : ∀ a, (![2] : Fin 1 → Nat) a + S1.size a ≤ S25.size a
  inb_S25_S1_3 : ∀ a, (![3] : Fin 1 → Nat) a + S1.size a ≤ S25.size a
  inb_S25_S1_4 : ∀ a, (![4] : Fin 1 → Nat) a + S1.size a ≤ S25.size a
  inb_S25_S1_5 : ∀ a, (![5] : Fin 1 → Nat) a + S1.size a ≤ S25.size a
  inb_S25_S1_6 : ∀ a, (![6] : Fin 1 → Nat) a + S1.size a ≤ S25.size a
  inb_S25_S1_7 : ∀ a, (![7] : Fin 1 → Nat) a + S1.size a ≤ S25.size a
  inb_S25_S1_8 : ∀ a, (![8] : Fin 1 → Nat) a + S1.size a ≤ S25.size a
  inb_S25_S1_9 : ∀ a, (![9] : Fin 1 → Nat) a + S1.size a ≤ S25.size a
  inb_S25_S1_10 : ∀ a, (![10] : Fin 1 → Nat) a + S1.size a ≤ S25.size a
  inb_S25_S1_11 : ∀ a, (![11] : Fin 1 → Nat) a + S1.size a ≤ S25.size a
  inb_S25_S1_12 : ∀ a, (![12] : Fin 1 → Nat) a + S1.size a ≤ S25.size a
  inb_S25_S1_13 : ∀ a, (![13] : Fin 1 → Nat) a + S1.size a ≤ S25.size a
  inb_S25_S1_14 : ∀ a, (![14] : Fin 1 → Nat) a + S1.size a ≤ S25.size a
  inb_S25_S1_15 : ∀ a, (![15] : Fin 1 → Nat) a + S1.size a ≤ S25.size a
  inb_S25_S1_16 : ∀ a, (![16] : Fin 1 → Nat) a + S1.size a ≤ S25.size a
  inb_S25_S1_17 : ∀ a, (![17] : Fin 1 → Nat) a + S1.size a ≤ S25.size a
  inb_S25_S1_18 : ∀ a, (![18] : Fin 1 → Nat) a + S1.size a ≤ S25.size a
  inb_S25_S1_19 : ∀ a, (![19] : Fin 1 → Nat) a + S1.size a ≤ S25.size a
  inb_S25_S1_20 : ∀ a, (![20] : Fin 1 → Nat) a + S1.size a ≤ S25.size a
  inb_S25_S1_21 : ∀ a, (![21] : Fin 1 → Nat) a + S1.size a ≤ S25.size a
  inb_S25_S1_22 : ∀ a, (![22] : Fin 1 → Nat) a + S1.size a ≤ S25.size a
  inb_S25_S1_23 : ∀ a, (![23] : Fin 1 → Nat) a + S1.size a ≤ S25.size a
  inb_S25_S1_24 : ∀ a, (![24] : Fin 1 → Nat) a + S1.size a ≤ S25.size a
  inb_S16_S1_0 : ∀ a, (![0] : Fin 1 → Nat) a + S1.size a ≤ S16.size a
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S4_S1_0 : ∀ a, (![0] : Fin 1 → Nat) a + S1.size a ≤ S4.size a
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  inb_S3_S1_0 : ∀ a, (![0] : Fin 1 → Nat) a + S1.size a ≤ S3.size a
  inb_S3_S1_1 : ∀ a, (![1] : Fin 1 → Nat) a + S1.size a ≤ S3.size a
  inb_S3_S1_2 : ∀ a, (![2] : Fin 1 → Nat) a + S1.size a ≤ S3.size a
  hcc0_scratch0 : 2 + S25.numel ≤ 131
  hcc0_scratch1 : 27 + S25.numel ≤ 131
  hcc0_scratch2 : 52 + S16.numel ≤ 131
  hcc0_scratch3 : 68 + S16.numel ≤ 131
  hcc0_scratch4 : 84 + S16.numel ≤ 131
  hcc0_scratch5 : 100 + S16.numel ≤ 131
  hcc0_scratch6 : 116 + S4.numel ≤ 131
  hcc0_scratch7 : 120 + S4.numel ≤ 131
  hcc0_scratch8 : 124 + S3.numel ≤ 131
  hcc0_scratch9 : 127 + S3.numel ≤ 131
  hcc0_scratch10 : 130 + S_.numel ≤ 131
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 16), ∀ a, (k0_off1 d0 (BitVec.ofNat 32 (32 * r.val))) a + S32x512.size a ≤ S4096x512.size a
  k0_off2_inb : ∀ d0 : Dev nD, ∀ (r : Fin 16), ∀ a, (k0_off2 d0 (BitVec.ofNat 32 (32 * r.val))) a + S32x512.size a ≤ S2048x512.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off3_inb : ∀ d0 : Dev nD, ∀ (r : Fin 9), ∀ a, (k0_off3 d0 (BitVec.ofNat 32 (32 * r.val))) a + S32x512.size a ≤ S4096x512.size a
  k0_off4_inb : ∀ d0 : Dev nD, ∀ (r : Fin 9), ∀ a, (k0_off4 d0 (BitVec.ofNat 32 (32 * r.val))) a + S32x512.size a ≤ S2048x512.size a
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_off5_inb : ∀ d0 : Dev nD, ∀ a, (k0_off5 d0) a + S2048x512.size a ≤ S4096x512.size a
  k0_off6_inb : ∀ d0 : Dev nD, ∀ (r : Fin 16), ∀ a, (k0_off6 d0 (BitVec.ofNat 32 (32 * r.val))) a + S32x512.size a ≤ S4096x512.size a
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_off7_inb : ∀ d0 : Dev nD, ∀ (r : Fin 4), ∀ a, (k0_off7 d0 (BitVec.ofNat 32 (288 + 32 * r.val))) a + S32x512.size a ≤ S4096x512.size a
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_off8_inb : ∀ d0 : Dev nD, ∀ (r : Fin 3), ∀ a, (k0_off8 d0 (BitVec.ofNat 32 (416 + 32 * r.val))) a + S32x512.size a ≤ S4096x512.size a
  k0_dev65_lt : ∀ d0 : Dev nD, (k0_dev65 d0) < nD
  k0_dev66_lt : ∀ d0 : Dev nD, (k0_dev66 d0) < nD
  k0_dev67_lt : ∀ d0 : Dev nD, (k0_dev67 d0) < nD
  hstage0_0 : ∀ j, (stage0_0 j).IsWhole
  hstage0_1 : ∀ j, (stage0_1 j).IsWhole

variable [Facts₀]

abbrev cc0_scratch0 : DmaSems sig S25 := SemArray.consecutive 2 S25 hcc0_scratch0
abbrev cc0_scratch1 : DmaSems sig S25 := SemArray.consecutive 27 S25 hcc0_scratch1
abbrev cc0_scratch2 : DmaSems sig S16 := SemArray.consecutive 52 S16 hcc0_scratch2
abbrev cc0_scratch3 : DmaSems sig S16 := SemArray.consecutive 68 S16 hcc0_scratch3
abbrev cc0_scratch4 : DmaSems sig S16 := SemArray.consecutive 84 S16 hcc0_scratch4
abbrev cc0_scratch5 : DmaSems sig S16 := SemArray.consecutive 100 S16 hcc0_scratch5
abbrev cc0_scratch6 : DmaSems sig S4 := SemArray.consecutive 116 S4 hcc0_scratch6
abbrev cc0_scratch7 : DmaSems sig S4 := SemArray.consecutive 120 S4 hcc0_scratch7
abbrev cc0_scratch8 : DmaSems sig S3 := SemArray.consecutive 124 S3 hcc0_scratch8
abbrev cc0_scratch9 : DmaSems sig S3 := SemArray.consecutive 127 S3 hcc0_scratch9
abbrev cc0_scratch10 : DmaSems sig S_ := SemArray.consecutive 130 S_ hcc0_scratch10

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Proto.lean ====
/-
  An all-gather along the first mesh axis of a 2 x 2 x 2 mesh: every device ends holding both row blocks of the
  array. A device copies its own block into its half of the result locally and receives the other block in four
  quarters: one directly from its neighbour along the first axis, one relayed by its neighbour along the second axis,
  one relayed by its neighbour along the third axis, and the last quarter in three runs of 32-row chunks that arrive
  by the three routes. This module fixes the vocabulary of the proof: the three neighbour involutions, the 32-row
  slices every copy reads and writes (through the program's own offset functions), the semaphore cells, the contents
  each row of the result must end with, the rounds schedule (who pays which cell, with what payload), the levels
  that order the waits, what a device still owes after a number of its payments, and the state of one device's
  resources after a given number of its memory operations.
-/
import proofs.«900661_g7700000000000662_dist_ag_v7x_xyz2x2x2_x_m2048_n512_f32_1_alg».proof.Proof.Gen.KernelIdeal
import proofs.«900661_g7700000000000662_dist_ag_v7x_xyz2x2x2_x_m2048_n512_f32_1_alg».proof.Proof.Gen.KernelIdeal.Skeleton
import proofs.«900661_g7700000000000662_dist_ag_v7x_xyz2x2x2_x_m2048_n512_f32_1_alg».proof.Proof.Gen.KernelIdeal.Launch
import proofs.«900661_g7700000000000662_dist_ag_v7x_xyz2x2x2_x_m2048_n512_f32_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names 0, 1, 2) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The memory at launch: arbitrary contents, every semaphore counter zero, arbitrary generator registers. -/
def s₀ (m : (ℓ : Loc nD τ sig) → Buf (Elt F) ℓ) (ρ : Dev nD → PrngReg) : MemSt nD τ sig (Elt F) := ⟨m, fun _ => 0, ρ⟩

/-! ## The three neighbours: the device with one mesh coordinate flipped -/

/-- Direction 0 flips the first mesh coordinate, 1 the second, 2 the third (the program's own device chains). -/
def peer (d : Fin 3) (c : Dev nD) : Dev nD :=
  match d with
  | 0 => ⟨k0_dev1 c, k0_dev1_lt c⟩
  | 1 => ⟨k0_dev2 c, k0_dev2_lt c⟩
  | 2 => ⟨k0_dev3 c, k0_dev3_lt c⟩

abbrev px (c : Dev nD) : Dev nD := peer 0 c
abbrev py (c : Dev nD) : Dev nD := peer 1 c
abbrev pz (c : Dev nD) : Dev nD := peer 2 c

/-! ## The transfers -/

/-- The 64 remote copies one device issues: the sixteen chunks of its own quarter and the first nine chunks of the
    diagonal quarter to its first-axis neighbour (xa, xb); each chunk it received from that neighbour on to its
    second-axis and third-axis neighbours (yf, zf); four chunks received along the third axis on along the second
    (ya), three received along the second on along the third (zb). -/
inductive Xf where
  | xa (k : Fin 16) | xb (k : Fin 9) | yf (k : Fin 16) | zf (k : Fin 16) | ya (k : Fin 4) | zb (k : Fin 3)
  deriving DecidableEq, Fintype

namespace Xf

/-- Along which mesh axis the copy travels. -/
def dir : Xf → Fin 3
  | xa _ => 0 | xb _ => 0 | yf _ => 1 | ya _ => 1 | zf _ => 2 | zb _ => 2

/-- The index of the copy's send semaphore and of its receive semaphore among the core's DMA semaphores. -/
def sIdx : Xf → ℕ
  | xa k => 2 + k.val | xb k => 18 + k.val | yf k => 52 + k.val | zf k => 84 + k.val | ya k => 116 + k.val | zb k => 124 + k.val
def rIdx : Xf → ℕ
  | xa k => 27 + k.val | xb k => 43 + k.val | yf k => 68 + k.val | zf k => 100 + k.val | ya k => 120 + k.val | zb k => 127 + k.val

theorem sIdx_lt (i : Xf) : i.sIdx < 131 := by cases i <;> simp only [sIdx] <;> omega
theorem rIdx_lt (i : Xf) : i.rIdx < 131 := by cases i <;> simp only [rIdx] <;> omega

/-- How many of the device's memory operations precede the copy's enqueue, the wait for its landing on the
    device it is addressed to (the same count on every device), and the wait for its having been read out. -/
def tSend : Xf → ℕ
  | xa k => 4 + k.val | xb k => 20 + k.val | yf k => 31 + 3 * k.val | zf k => 32 + 3 * k.val
  | ya k => 97 + 3 * k.val | zb k => 110 + 3 * k.val
def tRW : Xf → ℕ
  | xa k => 30 + 3 * k.val | xb k => 117 + k.val
  | zf k => if k.val < 9 then 78 + 2 * k.val else if k.val < 13 then 96 + 3 * (k.val - 9) else 108 + 3 * (k.val - 13)
  | yf k => if k.val < 9 then 79 + 2 * k.val else if k.val < 13 then 98 + 3 * (k.val - 9) else 109 + 3 * (k.val - 13)
  | ya k => 126 + k.val | zb k => 130 + k.val
def tSW : Xf → ℕ
  | xa k => 134 + k.val | xb k => 150 + k.val | yf k => 159 + k.val | zf k => 175 + k.val | ya k => 191 + k.val | zb k => 195 + k.val

end Xf

/-- The remote copies in the order a device enqueues them. -/
def sendOrder : List Xf :=
  (List.finRange 16).map Xf.xa ++ (List.finRange 9).map Xf.xb ++ (List.finRange 16).flatMap (fun k => [Xf.yf k, Xf.zf k])
    ++ (List.finRange 4).map Xf.ya ++ (List.finRange 3).map Xf.zb

/-! ## The memrefs: the two staging buffers and their 32-row slices, through the program's offset functions -/

abbrev xM : Memref sig .tc .vmem S2048x512 .f32 := Memref.whole cc0_stg0_0
abbrev oM : Memref sig .tc .vmem S4096x512 .f32 := Memref.whole cc0_stg1_0

/-- Chunk k's row offset inside a quarter, as the program's word. -/
abbrev wd (k : ℕ) : BitVec 32 := BitVec.ofNat 32 (32 * k)

def xaDst (c : Dev nD) (k : Fin 16) : Memref sig .tc .vmem S32x512 .f32 :=
  oM.slice (Rect.unit (s := S4096x512) (k0_off1 c (wd k.val)) S32x512.size (k0_off1_inb c k)) (fun _ => rfl)
def xaSrc (c : Dev nD) (k : Fin 16) : Memref sig .tc .vmem S32x512 .f32 :=
  xM.slice (Rect.unit (s := S2048x512) (k0_off2 c (wd k.val)) S32x512.size (k0_off2_inb c k)) (fun _ => rfl)
def xbDst (c : Dev nD) (k : Fin 9) : Memref sig .tc .vmem S32x512 .f32 :=
  oM.slice (Rect.unit (s := S4096x512) (k0_off3 c (wd k.val)) S32x512.size (k0_off3_inb c k)) (fun _ => rfl)
def xbSrc (c : Dev nD) (k : Fin 9) : Memref sig .tc .vmem S32x512 .f32 :=
  xM.slice (Rect.unit (s := S2048x512) (k0_off4 c (wd k.val)) S32x512.size (k0_off4_inb c k)) (fun _ => rfl)
/-- The device's own half of the result. -/
def ownM (c : Dev nD) : Memref sig .tc .vmem S2048x512 .f32 :=
  oM.slice (Rect.unit (s := S4096x512) (k0_off5 c) S2048x512.size (k0_off5_inb c)) (fun _ => rfl)
/-- Chunk k of the quarter received along the first axis: source and destination of both relays. -/
def fwM (c : Dev nD) (k : Fin 16) : Memref sig .tc .vmem S32x512 .f32 :=
  oM.slice (Rect.unit (s := S4096x512) (k0_off6 c (wd k.val)) S32x512.size (k0_off6_inb c k)) (fun _ => rfl)
def yaM (c : Dev nD) (k : Fin 4) : Memref sig .tc .vmem S32x512 .f32 :=
  oM.slice (Rect.unit (s := S4096x512) (k0_off7 c (BitVec.ofNat 32 (288 + 32 * k.val))) S32x512.size (k0_off7_inb c k)) (fun _ => rfl)
def zbM (c : Dev nD) (k : Fin 3) : Memref sig .tc .vmem S32x512 .f32 :=
  oM.slice (Rect.unit (s := S4096x512) (k0_off8 c (BitVec.ofNat 32 (416 + 32 * k.val))) S32x512.size (k0_off8_inb c k)) (fun _ => rfl)

/-- Where copy i, issued by device c, lands: a slice of the RESULT buffer (of the device it is addressed to),
    at offsets computed from the issuer's position. -/
def dstM (i : Xf) (c : Dev nD) : Memref sig .tc .vmem S32x512 .f32 :=
  match i with
  | .xa k => xaDst c k | .xb k => xbDst c k | .yf k => fwM c k | .zf k => fwM c k | .ya k => yaM c k | .zb k => zbM c k

/-- The index types of the result staging buffer and of the argument staging buffer. -/
abbrev OIx : Type := (oM : Memref sig .tc .vmem S4096x512 .f32).view.ty.Idx
abbrev XIx : Type := (xM : Memref sig .tc .vmem S2048x512 .f32).view.ty.Idx

/-- The rows of the result buffer that copy i writes on the device it is addressed to / that a relay reads. -/
def dstSet (i : Xf) (c : Dev nD) : Finset OIx :=
  match i with
  | .xa k => (xaDst c k).view.set | .xb k => (xbDst c k).view.set | .yf k => (fwM c k).view.set
  | .zf k => (fwM c k).view.set | .ya k => (yaM c k).view.set | .zb k => (zbM c k).view.set
/-- The rows of the device's own half. -/
def ownSet (c : Dev nD) : Finset OIx := (ownM c).view.set
/-- The rows of device c's result buffer where the copy i ADDRESSED TO IT lands (its issuer is c's
    neighbour along the copy's axis). -/
def slotSet (i : Xf) (c : Dev nD) : Finset OIx := dstSet i (peer i.dir c)

/-- The credit a 32-row copy, and the copy of a whole block, pays a DMA semaphore. -/
abbrev NC : ℕ := (fwM (0 : Dev nD) 0).view.dmaCredit
abbrev NL : ℕ := (ownM (0 : Dev nD)).view.dmaCredit

/-! ## The cells -/

/-- The runtime's barrier semaphore of collective id 0. -/
abbrev barS : Sem sig := (SemArray.scalar (sig.barrier 0 rfl) : Sems sig S_).sem
abbrev sS (i : Xf) : DmaSem sig := ⟨i.sIdx, i.sIdx_lt⟩
abbrev rS (i : Xf) : DmaSem sig := ⟨i.rIdx, i.rIdx_lt⟩
abbrev locS : DmaSem sig := ⟨130, by decide⟩

abbrev barCell (c : Dev nD) : GSem nD τ sig := ((c : Thread nD τ), .reg barS)
abbrev sCell (i : Xf) (c : Dev nD) : GSem nD τ sig := ((c : Thread nD τ), .dma (sS i))
abbrev rCell (i : Xf) (c : Dev nD) : GSem nD τ sig := ((c : Thread nD τ), .dma (rS i))
abbrev locCell (c : Dev nD) : GSem nD τ sig := ((c : Thread nD τ), .dma locS)

/-- The protocol's 130 cells of a device: the barrier, then the kernel's own 129 DMA semaphores (indices 2 to 130). -/
abbrev csem (k : Fin 130) : SemLoc sig :=
  if h : k.val = 0 then .reg barS else .dma ⟨k.val + 1, by have := k.isLt; show k.val + 1 < 131; omega⟩
abbrev kcell (ck : Dev nD × Fin 130) : GSem nD τ sig := ((ck.1 : Thread nD τ), csem ck.2)
/-- The kernel's own (scoped) semaphores as the launch indexes them. -/
abbrev osem (k : Fin 129) : SemLoc sig := .dma ⟨k.val + 2, by have := k.isLt; show k.val + 2 < 131; omega⟩

/-! ## Contents -/

variable (m : (ℓ : Loc nD τ sig) → Buf (Elt F) ℓ)

/-- Device c's staged block of the argument. -/
def xstg (c : Dev nD) : (cc0_stg0_0 : Ref sig .tc).ty.Contents (Elt F) :=
  (win0_0.blk (0 : Fin 1)).view.read (Elt F) (m ((c : Thread nD τ).loc main_arg0))

/-- Which device's block a row of the OTHER half of c's result comes from, by the row's offset r < 2048
    inside that half: the quarter and, in the diagonal quarter, the chunk decide the route it took. -/
def origin (c : Dev nD) (r : ℕ) : Dev nD :=
  let q := r / 512
  let ch := (r % 512) / 32
  let y := (c.val / 2) % 2
  let z := c.val % 2
  if q = 2 * z + y then px c
  else if q = 2 * z + (1 - y) then px (py c)
  else if q = 2 * (1 - z) + y then px (pz c)
  else if ch < 9 then px c else if ch < 13 then px (pz (py c)) else px (py (pz c))

/-- What device c's result buffer ends with: its own block in its own half, and in the other half, row by row,
    the block of the device the row came from. -/
def outAt (c : Dev nD) : (cc0_stg1_0 : Ref sig .tc).ty.Contents (Elt F) := fun i =>
  xstg m (if (i 0).val / 2048 = c.val / 4 then c else origin c ((i 0).val % 2048))
    (ValueIdx.ix2 ⟨(i 0).val % 2048, Nat.mod_lt _ (by decide)⟩ (i 1))

/-! ## Points-to assertions on slices -/

/-- Rows I of device c's result buffer at share q holding f. -/
def oPts (c : Dev nD) (I : Finset OIx) (q : PosShare TreeShare) (f : Buf (Elt F) ((c : Thread nD τ).loc cc0_stg1_0)) : sProp 𝕄 :=
  ((c : Thread nD τ).loc cc0_stg1_0) ↦[I]{q} f
/-- Rows I of device c's staged argument block at share q (it always holds the block). -/
def xPts (c : Dev nD) (I : Finset XIx) (q : PosShare TreeShare) : sProp 𝕄 :=
  ((c : Thread nD τ).loc cc0_stg0_0) ↦[I]{q} xstg m c

/-- The rows of the argument block that the copy i reads (xa, xb only; empty otherwise). -/
def xSet (i : Xf) (c : Dev nD) : Finset XIx :=
  match i with
  | .xa k => (xaSrc c k).view.set | .xb k => (xbSrc c k).view.set | _ => ∅
/-- The rows of the argument block no remote copy reads. -/
def xRest (c : Dev nD) : Finset XIx := Finset.univ \ Finset.univ.biUnion (fun i : Xf => xSet i c)
/-- The share of its source a copy holds while it is in flight. -/
def srcShare : Xf → PosShare TreeShare
  | .xa _ => fullShare.right | .xb _ => fullShare.right | .yf _ => fullShare.left | .zf _ => fullShare.right
  | .ya _ => fullShare | .zb _ => fullShare

/-! ## The schedule -/

/-- What a DMA semaphore index is for. -/
inductive Role where
  | send (i : Xf) | recv (i : Xf) | loc | none

def roleOf (j : ℕ) : Role :=
  if j < 2 then .none
  else if j < 18 then .send (.xa ⟨(j - 2) % 16, Nat.mod_lt _ (by decide)⟩)
  else if j < 27 then .send (.xb ⟨(j - 18) % 9, Nat.mod_lt _ (by decide)⟩)
  else if j < 43 then .recv (.xa ⟨(j - 27) % 16, Nat.mod_lt _ (by decide)⟩)
  else if j < 52 then .recv (.xb ⟨(j - 43) % 9, Nat.mod_lt _ (by decide)⟩)
  else if j < 68 then .send (.yf ⟨(j - 52) % 16, Nat.mod_lt _ (by decide)⟩)
  else if j < 84 then .recv (.yf ⟨(j - 68) % 16, Nat.mod_lt _ (by decide)⟩)
  else if j < 100 then .send (.zf ⟨(j - 84) % 16, Nat.mod_lt _ (by decide)⟩)
  else if j < 116 then .recv (.zf ⟨(j - 100) % 16, Nat.mod_lt _ (by decide)⟩)
  else if j < 120 then .send (.ya ⟨(j - 116) % 4, Nat.mod_lt _ (by decide)⟩)
  else if j < 124 then .recv (.ya ⟨(j - 120) % 4, Nat.mod_lt _ (by decide)⟩)
  else if j < 127 then .send (.zb ⟨(j - 124) % 3, Nat.mod_lt _ (by decide)⟩)
  else if j < 130 then .recv (.zb ⟨(j - 127) % 3, Nat.mod_lt _ (by decide)⟩)
  else if j = 130 then .loc else .none

/-- What the landing of copy i on device c hands c: the rows it wrote, holding what they must end with. -/
def recvPay (c : Dev nD) (i : Xf) : sProp 𝕄 := oPts c (slotSet i c) fullShare (outAt m c)
/-- What copy i of device c having been read out hands c back: its share of the source rows. -/
def sendPay (c : Dev nD) (i : Xf) : sProp 𝕄 :=
  match i with
  | .xa _ => xPts m c (xSet i c) fullShare.right
  | .xb _ => xPts m c (xSet i c) fullShare.right
  | _ => oPts c (dstSet i c) (srcShare i) (outAt m c)
/-- What the local copy completing hands c: its own half holding its block, and its share of the block back. -/
def locPay (c : Dev nD) : sProp 𝕄 :=
  iprop(oPts c (ownSet c) fullShare (outAt m c) ∗ xPts m c Finset.univ fullShare.left)
/-- What the entry signal along axis d hands c: the rows of that neighbour's result buffer c will write. -/
def barPay (c : Dev nD) (d : Fin 3) : sProp 𝕄 :=
  bigSep (Finset.univ.filter fun i : Xf => i.dir = d) fun i => iprop(∃ f, oPts (peer d c) (dstSet i c) fullShare f)

/-- One round, round 0. The barrier cell has the three duties 0, 1, 2 of one unit each, paid by the three
    neighbours; every other protocol cell has the one duty 0, of the copy's credit. -/
def sched : Rounds.Schedule (GSem nD τ sig) (Fin 3) 𝕄 where
  duties g r :=
    if r = 0 ∧ g.1.2 = .tc then
      match g.2 with
      | .reg _ => Finset.univ
      | .dma j => if 2 ≤ j.val then {0} else ∅
    else ∅
  unitless _ := False
  amount g _ _ := match g.2 with
    | .reg _ => 1
    | .dma j => if j.val = 130 then NL else NC
  payload g _ d := match g.2 with
    | .reg _ => barPay g.1.1 d
    | .dma j => match roleOf j.val with
      | .send i => sendPay m g.1.1 i
      | .recv i => recvPay m g.1.1 i
      | .loc => locPay m g.1.1
      | .none => iprop(emp)
  amount_pos g _ _ _ := by
    rcases g with ⟨t, sm⟩
    cases sm with
    | reg s => exact Nat.one_pos
    | dma j =>
      show 0 < (if j.val = 130 then NL else NC)
      split
      · exact View.dmaCredit_pos _ (by decide)
      · exact View.dmaCredit_pos _ (by decide)

/-! ## Levels: barrier cells at 1; the landings from the first axis at 2, the first relays' at 3, the second
    relays' at 4; everything else (staging, read-out, local copy) at 0 -/

def L (g : GSem nD τ sig) : Finset Unit := if g.1.2 = .tc then {()} else ∅
def lv (g : GSem nD τ sig) (_ : Unit) : ℕ :=
  match g.2 with
  | .reg _ => 1
  | .dma j =>
    if 27 ≤ j.val ∧ j.val < 52 then 2
    else if (68 ≤ j.val ∧ j.val < 84) ∨ (100 ≤ j.val ∧ j.val < 116) then 3
    else if (120 ≤ j.val ∧ j.val < 124) ∨ (127 ≤ j.val ∧ j.val < 130) then 4
    else 0

/-! ## What a device still owes -/

/-- The landings device c still owes when the copies l are still to be enqueued, summed so that the first
    of l is the last summand. -/
def owedX (c : Dev nD) : List Xf → CellTallies nD τ sig Unit
  | [] => 0
  | i :: l => owedX c l + tallyAt (rCell i (peer i.dir c)) () NC
/-- With the entry signals along the axes sg still to be made as well (the first of sg the last summand). -/
def owedAll (c : Dev nD) : List (Fin 3) → List Xf → CellTallies nD τ sig Unit
  | [], l => owedX c l
  | d :: sg, l => owedAll c sg l + tallyAt (barCell (peer d c)) () 1

/-- After n of its memory operations: how many entry signals a device has made, how many copies enqueued. -/
def sigsDone (n : ℕ) : ℕ := min n 3
def sentBy (n : ℕ) : ℕ := (sendOrder.filter fun i => i.tSend < n).length
def owedAt (c : Dev nD) (n : ℕ) : CellTallies nD τ sig Unit :=
  owedAll c (([0, 1, 2] : List (Fin 3)).drop (sigsDone n)) (sendOrder.drop (sentBy n))

/-! ## One device's resources after n of its memory operations -/

/-- The separate pieces of one device's state: the rows of its result buffer where the copy i addressed to it
    lands (slot); the rows of a neighbour's result buffer its own copy i writes (pslot); the two duty tokens its
    copy i pays with (tok); its read-out cell of copy i (scell); its landing cell of the copy i addressed to it
    (rcell); its barrier cell; the token of its entry signal along an axis; the left half share of its argument
    block, which the local copy takes (xL); the right half share of the rows copy i reads (xR) and of the rows no
    copy reads (xRrest); its own half of the result; the local copy's cell; what it owes. -/
inductive Res where
  | slot (i : Xf) | pslot (i : Xf) | tok (i : Xf) | scell (i : Xf) | rcell (i : Xf) | bar | sigtok (d : Fin 3)
  | xL | xR (i : Xf) | xRrest | own | loccell | owes
  deriving DecidableEq, Fintype

/-- The relay copies that read the rows where copy i landed: at the left half share, at the right half share
    (a relay that takes the whole share counts as both). -/
def fwdL : Xf → Option Xf
  | .xa k => some (.yf k)
  | .zf k => if h : 9 ≤ k.val ∧ k.val < 13 then some (.ya ⟨k.val - 9, by omega⟩) else none
  | .yf k => if h : 13 ≤ k.val then some (.zb ⟨k.val - 13, by omega⟩) else none
  | _ => none
def fwdR : Xf → Option Xf
  | .xa k => some (.zf k)
  | i => fwdL i

def lent (o : Option Xf) (n : ℕ) : Bool :=
  match o with
  | some j => decide (j.tSend < n ∧ n ≤ j.tSW)
  | none => false

/-- The state of each piece after n operations, as a small number. For a slot: 0 not yet given away (any
    contents), 1 with the neighbour, 2 whole, 3 the left half, 4 the right half, 5 nothing. -/
def tag (r : Res) (n : ℕ) : ℕ :=
  match r with
  | .slot i =>
    if n ≤ i.dir.val then 0
    else if n ≤ i.tRW then 1
    else match lent (fwdL i) n, lent (fwdR i) n with
      | false, false => 2
      | false, true => 3
      | true, false => 4
      | true, true => 5
  | .pslot i => if 3 < n ∧ n ≤ i.tSend then 1 else 0
  | .tok i => if n ≤ i.tSend then 1 else 0
  | .scell i => if n ≤ i.tSend then 0 else if n ≤ i.tSW then 1 else 2
  | .rcell i => if n ≤ i.tRW then 0 else 2
  | .bar => if n ≤ 3 then 0 else 1
  | .sigtok d => if n ≤ d.val then 1 else 0
  | .xL => if 29 < n ∧ n ≤ 133 then 0 else 1
  | .xR i =>
    match i with
    | .xa _ => if i.tSend < n ∧ n ≤ i.tSW then 0 else 1
    | .xb _ => if i.tSend < n ∧ n ≤ i.tSW then 0 else 1
    | _ => 1
  | .xRrest => 1
  | .own => if n ≤ 29 then 0 else if n ≤ 133 then 1 else 2
  | .loccell => if n ≤ 29 then 0 else if n ≤ 133 then 1 else 2
  | .owes => 100 * sigsDone n + sentBy n

/-- What each piece is, by its state. -/
def interp (c : Dev nD) (r : Res) (t : ℕ) : sProp 𝕄 :=
  match r with
  | .slot i =>
    if t = 0 then iprop(∃ f, oPts c (slotSet i c) fullShare f)
    else if t = 2 then oPts c (slotSet i c) fullShare (outAt m c)
    else if t = 3 then oPts c (slotSet i c) fullShare.left (outAt m c)
    else if t = 4 then oPts c (slotSet i c) fullShare.right (outAt m c)
    else iprop(emp)
  | .pslot i => if t = 1 then iprop(∃ f, oPts (peer i.dir c) (dstSet i c) fullShare f) else iprop(emp)
  | .tok i => if t = 1 then iprop(dutyTok ER (rCell i (peer i.dir c)) 0 0 ∗ dutyTok ER (sCell i c) 0 0) else iprop(emp)
  | .scell i =>
    if t = 0 then atPos ER (sCell i c) 0 ∅ 0
    else if t = 1 then iprop(atPos ER (sCell i c) 0 ∅ 0 ∗ cred (tallyAt (sCell i c) () NC))
    else semVal (sCell i c) 0
  | .rcell i =>
    if t = 0 then iprop(atPos ER (rCell i c) 0 ∅ 0 ∗ cred (tallyAt (rCell i c) () NC)) else semVal (rCell i c) 0
  | .bar =>
    if t = 0 then iprop(atPos ER (barCell c) 0 ∅ 0 ∗ cred (tallyAt (barCell c) () 3)) else atPos ER (barCell c) 1 ∅ 0
  | .sigtok d => if t = 1 then dutyTok ER (barCell (peer d c)) 0 d else iprop(emp)
  | .xL => if t = 1 then xPts m c Finset.univ fullShare.left else iprop(emp)
  | .xR i => if t = 1 then xPts m c (xSet i c) fullShare.right else iprop(emp)
  | .xRrest => xPts m c (xRest c) fullShare.right
  | .own =>
    if t = 0 then iprop(∃ f, oPts c (ownSet c) fullShare f)
    else if t = 2 then oPts c (ownSet c) fullShare (outAt m c)
    else iprop(emp)
  | .loccell =>
    if t = 0 then iprop(atPos ER (locCell c) 0 ∅ 0 ∗ dutyTok ER (locCell c) 0 0)
    else if t = 1 then iprop(atPos ER (locCell c) 0 ∅ 0 ∗ cred (tallyAt (locCell c) () NL))
    else semVal (locCell c) 0
  | .owes =>
    iprop(∃ W : Waits sig Unit, owes (c : Thread nD τ)
      (owedAll c (([0, 1, 2] : List (Fin 3)).drop (t / 100)) (sendOrder.drop (t % 100))) W)

/-- Device c's pieces after n of its memory operations. -/
def St (c : Dev nD) (n : ℕ) : sProp 𝕄 := bigSep Finset.univ fun r : Res => interp m c r (tag r n)

/-! ## The records every device's body opens -/

/-- Every protocol cell's invariant, under the names K the launch allocated them at; that every cell has
    reached round 0; the level facts. -/
def records (K : Dev nD × Fin 130 → ℕ) : sProp 𝕄 :=
  iprop((bigSep Finset.univ fun ck : Dev nD × Fin 130 => cellInv ER (sched m) (K ck) (kcell ck))
    ∗ (bigSep Finset.univ fun ck : Dev nD × Fin 130 => reached ER (kcell ck) 0)
    ∗ levAts L lv)

end Cert.KernelIdeal.AG

end
-- ==== Proof.Acc.lean ====
/-
  One step of a device's body changes a few pieces of its state and leaves the rest alone. This module states that
  once: the pieces a step touches can be taken out of the state after n operations and, put back in their new
  states, make the state after n' operations, provided every other piece has the same state at n and at n'. It also
  names, for each kind of step, the pieces it touches, and the source of each copy as one family of slices.
-/
import proofs.«900661_g7700000000000662_dist_ag_v7x_xyz2x2x2_x_m2048_n512_f32_1_alg».proof.Proof.Proto

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The weakest precondition of a piece of device c's body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every piece outside A is in the same state after n and after n' operations. -/
def Frame (A : Finset Res) (n n' : ℕ) : Prop := ∀ r : Res, r ∉ A → tag r n = tag r n'

instance (A : Finset Res) (n n' : ℕ) : Decidable (Frame A n n') := by unfold Frame; infer_instance

/-- Taking the pieces A out of the state and putting them back changed. -/
theorem St_acc (m : (ℓ : Loc nD τ sig) → Buf (Elt F) ℓ) (c : Dev nD) (A : Finset Res) (n n' : ℕ) (h : Frame A n n') :
    St m c n ⊢ iprop((bigSep A fun r => interp m c r (tag r n))
      ∗ ((bigSep A fun r => interp m c r (tag r n')) -∗ St m c n')) := by
  unfold St
  -- the state is the pieces in A together with the pieces outside A, after n and after n' operations alike
  rw [bigSep_sdiff_split (Finset.subset_univ A) (Φ := fun r => interp m c r (tag r n)),
    bigSep_sdiff_split (Finset.subset_univ A) (Φ := fun r => interp m c r (tag r n'))]
  -- outside A the two families are the same, piece by piece
  have hrest : (bigSep (Finset.univ \ A) fun r => interp m c r (tag r n))
      = bigSep (Finset.univ \ A) fun r => interp m c r (tag r n') :=
    bigSep_congr fun r hr => by rw [h r (Finset.mem_sdiff.mp hr).2]
  rw [hrest]
  show iprop((bigSep A fun r => interp m c r (tag r n)) ∗ (bigSep (Finset.univ \ A) fun r => interp m c r (tag r n')))
    ⊢ iprop((bigSep A fun r => interp m c r (tag r n)) ∗ ((bigSep A fun r => interp m c r (tag r n')) -∗
        ((bigSep A fun r => interp m c r (tag r n')) ∗ (bigSep (Finset.univ \ A) fun r => interp m c r (tag r n')))))
  iintro ⟨HA, HR⟩
  isplitl [HA]
  · iexact HA
  iintro HA'
  isplitl [HA']
  · iexact HA'
  iexact HR

/-- The rows copy i of device c reads: a slice of the argument block (xa, xb) or of the result buffer (relays). -/
def srcM (i : Xf) (c : Dev nD) : Memref sig .tc .vmem S32x512 .f32 :=
  match i with
  | .xa k => xaSrc c k | .xb k => xbSrc c k | .yf k => fwM c k | .zf k => fwM c k | .ya k => yaM c k | .zb k => zbM c k

/-- The piece that holds the source rows of copy i. -/
def srcRes : Xf → Res
  | .xa k => .xR (.xa k) | .xb k => .xR (.xb k) | .yf k => .slot (.xa k) | .zf k => .slot (.xa k)
  | .ya k => .slot (.zf ⟨k.val + 9, by omega⟩) | .zb k => .slot (.yf ⟨k.val + 13, by omega⟩)

/-- The pieces each kind of step touches. -/
def sigA (d : Fin 3) : Finset Res := {Res.sigtok d, Res.owes} ∪ (Finset.univ.filter fun i : Xf => i.dir = d).image Res.slot
def barA : Finset Res := {Res.bar, Res.owes} ∪ Finset.univ.image Res.pslot
def sendA (i : Xf) : Finset Res := {Res.tok i, Res.pslot i, Res.scell i, Res.owes, srcRes i}
def locA : Finset Res := {Res.xL, Res.own, Res.loccell}
def rwA (i : Xf) : Finset Res := {Res.rcell i, Res.slot i, Res.owes}
def locwA : Finset Res := {Res.loccell, Res.own, Res.xL, Res.owes}
def swA (i : Xf) : Finset Res := {Res.scell i, srcRes i, Res.owes}

/-! ## Reading the records -/

/-- The first protocol cell of a device is its barrier cell. -/
theorem kcell_bar (c : Dev nD) : kcell (c, (0 : Fin 130)) = barCell c := rfl

/-- Protocol cell j - 1 of a device, for 2 ≤ j, is its DMA semaphore j. -/
theorem kcell_dma (c : Dev nD) (j : ℕ) (h2 : 2 ≤ j) (h : j < 131) :
    kcell (c, (⟨j - 1, by omega⟩ : Fin 130)) = ((c : Thread nD τ), SemLoc.dma ⟨j, h⟩) := by
  have hne : ¬ ((⟨j - 1, by omega⟩ : Fin 130).val = 0) := by show ¬ (j - 1 = 0); omega
  have hc : csem (⟨j - 1, by omega⟩ : Fin 130) = SemLoc.dma ⟨j, h⟩ := by
    show (if h0 : (⟨j - 1, _⟩ : Fin 130).val = 0 then SemLoc.reg barS else SemLoc.dma ⟨(⟨j - 1, _⟩ : Fin 130).val + 1, _⟩) = _
    rw [dif_neg hne]
    congr 1
    apply Fin.ext
    show j - 1 + 1 = j
    omega
  show ((c : Thread nD τ), csem (⟨j - 1, _⟩ : Fin 130)) = _
  rw [hc]

/-- The invariant of any protocol cell, out of the records. -/
theorem records_inv (m : (ℓ : Loc nD τ sig) → Buf (Elt F) ℓ) (K : Dev nD × Fin 130 → ℕ) (ck : Dev nD × Fin 130) :
    records m K ⊢ cellInv ER (sched m) (K ck) (kcell ck) := by
  unfold records
  have hel : (bigSep Finset.univ fun ck : Dev nD × Fin 130 => cellInv ER (sched m) (K ck) (kcell ck))
      ⊢ cellInv ER (sched m) (K ck) (kcell ck) := bigSep_elim (Finset.mem_univ ck)
  iintro ⟨H, -, -⟩
  iapply hel
  iexact H

/-- That any protocol cell has reached round 0, out of the records. -/
theorem records_reached (m : (ℓ : Loc nD τ sig) → Buf (Elt F) ℓ) (K : Dev nD × Fin 130 → ℕ) (ck : Dev nD × Fin 130) :
    records m K ⊢ reached ER (kcell ck) 0 := by
  unfold records
  have hel : (bigSep Finset.univ fun ck : Dev nD × Fin 130 => (reached ER (kcell ck) 0 : sProp 𝕄))
      ⊢ reached ER (kcell ck) 0 := bigSep_elim (Finset.mem_univ ck)
  iintro ⟨-, H, -⟩
  iapply hel
  iexact H

theorem inv_bar (m : (ℓ : Loc nD τ sig) → Buf (Elt F) ℓ) (K : Dev nD × Fin 130 → ℕ) (c : Dev nD) :
    records m K ⊢ cellInv ER (sched m) (K (c, 0)) (barCell c) := by
  have := records_inv m K (c, 0)
  rwa [kcell_bar] at this

theorem inv_dma (m : (ℓ : Loc nD τ sig) → Buf (Elt F) ℓ) (K : Dev nD × Fin 130 → ℕ) (c : Dev nD) (j : ℕ) (h2 : 2 ≤ j)
    (h : j < 131) :
    records m K ⊢ cellInv ER (sched m) (K (c, ⟨j - 1, by omega⟩)) ((c : Thread nD τ), .dma ⟨j, h⟩) := by
  have := records_inv m K (c, ⟨j - 1, by omega⟩)
  rwa [kcell_dma c j h2 h] at this

theorem reached_bar (m : (ℓ : Loc nD τ sig) → Buf (Elt F) ℓ) (K : Dev nD × Fin 130 → ℕ) (c : Dev nD) :
    records m K ⊢ reached ER (barCell c) 0 := by
  have := records_reached m K (c, 0)
  rwa [kcell_bar] at this

theorem reached_dma (m : (ℓ : Loc nD τ sig) → Buf (Elt F) ℓ) (K : Dev nD × Fin 130 → ℕ) (c : Dev nD) (j : ℕ) (h2 : 2 ≤ j)
    (h : j < 131) :
    records m K ⊢ reached ER ((c : Thread nD τ), .dma ⟨j, h⟩) 0 := by
  have := records_reached m K (c, ⟨j - 1, by omega⟩)
  rwa [kcell_dma c j h2 h] at this

/-- The level facts, out of the records. -/
theorem records_lev (m : (ℓ : Loc nD τ sig) → Buf (Elt F) ℓ) (K : Dev nD × Fin 130 → ℕ) :
    records m K ⊢ (levAts L lv : sProp 𝕄) := by
  unfold records
  iintro ⟨-, -, H⟩
  iexact H

/-- The records are knowledge: they can be used any number of times. -/
instance records_persistent (m : (ℓ : Loc nD τ sig) → Buf (Elt F) ℓ) (K : Dev nD × Fin 130 → ℕ) :
    BI.Persistent (records m K) := by
  unfold records; infer_instance

/-- info: 'Cert.KernelIdeal.AG.inv_dma' depends on axioms: [propext, Classical.choice, Quot.sound] -/
#guard_msgs in #print axioms inv_dma

/-- info: 'Cert.KernelIdeal.AG.St_acc' depends on axioms: [propext, Classical.choice, Quot.sound] -/
#guard_msgs in #print axioms St_acc

end Cert.KernelIdeal.AG

end
-- ==== Proof.StepsA.lean ====
/-
  The entry handshake, one step at a time: a device's signal to its neighbour along an axis hands that neighbour
  the rows of its result buffer the neighbour will write; its wait for three units on its own barrier cell hands it
  the rows of its three neighbours' result buffers that it will write.
-/
import proofs.«900661_g7700000000000662_dist_ag_v7x_xyz2x2x2_x_m2048_n512_f32_1_alg».proof.Proof.Acc

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

namespace StepsA

/-! ## The neighbours are involutions -/

theorem peer_peer (d : Fin 3) (c : Dev nD) : peer d (peer d c) = c := by
  revert d c; decide +kernel

/-! ## The schedule at a barrier cell -/

theorem duties_bar (c : Dev nD) : (sched m).duties (barCell c) 0 = Finset.univ := rfl

theorem amount_bar (c : Dev nD) (d : Fin 3) : (sched m).amount (barCell c) 0 d = 1 := rfl

theorem payload_bar (c : Dev nD) (d : Fin 3) : (sched m).payload (barCell c) 0 d = barPay c d := rfl

theorem expect_bar (c : Dev nD) : (sched m).expect (barCell c) 0 = 3 := by
  unfold Schedule.expect Schedule.amountOf
  rw [duties_bar, Finset.sum_congr rfl fun d _ => amount_bar m c d, Finset.sum_const, Finset.card_univ, Fintype.card_fin, smul_eq_mul]

/-! ## Counting -/

theorem tRW_ge (i : Xf) : 30 ≤ i.tRW := by
  cases i <;> simp only [Xf.tRW] <;> (try split) <;> (try split) <;> omega

theorem tSend_ge (i : Xf) : 4 ≤ i.tSend := by
  cases i <;> simp only [Xf.tSend] <;> omega

theorem sentBy_early (n : ℕ) (h : n ≤ 4) : sentBy n = 0 := by
  interval_cases n <;> decide +kernel

theorem sigsDone_le (n : ℕ) (h : n ≤ 3) : sigsDone n = n := by
  unfold sigsDone; omega

theorem drop_sig (d : Fin 3) : ([0, 1, 2] : List (Fin 3)).drop d.val = d :: ([0, 1, 2] : List (Fin 3)).drop (d.val + 1) := by
  revert d; decide

/-! ## The pieces an entry signal touches -/

theorem tag_sigtok_at (d : Fin 3) : tag (.sigtok d) d.val = 1 := by
  dsimp only [tag]; rw [if_pos (Nat.le_refl _)]
theorem tag_sigtok_after (d : Fin 3) : tag (.sigtok d) (d.val + 1) = 0 := by
  dsimp only [tag]; rw [if_neg (by omega)]
theorem tag_owes_early (n : ℕ) (h : n ≤ 3) : tag .owes n = 100 * n := by
  dsimp only [tag]; rw [sigsDone_le n h, sentBy_early n (by omega), Nat.add_zero]
theorem tag_owes_four : tag .owes 4 = 300 := by decide +kernel
theorem tag_slot_at (i : Xf) (n : ℕ) (h : n = i.dir.val) : tag (.slot i) n = 0 := by
  dsimp only [tag]; rw [if_pos (by omega)]
theorem tag_slot_after (i : Xf) (n : ℕ) (h : n = i.dir.val) : tag (.slot i) (n + 1) = 1 := by
  have := tRW_ge i; have := i.dir.isLt
  dsimp only [tag]; rw [if_neg (by omega), if_pos (by omega)]

theorem interp_owes (c : Dev nD) (t a b : ℕ) (ha : t / 100 = a) (hb : t % 100 = b) :
    interp m c .owes t = iprop(∃ W : Waits sig Unit, owes (c : Thread nD τ)
      (owedAll c (([0, 1, 2] : List (Fin 3)).drop a) (sendOrder.drop b)) W) := by
  subst ha hb; rfl

theorem sigA_disj (d : Fin 3) :
    Disjoint ({Res.sigtok d, Res.owes} : Finset Res) ((Finset.univ.filter fun i : Xf => i.dir = d).image Res.slot) := by
  rw [Finset.disjoint_left]; intro r hr hi
  rw [Finset.mem_image] at hi; obtain ⟨i, -, rfl⟩ := hi
  simp at hr

theorem slot_injective : Function.Injective Res.slot := fun _ _ h => by cases h; rfl
theorem pslot_injective : Function.Injective Res.pslot := fun _ _ h => by cases h; rfl

theorem bigSep_sigA (d : Fin 3) (Φ : Res → sProp 𝕄) :
    bigSep (sigA d) Φ = iprop(Φ (.sigtok d) ∗ Φ .owes ∗ bigSep (Finset.univ.filter fun i : Xf => i.dir = d) fun i => Φ (.slot i)) := by
  unfold sigA
  have e : (Finset.univ.filter fun i : Xf => i.dir = d).image Res.slot
      = (Finset.univ.filter fun i : Xf => i.dir = d).map ⟨Res.slot, slot_injective⟩ :=
    (Finset.map_eq_image ⟨Res.slot, slot_injective⟩ (Finset.univ.filter fun i : Xf => i.dir = d)).symm
  rw [bigSep_union (sigA_disj d), bigSep_insert (by simp), bigSep_singleton, e, bigSep_map]
  exact (Std.Associative.assoc (op := (BI.sep : sProp 𝕄 → _ → _)) _ _ _)

theorem sigA_open (c : Dev nD) (d : Fin 3) :
    (bigSep (sigA d) fun r => interp m c r (tag r d.val))
      ⊢ iprop(dutyTok ER (barCell (peer d c)) 0 d
          ∗ (∃ W : Waits sig Unit, owes (c : Thread nD τ)
              (owedAll c (([0, 1, 2] : List (Fin 3)).drop (d.val + 1)) sendOrder + tallyAt (barCell (peer d c)) () 1) W)
          ∗ barPay (peer d c) d) := by
  rw [bigSep_sigA]
  refine sep_mono ?_ (sep_mono ?_ ?_)
  · rw [tag_sigtok_at]; exact .refl _
  · rw [tag_owes_early d.val (by omega), interp_owes m c (100 * d.val) d.val 0 (by omega) (by omega), drop_sig d]
    exact .refl _
  · unfold barPay; rw [peer_peer]
    refine Entails.of_eq (bigSep_congr fun i hi => ?_)
    have hd : i.dir = d := (Finset.mem_filter.mp hi).2
    rw [tag_slot_at i d.val (by rw [hd])]
    show iprop(∃ f, oPts c (slotSet i c) fullShare f) = _
    unfold slotSet; rw [hd]

theorem sigA_close (c : Dev nD) (d : Fin 3) :
    iprop(∃ W : Waits sig Unit, owes (c : Thread nD τ) (owedAll c (([0, 1, 2] : List (Fin 3)).drop (d.val + 1)) sendOrder) W)
      ⊢ bigSep (sigA d) fun r => interp m c r (tag r (d.val + 1)) := by
  have hs : (bigSep (Finset.univ.filter fun i : Xf => i.dir = d) fun i => interp m c (.slot i) (tag (.slot i) (d.val + 1)))
      = (iprop(emp) : sProp 𝕄) := by
    rw [bigSep_congr (Ψ := fun _ => (iprop(emp) : sProp 𝕄)) fun i hi => by
      rw [tag_slot_after i d.val (by rw [(Finset.mem_filter.mp hi).2])]; rfl]
    exact bigSep_emp_const _
  have e0 : interp m c (.sigtok d) 0 = (iprop(emp) : sProp 𝕄) := rfl
  rw [bigSep_sigA, tag_sigtok_after, tag_owes_early (d.val + 1) (by omega),
    interp_owes m c (100 * (d.val + 1)) (d.val + 1) 0 (by omega) (by omega), hs, e0]
  iintro H
  isplitr; · iempintro
  isplitl [H]; · iexact H
  iempintro

/-! ## The pieces the wait for the three signals touches -/

theorem tag_pslot_three (i : Xf) : tag (.pslot i) 3 = 0 := by
  dsimp only [tag]; rw [if_neg (by omega)]
theorem tag_pslot_four (i : Xf) : tag (.pslot i) 4 = 1 := by
  have := tSend_ge i
  dsimp only [tag]; rw [if_pos ⟨by omega, by omega⟩]
theorem tag_bar_three : tag .bar 3 = 0 := rfl
theorem tag_bar_four : tag .bar 4 = 1 := rfl

theorem barA_disj : Disjoint ({Res.bar, Res.owes} : Finset Res) ((Finset.univ : Finset Xf).image Res.pslot) := by
  rw [Finset.disjoint_left]; intro r hr hi
  rw [Finset.mem_image] at hi; obtain ⟨i, -, rfl⟩ := hi
  simp at hr

theorem bigSep_barA (Φ : Res → sProp 𝕄) :
    bigSep barA Φ = iprop(Φ .bar ∗ Φ .owes ∗ bigSep (Finset.univ : Finset Xf) fun i => Φ (.pslot i)) := by
  unfold barA
  have e : (Finset.univ : Finset Xf).image Res.pslot = (Finset.univ : Finset Xf).map ⟨Res.pslot, pslot_injective⟩ :=
    (Finset.map_eq_image ⟨Res.pslot, pslot_injective⟩ (Finset.univ : Finset Xf)).symm
  rw [bigSep_union barA_disj, bigSep_insert (by simp), bigSep_singleton, e, bigSep_map]
  exact (Std.Associative.assoc (op := (BI.sep : sProp 𝕄 → _ → _)) _ _ _)

theorem barA_open (c : Dev nD) :
    (bigSep barA fun r => interp m c r (tag r 3))
      ⊢ iprop((atPos ER (barCell c) 0 ∅ 0 ∗ cred (tallyAt (barCell c) () 3))
          ∗ ∃ W : Waits sig Unit, owes (c : Thread nD τ) (owedX c sendOrder) W) := by
  have eb : interp m c .bar 0 = iprop(atPos ER (barCell c) 0 ∅ 0 ∗ cred (tallyAt (barCell c) () 3)) := rfl
  rw [bigSep_barA, tag_bar_three, tag_owes_early 3 (by omega), interp_owes m c (100 * 3) 3 0 (by omega) (by omega), eb]
  iintro ⟨Hb, HO, -⟩
  isplitl [Hb]; · iexact Hb
  iexact HO

theorem barA_close (c : Dev nD) :
    iprop(atPos ER (barCell c) 1 ∅ 0
        ∗ (∃ W : Waits sig Unit, owes (c : Thread nD τ) (owedX c sendOrder) W)
        ∗ bigSep (Finset.univ : Finset Xf) fun i => iprop(∃ f, oPts (peer i.dir c) (dstSet i c) fullShare f))
      ⊢ bigSep barA fun r => interp m c r (tag r 4) := by
  have hs : (bigSep (Finset.univ : Finset Xf) fun i => interp m c (.pslot i) (tag (.pslot i) 4))
      = bigSep (Finset.univ : Finset Xf) fun i => iprop(∃ f, oPts (peer i.dir c) (dstSet i c) fullShare f) :=
    bigSep_congr fun i _ => by rw [tag_pslot_four]; rfl
  have eb : interp m c .bar 1 = atPos ER (barCell c) 1 ∅ 0 := rfl
  rw [bigSep_barA, tag_bar_four, tag_owes_four, interp_owes m c 300 3 0 (by omega) (by omega), hs, eb]
  iintro ⟨Hb, HO, Hp⟩
  isplitl [Hb]; · iexact Hb
  isplitl [HO]; · iexact HO
  iexact Hp

/-- The three signals' payloads together: for every copy, the rows of the neighbour's result buffer it writes. -/
theorem rest_bar (c : Dev nD) :
    bigSep ((sched m).duties (barCell c) 0 \ ∅) (fun d => (sched m).payload (barCell c) 0 d)
      ⊢ bigSep (Finset.univ : Finset Xf) fun i => iprop(∃ f, oPts (peer i.dir c) (dstSet i c) fullShare f) := by
  have e : ∀ d : Fin 3, (sched m).payload (barCell c) 0 d
      = bigSep (Finset.univ.filter fun i : Xf => i.dir = d) fun i => iprop(∃ f, oPts (peer i.dir c) (dstSet i c) fullShare f) := by
    intro d
    rw [payload_bar]; unfold barPay
    refine bigSep_congr fun i hi => ?_
    rw [(Finset.mem_filter.mp hi).2]
  have hu : (Finset.univ : Finset (Fin 3)).biUnion (fun d => Finset.univ.filter fun i : Xf => i.dir = d) = Finset.univ := by
    ext i; simp
  rw [Finset.sdiff_empty, duties_bar, bigSep_congr fun d _ => e d, ← hu]
  exact bigSep_biUnion _ _

/-! ## What is owed while waiting at the barrier sits above it -/

theorem L_tc (c : Dev nD) (sm : SemLoc sig) : L ((c : Thread nD τ), sm) = {()} := if_pos rfl

/-- A landing cell sits at level 2 or above. -/
theorem lv_ge_of (t : Thread nD τ) (j : DmaSem sig)
    (h : (27 ≤ j.val ∧ j.val < 52) ∨ (68 ≤ j.val ∧ j.val < 84) ∨ (100 ≤ j.val ∧ j.val < 116) ∨ (120 ≤ j.val ∧ j.val < 124)
      ∨ (127 ≤ j.val ∧ j.val < 130)) : 2 ≤ lv (t, .dma j) () := by
  simp only [lv]
  split_ifs <;> omega

theorem lv_rCell (i : Xf) (p : Dev nD) : 2 ≤ lv (rCell i p) () := by
  refine lv_ge_of _ (rS i) ?_
  show (27 ≤ i.rIdx ∧ i.rIdx < 52) ∨ (68 ≤ i.rIdx ∧ i.rIdx < 84) ∨ (100 ≤ i.rIdx ∧ i.rIdx < 116) ∨ (120 ≤ i.rIdx ∧ i.rIdx < 124)
      ∨ (127 ≤ i.rIdx ∧ i.rIdx < 130)
  rcases i with k | k | k | k | k | k <;> (have := k.isLt; simp only [Xf.rIdx]; omega)

theorem owedX_pos (c : Dev nD) (l : List Xf) (g : GSem nD τ sig) (u : Unit) (h : 0 < owedX c l g u) :
    ∃ i ∈ l, g = rCell i (peer i.dir c) := by
  induction l with
  | nil => exact absurd h (Nat.lt_irrefl 0)
  | cons i l ih =>
    unfold owedX at h
    rw [Pi.add_apply, Finsupp.add_apply, tallyAt_apply] at h
    by_cases hg : g = rCell i (peer i.dir c) ∧ u = ()
    · exact ⟨i, List.mem_cons_self, hg.1⟩
    · rw [if_neg hg, Nat.add_zero] at h
      obtain ⟨j, hj, e⟩ := ih h
      exact ⟨j, List.mem_cons_of_mem _ hj, e⟩

theorem mayWait_bar (c : Dev nD) (l : List Xf) :
    (levAts L lv : sProp 𝕄) ⊢ MayWait (c : Thread nD τ) (.reg barS) () (owedX c l) :=
  MayOwe.of_cut (L := L) (lev := lv) 1
    (fun p hp => by rw [Finset.mem_singleton.mp hp, L_tc]; exact Finset.mem_singleton_self _)
    (fun g u hg => by obtain ⟨i, -, rfl⟩ := owedX_pos c l g u hg; rw [L_tc]; exact Finset.mem_singleton_self _)
    (fun p hp => by rw [Finset.mem_singleton.mp hp]; exact Nat.le_refl 1)
    (fun g u hg => by obtain ⟨i, -, rfl⟩ := owedX_pos c l g u hg; exact lv_rCell i _)

end StepsA

open StepsA

/-- The entry signal along axis d, the (n+1)-st operation (n = d). -/
theorem step_signal (c : Dev nD) (d : Fin 3) (n : ℕ) (hn : n = d.val) (p : Dev nD) (hp : p = peer d c) (a : ℕ) (ha : a = 1)
    (hfr : Frame (sigA d) n (n + 1)) {α : Type} {Q : α → sProp 𝕄} {k : PUnit → Prog (TpuEff nD τ sig (Elt F) Λ₀ .tc) α} :
    iprop(records m K ∗ St m c n ∗ (St m c (n + 1) -∗ WP c (k ⟨⟩) Q))
      ⊢ WP c (.op (.semSignal (p : Thread nD τ) barS a) k) Q := by
  subst hn hp ha
  iintro ⟨#Hrec, HSt, Hk⟩
  ihave HA := (St_acc m c (sigA d) d.val (d.val + 1) hfr) $$ HSt
  icases HA with ⟨HA, Hclose⟩
  ihave HA' := (sigA_open m c d) $$ HA
  icases HA' with ⟨Htok, ⟨%W, HO⟩, Hpay⟩
  iapply (Rounds.wp_signal 𝒱₀ ER (sched m) (c : Thread nD τ) none (dst := (peer d c : Thread nD τ)) (sem := barS) (κ := K (peer d c, 0))
      (r := 0) (d := d) (by rw [duties_bar]; exact Finset.mem_univ _) (amount_bar m (peer d c) d) ()
      (owedAll c (([0, 1, 2] : List (Fin 3)).drop (d.val + 1)) sendOrder) rfl) $$ [HO Htok Hpay]
  · isplitr; · iapply (inv_bar m K (peer d c)); iexact Hrec
    isplitl [HO]; · iexact HO
    isplitl [Htok]; · iexact Htok
    isplitl [Hpay]; · rw [payload_bar]; iexact Hpay
    iapply (reached_bar m K (peer d c)); iexact Hrec
  iintro HO
  iapply Hk
  iapply Hclose
  iapply (sigA_close m c d)
  iexists W; iexact HO

/-- The wait for the three neighbours' signals, the fourth operation. -/
theorem step_barwait (c : Dev nD) (a : ℕ) (ha : a = 3) (hfr : Frame barA 3 4)
    {α : Type} {Q : α → sProp 𝕄} {k : PUnit → Prog (TpuEff nD τ sig (Elt F) Λ₀ .tc) α} :
    iprop(records m K ∗ St m c 3 ∗ (St m c 4 -∗ WP c (k ⟨⟩) Q))
      ⊢ WP c (.op (.semWait barS a) k) Q := by
  subst ha
  iintro ⟨#Hrec, HSt, Hk⟩
  ihave HA := (St_acc m c barA 3 4 hfr) $$ HSt
  icases HA with ⟨HA, Hclose⟩
  ihave HA' := (barA_open m c) $$ HA
  icases HA' with ⟨⟨Hat, Hcr⟩, ⟨%W, HO⟩⟩
  iapply (Rounds.wp_wait_rest_token 𝒱₀ ER (sched m) (c : Thread nD τ) none (κ := K (c, 0))
      (wpE_semWait_eq 𝒱₀ (c : Thread nD τ) none Set.univ) (Set.mem_univ _) () (O := owedX c sendOrder) (W := W) (R := 0) (m := 0) (T := ∅)
      (by rw [expect_bar])) $$ [Hcr HO Hat]
  · isplitr; · iapply (inv_bar m K c); iexact Hrec
    isplitl [Hcr]; · iexact Hcr
    isplitl [HO]; · iexact HO
    isplitr; · iapply (mayWait_bar c sendOrder); iapply (records_lev m K); iexact Hrec
    iexact Hat
  iintro ⟨HO, Hat, -, Hpay⟩
  ihave Hp := (rest_bar m c) $$ Hpay
  iapply Hk
  iapply Hclose
  iapply (barA_close m c)
  isplitl [Hat]; · iexact Hat
  isplitl [HO]; · (iexists _; iexact HO)
  iexact Hp

/-- info: 'Cert.KernelIdeal.AG.step_signal' depends on axioms: [propext, Classical.choice, Quot.sound] -/
#guard_msgs in #print axioms step_signal

/-- info: 'Cert.KernelIdeal.AG.step_barwait' depends on axioms: [propext, Classical.choice, Quot.sound] -/
#guard_msgs in #print axioms step_barwait

end Cert.KernelIdeal.AG

end
-- ==== Proof.StepsB.lean ====
/-
  Enqueuing a copy. A remote copy pays, with the two tokens the device holds for it, the landing cell of the
  neighbour it is addressed to and the device's own read-out cell; it takes the rows it writes (the neighbour's, held
  since the entry handshake) and a share of the rows it reads, and what lands is what those rows of the neighbour's
  result must end with. The local copy takes the device's own half of the result and the left half share of its
  argument block.
-/
import proofs.«900661_g7700000000000662_dist_ag_v7x_xyz2x2x2_x_m2048_n512_f32_1_alg».proof.Proof.Acc
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

namespace StepsB

/-! ## The neighbours -/

theorem peer_peer : ∀ (d : Fin 3) (c : Dev nD), peer d (peer d c) = c := by decide +kernel

/-! ## What each semaphore index is for -/

deriving instance DecidableEq for Role

theorem roleOf_sIdx : ∀ i : Xf, roleOf i.sIdx = .send i := by decide +kernel
theorem roleOf_rIdx : ∀ i : Xf, roleOf i.rIdx = .recv i := by decide +kernel
theorem roleOf_loc : roleOf 130 = .loc := by decide

/-! ## The schedule's tables at the cells a copy pays -/

omit [FloatOps F] in
theorem duties_dma (c : Dev nD) (j : DmaSem sig) (h : 2 ≤ j.val) : (sched (F := F) m).duties ((c : Thread nD τ), .dma j) 0 = {0} := by
  dsimp only [sched]; rw [if_pos ⟨rfl, rfl⟩, if_pos h]

theorem sIdx_ge (i : Xf) : 2 ≤ i.sIdx := by cases i <;> simp only [Xf.sIdx] <;> omega
theorem rIdx_ge (i : Xf) : 2 ≤ i.rIdx := by cases i <;> simp only [Xf.rIdx] <;> omega
theorem sIdx_ne (i : Xf) : i.sIdx ≠ 130 := by cases i <;> simp only [Xf.sIdx] <;> omega
theorem rIdx_ne (i : Xf) : i.rIdx ≠ 130 := by cases i <;> simp only [Xf.rIdx] <;> omega

omit [FloatOps F] in
theorem amount_dma (c : Dev nD) (j : DmaSem sig) (h : j.val ≠ 130) (d : Fin 3) : (sched (F := F) m).amount ((c : Thread nD τ), .dma j) 0 d = NC := by
  dsimp only [sched]; exact if_neg h
omit [FloatOps F] in
theorem amount_loc (c : Dev nD) (d : Fin 3) : (sched (F := F) m).amount (locCell c) 0 d = NL := by
  dsimp only [sched]; exact if_pos rfl

theorem payload_s (c : Dev nD) (i : Xf) (d : Fin 3) : (sched m).payload (sCell i c) 0 d = sendPay m c i := by
  dsimp only [sched]; rw [roleOf_sIdx]
theorem payload_r (c : Dev nD) (i : Xf) (d : Fin 3) : (sched m).payload (rCell i c) 0 d = recvPay m c i := by
  dsimp only [sched]; rw [roleOf_rIdx]
theorem payload_loc (c : Dev nD) (d : Fin 3) : (sched m).payload (locCell c) 0 d = locPay m c := by
  dsimp only [sched]; rw [roleOf_loc]

/-! ## The states of the pieces an enqueue touches, before and after it -/

/-- The state of the source piece of copy i before and after its enqueue. -/
def srcPre : Xf → ℕ
  | .xa _ => 1 | .xb _ => 1 | .yf _ => 2 | .zf _ => 4 | .ya _ => 2 | .zb _ => 2
def srcPost : Xf → ℕ
  | .xa _ => 0 | .xb _ => 0 | .yf _ => 4 | .zf _ => 5 | .ya _ => 5 | .zb _ => 5

theorem tags_send : ∀ i : Xf,
    tag (.tok i) i.tSend = 1 ∧ tag (.tok i) (i.tSend + 1) = 0
    ∧ tag (.pslot i) i.tSend = 1 ∧ tag (.pslot i) (i.tSend + 1) = 0
    ∧ tag (.scell i) i.tSend = 0 ∧ tag (.scell i) (i.tSend + 1) = 1
    ∧ tag (srcRes i) i.tSend = srcPre i ∧ tag (srcRes i) (i.tSend + 1) = srcPost i := by decide +kernel

theorem owes_send : ∀ i : Xf,
    tag .owes i.tSend / 100 = 3 ∧ tag .owes (i.tSend + 1) / 100 = 3
    ∧ sendOrder.drop (tag .owes i.tSend % 100) = i :: sendOrder.drop (tag .owes (i.tSend + 1) % 100) := by decide +kernel

theorem tags_loc :
    tag .xL 29 = 1 ∧ tag .xL 30 = 0 ∧ tag .own 29 = 0 ∧ tag .own 30 = 1 ∧ tag .loccell 29 = 0 ∧ tag .loccell 30 = 1 := by decide

/-- The pieces an enqueue touches, one by one. -/
theorem sendA_chain (i : Xf) (Φ : Res → sProp 𝕄) :
    bigSep (sendA i) Φ = iprop(Φ (.tok i) ∗ Φ (.pslot i) ∗ Φ (.scell i) ∗ Φ .owes ∗ Φ (srcRes i)) := by
  unfold sendA
  rw [bigSep_insert (by cases i <;> simp [srcRes]), bigSep_insert (by cases i <;> simp [srcRes]),
    bigSep_insert (by cases i <;> simp [srcRes]), bigSep_insert (by cases i <;> simp [srcRes]), bigSep_singleton]
  rfl

theorem locA_chain (Φ : Res → sProp 𝕄) : bigSep locA Φ = iprop(Φ .xL ∗ Φ .own ∗ Φ .loccell) := by
  unfold locA
  rw [bigSep_insert (by decide), bigSep_insert (by decide), bigSep_singleton]
  rfl

/-! ## The rows a relay reads are the rows where the copy it relays landed -/

theorem off_fw : ∀ (c : Dev nD) (k : Fin 16), k0_off1 (px c) (wd k.val) = k0_off6 c (wd k.val) := by decide +kernel
theorem off_ya : ∀ (c : Dev nD) (k : Fin 4), k0_off6 (pz c) (wd (k.val + 9)) = k0_off7 c (BitVec.ofNat 32 (288 + 32 * k.val)) := by decide +kernel
theorem off_zb : ∀ (c : Dev nD) (k : Fin 3), k0_off6 (py c) (wd (k.val + 13)) = k0_off8 c (BitVec.ofNat 32 (416 + 32 * k.val)) := by decide +kernel

/-- Two 32-row slices of the result buffer at equal offsets have the same rows. -/
theorem oslice_set_congr {off off' : Fin S4096x512.rank → ℕ} (h : off = off') (inb : ∀ a, off a + S32x512.size a ≤ S4096x512.size a)
    (inb' : ∀ a, off' a + S32x512.size a ≤ S4096x512.size a) :
    (oM.slice (Rect.unit (s := S4096x512) off S32x512.size inb) (fun _ => rfl)).view.set
      = (oM.slice (Rect.unit (s := S4096x512) off' S32x512.size inb') (fun _ => rfl)).view.set := by
  subst h; rfl

theorem set_fw (c : Dev nD) (k : Fin 16) : slotSet (.xa k) c = (fwM c k).view.set :=
  oslice_set_congr (off_fw c k) _ _
theorem set_ya (c : Dev nD) (k : Fin 4) : slotSet (.zf ⟨k.val + 9, by omega⟩) c = (yaM c k).view.set :=
  oslice_set_congr (off_ya c k) _ _
theorem set_zb (c : Dev nD) (k : Fin 3) : slotSet (.yf ⟨k.val + 13, by omega⟩) c = (zbM c k).view.set :=
  oslice_set_congr (off_zb c k) _ _

/-! ## Which device's block a row of the result comes from -/

/-- The device whose block row r of device c's result buffer must end holding. -/
def selDev (c : Dev nD) (r : ℕ) : Dev nD := if r / 2048 = c.val / 4 then c else origin c (r % 2048)

theorem outAt_apply (c : Dev nD) (i : OIx) :
    outAt m c i = xstg m (selDev c (i 0).val) (ValueIdx.ix2 ⟨(i 0).val % 2048, Nat.mod_lt _ (by decide)⟩ (i 1)) := rfl

/-- All 32 rows of a chunk come from one device. -/
theorem selDev_add (c : Dev nD) (a y : ℕ) (ha : a % 32 = 0) (hy : y < 32) : selDev c (a + y) = selDev c a := by
  unfold selDev origin
  have h1 : (a + y) / 2048 = a / 2048 := by omega
  have h2 : (a + y) % 2048 / 512 = a % 2048 / 512 := by omega
  have h3 : (a + y) % 2048 % 512 / 32 = a % 2048 % 512 / 32 := by omega
  simp only [h1, h2, h3]

theorem sel_xa : ∀ (c : Dev nD) (k : Fin 16),
    selDev (px c) (k0_off1 c (wd k.val) 0) = c ∧ k0_off1 c (wd k.val) 0 % 32 = 0
    ∧ k0_off1 c (wd k.val) 0 % 2048 = k0_off2 c (wd k.val) 0 ∧ k0_off1 c (wd k.val) 0 % 2048 + 32 ≤ 2048
    ∧ k0_off1 c (wd k.val) 1 = 0 ∧ k0_off2 c (wd k.val) 1 = 0 := by decide +kernel
theorem sel_xb : ∀ (c : Dev nD) (k : Fin 9),
    selDev (px c) (k0_off3 c (wd k.val) 0) = c ∧ k0_off3 c (wd k.val) 0 % 32 = 0
    ∧ k0_off3 c (wd k.val) 0 % 2048 = k0_off4 c (wd k.val) 0 ∧ k0_off3 c (wd k.val) 0 % 2048 + 32 ≤ 2048
    ∧ k0_off3 c (wd k.val) 1 = 0 ∧ k0_off4 c (wd k.val) 1 = 0 := by decide +kernel
theorem sel_yf : ∀ (c : Dev nD) (k : Fin 16),
    selDev c (k0_off6 c (wd k.val) 0) = selDev (py c) (k0_off6 c (wd k.val) 0) ∧ k0_off6 c (wd k.val) 0 % 32 = 0 := by decide +kernel
theorem sel_zf : ∀ (c : Dev nD) (k : Fin 16),
    selDev c (k0_off6 c (wd k.val) 0) = selDev (pz c) (k0_off6 c (wd k.val) 0) ∧ k0_off6 c (wd k.val) 0 % 32 = 0 := by decide +kernel
theorem sel_ya : ∀ (c : Dev nD) (k : Fin 4),
    selDev c (k0_off7 c (BitVec.ofNat 32 (288 + 32 * k.val)) 0) = selDev (py c) (k0_off7 c (BitVec.ofNat 32 (288 + 32 * k.val)) 0)
    ∧ k0_off7 c (BitVec.ofNat 32 (288 + 32 * k.val)) 0 % 32 = 0 := by decide +kernel
theorem sel_zb : ∀ (c : Dev nD) (k : Fin 3),
    selDev c (k0_off8 c (BitVec.ofNat 32 (416 + 32 * k.val)) 0) = selDev (pz c) (k0_off8 c (BitVec.ofNat 32 (416 + 32 * k.val)) 0)
    ∧ k0_off8 c (BitVec.ofNat 32 (416 + 32 * k.val)) 0 % 32 = 0 := by decide +kernel
theorem sel_own : ∀ c : Dev nD, k0_off5 c 0 = 2048 * (c.val / 4) ∧ k0_off5 c 1 = 0 := by decide +kernel

/-! ## Where an index of a slice sits in its buffer -/

theorem oemb_val (off size : Fin 2 → ℕ) (inb : ∀ a, off a + size a ≤ S4096x512.size a)
    (y : (Rect.unit (s := S4096x512) off size inb).shape.Idx) (a : Fin 2) :
    (((oM.slice (Rect.unit (s := S4096x512) off size inb) (fun _ => rfl)).view.emb y a : Fin _) : ℕ) = off a + (y a).val := by
  show off a + 1 * (y a).val = _
  rw [Nat.one_mul]

theorem xemb_val (off size : Fin 2 → ℕ) (inb : ∀ a, off a + size a ≤ S2048x512.size a)
    (y : (Rect.unit (s := S2048x512) off size inb).shape.Idx) (a : Fin 2) :
    (((xM.slice (Rect.unit (s := S2048x512) off size inb) (fun _ => rfl)).view.emb y a : Fin _) : ℕ) = off a + (y a).val := by
  show off a + 1 * (y a).val = _
  rw [Nat.one_mul]

/-! ## What lands is what the rows must end with -/

/-- A chunk of the device's own block, copied to a neighbour: the rows written hold what they must end with. -/
theorem val_first (c p : Dev nD) (offd : Fin 2 → ℕ) (inbd : ∀ a, offd a + S32x512.size a ≤ S4096x512.size a)
    (offs : Fin 2 → ℕ) (inbs : ∀ a, offs a + S32x512.size a ≤ S2048x512.size a)
    (hsel : selDev p (offd 0) = c) (h32 : offd 0 % 32 = 0) (hrow : offd 0 % 2048 = offs 0) (hfit : offd 0 % 2048 + 32 ≤ 2048)
    (hd1 : offd 1 = 0) (hs1 : offs 1 = 0)
    (fd : Buf (Elt F) ((p : Thread nD τ).loc cc0_stg1_0)) :
    ∀ i ∈ (oM.slice (Rect.unit (s := S4096x512) offd S32x512.size inbd) (fun _ => rfl)).view.set,
      (oM.slice (Rect.unit (s := S4096x512) offd S32x512.size inbd) (fun _ => rfl)).view.write (Elt F) fd
        ((xM.slice (Rect.unit (s := S2048x512) offs S32x512.size inbs) (fun _ => rfl)).view.read (Elt F) (xstg m c)) Finset.univ i
      = outAt m p i := by
  intro i hi
  obtain ⟨y, rfl⟩ := View.exists_emb_of_mem_set _ hi
  rw [View.write_emb_of_mem _ _ (Finset.mem_univ _), outAt_apply]
  have hy : (y 0).val < 32 := (y 0).isLt
  have e0 := oemb_val offd S32x512.size inbd y 0
  have e1 := oemb_val offd S32x512.size inbd y 1
  have s0 := xemb_val offs S32x512.size inbs y 0
  have s1 := xemb_val offs S32x512.size inbs y 1
  have hdev : selDev p ((oM.slice (Rect.unit (s := S4096x512) offd S32x512.size inbd) (fun _ => rfl)).view.emb y 0).val = c := by
    rw [e0, selDev_add p _ _ h32 hy, hsel]
  rw [hdev]
  show xstg m c ((xM.slice (Rect.unit (s := S2048x512) offs S32x512.size inbs) (fun _ => rfl)).view.emb y) = _
  congr 1
  apply Shape.idx_ext₂
  · show _ = ((oM.slice (Rect.unit (s := S4096x512) offd S32x512.size inbd) (fun _ => rfl)).view.emb y 0).val % 2048
    rw [e0, s0]; omega
  · show _ = ((oM.slice (Rect.unit (s := S4096x512) offd S32x512.size inbd) (fun _ => rfl)).view.emb y 1).val
    rw [e1, s1]; omega

/-- A chunk relayed: the rows read on the relaying device and written on the neighbour come from the same device. -/
theorem val_relay (c p : Dev nD) (off : Fin 2 → ℕ) (inb : ∀ a, off a + S32x512.size a ≤ S4096x512.size a)
    (hsel : selDev c (off 0) = selDev p (off 0)) (h32 : off 0 % 32 = 0)
    (fd : Buf (Elt F) ((p : Thread nD τ).loc cc0_stg1_0)) :
    ∀ i ∈ (oM.slice (Rect.unit (s := S4096x512) off S32x512.size inb) (fun _ => rfl)).view.set,
      (oM.slice (Rect.unit (s := S4096x512) off S32x512.size inb) (fun _ => rfl)).view.write (Elt F) fd
        ((oM.slice (Rect.unit (s := S4096x512) off S32x512.size inb) (fun _ => rfl)).view.read (Elt F) (outAt m c)) Finset.univ i
      = outAt m p i := by
  intro i hi
  obtain ⟨y, rfl⟩ := View.exists_emb_of_mem_set _ hi
  rw [View.write_emb_of_mem _ _ (Finset.mem_univ _)]
  have hy : (y 0).val < 32 := (y 0).isLt
  have e0 := oemb_val off S32x512.size inb y 0
  show outAt m c ((oM.slice (Rect.unit (s := S4096x512) off S32x512.size inb) (fun _ => rfl)).view.emb y) = _
  rw [outAt_apply, outAt_apply, e0, selDev_add c _ _ h32 hy, selDev_add p _ _ h32 hy, hsel]

/-! ## The pieces an enqueue takes and leaves -/

/-- The contents of the rows copy i reads. -/
def srcBuf (i : Xf) (c : Dev nD) : Buf (Elt F) ((srcM i c).view.loc (c : Thread nD τ)) :=
  match i with
  | .xa _ => xstg m c | .xb _ => xstg m c | .yf _ => outAt m c | .zf _ => outAt m c | .ya _ => outAt m c | .zb _ => outAt m c

/-- The source piece hands the copy its share of the rows it reads. -/
theorem src_take (i : Xf) (c : Dev nD) :
    interp m c (srcRes i) (srcPre i)
      ⊢ iprop(((srcM i c).view.loc (c : Thread nD τ) ↦[(srcM i c).view.set]{srcShare i} srcBuf m i c) ∗ interp m c (srcRes i) (srcPost i)) := by
  cases i with
  | xa k => exact (sep_emp (PROP := sProp 𝕄)).2
  | xb k => exact (sep_emp (PROP := sProp 𝕄)).2
  | yf k =>
    show oPts c (slotSet (.xa k) c) fullShare (outAt m c) ⊢ iprop(oPts c (fwM c k).view.set fullShare.left (outAt m c) ∗ oPts c (slotSet (.xa k) c) fullShare.right (outAt m c))
    rw [set_fw]; exact (pointsTo_share (PosShare.mem_left_op_right fullShare)).1
  | zf k =>
    show oPts c (slotSet (.xa k) c) fullShare.right (outAt m c) ⊢ iprop(oPts c (fwM c k).view.set fullShare.right (outAt m c) ∗ emp)
    rw [set_fw]; exact (sep_emp (PROP := sProp 𝕄)).2
  | ya k =>
    show oPts c (slotSet (.zf ⟨k.val + 9, by omega⟩) c) fullShare (outAt m c) ⊢ iprop(oPts c (yaM c k).view.set fullShare (outAt m c) ∗ emp)
    rw [set_ya]; exact (sep_emp (PROP := sProp 𝕄)).2
  | zb k =>
    show oPts c (slotSet (.yf ⟨k.val + 13, by omega⟩) c) fullShare (outAt m c) ⊢ iprop(oPts c (zbM c k).view.set fullShare (outAt m c) ∗ emp)
    rw [set_zb]; exact (sep_emp (PROP := sProp 𝕄)).2

/-- The neighbour's rows the copy writes, as the destination slice. -/
theorem pslot_take (i : Xf) (c : Dev nD) :
    iprop(∃ f, oPts (F := F) (peer i.dir c) (dstSet i c) fullShare f)
      ⊢ iprop(∃ fd : Buf (Elt F) ((dstM i c).view.loc (Dev.tc (peer i.dir c) : Thread nD τ)),
          ((dstM i c).view.loc (Dev.tc (peer i.dir c) : Thread nD τ) ↦[(dstM i c).view.set]{fullShare} fd)) := by
  cases i <;> exact BI.Entails.refl _

theorem dst_amount (i : Xf) (c : Dev nD) : (dstM i c).view.amount (.dma (rS i)) = NC := by cases i <;> rfl

/-- The share of its source rows the copy holds is what its having been read out hands back. -/
theorem read_pay (i : Xf) (c : Dev nD) :
    ((srcM i c).view.loc (c : Thread nD τ) ↦[(srcM i c).view.set]{srcShare i} srcBuf m i c) ⊢ sendPay m c i := by
  cases i <;> exact BI.Entails.refl _

/-- What lands on the neighbour is what those rows of its result must end with. -/
theorem land_pay (i : Xf) (c : Dev nD) (fd : Buf (Elt F) ((dstM i c).view.loc (Dev.tc (peer i.dir c) : Thread nD τ))) :
    ((dstM i c).view.loc (Dev.tc (peer i.dir c) : Thread nD τ) ↦[(dstM i c).view.set]{fullShare}
        ((dstM i c).view.write (Elt F) fd ((srcM i c).view.read (Elt F) (srcBuf m i c)) Finset.univ))
      ⊢ recvPay m (peer i.dir c) i := by
  unfold recvPay oPts slotSet
  rw [peer_peer]
  cases i with
  | xa k =>
    obtain ⟨h1, h2, h3, h4, h5, h6⟩ := sel_xa c k
    exact Entails.of_eq (pointsTo_congr (val_first m c (px c) _ _ _ _ h1 h2 h3 h4 h5 h6 fd))
  | xb k =>
    obtain ⟨h1, h2, h3, h4, h5, h6⟩ := sel_xb c k
    exact Entails.of_eq (pointsTo_congr (val_first m c (px c) _ _ _ _ h1 h2 h3 h4 h5 h6 fd))
  | yf k => exact Entails.of_eq (pointsTo_congr (val_relay m c (py c) _ _ (sel_yf c k).1 (sel_yf c k).2 fd))
  | zf k => exact Entails.of_eq (pointsTo_congr (val_relay m c (pz c) _ _ (sel_zf c k).1 (sel_zf c k).2 fd))
  | ya k => exact Entails.of_eq (pointsTo_congr (val_relay m c (py c) _ _ (sel_ya c k).1 (sel_ya c k).2 fd))
  | zb k => exact Entails.of_eq (pointsTo_congr (val_relay m c (pz c) _ _ (sel_zb c k).1 (sel_zb c k).2 fd))

/-- The pieces an enqueue touches, before it. -/
theorem send_pre (i : Xf) (c : Dev nD) :
    (bigSep (sendA i) fun r => interp m c r (tag r i.tSend))
      = iprop((dutyTok ER (rCell i (peer i.dir c)) 0 0 ∗ dutyTok ER (sCell i c) 0 0)
          ∗ (∃ f, oPts (peer i.dir c) (dstSet i c) fullShare f)
          ∗ atPos ER (sCell i c) 0 ∅ 0
          ∗ (∃ W : Waits sig Unit, owes (c : Thread nD τ) (owedX c (i :: sendOrder.drop (tag .owes (i.tSend + 1) % 100))) W)
          ∗ interp m c (srcRes i) (srcPre i)) := by
  obtain ⟨t1, -, t3, -, t5, -, t7, -⟩ := tags_send i
  obtain ⟨o1, -, o3⟩ := owes_send i
  rw [sendA_chain, t1, t3, t5, t7,
    show interp m c .owes (tag .owes i.tSend) = iprop(∃ W : Waits sig Unit, owes (c : Thread nD τ)
      (owedAll c (([0, 1, 2] : List (Fin 3)).drop (tag .owes i.tSend / 100)) (sendOrder.drop (tag .owes i.tSend % 100))) W) from rfl,
    o1, o3]
  rfl

/-- The pieces an enqueue touches, after it. -/
theorem send_post (i : Xf) (c : Dev nD) :
    (bigSep (sendA i) fun r => interp m c r (tag r (i.tSend + 1)))
      = iprop(emp ∗ emp
          ∗ (atPos ER (sCell i c) 0 ∅ 0 ∗ cred (tallyAt (sCell i c) () NC))
          ∗ (∃ W : Waits sig Unit, owes (c : Thread nD τ) (owedX c (sendOrder.drop (tag .owes (i.tSend + 1) % 100))) W)
          ∗ interp m c (srcRes i) (srcPost i)) := by
  obtain ⟨-, t2, -, t4, -, t6, -, t8⟩ := tags_send i
  obtain ⟨-, o2, -⟩ := owes_send i
  rw [sendA_chain, t2, t4, t6, t8,
    show interp m c .owes (tag .owes (i.tSend + 1)) = iprop(∃ W : Waits sig Unit, owes (c : Thread nD τ)
      (owedAll c (([0, 1, 2] : List (Fin 3)).drop (tag .owes (i.tSend + 1) / 100)) (sendOrder.drop (tag .owes (i.tSend + 1) % 100))) W) from rfl,
    o2]
  rfl

/-! ## The enqueue of a remote copy -/

/-- The addressed-transfer rule at copy i's two cells, the transfer addressed to p = the neighbour along i's axis
    (substituted, not rewritten), l the copies still to be enqueued after it. -/
theorem wp_send_AG (c : Dev nD) (i : Xf) (p : Dev nD) (hp : p = peer i.dir c)
    {hsc : (dstM i c : Memref sig (Dev.tc p : Thread nD τ).2.kind .vmem S32x512 .f32).view.ref.isScScratch = false}
    {hsrc : (srcM i c).view.WordExact} {hdst : (dstM i c).view.WordExact}
    {hsem : DmaTarget.Typed .vmem (.dma (rS i)) (.remote (Dev.tc p : Thread nD τ) (dstM i c) (.dma (sS i)) hsc)}
    {α : Type} {Q : α → sProp 𝕄} {k : PUnit → Prog (TpuEff nD τ sig (Elt F) Λ₀ .tc) α}
    (fd : Buf (Elt F) ((dstM i c).view.loc (Dev.tc (peer i.dir c) : Thread nD τ))) (W : Waits sig Unit) (l : List Xf) :
    iprop(cellInv ER (sched m) (K (c, ⟨i.sIdx - 1, by have := i.sIdx_lt; omega⟩)) (sCell i c)
        ∗ cellInv ER (sched m) (K (peer i.dir c, ⟨i.rIdx - 1, by have := i.rIdx_lt; omega⟩)) (rCell i (peer i.dir c))
        ∗ ((srcM i c).view.loc (c : Thread nD τ) ↦[(srcM i c).view.set]{srcShare i} srcBuf m i c)
        ∗ ((dstM i c).view.loc (Dev.tc (peer i.dir c) : Thread nD τ) ↦[(dstM i c).view.set]{fullShare} fd)
        ∗ owes (c : Thread nD τ) (owedX c (i :: l)) W
        ∗ dutyTok ER (sCell i c) 0 0 ∗ reached ER (sCell i c) 0
        ∗ dutyTok ER (rCell i (peer i.dir c)) 0 0 ∗ reached ER (rCell i (peer i.dir c)) 0)
      ⊢ iprop(((cred (tallyAt (sCell i c) () NC) ∗ owes (c : Thread nD τ) (owedX c l) W) -∗ WP c (k ⟨⟩) Q)
          -∗ WP c (.op (.enqueueDma (srcM i c) (.remote (Dev.tc p : Thread nD τ) (dstM i c) (.dma (sS i)) hsc) (.dma (rS i)) hsrc hdst hsem) k) Q) := by
  subst hp
  exact Rounds.wp_send_pointsTo 𝒱₀ ER (sched m) (c : Thread nD τ) none
    (κ₁ := K (c, ⟨i.sIdx - 1, by have := i.sIdx_lt; omega⟩)) (κ₂ := K (peer i.dir c, ⟨i.rIdx - 1, by have := i.rIdx_lt; omega⟩))
    (r₁ := 0) (r₂ := 0) (d₁ := 0) (d₂ := 0) (q := srcShare i) (fs := srcBuf m i c) (fd := fd)
    (by rw [duties_dma m c (sS i) (sIdx_ge i)]; exact Finset.mem_singleton_self _)
    (by rw [duties_dma m (peer i.dir c) (rS i) (rIdx_ge i)]; exact Finset.mem_singleton_self _)
    () () NC (dst_amount i c) (amount_dma m c (sS i) (sIdx_ne i) 0) (amount_dma m (peer i.dir c) (rS i) (rIdx_ne i) 0)
    (owedX c l) rfl (W := W)
    (by rw [payload_s]; exact read_pay m i c)
    (by rw [payload_r]; exact land_pay m i c fd)

/-! ## The enqueue of the local copy -/

theorem loc_pre (c : Dev nD) :
    (bigSep locA fun r => interp m c r (tag r 29))
      = iprop(xPts m c Finset.univ fullShare.left ∗ (∃ f, oPts c (ownSet c) fullShare f)
          ∗ (atPos ER (locCell c) 0 ∅ 0 ∗ dutyTok ER (locCell c) 0 0)) := by
  rw [locA_chain]; rfl
theorem loc_post (c : Dev nD) :
    (bigSep locA fun r => interp m c r (tag r 30))
      = iprop(emp ∗ emp ∗ (atPos ER (locCell c) 0 ∅ 0 ∗ cred (tallyAt (locCell c) () NL))) := by
  rw [locA_chain]; rfl

/-- The device's own half of its result, written with its argument block, holds what it must end with. -/
theorem val_own (c : Dev nD) (off : Fin 2 → ℕ) (inb : ∀ a, off a + S2048x512.size a ≤ S4096x512.size a)
    (h0 : off 0 = 2048 * (c.val / 4)) (h1 : off 1 = 0) (fd : Buf (Elt F) ((c : Thread nD τ).loc cc0_stg1_0)) :
    ∀ i ∈ (oM.slice (Rect.unit (s := S4096x512) off S2048x512.size inb) (fun _ => rfl)).view.set,
      (oM.slice (Rect.unit (s := S4096x512) off S2048x512.size inb) (fun _ => rfl)).view.write (Elt F) fd
        (xM.view.read (Elt F) (xstg m c)) Finset.univ i = outAt m c i := by
  intro i hi
  obtain ⟨y, rfl⟩ := View.exists_emb_of_mem_set _ hi
  rw [View.write_emb_of_mem _ _ (Finset.mem_univ _), outAt_apply]
  have hy : (y 0).val < 2048 := (y 0).isLt
  have e0 := oemb_val off S2048x512.size inb y 0
  have e1 := oemb_val off S2048x512.size inb y 1
  have hdev : selDev c ((oM.slice (Rect.unit (s := S4096x512) off S2048x512.size inb) (fun _ => rfl)).view.emb y 0).val = c := by
    rw [e0, h0]; unfold selDev; rw [if_pos (by omega)]
  rw [hdev]
  show xstg m c y = _
  congr 1
  apply Shape.idx_ext₂
  · show (y 0).val = ((oM.slice (Rect.unit (s := S4096x512) off S2048x512.size inb) (fun _ => rfl)).view.emb y 0).val % 2048
    rw [e0, h0]; omega
  · show (y 1).val = ((oM.slice (Rect.unit (s := S4096x512) off S2048x512.size inb) (fun _ => rfl)).view.emb y 1).val
    rw [e1, h1]; omega

theorem loc_pay (c : Dev nD) (fd : Buf (Elt F) ((c : Thread nD τ).loc cc0_stg1_0)) :
    iprop(((ownM c).view.loc (c : Thread nD τ) ↦[(ownM c).view.set]{fullShare}
          ((ownM c).view.write (Elt F) fd (xM.view.read (Elt F) (xstg m c)) Finset.univ))
        ∗ (xM.view.loc (c : Thread nD τ) ↦[Finset.univ]{fullShare.left} xstg m c)) ⊢ locPay m c := by
  unfold locPay oPts xPts ownSet
  have e : ((ownM c).view.loc (c : Thread nD τ) ↦[(ownM c).view.set]{fullShare}
      ((ownM c).view.write (Elt F) fd (xM.view.read (Elt F) (xstg m c)) Finset.univ) : sProp 𝕄)
      = ((c : Thread nD τ).loc cc0_stg1_0 ↦[(ownM c).view.set]{fullShare} outAt m c) :=
    pointsTo_congr (val_own m c (k0_off5 c) (k0_off5_inb c) (sel_own c).1 (sel_own c).2 fd)
  exact sep_mono_left (Entails.of_eq e)

/-- The whole argument block at the left half share, through the whole-buffer view. -/
theorem xwhole_eq (c : Dev nD) :
    xPts m c Finset.univ fullShare.left = (xM.view.loc (c : Thread nD τ) ↦[xM.view.set]{fullShare.left} xstg m c : sProp 𝕄) := by
  unfold xPts; rw [View.set_whole]

theorem own_amount (c : Dev nD) : (ownM c).view.amount (.dma locS) = NL := rfl

set_option maxHeartbeats 800000 in
/-- The local-copy rule at the local copy's cell. -/
theorem wp_copy_AG (c : Dev nD)
    {hsrc : (xM : Memref sig .tc .vmem S2048x512 .f32).view.WordExact} {hdst : (ownM c).view.WordExact}
    {hsem : DmaTarget.Typed (nD := nD) .vmem (.dma locS) (DmaTarget.here (p := (.tc : Proc τ)) (ownM c))}
    {α : Type} {Q : α → sProp 𝕄} {k : PUnit → Prog (TpuEff nD τ sig (Elt F) Λ₀ .tc) α}
    (fd : Buf (Elt F) ((c : Thread nD τ).loc cc0_stg1_0)) :
    iprop(cellInv ER (sched m) (K (c, ⟨130 - 1, by omega⟩)) (locCell c)
        ∗ (xM.view.loc (c : Thread nD τ) ↦[xM.view.set]{fullShare.left} xstg m c) ∗ oPts c (ownSet c) fullShare fd
        ∗ dutyTok ER (locCell c) 0 0 ∗ reached ER (locCell c) 0)
      ⊢ iprop((cred (tallyAt (locCell c) () NL) -∗ WP c (k ⟨⟩) Q)
          -∗ WP c (.op (.enqueueDma xM (DmaTarget.here (p := (.tc : Proc τ)) (ownM c)) (.dma locS) hsrc hdst hsem) k) Q) := by
  exact Rounds.wp_copy_pointsTo 𝒱₀ ER (sched m) (c : Thread nD τ) none (src := xM) (dst := ownM c) (sem := .dma locS)
    (hsrc := hsrc) (hdst := hdst) (hsem := hsem) (k := k) (Q := Q) (q := fullShare.left) (fs := xstg m c) (fd := fd)
    (κ := K (c, ⟨130 - 1, by omega⟩)) (r := 0) (d := 0)
    (by rw [duties_dma m c locS (by decide)]; exact Finset.mem_singleton_self _) () NL (own_amount c) (amount_loc m c 0)
    (by rw [payload_loc, View.set_whole]; exact loc_pay m c fd)

end StepsB

open StepsB

/-- Enqueuing the remote copy i, the (n+1)-st operation (n = i.tSend), addressed to p = the neighbour along i's axis. -/
theorem step_send (c : Dev nD) (i : Xf) (n : ℕ) (hn : n = i.tSend) (p : Dev nD) (hp : p = peer i.dir c)
    (hfr : Frame (sendA i) n (n + 1))
    {hsc : (dstM i c : Memref sig (Dev.tc p : Thread nD τ).2.kind .vmem S32x512 .f32).view.ref.isScScratch = false}
    {hsrc : (srcM i c).view.WordExact} {hdst : (dstM i c).view.WordExact}
    {hsem : DmaTarget.Typed .vmem (.dma (rS i)) (.remote (Dev.tc p : Thread nD τ) (dstM i c) (.dma (sS i)) hsc)}
    {α : Type} {Q : α → sProp 𝕄} {k : PUnit → Prog (TpuEff nD τ sig (Elt F) Λ₀ .tc) α} :
    iprop(records m K ∗ St m c n ∗ (St m c (n + 1) -∗ WP c (k ⟨⟩) Q))
      ⊢ WP c (.op (.enqueueDma (srcM i c) (.remote (Dev.tc p : Thread nD τ) (dstM i c) (.dma (sS i)) hsc) (.dma (rS i)) hsrc hdst hsem) k) Q := by
  subst hn
  have hacc := St_acc m c (sendA i) i.tSend (i.tSend + 1) hfr
  rw [send_pre, send_post] at hacc
  iintro ⟨#Hrec, HSt, Hk⟩
  ihave Hacc := hacc $$ HSt
  icases Hacc with ⟨⟨⟨HtR, HtS⟩, Hps, Hat, ⟨%W, HO⟩, Hsrc⟩, Hclose⟩
  ihave Hs := (src_take m i c) $$ Hsrc
  icases Hs with ⟨Hsrc, Hrest⟩
  ihave Hd := (pslot_take i c) $$ Hps
  icases Hd with ⟨%fd, Hdst⟩
  ihave HI1 := (inv_dma m K c i.sIdx (sIdx_ge i) i.sIdx_lt) $$ Hrec
  ihave HI2 := (inv_dma m K (peer i.dir c) i.rIdx (rIdx_ge i) i.rIdx_lt) $$ Hrec
  ihave HR1 := (reached_dma m K c i.sIdx (sIdx_ge i) i.sIdx_lt) $$ Hrec
  ihave HR2 := (reached_dma m K (peer i.dir c) i.rIdx (rIdx_ge i) i.rIdx_lt) $$ Hrec
  iapply (wp_send_AG m K c i p hp fd W (sendOrder.drop (tag .owes (i.tSend + 1) % 100))) $$ [HI1 HI2 Hsrc Hdst HO HtS HR1 HtR HR2]
  · isplitl [HI1]; · iexact HI1
    isplitl [HI2]; · iexact HI2
    isplitl [Hsrc]; · iexact Hsrc
    isplitl [Hdst]; · iexact Hdst
    isplitl [HO]; · iexact HO
    isplitl [HtS]; · iexact HtS
    isplitl [HR1]; · iexact HR1
    isplitl [HtR]; · iexact HtR
    iexact HR2
  iintro ⟨HcS, HO⟩
  iapply Hk
  iapply Hclose
  isplitr; · iempintro
  isplitr; · iempintro
  isplitl [Hat HcS]
  · isplitl [Hat]; · iexact Hat
    iexact HcS
  isplitl [HO]; · iexists W; iexact HO
  iexact Hrest

/-- Enqueuing the local copy of the argument block into the device's own half, the 30th operation. -/
theorem step_loc (c : Dev nD) (hfr : Frame locA 29 30)
    {hsrc : (xM : Memref sig .tc .vmem S2048x512 .f32).view.WordExact} {hdst : (ownM c).view.WordExact}
    {hsem : DmaTarget.Typed (nD := nD) .vmem (.dma locS) (DmaTarget.here (p := (.tc : Proc τ)) (ownM c))}
    {α : Type} {Q : α → sProp 𝕄} {k : PUnit → Prog (TpuEff nD τ sig (Elt F) Λ₀ .tc) α} :
    iprop(records m K ∗ St m c 29 ∗ (St m c 30 -∗ WP c (k ⟨⟩) Q))
      ⊢ WP c (.op (.enqueueDma xM (DmaTarget.here (p := (.tc : Proc τ)) (ownM c)) (.dma locS) hsrc hdst hsem) k) Q := by
  have hacc := St_acc m c locA 29 30 hfr
  rw [loc_pre, loc_post] at hacc
  iintro ⟨#Hrec, HSt, Hk⟩
  ihave Hacc := hacc $$ HSt
  icases Hacc with ⟨⟨Hx, ⟨%fd, Hown⟩, Hat, Htok⟩, Hclose⟩
  ihave HI := (inv_dma m K c 130 (by decide) (by decide)) $$ Hrec
  ihave HR := (reached_dma m K c 130 (by decide) (by decide)) $$ Hrec
  ihave Hx := (Entails.of_eq (xwhole_eq m c)) $$ Hx
  iapply (wp_copy_AG m K c fd) $$ [HI Hx Hown Htok HR]
  · isplitl [HI]; · iexact HI
    isplitl [Hx]; · iexact Hx
    isplitl [Hown]; · iexact Hown
    isplitl [Htok]; · iexact Htok
    iexact HR
  iintro HcL
  iapply Hk
  iapply Hclose
  isplitr; · iempintro
  isplitr; · iempintro
  isplitl [Hat]; · iexact Hat
  iexact HcL

/-- info: 'Cert.KernelIdeal.AG.step_send' depends on axioms: [propext, Classical.choice, Quot.sound] -/
#guard_msgs in #print axioms step_send

/-- info: 'Cert.KernelIdeal.AG.step_loc' depends on axioms: [propext, Classical.choice, Quot.sound] -/
#guard_msgs in #print axioms step_loc

end Cert.KernelIdeal.AG

end
-- ==== Proof.StepsC.lean ====
/-
  Waiting for a copy. The wait on the landing cell of the copy i addressed to the device hands it the rows the
  copy wrote, holding what they must end with, and closes the cell; the wait on its own read-out cell of copy i hands
  back its share of the rows the copy read and closes the cell; the wait for the local copy hands back the device's
  own half, holding its block, and the left half share of the argument block.
-/
import proofs.«900661_g7700000000000662_dist_ag_v7x_xyz2x2x2_x_m2048_n512_f32_1_alg».proof.Proof.Acc

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

/-! The auxiliary facts of the three waits live in a namespace of their own. -/
namespace Waits

/-! ## Indices of the semaphores -/

theorem two_le_rIdx (i : Xf) : 2 ≤ i.rIdx := by cases i <;> simp only [Xf.rIdx] <;> omega
theorem two_le_sIdx (i : Xf) : 2 ≤ i.sIdx := by cases i <;> simp only [Xf.sIdx] <;> omega
theorem rIdx_ne (i : Xf) : i.rIdx ≠ 130 := by cases i <;> simp only [Xf.rIdx] <;> omega
theorem sIdx_ne (i : Xf) : i.sIdx ≠ 130 := by cases i <;> simp only [Xf.sIdx] <;> omega

theorem roleOf_rIdx (i : Xf) : roleOf i.rIdx = .recv i := by
  rcases i with k | k | k | k | k | k <;> fin_cases k <;> rfl
theorem roleOf_sIdx (i : Xf) : roleOf i.sIdx = .send i := by
  rcases i with k | k | k | k | k | k <;> fin_cases k <;> rfl
theorem roleOf_loc : roleOf 130 = .loc := rfl

/-! ## The schedule's table at a device's own DMA cells -/

theorem duties_dma (c : Dev nD) (j : DmaSem sig) (h : 2 ≤ j.val) :
    (sched (F := F) m).duties ((c : Thread nD τ), .dma j) 0 = {0} := by
  dsimp only [sched]; rw [if_pos ⟨rfl, rfl⟩, if_pos h]

theorem duties_later (g : GSem nD τ sig) : ∀ r, 1 ≤ r → (sched (F := F) m).duties g r = ∅ :=
  fun r hr => by dsimp only [sched]; rw [if_neg fun h => by have := h.1; omega]

theorem expect_dma (c : Dev nD) (j : DmaSem sig) (h : 2 ≤ j.val) :
    (sched (F := F) m).expect ((c : Thread nD τ), .dma j) 0 = if j.val = 130 then NL else NC := by
  unfold Schedule.expect Schedule.amountOf
  rw [duties_dma m c j h, Finset.sum_singleton]
  rfl

theorem expect_r (c : Dev nD) (i : Xf) : (sched (F := F) m).expect (rCell i c) 0 = NC := by
  rw [expect_dma m c (rS i) (two_le_rIdx i)]; exact if_neg (rIdx_ne i)
theorem expect_s (c : Dev nD) (i : Xf) : (sched (F := F) m).expect (sCell i c) 0 = NC := by
  rw [expect_dma m c (sS i) (two_le_sIdx i)]; exact if_neg (sIdx_ne i)
theorem expect_loc (c : Dev nD) : (sched (F := F) m).expect (locCell c) 0 = NL := by
  rw [expect_dma m c locS (by decide)]; exact if_pos rfl

theorem payload_r (c : Dev nD) (i : Xf) (d : Fin 3) : (sched m).payload (rCell i c) 0 d = recvPay m c i := by
  dsimp only [sched]; rw [roleOf_rIdx]
theorem payload_s (c : Dev nD) (i : Xf) (d : Fin 3) : (sched m).payload (sCell i c) 0 d = sendPay m c i := by
  dsimp only [sched]; rw [roleOf_sIdx]
theorem payload_loc (c : Dev nD) (d : Fin 3) : (sched m).payload (locCell c) 0 d = locPay m c := by
  dsimp only [sched]; rw [roleOf_loc]

/-- The rest of a landing cell's round, no duty taken: the landed rows. -/
theorem rest_r (c : Dev nD) (i : Xf) :
    bigSep ((sched m).duties (rCell i c) 0 \ ∅) (fun d => (sched m).payload (rCell i c) 0 d) = recvPay m c i := by
  rw [Finset.sdiff_empty, duties_dma m c (rS i) (two_le_rIdx i), bigSep_singleton, payload_r]
theorem rest_s (c : Dev nD) (i : Xf) :
    bigSep ((sched m).duties (sCell i c) 0 \ ∅) (fun d => (sched m).payload (sCell i c) 0 d) = sendPay m c i := by
  rw [Finset.sdiff_empty, duties_dma m c (sS i) (two_le_sIdx i), bigSep_singleton, payload_s]
theorem rest_loc (c : Dev nD) :
    bigSep ((sched m).duties (locCell c) 0 \ ∅) (fun d => (sched m).payload (locCell c) 0 d) = locPay m c := by
  rw [Finset.sdiff_empty, duties_dma m c locS (by decide), bigSep_singleton, payload_loc]

/-! ## Taking three or four pieces out of the state -/

theorem St_acc3 (c : Dev nD) (a b d : Res) (hab : a ≠ b) (had : a ≠ d) (hbd : b ≠ d) (n n' : ℕ)
    (h : Frame {a, b, d} n n') :
    St m c n ⊢ iprop((interp m c a (tag a n) ∗ interp m c b (tag b n) ∗ interp m c d (tag d n))
      ∗ ((interp m c a (tag a n') ∗ interp m c b (tag b n') ∗ interp m c d (tag d n')) -∗ St m c n')) := by
  have h0 := St_acc m c {a, b, d} n n' h
  have hb : b ∉ ({d} : Finset Res) := by simpa using hbd
  have ha : a ∉ (insert b {d} : Finset Res) := by simp [hab, had]
  rw [bigSep_insert ha, bigSep_insert hb, bigSep_singleton, bigSep_insert ha, bigSep_insert hb, bigSep_singleton] at h0
  exact h0

theorem St_acc4 (c : Dev nD) (a b d e : Res) (hab : a ≠ b) (had : a ≠ d) (hae : a ≠ e) (hbd : b ≠ d) (hbe : b ≠ e)
    (hde : d ≠ e) (n n' : ℕ) (h : Frame {a, b, d, e} n n') :
    St m c n ⊢ iprop((interp m c a (tag a n) ∗ interp m c b (tag b n) ∗ interp m c d (tag d n) ∗ interp m c e (tag e n))
      ∗ ((interp m c a (tag a n') ∗ interp m c b (tag b n') ∗ interp m c d (tag d n') ∗ interp m c e (tag e n')) -∗ St m c n')) := by
  have h0 := St_acc m c {a, b, d, e} n n' h
  have hd : d ∉ ({e} : Finset Res) := by simpa using hde
  have hb : b ∉ (insert d {e} : Finset Res) := by simp [hbd, hbe]
  have ha : a ∉ (insert b (insert d {e}) : Finset Res) := by simp [hab, had, hae]
  rw [bigSep_insert ha, bigSep_insert hb, bigSep_insert hd, bigSep_singleton,
    bigSep_insert ha, bigSep_insert hb, bigSep_insert hd, bigSep_singleton] at h0
  exact h0

/-! ## The states of the pieces a landing wait touches -/

theorem tag_rcell_rw (i : Xf) : tag (.rcell i) i.tRW = 0 := by simp [tag]
theorem tag_rcell_rw' (i : Xf) : tag (.rcell i) (i.tRW + 1) = 2 := by simp [tag]
theorem tag_slot_rw : ∀ i : Xf, tag (.slot i) i.tRW = 1 := by decide +kernel
theorem tag_slot_rw' : ∀ i : Xf, tag (.slot i) (i.tRW + 1) = 2 := by decide +kernel

/-- The level of the landing cell of copy j, on whichever device. -/
def rLv (j : Xf) : ℕ := lv (rCell j (0 : Dev nD)) ()
theorem lv_rCell (j : Xf) (c : Dev nD) : lv (rCell j c) () = rLv j := rfl

theorem L_tc (c : Dev nD) (sm : SemLoc sig) : L ((c : Thread nD τ), sm) = {()} := if_pos rfl

/-- At the wait for the landing of copy i every entry signal has been made, the wait enqueues nothing, and every
    copy still to be enqueued lands on a cell of a higher level. -/
theorem rw_owes : ∀ i : Xf, ([0, 1, 2] : List (Fin 3)).drop (tag .owes i.tRW / 100) = []
    ∧ tag .owes (i.tRW + 1) = tag .owes i.tRW
    ∧ ∀ j ∈ sendOrder.drop (tag .owes i.tRW % 100), rLv i < rLv j := by decide +kernel

/-- A cell at which the landings of the copies l are owed is the landing cell of one of them. -/
theorem owedX_pos (c : Dev nD) : ∀ (l : List Xf) {g : GSem nD τ sig} {u : Unit}, 0 < owedX c l g u →
    ∃ j ∈ l, g = rCell j (peer j.dir c)
  | [], g, u, h => absurd h (Nat.lt_irrefl 0)
  | j :: l, g, u, h => by
    unfold owedX at h
    rw [Pi.add_apply, Finsupp.add_apply, tallyAt_apply] at h
    by_cases hg : g = rCell j (peer j.dir c) ∧ u = ()
    · exact ⟨j, List.mem_cons_self, hg.1⟩
    · rw [if_neg hg, Nat.add_zero] at h
      obtain ⟨j', hj', e⟩ := owedX_pos c l h
      exact ⟨j', List.mem_cons_of_mem _ hj', e⟩

/-- A device may wait on the landing cell of copy i while the copies it still owes land on cells of higher levels. -/
theorem mayWait_rw (c : Dev nD) (i : Xf) (l : List Xf) (hl : ∀ j ∈ l, rLv i < rLv j) :
    (levAts L lv : sProp 𝕄) ⊢ MayWait (c : Thread nD τ) (.dma (rS i)) () (owedX c l) :=
  MayOwe.of_cut (L := L) (lev := lv) (rLv i)
    (fun p hp => by rw [Finset.mem_singleton.mp hp, L_tc]; exact Finset.mem_singleton_self _)
    (fun g u hg => by obtain ⟨j, _, rfl⟩ := owedX_pos c l hg; rw [L_tc]; exact Finset.mem_singleton_self _)
    (fun p hp => by rw [Finset.mem_singleton.mp hp]; exact le_of_eq (lv_rCell i c))
    (fun g u hg => by obtain ⟨j, hj, rfl⟩ := owedX_pos c l hg; rw [lv_rCell]; exact hl j hj)

theorem interp_owes_rw (c : Dev nD) (i : Xf) :
    interp m c .owes (tag .owes i.tRW)
      = iprop(∃ W : Waits sig Unit, owes (c : Thread nD τ) (owedX c (sendOrder.drop (tag .owes i.tRW % 100))) W) := by
  show iprop(∃ W : Waits sig Unit, owes (c : Thread nD τ)
      (owedAll c (([0, 1, 2] : List (Fin 3)).drop (tag .owes i.tRW / 100)) (sendOrder.drop (tag .owes i.tRW % 100))) W) = _
  rw [(rw_owes i).1]
  rfl

/-- The pieces the landing wait takes out of the state, and what it puts back. -/
theorem acc_rw (c : Dev nD) (i : Xf) (hfr : Frame (rwA i) i.tRW (i.tRW + 1)) :
    St m c i.tRW ⊢ iprop(((atPos ER (rCell i c) 0 ∅ 0 ∗ cred (tallyAt (rCell i c) () NC)) ∗ emp
        ∗ (∃ W : Waits sig Unit, owes (c : Thread nD τ) (owedX c (sendOrder.drop (tag .owes i.tRW % 100))) W))
      ∗ ((semVal (rCell i c) 0 ∗ oPts c (slotSet i c) fullShare (outAt m c)
        ∗ (∃ W : Waits sig Unit, owes (c : Thread nD τ) (owedX c (sendOrder.drop (tag .owes i.tRW % 100))) W))
        -∗ St m c (i.tRW + 1))) := by
  have h := St_acc3 m c (.rcell i) (.slot i) .owes (by simp) (by simp) (by simp) _ _ hfr
  rw [tag_rcell_rw, tag_rcell_rw', tag_slot_rw, tag_slot_rw', (rw_owes i).2.1, interp_owes_rw] at h
  exact h

/-! ## When every copy has been enqueued nothing is owed -/

theorem owes_done : tag .owes 133 = 364 ∧ tag .owes 134 = 364 ∧ sendOrder.drop 64 = []
    ∧ ∀ i : Xf, tag .owes i.tSW = 364 ∧ tag .owes (i.tSW + 1) = 364 := by decide +kernel

theorem interp_owes_done (c : Dev nD) :
    interp m c .owes 364 = iprop(∃ W : Waits sig Unit, owes (c : Thread nD τ) 0 W) := by
  show iprop(∃ W : Waits sig Unit, owes (c : Thread nD τ)
      (owedAll c (([0, 1, 2] : List (Fin 3)).drop (364 / 100)) (sendOrder.drop (364 % 100))) W) = _
  rw [show 364 % 100 = 64 from rfl, owes_done.2.2.1]
  rfl

/-! ## The local copy's wait -/

theorem acc_locw (c : Dev nD) (hfr : Frame locwA 133 134) :
    St m c 133 ⊢ iprop(((atPos ER (locCell c) 0 ∅ 0 ∗ cred (tallyAt (locCell c) () NL)) ∗ emp ∗ emp
        ∗ (∃ W : Waits sig Unit, owes (c : Thread nD τ) 0 W))
      ∗ ((semVal (locCell c) 0 ∗ oPts c (ownSet c) fullShare (outAt m c) ∗ xPts m c Finset.univ fullShare.left
        ∗ (∃ W : Waits sig Unit, owes (c : Thread nD τ) 0 W))
        -∗ St m c 134)) := by
  have h := St_acc4 m c .loccell .own .xL .owes (by simp) (by simp) (by simp) (by simp) (by simp) (by simp) _ _ hfr
  rw [owes_done.1, owes_done.2.1, interp_owes_done] at h
  exact h

/-! ## The rows a relay reads are the rows an earlier copy wrote -/

theorem off_1_6 : ∀ c : Dev nD, ∀ k : Fin 16, k0_off1 (px c) (wd k.val) = k0_off6 c (wd k.val) := by decide +kernel
theorem off_6_7 : ∀ c : Dev nD, ∀ k : Fin 4,
    k0_off6 (pz c) (wd (k.val + 9)) = k0_off7 c (BitVec.ofNat 32 (288 + 32 * k.val)) := by decide +kernel
theorem off_6_8 : ∀ c : Dev nD, ∀ k : Fin 3,
    k0_off6 (py c) (wd (k.val + 13)) = k0_off8 c (BitVec.ofNat 32 (416 + 32 * k.val)) := by decide +kernel

/-- The 32 rows of the result buffer at a given offset. -/
def slSet (o : Fin 2 → ℕ) (h : ∀ a, o a + S32x512.size a ≤ S4096x512.size a) : Finset OIx :=
  (oM.slice (Rect.unit (s := S4096x512) o S32x512.size h) (fun _ => rfl)).view.set

theorem slSet_congr {o o' : Fin 2 → ℕ} (e : o = o') (h : ∀ a, o a + S32x512.size a ≤ S4096x512.size a)
    (h' : ∀ a, o' a + S32x512.size a ≤ S4096x512.size a) : slSet o h = slSet o' h' := by subst e; rfl

/-- Chunk k of the first-axis neighbour's own quarter lands on the rows both relays of chunk k read. -/
theorem slot_xa (c : Dev nD) (k : Fin 16) : slotSet (.xa k) c = (fwM c k).view.set := by
  simp only [slotSet, dstSet, Xf.dir]
  unfold xaDst fwM
  exact slSet_congr (off_1_6 c k) _ _

/-- Chunks 9 to 12 relayed along the third axis land on the rows the second relays along the second axis read. -/
theorem slot_zf9 (c : Dev nD) (k : Fin 4) : slotSet (.zf ⟨k.val + 9, by omega⟩) c = (yaM c k).view.set := by
  simp only [slotSet, dstSet, Xf.dir]
  unfold fwM yaM
  exact slSet_congr (off_6_7 c k) _ _

/-- Chunks 13 to 15 relayed along the second axis land on the rows the second relays along the third axis read. -/
theorem slot_yf13 (c : Dev nD) (k : Fin 3) : slotSet (.yf ⟨k.val + 13, by omega⟩) c = (zbM c k).view.set := by
  simp only [slotSet, dstSet, Xf.dir]
  unfold fwM zbM
  exact slSet_congr (off_6_8 c k) _ _

/-! ## The states of the pieces a read-out wait touches -/

/-- The state of the piece holding copy i's source rows before and after the wait for its read-out. -/
def tb : Xf → ℕ | .xa _ => 0 | .xb _ => 0 | .yf _ => 5 | .zf _ => 3 | .ya _ => 5 | .zb _ => 5
def ta : Xf → ℕ | .xa _ => 1 | .xb _ => 1 | .yf _ => 3 | .zf _ => 2 | .ya _ => 2 | .zb _ => 2

theorem tags_sw : ∀ i : Xf, tag (.scell i) i.tSW = 1 ∧ tag (.scell i) (i.tSW + 1) = 2
    ∧ tag (srcRes i) i.tSW = tb i ∧ tag (srcRes i) (i.tSW + 1) = ta i := by decide +kernel

/-- The share of the source rows a read-out hands back joins what the piece holds. -/
theorem src_back (c : Dev nD) (i : Xf) :
    iprop(interp m c (srcRes i) (tb i) ∗ sendPay m c i) ⊢ interp m c (srcRes i) (ta i) := by
  rcases i with k | k | k | k | k | k
  · show iprop(emp ∗ xPts m c (xSet (.xa k) c) fullShare.right) ⊢ xPts m c (xSet (.xa k) c) fullShare.right
    iintro ⟨-, H⟩; iexact H
  · show iprop(emp ∗ xPts m c (xSet (.xb k) c) fullShare.right) ⊢ xPts m c (xSet (.xb k) c) fullShare.right
    iintro ⟨-, H⟩; iexact H
  · show iprop(emp ∗ oPts c (fwM c k).view.set fullShare.left (outAt m c))
      ⊢ oPts c (slotSet (.xa k) c) fullShare.left (outAt m c)
    rw [slot_xa]
    iintro ⟨-, H⟩; iexact H
  · show iprop(oPts c (slotSet (.xa k) c) fullShare.left (outAt m c) ∗ oPts c (fwM c k).view.set fullShare.right (outAt m c))
      ⊢ oPts c (slotSet (.xa k) c) fullShare (outAt m c)
    rw [slot_xa]
    unfold oPts
    exact (pointsTo_share (PosShare.mem_left_op_right fullShare)).2
  · show iprop(emp ∗ oPts c (yaM c k).view.set fullShare (outAt m c))
      ⊢ oPts c (slotSet (.zf ⟨k.val + 9, by omega⟩) c) fullShare (outAt m c)
    rw [slot_zf9]
    iintro ⟨-, H⟩; iexact H
  · show iprop(emp ∗ oPts c (zbM c k).view.set fullShare (outAt m c))
      ⊢ oPts c (slotSet (.yf ⟨k.val + 13, by omega⟩) c) fullShare (outAt m c)
    rw [slot_yf13]
    iintro ⟨-, H⟩; iexact H

theorem scell_ne_src (i : Xf) : Res.scell i ≠ srcRes i := by cases i <;> simp [srcRes]
theorem src_ne_owes (i : Xf) : srcRes i ≠ Res.owes := by cases i <;> simp [srcRes]

/-- The pieces the read-out wait takes out of the state, and what it puts back. -/
theorem acc_sw (c : Dev nD) (i : Xf) (hfr : Frame (swA i) i.tSW (i.tSW + 1)) :
    St m c i.tSW ⊢ iprop(((atPos ER (sCell i c) 0 ∅ 0 ∗ cred (tallyAt (sCell i c) () NC)) ∗ interp m c (srcRes i) (tb i)
        ∗ (∃ W : Waits sig Unit, owes (c : Thread nD τ) 0 W))
      ∗ ((semVal (sCell i c) 0 ∗ interp m c (srcRes i) (ta i) ∗ (∃ W : Waits sig Unit, owes (c : Thread nD τ) 0 W))
        -∗ St m c (i.tSW + 1))) := by
  have h := St_acc3 m c (.scell i) (srcRes i) .owes (scell_ne_src i) (by simp) (src_ne_owes i) _ _ hfr
  rw [(tags_sw i).1, (tags_sw i).2.1, (tags_sw i).2.2.1, (tags_sw i).2.2.2, (owes_done.2.2.2 i).1, (owes_done.2.2.2 i).2,
    interp_owes_done] at h
  exact h

end Waits

open Waits

/-- The wait for the landing of the copy i addressed to the device, the (n+1)-st operation (n = i.tRW). -/
theorem step_rw (c : Dev nD) (i : Xf) (n : ℕ) (hn : n = i.tRW) (hfr : Frame (rwA i) n (n + 1))
    {src dst : Memref sig .tc .vmem S32x512 .f32} {hsrc : src.view.WordExact} {hdst : dst.view.WordExact} (hcr : dst.view.dmaCredit = NC)
    {α : Type} {Q : α → sProp 𝕄} {k : PUnit → Prog (TpuEff nD τ sig (Elt F) Λ₀ .tc) α} :
    iprop(records m K ∗ St m c n ∗ (St m c (n + 1) -∗ WP c (k ⟨⟩) Q))
      ⊢ WP c (.op (.waitDma2 (rS i) src dst hsrc hdst) k) Q := by
  subst hn
  iintro ⟨#Hrec, HSt, Hk⟩
  ihave HA := (acc_rw m c i hfr) $$ HSt
  icases HA with ⟨⟨⟨Hat, Hcr⟩, -, ⟨%W, HO⟩⟩, Hclose⟩
  ihave #HI := (inv_dma m K c i.rIdx (two_le_rIdx i) i.rIdx_lt) $$ Hrec
  ihave #Hlev := (records_lev m K) $$ Hrec
  -- the wait: the copy's credit against the cell's one duty
  iapply (Rounds.wp_wait_rest_token 𝒱₀ ER (sched m) (c : Thread nD τ) none (κ := K (c, ⟨i.rIdx - 1, by have := i.rIdx_lt; omega⟩)) (k' := NC)
      (fun K' => (wpE_waitDma2_eq 𝒱₀ (c : Thread nD τ) none Set.univ K').trans (by rw [hcr])) (Set.mem_univ _) ()
      (O := owedX c (sendOrder.drop (tag .owes i.tRW % 100))) (W := W) (R := 0) (m := 0) (T := ∅)
      (by rw [Nat.zero_add, expect_r])) $$ [Hcr HO Hat]
  · isplitr; · iexact HI
    isplitl [Hcr]; · iexact Hcr
    isplitl [HO]; · iexact HO
    isplitr; · iapply (mayWait_rw c i _ (rw_owes i).2.2); iexact Hlev
    iexact Hat
  iintro ⟨HO, Hat, -, Hpay⟩
  ihave Hp := (Entails.of_eq (rest_r m c i)) $$ Hpay
  -- the cell closes: its counter at zero is the device's again
  imod (Rounds.cell_close ER (sched m) (Set.mem_univ (K (c, ⟨i.rIdx - 1, by have := i.rIdx_lt; omega⟩))) (fun h => h) (R := 0 + 1)
    (duties_later m (rCell i c))) $$ [Hat] with Hz
  · isplitr; · iexact HI
    iexact Hat
  iapply Hk
  iapply Hclose
  isplitl [Hz]; · iexact Hz
  isplitl [Hp]; · unfold recvPay; iexact Hp
  iexists _; iexact HO

/-- The wait for the device's own copy i to have been read out, the (n+1)-st operation (n = i.tSW). -/
theorem step_sw (c : Dev nD) (i : Xf) (n : ℕ) (hn : n = i.tSW) (hfr : Frame (swA i) n (n + 1))
    {src dst : Memref sig .tc .vmem S32x512 .f32} {hsrc : src.view.WordExact} {hdst : dst.view.WordExact} (hcr : dst.view.dmaCredit = NC)
    {α : Type} {Q : α → sProp 𝕄} {k : PUnit → Prog (TpuEff nD τ sig (Elt F) Λ₀ .tc) α} :
    iprop(records m K ∗ St m c n ∗ (St m c (n + 1) -∗ WP c (k ⟨⟩) Q))
      ⊢ WP c (.op (.waitDma2 (sS i) src dst hsrc hdst) k) Q := by
  subst hn
  iintro ⟨#Hrec, HSt, Hk⟩
  ihave HA := (acc_sw m c i hfr) $$ HSt
  icases HA with ⟨⟨⟨Hat, Hcr⟩, Hsrc, ⟨%W, HO⟩⟩, Hclose⟩
  ihave #HI := (inv_dma m K c i.sIdx (two_le_sIdx i) i.sIdx_lt) $$ Hrec
  -- the wait: the copy's credit against the cell's one duty; nothing is owed any more
  iapply (Rounds.wp_wait_rest_token 𝒱₀ ER (sched m) (c : Thread nD τ) none (κ := K (c, ⟨i.sIdx - 1, by have := i.sIdx_lt; omega⟩)) (k' := NC)
      (fun K' => (wpE_waitDma2_eq 𝒱₀ (c : Thread nD τ) none Set.univ K').trans (by rw [hcr])) (Set.mem_univ _) ()
      (O := 0) (W := W) (R := 0) (m := 0) (T := ∅)
      (by rw [Nat.zero_add, expect_s])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_s m c i)) $$ Hpay
  ihave Hsrc' := (src_back m c i) $$ [Hsrc Hp]
  · isplitl [Hsrc]; · iexact Hsrc
    iexact Hp
  -- the cell closes: its counter at zero is the device's again
  imod (Rounds.cell_close ER (sched m) (Set.mem_univ (K (c, ⟨i.sIdx - 1, by have := i.sIdx_lt; omega⟩))) (fun h => h) (R := 0 + 1)
    (duties_later m (sCell i c))) $$ [Hat] with Hz
  · isplitr; · iexact HI
    iexact Hat
  iapply Hk
  iapply Hclose
  isplitl [Hz]; · iexact Hz
  isplitl [Hsrc']; · iexact Hsrc'
  iexists _; iexact HO

/-- The wait for the local copy, the 134th operation. -/
theorem step_locw (c : Dev nD) (hfr : Frame locwA 133 134)
    {src dst : Memref sig .tc .vmem S2048x512 .f32} {hsrc : src.view.WordExact} {hdst : dst.view.WordExact} (hcr : dst.view.dmaCredit = NL)
    {α : Type} {Q : α → sProp 𝕄} {k : PUnit → Prog (TpuEff nD τ sig (Elt F) Λ₀ .tc) α} :
    iprop(records m K ∗ St m c 133 ∗ (St m c 134 -∗ WP c (k ⟨⟩) Q))
      ⊢ WP c (.op (.waitDma2 locS src dst hsrc hdst) k) Q := by
  iintro ⟨#Hrec, HSt, Hk⟩
  ihave HA := (acc_locw m c hfr) $$ HSt
  icases HA with ⟨⟨⟨Hat, Hcr⟩, -, -, ⟨%W, HO⟩⟩, Hclose⟩
  ihave #HI := (inv_dma m K c 130 (by decide) (by decide)) $$ Hrec
  -- the wait: the block's credit against the cell's one duty; nothing is owed any more
  iapply (Rounds.wp_wait_rest_token 𝒱₀ ER (sched m) (c : Thread nD τ) none (κ := K (c, ⟨130 - 1, by decide⟩)) (k' := NL)
      (fun K' => (wpE_waitDma2_eq 𝒱₀ (c : Thread nD τ) none Set.univ K').trans (by rw [hcr])) (Set.mem_univ _) ()
      (O := 0) (W := W) (R := 0) (m := 0) (T := ∅)
      (by rw [Nat.zero_add, expect_loc])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_loc m c)) $$ Hpay
  unfold locPay
  icases Hp with ⟨Hown, HxL⟩
  -- the cell closes
  imod (Rounds.cell_close ER (sched m) (Set.mem_univ (K (c, ⟨130 - 1, by decide⟩))) (fun h => h) (R := 0 + 1)
    (duties_later m (locCell c))) $$ [Hat] with Hz
  · isplitr; · iexact HI
    iexact Hat
  iapply Hk
  iapply Hclose
  isplitl [Hz]; · iexact Hz
  isplitl [Hown]; · iexact Hown
  isplitl [HxL]; · iexact HxL
  iexists _; iexact HO

/-- info: 'Cert.KernelIdeal.AG.step_rw' depends on axioms: [propext, Classical.choice, Quot.sound] -/
#guard_msgs in #print axioms step_rw

/-- info: 'Cert.KernelIdeal.AG.step_sw' depends on axioms: [propext, Classical.choice, Quot.sound] -/
#guard_msgs in #print axioms step_sw

/-- info: 'Cert.KernelIdeal.AG.step_locw' depends on axioms: [propext, Classical.choice, Quot.sound] -/
#guard_msgs in #print axioms step_locw

end Cert.KernelIdeal.AG

end
-- ==== Proof.PartsA.lean ====
/-
  The first forty memory operations of a device's body, part by part. The entry handshake (three signals, one to each
  neighbour, and the wait for the three neighbours' signals), the sixteen chunks of the device's own quarter and the
  first nine chunks of the diagonal quarter sent to the first-axis neighbour, the local copy of the device's block into
  its own half of the result, and the first three rounds of the relays: a chunk that has landed from the first-axis
  neighbour is waited for after the previous chunk has been sent on along the second and the third axis. Each part
  takes the device's state after the operations before it to its state after its own operations, one step at a time;
  the records of the cells' invariants are knowledge and pass through unchanged.
-/
import proofs.«900661_g7700000000000662_dist_ag_v7x_xyz2x2x2_x_m2048_n512_f32_1_alg».proof.Proof.StepsA
import proofs.«900661_g7700000000000662_dist_ag_v7x_xyz2x2x2_x_m2048_n512_f32_1_alg».proof.Proof.StepsB
import proofs.«900661_g7700000000000662_dist_ag_v7x_xyz2x2x2_x_m2048_n512_f32_1_alg».proof.Proof.StepsC

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

namespace PartsA

/-! ## The device every operation addresses is one of the three neighbours -/

theorem dev1_eq (c : Dev nD) : (⟨k0_dev1 c, k0_dev1_lt c⟩ : Dev nD) = peer 0 c := rfl
theorem dev2_eq (c : Dev nD) : (⟨k0_dev2 c, k0_dev2_lt c⟩ : Dev nD) = peer 1 c := rfl
theorem dev3_eq (c : Dev nD) : (⟨k0_dev3 c, k0_dev3_lt c⟩ : Dev nD) = peer 2 c := rfl
theorem dev4_eq (c : Dev nD) : (⟨k0_dev4 c, k0_dev4_lt c⟩ : Dev nD) = peer 0 c :=
  Fin.ext (by show k0_dev4 c = k0_dev1 c; rw [k0_dev4_eq, k0_dev1_eq])
theorem dev5_eq (c : Dev nD) : (⟨k0_dev5 c, k0_dev5_lt c⟩ : Dev nD) = peer 0 c :=
  Fin.ext (by show k0_dev5 c = k0_dev1 c; rw [k0_dev5_eq, k0_dev1_eq])
theorem dev6_eq (c : Dev nD) : (⟨k0_dev6 c, k0_dev6_lt c⟩ : Dev nD) = peer 0 c :=
  Fin.ext (by show k0_dev6 c = k0_dev1 c; rw [k0_dev6_eq, k0_dev1_eq])
theorem dev7_eq (c : Dev nD) : (⟨k0_dev7 c, k0_dev7_lt c⟩ : Dev nD) = peer 0 c :=
  Fin.ext (by show k0_dev7 c = k0_dev1 c; rw [k0_dev7_eq, k0_dev1_eq])
theorem dev8_eq (c : Dev nD) : (⟨k0_dev8 c, k0_dev8_lt c⟩ : Dev nD) = peer 0 c :=
  Fin.ext (by show k0_dev8 c = k0_dev1 c; rw [k0_dev8_eq, k0_dev1_eq])
theorem dev9_eq (c : Dev nD) : (⟨k0_dev9 c, k0_dev9_lt c⟩ : Dev nD) = peer 0 c :=
  Fin.ext (by show k0_dev9 c = k0_dev1 c; rw [k0_dev9_eq, k0_dev1_eq])
theorem dev10_eq (c : Dev nD) : (⟨k0_dev10 c, k0_dev10_lt c⟩ : Dev nD) = peer 0 c :=
  Fin.ext (by show k0_dev10 c = k0_dev1 c; rw [k0_dev10_eq, k0_dev1_eq])
theorem dev11_eq (c : Dev nD) : (⟨k0_dev11 c, k0_dev11_lt c⟩ : Dev nD) = peer 0 c :=
  Fin.ext (by show k0_dev11 c = k0_dev1 c; rw [k0_dev11_eq, k0_dev1_eq])
theorem dev12_eq (c : Dev nD) : (⟨k0_dev12 c, k0_dev12_lt c⟩ : Dev nD) = peer 0 c :=
  Fin.ext (by show k0_dev12 c = k0_dev1 c; rw [k0_dev12_eq, k0_dev1_eq])
theorem dev13_eq (c : Dev nD) : (⟨k0_dev13 c, k0_dev13_lt c⟩ : Dev nD) = peer 0 c :=
  Fin.ext (by show k0_dev13 c = k0_dev1 c; rw [k0_dev13_eq, k0_dev1_eq])
theorem dev14_eq (c : Dev nD) : (⟨k0_dev14 c, k0_dev14_lt c⟩ : Dev nD) = peer 0 c :=
  Fin.ext (by show k0_dev14 c = k0_dev1 c; rw [k0_dev14_eq, k0_dev1_eq])
theorem dev15_eq (c : Dev nD) : (⟨k0_dev15 c, k0_dev15_lt c⟩ : Dev nD) = peer 0 c :=
  Fin.ext (by show k0_dev15 c = k0_dev1 c; rw [k0_dev15_eq, k0_dev1_eq])
theorem dev16_eq (c : Dev nD) : (⟨k0_dev16 c, k0_dev16_lt c⟩ : Dev nD) = peer 0 c :=
  Fin.ext (by show k0_dev16 c = k0_dev1 c; rw [k0_dev16_eq, k0_dev1_eq])
theorem dev17_eq (c : Dev nD) : (⟨k0_dev17 c, k0_dev17_lt c⟩ : Dev nD) = peer 0 c :=
  Fin.ext (by show k0_dev17 c = k0_dev1 c; rw [k0_dev17_eq, k0_dev1_eq])
theorem dev18_eq (c : Dev nD) : (⟨k0_dev18 c, k0_dev18_lt c⟩ : Dev nD) = peer 0 c :=
  Fin.ext (by show k0_dev18 c = k0_dev1 c; rw [k0_dev18_eq, k0_dev1_eq])
theorem dev19_eq (c : Dev nD) : (⟨k0_dev19 c, k0_dev19_lt c⟩ : Dev nD) = peer 0 c :=
  Fin.ext (by show k0_dev19 c = k0_dev1 c; rw [k0_dev19_eq, k0_dev1_eq])
theorem dev20_eq (c : Dev nD) : (⟨k0_dev20 c, k0_dev20_lt c⟩ : Dev nD) = peer 0 c :=
  Fin.ext (by show k0_dev20 c = k0_dev1 c; rw [k0_dev20_eq, k0_dev1_eq])
theorem dev21_eq (c : Dev nD) : (⟨k0_dev21 c, k0_dev21_lt c⟩ : Dev nD) = peer 0 c :=
  Fin.ext (by show k0_dev21 c = k0_dev1 c; rw [k0_dev21_eq, k0_dev1_eq])
theorem dev22_eq (c : Dev nD) : (⟨k0_dev22 c, k0_dev22_lt c⟩ : Dev nD) = peer 0 c :=
  Fin.ext (by show k0_dev22 c = k0_dev1 c; rw [k0_dev22_eq, k0_dev1_eq])
theorem dev23_eq (c : Dev nD) : (⟨k0_dev23 c, k0_dev23_lt c⟩ : Dev nD) = peer 0 c :=
  Fin.ext (by show k0_dev23 c = k0_dev1 c; rw [k0_dev23_eq, k0_dev1_eq])
theorem dev24_eq (c : Dev nD) : (⟨k0_dev24 c, k0_dev24_lt c⟩ : Dev nD) = peer 0 c :=
  Fin.ext (by show k0_dev24 c = k0_dev1 c; rw [k0_dev24_eq, k0_dev1_eq])
theorem dev25_eq (c : Dev nD) : (⟨k0_dev25 c, k0_dev25_lt c⟩ : Dev nD) = peer 0 c :=
  Fin.ext (by show k0_dev25 c = k0_dev1 c; rw [k0_dev25_eq, k0_dev1_eq])
theorem dev26_eq (c : Dev nD) : (⟨k0_dev26 c, k0_dev26_lt c⟩ : Dev nD) = peer 0 c :=
  Fin.ext (by show k0_dev26 c = k0_dev1 c; rw [k0_dev26_eq, k0_dev1_eq])
theorem dev27_eq (c : Dev nD) : (⟨k0_dev27 c, k0_dev27_lt c⟩ : Dev nD) = peer 0 c :=
  Fin.ext (by show k0_dev27 c = k0_dev1 c; rw [k0_dev27_eq, k0_dev1_eq])
theorem dev28_eq (c : Dev nD) : (⟨k0_dev28 c, k0_dev28_lt c⟩ : Dev nD) = peer 0 c :=
  Fin.ext (by show k0_dev28 c = k0_dev1 c; rw [k0_dev28_eq, k0_dev1_eq])
theorem dev29_eq (c : Dev nD) : (⟨k0_dev29 c, k0_dev29_lt c⟩ : Dev nD) = peer 1 c :=
  Fin.ext (by show k0_dev29 c = k0_dev2 c; rw [k0_dev29_eq, k0_dev2_eq])
theorem dev30_eq (c : Dev nD) : (⟨k0_dev30 c, k0_dev30_lt c⟩ : Dev nD) = peer 2 c :=
  Fin.ext (by show k0_dev30 c = k0_dev3 c; rw [k0_dev30_eq, k0_dev3_eq])
theorem dev31_eq (c : Dev nD) : (⟨k0_dev31 c, k0_dev31_lt c⟩ : Dev nD) = peer 1 c :=
  Fin.ext (by show k0_dev31 c = k0_dev2 c; rw [k0_dev31_eq, k0_dev2_eq])
theorem dev32_eq (c : Dev nD) : (⟨k0_dev32 c, k0_dev32_lt c⟩ : Dev nD) = peer 2 c :=
  Fin.ext (by show k0_dev32 c = k0_dev3 c; rw [k0_dev32_eq, k0_dev3_eq])
theorem dev33_eq (c : Dev nD) : (⟨k0_dev33 c, k0_dev33_lt c⟩ : Dev nD) = peer 1 c :=
  Fin.ext (by show k0_dev33 c = k0_dev2 c; rw [k0_dev33_eq, k0_dev2_eq])
theorem dev34_eq (c : Dev nD) : (⟨k0_dev34 c, k0_dev34_lt c⟩ : Dev nD) = peer 2 c :=
  Fin.ext (by show k0_dev34 c = k0_dev3 c; rw [k0_dev34_eq, k0_dev3_eq])

/-- A chunk landing from the first-axis neighbour pays its landing cell the credit of a 32-row copy. -/
theorem credit_xaDst (c : Dev nD) (k : Fin 16) : (xaDst c k).view.dmaCredit = NC := rfl

end PartsA

set_option hygiene false in
/-- One operation: its step, with the records and the state handed over and the new state taken back. -/
local macro "step " t:pmTerm : tactic =>
  `(tactic| (iapply $t; isplitr; (iexact HR); isplitl [HSt]; (iexact HSt); iintro HSt))

/-- Operations 1 to 5 of the body. -/
theorem part2 (c : Dev nD) (v2 v5 v8 v9 v10 v11 v13 v24 : BitVec 32) :
    iprop(records m K ∗ St m c 0) ⊢ WP c (k0_part2 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v24 (SemArray.scalar (sig.barrier 0 rfl))) (fun _ => iprop(records m K ∗ St m c 5)) := by
  rw [k0_part2_eq_skeleton]; unfold k0_part2_skel
  simp only [semSignalWord, semWaitWord, Prog.lift, Prog.bind_op, Prog.bind_ret, Prog.pure_eq_ret]
  iintro ⟨#HR, HSt⟩
  step (step_signal m K c 0 0 rfl _ (PartsA.dev1_eq c) _ rfl (by decide +kernel))
  step (step_signal m K c 1 1 rfl _ (PartsA.dev2_eq c) _ rfl (by decide +kernel))
  step (step_signal m K c 2 2 rfl _ (PartsA.dev3_eq c) _ rfl (by decide +kernel))
  step (step_barwait m K c _ rfl (by decide +kernel))
  step (step_send m K c (.xa 0) 4 rfl _ (PartsA.dev4_eq c) (by decide +kernel))
  unfold WP; rw [wp_ret]; imodintro
  isplitr
  · iexact HR
  iexact HSt

/-- Operations 6 to 7 of the body. -/
theorem part3 (c : Dev nD) (v5 v8 v9 v13 v24 : BitVec 32) :
    iprop(records m K ∗ St m c 5) ⊢ WP c (k0_part3 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24) (fun _ => iprop(records m K ∗ St m c 7)) := by
  rw [k0_part3_eq_skeleton]; unfold k0_part3_skel
  simp only [Prog.lift, Prog.bind_op, Prog.bind_ret, Prog.pure_eq_ret]
  iintro ⟨#HR, HSt⟩
  step (step_send m K c (.xa 1) 5 rfl _ (PartsA.dev5_eq c) (by decide +kernel))
  step (step_send m K c (.xa 2) 6 rfl _ (PartsA.dev6_eq c) (by decide +kernel))
  unfold WP; rw [wp_ret]; imodintro
  isplitr
  · iexact HR
  iexact HSt

/-- Operations 8 to 9 of the body. -/
theorem part4 (c : Dev nD) (v5 v8 v9 v13 v24 v97 : BitVec 32) :
    iprop(records m K ∗ St m c 7) ⊢ WP c (k0_part4 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24 v97) (fun _ => iprop(records m K ∗ St m c 9)) := by
  rw [k0_part4_eq_skeleton]; unfold k0_part4_skel
  simp only [Prog.lift, Prog.bind_op, Prog.bind_ret, Prog.pure_eq_ret]
  iintro ⟨#HR, HSt⟩
  step (step_send m K c (.xa 3) 7 rfl _ (PartsA.dev7_eq c) (by decide +kernel))
  step (step_send m K c (.xa 4) 8 rfl _ (PartsA.dev8_eq c) (by decide +kernel))
  unfold WP; rw [wp_ret]; imodintro
  isplitr
  · iexact HR
  iexact HSt

/-- Operations 10 to 12 of the body. -/
theorem part5 (c : Dev nD) (v5 v8 v9 v13 v24 : BitVec 32) :
    iprop(records m K ∗ St m c 9) ⊢ WP c (k0_part5 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24) (fun _ => iprop(records m K ∗ St m c 12)) := by
  rw [k0_part5_eq_skeleton]; unfold k0_part5_skel
  simp only [Prog.lift, Prog.bind_op, Prog.bind_ret, Prog.pure_eq_ret]
  iintro ⟨#HR, HSt⟩
  step (step_send m K c (.xa 5) 9 rfl _ (PartsA.dev9_eq c) (by decide +kernel))
  step (step_send m K c (.xa 6) 10 rfl _ (PartsA.dev10_eq c) (by decide +kernel))
  step (step_send m K c (.xa 7) 11 rfl _ (PartsA.dev11_eq c) (by decide +kernel))
  unfold WP; rw [wp_ret]; imodintro
  isplitr
  · iexact HR
  iexact HSt

/-- Operations 13 to 14 of the body. -/
theorem part6 (c : Dev nD) (v5 v8 v9 v13 v24 v167 : BitVec 32) :
    iprop(records m K ∗ St m c 12) ⊢ WP c (k0_part6 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24 v167) (fun _ => iprop(records m K ∗ St m c 14)) := by
  rw [k0_part6_eq_skeleton]; unfold k0_part6_skel
  simp only [Prog.lift, Prog.bind_op, Prog.bind_ret, Prog.pure_eq_ret]
  iintro ⟨#HR, HSt⟩
  step (step_send m K c (.xa 8) 12 rfl _ (PartsA.dev12_eq c) (by decide +kernel))
  step (step_send m K c (.xa 9) 13 rfl _ (PartsA.dev13_eq c) (by decide +kernel))
  unfold WP; rw [wp_ret]; imodintro
  isplitr
  · iexact HR
  iexact HSt

/-- Operations 15 to 16 of the body. -/
theorem part7 (c : Dev nD) (v5 v8 v9 v13 v24 v200 c2_i32_119 : BitVec 32) :
    iprop(records m K ∗ St m c 14) ⊢ WP c (k0_part7 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24 v200 c2_i32_119) (fun _ => iprop(records m K ∗ St m c 16)) := by
  rw [k0_part7_eq_skeleton]; unfold k0_part7_skel
  simp only [Prog.lift, Prog.bind_op, Prog.bind_ret, Prog.pure_eq_ret]
  iintro ⟨#HR, HSt⟩
  step (step_send m K c (.xa 10) 14 rfl _ (PartsA.dev14_eq c) (by decide +kernel))
  step (step_send m K c (.xa 11) 15 rfl _ (PartsA.dev15_eq c) (by decide +kernel))
  unfold WP; rw [wp_ret]; imodintro
  isplitr
  · iexact HR
  iexact HSt

/-- Operations 17 to 19 of the body. -/
theorem part8 (c : Dev nD) (v5 v8 v9 v13 v24 : BitVec 32) :
    iprop(records m K ∗ St m c 16) ⊢ WP c (k0_part8 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24) (fun _ => iprop(records m K ∗ St m c 19)) := by
  rw [k0_part8_eq_skeleton]; unfold k0_part8_skel
  simp only [Prog.lift, Prog.bind_op, Prog.bind_ret, Prog.pure_eq_ret]
  iintro ⟨#HR, HSt⟩
  step (step_send m K c (.xa 12) 16 rfl _ (PartsA.dev16_eq c) (by decide +kernel))
  step (step_send m K c (.xa 13) 17 rfl _ (PartsA.dev17_eq c) (by decide +kernel))
  step (step_send m K c (.xa 14) 18 rfl _ (PartsA.dev18_eq c) (by decide +kernel))
  unfold WP; rw [wp_ret]; imodintro
  isplitr
  · iexact HR
  iexact HSt

/-- Operations 20 to 21 of the body. -/
theorem part9 (c : Dev nD) (v5 v8 v9 v23 v24 v271 : BitVec 32) :
    iprop(records m K ∗ St m c 19) ⊢ WP c (k0_part9 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v23 v24 v271) (fun _ => iprop(records m K ∗ St m c 21)) := by
  rw [k0_part9_eq_skeleton]; unfold k0_part9_skel
  simp only [Prog.lift, Prog.bind_op, Prog.bind_ret, Prog.pure_eq_ret]
  iintro ⟨#HR, HSt⟩
  step (step_send m K c (.xa 15) 19 rfl _ (PartsA.dev19_eq c) (by decide +kernel))
  step (step_send m K c (.xb 0) 20 rfl _ (PartsA.dev20_eq c) (by decide +kernel))
  unfold WP; rw [wp_ret]; imodintro
  isplitr
  · iexact HR
  iexact HSt

/-- Operations 22 to 23 of the body. -/
theorem part10 (c : Dev nD) (v5 v8 v9 v23 v24 v304 c0_i32_176 : BitVec 32) :
    iprop(records m K ∗ St m c 21) ⊢ WP c (k0_part10 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v23 v24 v304 c0_i32_176) (fun _ => iprop(records m K ∗ St m c 23)) := by
  rw [k0_part10_eq_skeleton]; unfold k0_part10_skel
  simp only [Prog.lift, Prog.bind_op, Prog.bind_ret, Prog.pure_eq_ret]
  iintro ⟨#HR, HSt⟩
  step (step_send m K c (.xb 1) 21 rfl _ (PartsA.dev21_eq c) (by decide +kernel))
  step (step_send m K c (.xb 2) 22 rfl _ (PartsA.dev22_eq c) (by decide +kernel))
  unfold WP; rw [wp_ret]; imodintro
  isplitr
  · iexact HR
  iexact HSt

/-- Operations 24 to 26 of the body. -/
theorem part11 (c : Dev nD) (v5 v8 v9 v23 v24 : BitVec 32) :
    iprop(records m K ∗ St m c 23) ⊢ WP c (k0_part11 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v23 v24) (fun _ => iprop(records m K ∗ St m c 26)) := by
  rw [k0_part11_eq_skeleton]; unfold k0_part11_skel
  simp only [Prog.lift, Prog.bind_op, Prog.bind_ret, Prog.pure_eq_ret]
  iintro ⟨#HR, HSt⟩
  step (step_send m K c (.xb 3) 23 rfl _ (PartsA.dev23_eq c) (by decide +kernel))
  step (step_send m K c (.xb 4) 24 rfl _ (PartsA.dev24_eq c) (by decide +kernel))
  step (step_send m K c (.xb 5) 25 rfl _ (PartsA.dev25_eq c) (by decide +kernel))
  unfold WP; rw [wp_ret]; imodintro
  isplitr
  · iexact HR
  iexact HSt

/-- Operations 27 to 28 of the body. -/
theorem part12 (c : Dev nD) (v5 v8 v9 v23 v24 : BitVec 32) :
    iprop(records m K ∗ St m c 26) ⊢ WP c (k0_part12 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v23 v24) (fun _ => iprop(records m K ∗ St m c 28)) := by
  rw [k0_part12_eq_skeleton]; unfold k0_part12_skel
  simp only [Prog.lift, Prog.bind_op, Prog.bind_ret, Prog.pure_eq_ret]
  iintro ⟨#HR, HSt⟩
  step (step_send m K c (.xb 6) 26 rfl _ (PartsA.dev26_eq c) (by decide +kernel))
  step (step_send m K c (.xb 7) 27 rfl _ (PartsA.dev27_eq c) (by decide +kernel))
  unfold WP; rw [wp_ret]; imodintro
  isplitr
  · iexact HR
  iexact HSt

/-- Operations 29 to 31 of the body. -/
theorem part13 (c : Dev nD) (v2 v5 v8 v9 v10 v13 v26 c4_i32_238 : BitVec 32) :
    iprop(records m K ∗ St m c 28) ⊢ WP c (k0_part13 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v13 v26 c4_i32_238) (fun _ => iprop(records m K ∗ St m c 31)) := by
  rw [k0_part13_eq_skeleton]; unfold k0_part13_skel
  simp only [Prog.lift, Prog.bind_op, Prog.bind_ret, Prog.pure_eq_ret]
  iintro ⟨#HR, HSt⟩
  step (step_send m K c (.xb 8) 28 rfl _ (PartsA.dev28_eq c) (by decide +kernel))
  step (step_loc m K c (by decide +kernel))
  step (step_rw m K c (.xa 0) 30 rfl (by decide +kernel) (PartsA.credit_xaDst c 0))
  unfold WP; rw [wp_ret]; imodintro
  isplitr
  · iexact HR
  iexact HSt

/-- Operations 32 to 34 of the body. -/
theorem part14 (c : Dev nD) (v2 v5 v8 v9 v10 v11 v13 v26 : BitVec 32) :
    iprop(records m K ∗ St m c 31) ⊢ WP c (k0_part14 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 34)) := by
  rw [k0_part14_eq_skeleton]; unfold k0_part14_skel
  simp only [Prog.lift, Prog.bind_op, Prog.bind_ret, Prog.pure_eq_ret]
  iintro ⟨#HR, HSt⟩
  step (step_send m K c (.yf 0) 31 rfl _ (PartsA.dev29_eq c) (by decide +kernel))
  step (step_send m K c (.zf 0) 32 rfl _ (PartsA.dev30_eq c) (by decide +kernel))
  step (step_rw m K c (.xa 1) 33 rfl (by decide +kernel) (PartsA.credit_xaDst c 1))
  unfold WP; rw [wp_ret]; imodintro
  isplitr
  · iexact HR
  iexact HSt

/-- Operations 35 to 37 of the body. -/
theorem part15 (c : Dev nD) (v2 v5 v8 v9 v11 v13 v26 v475 : BitVec 32) :
    iprop(records m K ∗ St m c 34) ⊢ WP c (k0_part15 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v11 v13 v26 v475) (fun _ => iprop(records m K ∗ St m c 37)) := by
  rw [k0_part15_eq_skeleton]; unfold k0_part15_skel
  simp only [Prog.lift, Prog.bind_op, Prog.bind_ret, Prog.pure_eq_ret]
  iintro ⟨#HR, HSt⟩
  step (step_send m K c (.yf 1) 34 rfl _ (PartsA.dev31_eq c) (by decide +kernel))
  step (step_send m K c (.zf 1) 35 rfl _ (PartsA.dev32_eq c) (by decide +kernel))
  step (step_rw m K c (.xa 2) 36 rfl (by decide +kernel) (PartsA.credit_xaDst c 2))
  unfold WP; rw [wp_ret]; imodintro
  isplitr
  · iexact HR
  iexact HSt

/-- Operations 38 to 40 of the body. -/
theorem part16 (c : Dev nD) (v2 v5 v8 v9 v10 v11 v13 c4_i32_309 : BitVec 32) :
    iprop(records m K ∗ St m c 37) ⊢ WP c (k0_part16 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 c4_i32_309) (fun _ => iprop(records m K ∗ St m c 40)) := by
  rw [k0_part16_eq_skeleton]; unfold k0_part16_skel
  simp only [Prog.lift, Prog.bind_op, Prog.bind_ret, Prog.pure_eq_ret]
  iintro ⟨#HR, HSt⟩
  step (step_send m K c (.yf 2) 37 rfl _ (PartsA.dev33_eq c) (by decide +kernel))
  step (step_send m K c (.zf 2) 38 rfl _ (PartsA.dev34_eq c) (by decide +kernel))
  step (step_rw m K c (.xa 3) 39 rfl (by decide +kernel) (PartsA.credit_xaDst c 3))
  unfold WP; rw [wp_ret]; imodintro
  isplitr
  · iexact HR
  iexact HSt

/-- info: 'Cert.KernelIdeal.AG.part2' depends on axioms: [propext, Classical.choice, Quot.sound] -/
#guard_msgs in #print axioms part2

/-- info: 'Cert.KernelIdeal.AG.part3' depends on axioms: [propext, Classical.choice, Quot.sound] -/
#guard_msgs in #print axioms part3

/-- info: 'Cert.KernelIdeal.AG.part4' depends on axioms: [propext, Classical.choice, Quot.sound] -/
#guard_msgs in #print axioms part4

/-- info: 'Cert.KernelIdeal.AG.part5' depends on axioms: [propext, Classical.choice, Quot.sound] -/
#guard_msgs in #print axioms part5

/-- info: 'Cert.KernelIdeal.AG.part6' depends on axioms: [propext, Classical.choice, Quot.sound] -/
#guard_msgs in #print axioms part6

/-- info: 'Cert.KernelIdeal.AG.part7' depends on axioms: [propext, Classical.choice, Quot.sound] -/
#guard_msgs in #print axioms part7

/-- info: 'Cert.KernelIdeal.AG.part8' depends on axioms: [propext, Classical.choice, Quot.sound] -/
#guard_msgs in #print axioms part8

/-- info: 'Cert.KernelIdeal.AG.part9' depends on axioms: [propext, Classical.choice, Quot.sound] -/
#guard_msgs in #print axioms part9

/-- info: 'Cert.KernelIdeal.AG.part10' depends on axioms: [propext, Classical.choice, Quot.sound] -/
#guard_msgs in #print axioms part10

/-- info: 'Cert.KernelIdeal.AG.part11' depends on axioms: [propext, Classical.choice, Quot.sound] -/
#guard_msgs in #print axioms part11

/-- info: 'Cert.KernelIdeal.AG.part12' depends on axioms: [propext, Classical.choice, Quot.sound] -/
#guard_msgs in #print axioms part12

/-- info: 'Cert.KernelIdeal.AG.part13' depends on axioms: [propext, Classical.choice, Quot.sound] -/
#guard_msgs in #print axioms part13

/-- info: 'Cert.KernelIdeal.AG.part14' depends on axioms: [propext, Classical.choice, Quot.sound] -/
#guard_msgs in #print axioms part14

/-- info: 'Cert.KernelIdeal.AG.part15' depends on axioms: [propext, Classical.choice, Quot.sound] -/
#guard_msgs in #print axioms part15

/-- info: 'Cert.KernelIdeal.AG.part16' depends on axioms: [propext, Classical.choice, Quot.sound] -/
#guard_msgs in #print axioms part16

end Cert.KernelIdeal.AG

end
-- ==== Proof.PartsB.lean ====
/-
  The middle stretch of a device's body: its 41st to 78th memory operation, from the state after 40 operations to
  the state after 78. Rows that have landed from the neighbour along the
  first axis are relayed on to the neighbours along the second and the third axis (the copies yf k and zf k, for
  k = 3, …, 15), and between these relays the device waits for the landings of the copies xa 4, …, xa 15 addressed
  to it. Each part of the body is two or three such operations. Every operation moves the device's state on by one,
  by the step lemma of its kind; the records of the protocol cells are knowledge and are carried along unchanged, so
  that the parts chain: the state a part ends in is the state the next part starts from.
-/
import proofs.«900661_g7700000000000662_dist_ag_v7x_xyz2x2x2_x_m2048_n512_f32_1_alg».proof.Proof.StepsA
import proofs.«900661_g7700000000000662_dist_ag_v7x_xyz2x2x2_x_m2048_n512_f32_1_alg».proof.Proof.StepsB
import proofs.«900661_g7700000000000662_dist_ag_v7x_xyz2x2x2_x_m2048_n512_f32_1_alg».proof.Proof.StepsC

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

namespace PartsB

/-! ## The addressees

  The device a relay is addressed to is computed by the program afresh at every copy; each of these computations
  gives the neighbour along the second axis (for a copy yf k) or along the third axis (for a copy zf k). -/

theorem dev35_eq (c : Dev nD) : (⟨k0_dev35 c, k0_dev35_lt c⟩ : Dev nD) = peer 1 c :=
  Fin.ext (by show k0_dev35 c = k0_dev2 c; rw [k0_dev35_eq, k0_dev2_eq])
theorem dev36_eq (c : Dev nD) : (⟨k0_dev36 c, k0_dev36_lt c⟩ : Dev nD) = peer 2 c :=
  Fin.ext (by show k0_dev36 c = k0_dev3 c; rw [k0_dev36_eq, k0_dev3_eq])
theorem dev37_eq (c : Dev nD) : (⟨k0_dev37 c, k0_dev37_lt c⟩ : Dev nD) = peer 1 c :=
  Fin.ext (by show k0_dev37 c = k0_dev2 c; rw [k0_dev37_eq, k0_dev2_eq])
theorem dev38_eq (c : Dev nD) : (⟨k0_dev38 c, k0_dev38_lt c⟩ : Dev nD) = peer 2 c :=
  Fin.ext (by show k0_dev38 c = k0_dev3 c; rw [k0_dev38_eq, k0_dev3_eq])
theorem dev39_eq (c : Dev nD) : (⟨k0_dev39 c, k0_dev39_lt c⟩ : Dev nD) = peer 1 c :=
  Fin.ext (by show k0_dev39 c = k0_dev2 c; rw [k0_dev39_eq, k0_dev2_eq])
theorem dev40_eq (c : Dev nD) : (⟨k0_dev40 c, k0_dev40_lt c⟩ : Dev nD) = peer 2 c :=
  Fin.ext (by show k0_dev40 c = k0_dev3 c; rw [k0_dev40_eq, k0_dev3_eq])
theorem dev41_eq (c : Dev nD) : (⟨k0_dev41 c, k0_dev41_lt c⟩ : Dev nD) = peer 1 c :=
  Fin.ext (by show k0_dev41 c = k0_dev2 c; rw [k0_dev41_eq, k0_dev2_eq])
theorem dev42_eq (c : Dev nD) : (⟨k0_dev42 c, k0_dev42_lt c⟩ : Dev nD) = peer 2 c :=
  Fin.ext (by show k0_dev42 c = k0_dev3 c; rw [k0_dev42_eq, k0_dev3_eq])
theorem dev43_eq (c : Dev nD) : (⟨k0_dev43 c, k0_dev43_lt c⟩ : Dev nD) = peer 1 c :=
  Fin.ext (by show k0_dev43 c = k0_dev2 c; rw [k0_dev43_eq, k0_dev2_eq])
theorem dev44_eq (c : Dev nD) : (⟨k0_dev44 c, k0_dev44_lt c⟩ : Dev nD) = peer 2 c :=
  Fin.ext (by show k0_dev44 c = k0_dev3 c; rw [k0_dev44_eq, k0_dev3_eq])
theorem dev45_eq (c : Dev nD) : (⟨k0_dev45 c, k0_dev45_lt c⟩ : Dev nD) = peer 1 c :=
  Fin.ext (by show k0_dev45 c = k0_dev2 c; rw [k0_dev45_eq, k0_dev2_eq])
theorem dev46_eq (c : Dev nD) : (⟨k0_dev46 c, k0_dev46_lt c⟩ : Dev nD) = peer 2 c :=
  Fin.ext (by show k0_dev46 c = k0_dev3 c; rw [k0_dev46_eq, k0_dev3_eq])
theorem dev47_eq (c : Dev nD) : (⟨k0_dev47 c, k0_dev47_lt c⟩ : Dev nD) = peer 1 c :=
  Fin.ext (by show k0_dev47 c = k0_dev2 c; rw [k0_dev47_eq, k0_dev2_eq])
theorem dev48_eq (c : Dev nD) : (⟨k0_dev48 c, k0_dev48_lt c⟩ : Dev nD) = peer 2 c :=
  Fin.ext (by show k0_dev48 c = k0_dev3 c; rw [k0_dev48_eq, k0_dev3_eq])
theorem dev49_eq (c : Dev nD) : (⟨k0_dev49 c, k0_dev49_lt c⟩ : Dev nD) = peer 1 c :=
  Fin.ext (by show k0_dev49 c = k0_dev2 c; rw [k0_dev49_eq, k0_dev2_eq])
theorem dev50_eq (c : Dev nD) : (⟨k0_dev50 c, k0_dev50_lt c⟩ : Dev nD) = peer 2 c :=
  Fin.ext (by show k0_dev50 c = k0_dev3 c; rw [k0_dev50_eq, k0_dev3_eq])
theorem dev51_eq (c : Dev nD) : (⟨k0_dev51 c, k0_dev51_lt c⟩ : Dev nD) = peer 1 c :=
  Fin.ext (by show k0_dev51 c = k0_dev2 c; rw [k0_dev51_eq, k0_dev2_eq])
theorem dev52_eq (c : Dev nD) : (⟨k0_dev52 c, k0_dev52_lt c⟩ : Dev nD) = peer 2 c :=
  Fin.ext (by show k0_dev52 c = k0_dev3 c; rw [k0_dev52_eq, k0_dev3_eq])
theorem dev53_eq (c : Dev nD) : (⟨k0_dev53 c, k0_dev53_lt c⟩ : Dev nD) = peer 1 c :=
  Fin.ext (by show k0_dev53 c = k0_dev2 c; rw [k0_dev53_eq, k0_dev2_eq])
theorem dev54_eq (c : Dev nD) : (⟨k0_dev54 c, k0_dev54_lt c⟩ : Dev nD) = peer 2 c :=
  Fin.ext (by show k0_dev54 c = k0_dev3 c; rw [k0_dev54_eq, k0_dev3_eq])
theorem dev55_eq (c : Dev nD) : (⟨k0_dev55 c, k0_dev55_lt c⟩ : Dev nD) = peer 1 c :=
  Fin.ext (by show k0_dev55 c = k0_dev2 c; rw [k0_dev55_eq, k0_dev2_eq])
theorem dev56_eq (c : Dev nD) : (⟨k0_dev56 c, k0_dev56_lt c⟩ : Dev nD) = peer 2 c :=
  Fin.ext (by show k0_dev56 c = k0_dev3 c; rw [k0_dev56_eq, k0_dev3_eq])
theorem dev57_eq (c : Dev nD) : (⟨k0_dev57 c, k0_dev57_lt c⟩ : Dev nD) = peer 1 c :=
  Fin.ext (by show k0_dev57 c = k0_dev2 c; rw [k0_dev57_eq, k0_dev2_eq])
theorem dev58_eq (c : Dev nD) : (⟨k0_dev58 c, k0_dev58_lt c⟩ : Dev nD) = peer 2 c :=
  Fin.ext (by show k0_dev58 c = k0_dev3 c; rw [k0_dev58_eq, k0_dev3_eq])
theorem dev59_eq (c : Dev nD) : (⟨k0_dev59 c, k0_dev59_lt c⟩ : Dev nD) = peer 1 c :=
  Fin.ext (by show k0_dev59 c = k0_dev2 c; rw [k0_dev59_eq, k0_dev2_eq])
theorem dev60_eq (c : Dev nD) : (⟨k0_dev60 c, k0_dev60_lt c⟩ : Dev nD) = peer 2 c :=
  Fin.ext (by show k0_dev60 c = k0_dev3 c; rw [k0_dev60_eq, k0_dev3_eq])

end PartsB

/-! ## The parts

  In every proof below the records are the persistent hypothesis HR and the device's state is the hypothesis HSt.
  One operation: apply its step lemma, give it the records and the state, and take the state after the operation
  back under the same name. -/

set_option hygiene false

local macro "stepB " t:pmTerm : tactic =>
  `(tactic| (
      iapply $t
      isplitr
      · iexact HR
      isplitl [HSt]
      · iexact HSt
      iintro HSt))

-- A part's last line returns a value the state does not depend on: the records and the state are what is left.
local macro "closeB" : tactic =>
  `(tactic| (
      unfold WP
      rw [wp_ret]
      imodintro
      isplitr
      · iexact HR
      iexact HSt))

set_option hygiene true

/-- Operations 41, 42: the relays of the fourth landed slice. -/
theorem part17 (c : Dev nD) (v2 v5 v8 v9 v10 v11 v26 v543 : BitVec 32) :
    iprop(records m K ∗ St m c 40)
      ⊢ WP c (k0_part17 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v26 v543) (fun _ => iprop(records m K ∗ St m c 42)) := by
  rw [k0_part17_eq_skeleton]; unfold k0_part17_skel
  simp only [Prog.lift, Prog.bind_op, Prog.bind_ret, Prog.pure_eq_ret]
  iintro ⟨#HR, HSt⟩
  stepB (step_send m K c (.yf 3) 40 rfl _ (PartsB.dev35_eq c) (by decide))
  stepB (step_send m K c (.zf 3) 41 rfl _ (PartsB.dev36_eq c) (by decide))
  closeB

/-- Operations 43 to 45: the landing of xa 4, then its relays. -/
theorem part18 (c : Dev nD) (v2 v5 v8 v9 v10 v11 v13 v26 : BitVec 32) :
    iprop(records m K ∗ St m c 42)
      ⊢ WP c (k0_part18 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 45)) := by
  rw [k0_part18_eq_skeleton]; unfold k0_part18_skel
  simp only [Prog.lift, Prog.bind_op, Prog.bind_ret, Prog.pure_eq_ret]
  iintro ⟨#HR, HSt⟩
  stepB (step_rw m K c (.xa 4) 42 rfl (by decide) (by rfl))
  stepB (step_send m K c (.yf 4) 43 rfl _ (PartsB.dev37_eq c) (by decide))
  stepB (step_send m K c (.zf 4) 44 rfl _ (PartsB.dev38_eq c) (by decide))
  closeB

/-- Operations 46 to 48: the landing of xa 5, then its relays. -/
theorem part19 (c : Dev nD) (v2 v5 v8 v10 v11 v13 v26 v610 : BitVec 32) :
    iprop(records m K ∗ St m c 45)
      ⊢ WP c (k0_part19 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v13 v26 v610) (fun _ => iprop(records m K ∗ St m c 48)) := by
  rw [k0_part19_eq_skeleton]; unfold k0_part19_skel
  simp only [Prog.lift, Prog.bind_op, Prog.bind_ret, Prog.pure_eq_ret]
  iintro ⟨#HR, HSt⟩
  stepB (step_rw m K c (.xa 5) 45 rfl (by decide) (by rfl))
  stepB (step_send m K c (.yf 5) 46 rfl _ (PartsB.dev39_eq c) (by decide))
  stepB (step_send m K c (.zf 5) 47 rfl _ (PartsB.dev40_eq c) (by decide))
  closeB

/-- Operations 49, 50: the landing of xa 6, then its relay along the second axis. -/
theorem part20 (c : Dev nD) (v2 v5 v8 v9 v10 v11 v13 v26 c4_i32_403 : BitVec 32) :
    iprop(records m K ∗ St m c 48)
      ⊢ WP c (k0_part20 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26 c4_i32_403) (fun _ => iprop(records m K ∗ St m c 50)) := by
  rw [k0_part20_eq_skeleton]; unfold k0_part20_skel
  simp only [Prog.lift, Prog.bind_op, Prog.bind_ret, Prog.pure_eq_ret]
  iintro ⟨#HR, HSt⟩
  stepB (step_rw m K c (.xa 6) 48 rfl (by decide) (by rfl))
  stepB (step_send m K c (.yf 6) 49 rfl _ (PartsB.dev41_eq c) (by decide))
  closeB

/-- Operations 51 to 53: the relay of the slice of xa 6 along the third axis, the landing of xa 7, its relay along the second axis. -/
theorem part21 (c : Dev nD) (v2 v5 v8 v9 v10 v11 v13 v26 : BitVec 32) :
    iprop(records m K ∗ St m c 50)
      ⊢ WP c (k0_part21 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 53)) := by
  rw [k0_part21_eq_skeleton]; unfold k0_part21_skel
  simp only [Prog.lift, Prog.bind_op, Prog.bind_ret, Prog.pure_eq_ret]
  iintro ⟨#HR, HSt⟩
  stepB (step_send m K c (.zf 6) 50 rfl _ (PartsB.dev42_eq c) (by decide))
  stepB (step_rw m K c (.xa 7) 51 rfl (by decide) (by rfl))
  stepB (step_send m K c (.yf 7) 52 rfl _ (PartsB.dev43_eq c) (by decide))
  closeB

/-- Operations 54 to 56: the relay of the slice of xa 7 along the third axis, the landing of xa 8, its relay along the second axis. -/
theorem part22 (c : Dev nD) (v2 v5 v8 v9 v10 v13 v26 : BitVec 32) :
    iprop(records m K ∗ St m c 53)
      ⊢ WP c (k0_part22 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v13 v26) (fun _ => iprop(records m K ∗ St m c 56)) := by
  rw [k0_part22_eq_skeleton]; unfold k0_part22_skel
  simp only [Prog.lift, Prog.bind_op, Prog.bind_ret, Prog.pure_eq_ret]
  iintro ⟨#HR, HSt⟩
  stepB (step_send m K c (.zf 7) 53 rfl _ (PartsB.dev44_eq c) (by decide))
  stepB (step_rw m K c (.xa 8) 54 rfl (by decide) (by rfl))
  stepB (step_send m K c (.yf 8) 55 rfl _ (PartsB.dev45_eq c) (by decide))
  closeB

/-- Operations 57 to 59: the relay of the slice of xa 8 along the third axis, the landing of xa 9, its relay along the second axis. -/
theorem part23 (c : Dev nD) (v2 v5 v8 v9 v10 v11 v13 v26 v744 : BitVec 32) :
    iprop(records m K ∗ St m c 56)
      ⊢ WP c (k0_part23 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26 v744) (fun _ => iprop(records m K ∗ St m c 59)) := by
  rw [k0_part23_eq_skeleton]; unfold k0_part23_skel
  simp only [Prog.lift, Prog.bind_op, Prog.bind_ret, Prog.pure_eq_ret]
  iintro ⟨#HR, HSt⟩
  stepB (step_send m K c (.zf 8) 56 rfl _ (PartsB.dev46_eq c) (by decide))
  stepB (step_rw m K c (.xa 9) 57 rfl (by decide) (by rfl))
  stepB (step_send m K c (.yf 9) 58 rfl _ (PartsB.dev47_eq c) (by decide))
  closeB

/-- Operations 60, 61: the relay of the slice of xa 9 along the third axis, then the landing of xa 10. -/
theorem part24 (c : Dev nD) (v2 v5 v8 v9 v10 v11 v13 v26 : BitVec 32) :
    iprop(records m K ∗ St m c 59)
      ⊢ WP c (k0_part24 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 61)) := by
  rw [k0_part24_eq_skeleton]; unfold k0_part24_skel
  simp only [Prog.lift, Prog.bind_op, Prog.bind_ret, Prog.pure_eq_ret]
  iintro ⟨#HR, HSt⟩
  stepB (step_send m K c (.zf 9) 59 rfl _ (PartsB.dev48_eq c) (by decide))
  stepB (step_rw m K c (.xa 10) 60 rfl (by decide) (by rfl))
  closeB

/-- Operations 62 to 64: the relays of the slice of xa 10, then the landing of xa 11. -/
theorem part25 (c : Dev nD) (v2 v5 v8 v9 v10 v11 v13 v26 : BitVec 32) :
    iprop(records m K ∗ St m c 61)
      ⊢ WP c (k0_part25 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 64)) := by
  rw [k0_part25_eq_skeleton]; unfold k0_part25_skel
  simp only [Prog.lift, Prog.bind_op, Prog.bind_ret, Prog.pure_eq_ret]
  iintro ⟨#HR, HSt⟩
  stepB (step_send m K c (.yf 10) 61 rfl _ (PartsB.dev49_eq c) (by decide))
  stepB (step_send m K c (.zf 10) 62 rfl _ (PartsB.dev50_eq c) (by decide))
  stepB (step_rw m K c (.xa 11) 63 rfl (by decide) (by rfl))
  closeB

/-- Operations 65 to 67: the relays of the slice of xa 11, then the landing of xa 12. -/
theorem part26 (c : Dev nD) (v2 v5 v8 v9 v11 v13 v26 v845 : BitVec 32) :
    iprop(records m K ∗ St m c 64)
      ⊢ WP c (k0_part26 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v11 v13 v26 v845) (fun _ => iprop(records m K ∗ St m c 67)) := by
  rw [k0_part26_eq_skeleton]; unfold k0_part26_skel
  simp only [Prog.lift, Prog.bind_op, Prog.bind_ret, Prog.pure_eq_ret]
  iintro ⟨#HR, HSt⟩
  stepB (step_send m K c (.yf 11) 64 rfl _ (PartsB.dev51_eq c) (by decide))
  stepB (step_send m K c (.zf 11) 65 rfl _ (PartsB.dev52_eq c) (by decide))
  stepB (step_rw m K c (.xa 12) 66 rfl (by decide) (by rfl))
  closeB

/-- Operations 68 to 70: the relays of the slice of xa 12, then the landing of xa 13. -/
theorem part27 (c : Dev nD) (v2 v5 v8 v9 v10 v11 v13 c4_i32_569 : BitVec 32) :
    iprop(records m K ∗ St m c 67)
      ⊢ WP c (k0_part27 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 c4_i32_569) (fun _ => iprop(records m K ∗ St m c 70)) := by
  rw [k0_part27_eq_skeleton]; unfold k0_part27_skel
  simp only [Prog.lift, Prog.bind_op, Prog.bind_ret, Prog.pure_eq_ret]
  iintro ⟨#HR, HSt⟩
  stepB (step_send m K c (.yf 12) 67 rfl _ (PartsB.dev53_eq c) (by decide))
  stepB (step_send m K c (.zf 12) 68 rfl _ (PartsB.dev54_eq c) (by decide))
  stepB (step_rw m K c (.xa 13) 69 rfl (by decide) (by rfl))
  closeB

/-- Operations 71, 72: the relays of the slice of xa 13. -/
theorem part28 (c : Dev nD) (v2 v5 v8 v9 v10 v11 v26 v913 : BitVec 32) :
    iprop(records m K ∗ St m c 70)
      ⊢ WP c (k0_part28 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v26 v913) (fun _ => iprop(records m K ∗ St m c 72)) := by
  rw [k0_part28_eq_skeleton]; unfold k0_part28_skel
  simp only [Prog.lift, Prog.bind_op, Prog.bind_ret, Prog.pure_eq_ret]
  iintro ⟨#HR, HSt⟩
  stepB (step_send m K c (.yf 13) 70 rfl _ (PartsB.dev55_eq c) (by decide))
  stepB (step_send m K c (.zf 13) 71 rfl _ (PartsB.dev56_eq c) (by decide))
  closeB

/-- Operations 73 to 75: the landing of xa 14, then its relays. -/
theorem part29 (c : Dev nD) (v2 v5 v8 v9 v10 v11 v13 v26 : BitVec 32) :
    iprop(records m K ∗ St m c 72)
      ⊢ WP c (k0_part29 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 75)) := by
  rw [k0_part29_eq_skeleton]; unfold k0_part29_skel
  simp only [Prog.lift, Prog.bind_op, Prog.bind_ret, Prog.pure_eq_ret]
  iintro ⟨#HR, HSt⟩
  stepB (step_rw m K c (.xa 14) 72 rfl (by decide) (by rfl))
  stepB (step_send m K c (.yf 14) 73 rfl _ (PartsB.dev57_eq c) (by decide))
  stepB (step_send m K c (.zf 14) 74 rfl _ (PartsB.dev58_eq c) (by decide))
  closeB

/-- Operations 76 to 78: the landing of xa 15, then its relays. -/
theorem part30 (c : Dev nD) (v2 v5 v8 v10 v11 v13 v26 v980 : BitVec 32) :
    iprop(records m K ∗ St m c 75)
      ⊢ WP c (k0_part30 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v13 v26 v980) (fun _ => iprop(records m K ∗ St m c 78)) := by
  rw [k0_part30_eq_skeleton]; unfold k0_part30_skel
  simp only [Prog.lift, Prog.bind_op, Prog.bind_ret, Prog.pure_eq_ret]
  iintro ⟨#HR, HSt⟩
  stepB (step_rw m K c (.xa 15) 75 rfl (by decide) (by rfl))
  stepB (step_send m K c (.yf 15) 76 rfl _ (PartsB.dev59_eq c) (by decide))
  stepB (step_send m K c (.zf 15) 77 rfl _ (PartsB.dev60_eq c) (by decide))
  closeB

/-- info: 'Cert.KernelIdeal.AG.part30' depends on axioms: [propext, Classical.choice, Quot.sound] -/
#guard_msgs in #print axioms part30

end Cert.KernelIdeal.AG

end
-- ==== Proof.PartsC.lean ====
/-
  The middle of a device's body, from its 79th to its 132nd memory operation: the device waits for the landing of
  the relayed chunks its second-axis and third-axis neighbours addressed to it, enqueues its own seven second-hand
  relays (four chunks received along the third axis on along the second, three received along the second on along
  the third), and waits for the nine chunks of the diagonal quarter and for the seven second-hand relays addressed
  to it. Each stretch of the body is a few memory operations in a row; each operation moves the device's state one
  step on, and the records of the cells are knowledge that every step may use again.
-/
import proofs.«900661_g7700000000000662_dist_ag_v7x_xyz2x2x2_x_m2048_n512_f32_1_alg».proof.Proof.StepsA
import proofs.«900661_g7700000000000662_dist_ag_v7x_xyz2x2x2_x_m2048_n512_f32_1_alg».proof.Proof.StepsB
import proofs.«900661_g7700000000000662_dist_ag_v7x_xyz2x2x2_x_m2048_n512_f32_1_alg».proof.Proof.StepsC

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

namespace PartsC

/-! The device the four second-hand relays along the second axis are addressed to is the second-axis neighbour;
    the device the three along the third axis are addressed to is the third-axis neighbour. -/

theorem dev61_eq (c : Dev nD) : (⟨k0_dev61 c, k0_dev61_lt c⟩ : Dev nD) = peer 1 c :=
  Fin.ext (by show k0_dev61 c = k0_dev2 c; rw [k0_dev61_eq, k0_dev2_eq])
theorem dev62_eq (c : Dev nD) : (⟨k0_dev62 c, k0_dev62_lt c⟩ : Dev nD) = peer 1 c :=
  Fin.ext (by show k0_dev62 c = k0_dev2 c; rw [k0_dev62_eq, k0_dev2_eq])
theorem dev63_eq (c : Dev nD) : (⟨k0_dev63 c, k0_dev63_lt c⟩ : Dev nD) = peer 1 c :=
  Fin.ext (by show k0_dev63 c = k0_dev2 c; rw [k0_dev63_eq, k0_dev2_eq])
theorem dev64_eq (c : Dev nD) : (⟨k0_dev64 c, k0_dev64_lt c⟩ : Dev nD) = peer 1 c :=
  Fin.ext (by show k0_dev64 c = k0_dev2 c; rw [k0_dev64_eq, k0_dev2_eq])
theorem dev65_eq (c : Dev nD) : (⟨k0_dev65 c, k0_dev65_lt c⟩ : Dev nD) = peer 2 c :=
  Fin.ext (by show k0_dev65 c = k0_dev3 c; rw [k0_dev65_eq, k0_dev3_eq])
theorem dev66_eq (c : Dev nD) : (⟨k0_dev66 c, k0_dev66_lt c⟩ : Dev nD) = peer 2 c :=
  Fin.ext (by show k0_dev66 c = k0_dev3 c; rw [k0_dev66_eq, k0_dev3_eq])
theorem dev67_eq (c : Dev nD) : (⟨k0_dev67 c, k0_dev67_lt c⟩ : Dev nD) = peer 2 c :=
  Fin.ext (by show k0_dev67 c = k0_dev3 c; rw [k0_dev67_eq, k0_dev3_eq])

end PartsC

/-! One memory operation: apply its step lemma, hand it the records (kept) and the state, and take the next state. -/
set_option hygiene false in
local macro "stepC " t:pmTerm : tactic =>
  `(tactic| (iapply $t; isplitr; (· iexact HR); isplitl [HSt]; (· iexact HSt); iintro HSt))

/-! When the stretch's operations are done: the records and the state reached. -/
set_option hygiene false in
local macro "doneC" : tactic =>
  `(tactic| (unfold WP; rw [wp_ret]; imodintro; isplitr; (· iexact HR); iexact HSt))

/-- Operations 79 to 81: the landings of the relayed chunks zf 0, yf 0, zf 1. -/
theorem part31 (c : Dev nD) (v2 v5 v8 v10 v11 c4_i32_663 : BitVec 32) :
    iprop(records m K ∗ St m c 78) ⊢ WP c (k0_part31 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 c4_i32_663) (fun _ => iprop(records m K ∗ St m c 81)) := by
  rw [k0_part31_eq_skeleton]; unfold k0_part31_skel
  simp only [Prog.lift, Prog.bind_op, Prog.bind_ret, Prog.pure_eq_ret]
  iintro ⟨#HR, HSt⟩
  stepC (step_rw m K c (.zf 0) 78 rfl (by decide) (by rfl))
  stepC (step_rw m K c (.yf 0) 79 rfl (by decide) (by rfl))
  stepC (step_rw m K c (.zf 1) 80 rfl (by decide) (by rfl))
  doneC

/-- Operations 82 to 84: the landings of yf 1, zf 2, yf 2. -/
theorem part32 (c : Dev nD) (v2 v5 v8 v10 v11 v1045 : BitVec 32) :
    iprop(records m K ∗ St m c 81) ⊢ WP c (k0_part32 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v1045) (fun _ => iprop(records m K ∗ St m c 84)) := by
  rw [k0_part32_eq_skeleton]; unfold k0_part32_skel
  simp only [Prog.lift, Prog.bind_op, Prog.bind_ret, Prog.pure_eq_ret]
  iintro ⟨#HR, HSt⟩
  stepC (step_rw m K c (.yf 1) 81 rfl (by decide) (by rfl))
  stepC (step_rw m K c (.zf 2) 82 rfl (by decide) (by rfl))
  stepC (step_rw m K c (.yf 2) 83 rfl (by decide) (by rfl))
  doneC

/-- Operations 85 to 87: the landings of zf 3, yf 3, zf 4. -/
theorem part33 (c : Dev nD) (v2 v5 v8 v10 v11 v1077 : BitVec 32) :
    iprop(records m K ∗ St m c 84) ⊢ WP c (k0_part33 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v1077) (fun _ => iprop(records m K ∗ St m c 87)) := by
  rw [k0_part33_eq_skeleton]; unfold k0_part33_skel
  simp only [Prog.lift, Prog.bind_op, Prog.bind_ret, Prog.pure_eq_ret]
  iintro ⟨#HR, HSt⟩
  stepC (step_rw m K c (.zf 3) 84 rfl (by decide) (by rfl))
  stepC (step_rw m K c (.yf 3) 85 rfl (by decide) (by rfl))
  stepC (step_rw m K c (.zf 4) 86 rfl (by decide) (by rfl))
  doneC

/-- Operations 88 to 90: the landings of yf 4, zf 5, yf 5. -/
theorem part34 (c : Dev nD) (v2 v5 v8 v10 v11 : BitVec 32) :
    iprop(records m K ∗ St m c 87) ⊢ WP c (k0_part34 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11) (fun _ => iprop(records m K ∗ St m c 90)) := by
  rw [k0_part34_eq_skeleton]; unfold k0_part34_skel
  simp only [Prog.lift, Prog.bind_op, Prog.bind_ret, Prog.pure_eq_ret]
  iintro ⟨#HR, HSt⟩
  stepC (step_rw m K c (.yf 4) 87 rfl (by decide) (by rfl))
  stepC (step_rw m K c (.zf 5) 88 rfl (by decide) (by rfl))
  stepC (step_rw m K c (.yf 5) 89 rfl (by decide) (by rfl))
  doneC

/-- Operations 91 to 93: the landings of zf 6, yf 6, zf 7. -/
theorem part35 (c : Dev nD) (v2 v5 v8 v10 v11 : BitVec 32) :
    iprop(records m K ∗ St m c 90) ⊢ WP c (k0_part35 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11) (fun _ => iprop(records m K ∗ St m c 93)) := by
  rw [k0_part35_eq_skeleton]; unfold k0_part35_skel
  simp only [Prog.lift, Prog.bind_op, Prog.bind_ret, Prog.pure_eq_ret]
  iintro ⟨#HR, HSt⟩
  stepC (step_rw m K c (.zf 6) 90 rfl (by decide) (by rfl))
  stepC (step_rw m K c (.yf 6) 91 rfl (by decide) (by rfl))
  stepC (step_rw m K c (.zf 7) 92 rfl (by decide) (by rfl))
  doneC

/-- Operations 94 to 97: the landings of yf 7, zf 8, yf 8, zf 9. -/
theorem part36 (c : Dev nD) (v2 v5 v8 v10 v11 v19 : BitVec 32) :
    iprop(records m K ∗ St m c 93) ⊢ WP c (k0_part36 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v19) (fun _ => iprop(records m K ∗ St m c 97)) := by
  rw [k0_part36_eq_skeleton]; unfold k0_part36_skel
  simp only [Prog.lift, Prog.bind_op, Prog.bind_ret, Prog.pure_eq_ret]
  iintro ⟨#HR, HSt⟩
  stepC (step_rw m K c (.yf 7) 93 rfl (by decide) (by rfl))
  stepC (step_rw m K c (.zf 8) 94 rfl (by decide) (by rfl))
  stepC (step_rw m K c (.yf 8) 95 rfl (by decide) (by rfl))
  stepC (step_rw m K c (.zf 9) 96 rfl (by decide) (by rfl))
  doneC

/-- Operations 98 and 99: the relay ya 0 is enqueued; the landing of yf 9. -/
theorem part37 (c : Dev nD) (v2 v5 v8 v10 v11 v26 v1204 : BitVec 32) :
    iprop(records m K ∗ St m c 97) ⊢ WP c (k0_part37 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v26 v1204) (fun _ => iprop(records m K ∗ St m c 99)) := by
  rw [k0_part37_eq_skeleton]; unfold k0_part37_skel
  simp only [Prog.lift, Prog.bind_op, Prog.bind_ret, Prog.pure_eq_ret]
  iintro ⟨#HR, HSt⟩
  stepC (step_send m K c (.ya 0) 97 rfl _ (PartsC.dev61_eq c) (by decide))
  stepC (step_rw m K c (.yf 9) 98 rfl (by decide) (by rfl))
  doneC

/-- Operations 100 to 102: the landing of zf 10; the relay ya 1 is enqueued; the landing of yf 10. -/
theorem part38 (c : Dev nD) (v2 v5 v8 v10 v11 v19 v26 : BitVec 32) :
    iprop(records m K ∗ St m c 99) ⊢ WP c (k0_part38 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v19 v26) (fun _ => iprop(records m K ∗ St m c 102)) := by
  rw [k0_part38_eq_skeleton]; unfold k0_part38_skel
  simp only [Prog.lift, Prog.bind_op, Prog.bind_ret, Prog.pure_eq_ret]
  iintro ⟨#HR, HSt⟩
  stepC (step_rw m K c (.zf 10) 99 rfl (by decide) (by rfl))
  stepC (step_send m K c (.ya 1) 100 rfl _ (PartsC.dev62_eq c) (by decide))
  stepC (step_rw m K c (.yf 10) 101 rfl (by decide) (by rfl))
  doneC

/-- Operations 103 to 105: the landing of zf 11; the relay ya 2 is enqueued; the landing of yf 11. -/
theorem part39 (c : Dev nD) (v2 v5 v8 v10 v19 v26 : BitVec 32) :
    iprop(records m K ∗ St m c 102) ⊢ WP c (k0_part39 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v19 v26) (fun _ => iprop(records m K ∗ St m c 105)) := by
  rw [k0_part39_eq_skeleton]; unfold k0_part39_skel
  simp only [Prog.lift, Prog.bind_op, Prog.bind_ret, Prog.pure_eq_ret]
  iintro ⟨#HR, HSt⟩
  stepC (step_rw m K c (.zf 11) 102 rfl (by decide) (by rfl))
  stepC (step_send m K c (.ya 2) 103 rfl _ (PartsC.dev63_eq c) (by decide))
  stepC (step_rw m K c (.yf 11) 104 rfl (by decide) (by rfl))
  doneC

/-- Operations 106 to 108: the landing of zf 12; the relay ya 3 is enqueued; the landing of yf 12. -/
theorem part40 (c : Dev nD) (v2 v8 v10 v11 v19 v26 v1302 : BitVec 32) :
    iprop(records m K ∗ St m c 105) ⊢ WP c (k0_part40 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v8 v10 v11 v19 v26 v1302) (fun _ => iprop(records m K ∗ St m c 108)) := by
  rw [k0_part40_eq_skeleton]; unfold k0_part40_skel
  simp only [Prog.lift, Prog.bind_op, Prog.bind_ret, Prog.pure_eq_ret]
  iintro ⟨#HR, HSt⟩
  stepC (step_rw m K c (.zf 12) 105 rfl (by decide) (by rfl))
  stepC (step_send m K c (.ya 3) 106 rfl _ (PartsC.dev64_eq c) (by decide))
  stepC (step_rw m K c (.yf 12) 107 rfl (by decide) (by rfl))
  doneC

/-- Operations 109 to 111: the landings of zf 13 and yf 13; the relay zb 0 is enqueued. -/
theorem part41 (c : Dev nD) (v2 v5 v8 v10 v11 v16 v26 v1334 c0_i32_912 : BitVec 32) :
    iprop(records m K ∗ St m c 108) ⊢ WP c (k0_part41 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v16 v26 v1334 c0_i32_912) (fun _ => iprop(records m K ∗ St m c 111)) := by
  rw [k0_part41_eq_skeleton]; unfold k0_part41_skel
  simp only [Prog.lift, Prog.bind_op, Prog.bind_ret, Prog.pure_eq_ret]
  iintro ⟨#HR, HSt⟩
  stepC (step_rw m K c (.zf 13) 108 rfl (by decide) (by rfl))
  stepC (step_rw m K c (.yf 13) 109 rfl (by decide) (by rfl))
  stepC (step_send m K c (.zb 0) 110 rfl _ (PartsC.dev65_eq c) (by decide))
  doneC

/-- Operations 112 and 113: the landings of zf 14 and yf 14. -/
theorem part42 (c : Dev nD) (v2 v5 v8 v10 v11 v16 v26 : BitVec 32) :
    iprop(records m K ∗ St m c 111) ⊢ WP c (k0_part42 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v16 v26) (fun _ => iprop(records m K ∗ St m c 113)) := by
  rw [k0_part42_eq_skeleton]; unfold k0_part42_skel
  simp only [Prog.lift, Prog.bind_op, Prog.bind_ret, Prog.pure_eq_ret]
  iintro ⟨#HR, HSt⟩
  stepC (step_rw m K c (.zf 14) 111 rfl (by decide) (by rfl))
  stepC (step_rw m K c (.yf 14) 112 rfl (by decide) (by rfl))
  doneC

/-- Operations 114 to 116: the relay zb 1 is enqueued; the landings of zf 15 and yf 15. -/
theorem part43 (c : Dev nD) (v2 v5 v8 v10 v11 v16 v26 : BitVec 32) :
    iprop(records m K ∗ St m c 113) ⊢ WP c (k0_part43 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v16 v26) (fun _ => iprop(records m K ∗ St m c 116)) := by
  rw [k0_part43_eq_skeleton]; unfold k0_part43_skel
  simp only [Prog.lift, Prog.bind_op, Prog.bind_ret, Prog.pure_eq_ret]
  iintro ⟨#HR, HSt⟩
  stepC (step_send m K c (.zb 1) 113 rfl _ (PartsC.dev66_eq c) (by decide))
  stepC (step_rw m K c (.zf 15) 114 rfl (by decide) (by rfl))
  stepC (step_rw m K c (.yf 15) 115 rfl (by decide) (by rfl))
  doneC

/-- Operations 117 to 119: the relay zb 2 is enqueued; the landings of the diagonal quarter's chunks xb 0, xb 1. -/
theorem part44 (c : Dev nD) (v5 v8 v9 : BitVec 32) :
    iprop(records m K ∗ St m c 116) ⊢ WP c (k0_part44 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9) (fun _ => iprop(records m K ∗ St m c 119)) := by
  rw [k0_part44_eq_skeleton]; unfold k0_part44_skel
  simp only [Prog.lift, Prog.bind_op, Prog.bind_ret, Prog.pure_eq_ret]
  iintro ⟨#HR, HSt⟩
  stepC (step_send m K c (.zb 2) 116 rfl _ (PartsC.dev67_eq c) (by decide))
  stepC (step_rw m K c (.xb 0) 117 rfl (by decide) (by rfl))
  stepC (step_rw m K c (.xb 1) 118 rfl (by decide) (by rfl))
  doneC

/-- Operations 120 to 122: the landings of xb 2, xb 3, xb 4. -/
theorem part45 (c : Dev nD) (v5 v8 v9 : BitVec 32) :
    iprop(records m K ∗ St m c 119) ⊢ WP c (k0_part45 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9) (fun _ => iprop(records m K ∗ St m c 122)) := by
  rw [k0_part45_eq_skeleton]; unfold k0_part45_skel
  simp only [Prog.lift, Prog.bind_op, Prog.bind_ret, Prog.pure_eq_ret]
  iintro ⟨#HR, HSt⟩
  stepC (step_rw m K c (.xb 2) 119 rfl (by decide) (by rfl))
  stepC (step_rw m K c (.xb 3) 120 rfl (by decide) (by rfl))
  stepC (step_rw m K c (.xb 4) 121 rfl (by decide) (by rfl))
  doneC

/-- Operations 123 to 126: the landings of xb 5, xb 6, xb 7, xb 8. -/
theorem part46 (c : Dev nD) (v5 v8 v9 : BitVec 32) :
    iprop(records m K ∗ St m c 122) ⊢ WP c (k0_part46 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9) (fun _ => iprop(records m K ∗ St m c 126)) := by
  rw [k0_part46_eq_skeleton]; unfold k0_part46_skel
  simp only [Prog.lift, Prog.bind_op, Prog.bind_ret, Prog.pure_eq_ret]
  iintro ⟨#HR, HSt⟩
  stepC (step_rw m K c (.xb 5) 122 rfl (by decide) (by rfl))
  stepC (step_rw m K c (.xb 6) 123 rfl (by decide) (by rfl))
  stepC (step_rw m K c (.xb 7) 124 rfl (by decide) (by rfl))
  stepC (step_rw m K c (.xb 8) 125 rfl (by decide) (by rfl))
  doneC

/-- Operations 127 to 129: the landings of the second-hand relays ya 0, ya 1, ya 2. -/
theorem part47 (c : Dev nD) (v2 v8 v10 : BitVec 32) :
    iprop(records m K ∗ St m c 126) ⊢ WP c (k0_part47 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v8 v10) (fun _ => iprop(records m K ∗ St m c 129)) := by
  rw [k0_part47_eq_skeleton]; unfold k0_part47_skel
  simp only [Prog.lift, Prog.bind_op, Prog.bind_ret, Prog.pure_eq_ret]
  iintro ⟨#HR, HSt⟩
  stepC (step_rw m K c (.ya 0) 126 rfl (by decide) (by rfl))
  stepC (step_rw m K c (.ya 1) 127 rfl (by decide) (by rfl))
  stepC (step_rw m K c (.ya 2) 128 rfl (by decide) (by rfl))
  doneC

/-- Operations 130 to 132: the landings of ya 3, zb 0, zb 1. -/
theorem part48 (c : Dev nD) (v2 v5 v8 v10 v11 v1559 c0_i32_1086 : BitVec 32) :
    iprop(records m K ∗ St m c 129) ⊢ WP c (k0_part48 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v1559 c0_i32_1086) (fun _ => iprop(records m K ∗ St m c 132)) := by
  rw [k0_part48_eq_skeleton]; unfold k0_part48_skel
  simp only [Prog.lift, Prog.bind_op, Prog.bind_ret, Prog.pure_eq_ret]
  iintro ⟨#HR, HSt⟩
  stepC (step_rw m K c (.ya 3) 129 rfl (by decide) (by rfl))
  stepC (step_rw m K c (.zb 0) 130 rfl (by decide) (by rfl))
  stepC (step_rw m K c (.zb 1) 131 rfl (by decide) (by rfl))
  doneC

/-- info: 'Cert.KernelIdeal.AG.part48' depends on axioms: [propext, Classical.choice, Quot.sound] -/
#guard_msgs in #print axioms part48

end Cert.KernelIdeal.AG

end
-- ==== Proof.PartsD.lean ====
/-
  The closing stretch of a device's body. After the landing of the last relayed chunk and the completion of the
  local copy, a device waits, copy by copy and in the order it enqueued them, for each of its own remote copies to
  have been read out of its buffers. Each such wait hands back the share of the source rows the copy held while in
  flight and closes the copy's read-out cell; the local copy's wait hands back the device's own half of the result,
  holding its block, and the left half share of its argument block. The body is cut into parts of six memory
  operations; this module walks the ten parts that hold operations 133 to 192 (counted from one): every operation
  is one step of the device's state, and the state after a part is the state before the next.
-/
import proofs.«900661_g7700000000000662_dist_ag_v7x_xyz2x2x2_x_m2048_n512_f32_1_alg».proof.Proof.StepsA
import proofs.«900661_g7700000000000662_dist_ag_v7x_xyz2x2x2_x_m2048_n512_f32_1_alg».proof.Proof.StepsB
import proofs.«900661_g7700000000000662_dist_ag_v7x_xyz2x2x2_x_m2048_n512_f32_1_alg».proof.Proof.StepsC

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

-- One operation of the body: the step rule for it, fed the records (knowledge, kept) and the state before the
-- operation; what remains to prove is the rest of the body from the state after it.
set_option hygiene false in
local macro "stepD " t:pmTerm : tactic => `(tactic| (
  iapply $t
  isplitr
  · iexact HR
  isplitl [HSt]
  · iexact HSt
  iintro HSt))

/-- Operations 133 to 138: the landing of the last chunk relayed along the third axis, the completion of the local
    copy, and the read-out of the first four chunks sent along the first axis. Each read-out wait names the chunk's
    source rows in the argument block as the view whose credit it consumes. -/
theorem part49 (c : Dev nD) (v11 v1590 v1591 : BitVec 32) :
    iprop(records m K ∗ St m c 132)
      ⊢ WP c (k0_part49 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v11 v1590 v1591)
        (fun _ => iprop(records m K ∗ St m c 138)) := by
  rw [k0_part49_eq_skeleton]; unfold k0_part49_skel
  simp only [Prog.lift, Prog.bind_op, Prog.bind_ret, Prog.pure_eq_ret]
  iintro ⟨#HR, HSt⟩
  stepD (step_rw m K c (.zb 2) 132 rfl (by decide +kernel) (dst := zbM c 2) rfl)
  stepD (step_locw m K c (by decide +kernel) (dst := ownM c) rfl)
  stepD (step_sw m K c (.xa 0) 134 rfl (by decide +kernel) (dst := xaSrc c 0) rfl)
  stepD (step_sw m K c (.xa 1) 135 rfl (by decide +kernel) (dst := xaSrc c 1) rfl)
  stepD (step_sw m K c (.xa 2) 136 rfl (by decide +kernel) (dst := xaSrc c 2) rfl)
  stepD (step_sw m K c (.xa 3) 137 rfl (by decide +kernel) (dst := xaSrc c 3) rfl)
  unfold WP; rw [wp_ret]; imodintro
  isplitr; · iexact HR
  iexact HSt

/-- Operations 139 to 144: the read-out of chunks 4 to 9 sent along the first axis. -/
theorem part50 (c : Dev nD) :
    iprop(records m K ∗ St m c 138)
      ⊢ WP c (k0_part50 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 144)) := by
  rw [k0_part50_eq_skeleton]; unfold k0_part50_skel
  simp only [Prog.lift, Prog.bind_op, Prog.bind_ret, Prog.pure_eq_ret]
  iintro ⟨#HR, HSt⟩
  stepD (step_sw m K c (.xa 4) 138 rfl (by decide +kernel) (dst := xaSrc c 4) rfl)
  stepD (step_sw m K c (.xa 5) 139 rfl (by decide +kernel) (dst := xaSrc c 5) rfl)
  stepD (step_sw m K c (.xa 6) 140 rfl (by decide +kernel) (dst := xaSrc c 6) rfl)
  stepD (step_sw m K c (.xa 7) 141 rfl (by decide +kernel) (dst := xaSrc c 7) rfl)
  stepD (step_sw m K c (.xa 8) 142 rfl (by decide +kernel) (dst := xaSrc c 8) rfl)
  stepD (step_sw m K c (.xa 9) 143 rfl (by decide +kernel) (dst := xaSrc c 9) rfl)
  unfold WP; rw [wp_ret]; imodintro
  isplitr; · iexact HR
  iexact HSt

/-- Operations 145 to 150: the read-out of chunks 10 to 15 sent along the first axis. -/
theorem part51 (c : Dev nD) :
    iprop(records m K ∗ St m c 144)
      ⊢ WP c (k0_part51 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 150)) := by
  rw [k0_part51_eq_skeleton]; unfold k0_part51_skel
  simp only [Prog.lift, Prog.bind_op, Prog.bind_ret, Prog.pure_eq_ret]
  iintro ⟨#HR, HSt⟩
  stepD (step_sw m K c (.xa 10) 144 rfl (by decide +kernel) (dst := xaSrc c 10) rfl)
  stepD (step_sw m K c (.xa 11) 145 rfl (by decide +kernel) (dst := xaSrc c 11) rfl)
  stepD (step_sw m K c (.xa 12) 146 rfl (by decide +kernel) (dst := xaSrc c 12) rfl)
  stepD (step_sw m K c (.xa 13) 147 rfl (by decide +kernel) (dst := xaSrc c 13) rfl)
  stepD (step_sw m K c (.xa 14) 148 rfl (by decide +kernel) (dst := xaSrc c 14) rfl)
  stepD (step_sw m K c (.xa 15) 149 rfl (by decide +kernel) (dst := xaSrc c 15) rfl)
  unfold WP; rw [wp_ret]; imodintro
  isplitr; · iexact HR
  iexact HSt

/-- Operations 151 to 156: the read-out of the first six chunks of the diagonal quarter sent along the first axis. -/
theorem part52 (c : Dev nD) :
    iprop(records m K ∗ St m c 150)
      ⊢ WP c (k0_part52 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 156)) := by
  rw [k0_part52_eq_skeleton]; unfold k0_part52_skel
  simp only [Prog.lift, Prog.bind_op, Prog.bind_ret, Prog.pure_eq_ret]
  iintro ⟨#HR, HSt⟩
  stepD (step_sw m K c (.xb 0) 150 rfl (by decide +kernel) (dst := xbSrc c 0) rfl)
  stepD (step_sw m K c (.xb 1) 151 rfl (by decide +kernel) (dst := xbSrc c 1) rfl)
  stepD (step_sw m K c (.xb 2) 152 rfl (by decide +kernel) (dst := xbSrc c 2) rfl)
  stepD (step_sw m K c (.xb 3) 153 rfl (by decide +kernel) (dst := xbSrc c 3) rfl)
  stepD (step_sw m K c (.xb 4) 154 rfl (by decide +kernel) (dst := xbSrc c 4) rfl)
  stepD (step_sw m K c (.xb 5) 155 rfl (by decide +kernel) (dst := xbSrc c 5) rfl)
  unfold WP; rw [wp_ret]; imodintro
  isplitr; · iexact HR
  iexact HSt

/-- Operations 157 to 162: the read-out of the last three chunks of the diagonal quarter sent along the first
    axis, then of the first three chunks relayed along the second axis (their source rows are rows of the
    result buffer, where the chunk landed). -/
theorem part53 (c : Dev nD) :
    iprop(records m K ∗ St m c 156)
      ⊢ WP c (k0_part53 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 162)) := by
  rw [k0_part53_eq_skeleton]; unfold k0_part53_skel
  simp only [Prog.lift, Prog.bind_op, Prog.bind_ret, Prog.pure_eq_ret]
  iintro ⟨#HR, HSt⟩
  stepD (step_sw m K c (.xb 6) 156 rfl (by decide +kernel) (dst := xbSrc c 6) rfl)
  stepD (step_sw m K c (.xb 7) 157 rfl (by decide +kernel) (dst := xbSrc c 7) rfl)
  stepD (step_sw m K c (.xb 8) 158 rfl (by decide +kernel) (dst := xbSrc c 8) rfl)
  stepD (step_sw m K c (.yf 0) 159 rfl (by decide +kernel) (dst := fwM c 0) rfl)
  stepD (step_sw m K c (.yf 1) 160 rfl (by decide +kernel) (dst := fwM c 1) rfl)
  stepD (step_sw m K c (.yf 2) 161 rfl (by decide +kernel) (dst := fwM c 2) rfl)
  unfold WP; rw [wp_ret]; imodintro
  isplitr; · iexact HR
  iexact HSt

/-- Operations 163 to 168: the read-out of chunks 3 to 8 relayed along the second axis. -/
theorem part54 (c : Dev nD) :
    iprop(records m K ∗ St m c 162)
      ⊢ WP c (k0_part54 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 168)) := by
  rw [k0_part54_eq_skeleton]; unfold k0_part54_skel
  simp only [Prog.lift, Prog.bind_op, Prog.bind_ret, Prog.pure_eq_ret]
  iintro ⟨#HR, HSt⟩
  stepD (step_sw m K c (.yf 3) 162 rfl (by decide +kernel) (dst := fwM c 3) rfl)
  stepD (step_sw m K c (.yf 4) 163 rfl (by decide +kernel) (dst := fwM c 4) rfl)
  stepD (step_sw m K c (.yf 5) 164 rfl (by decide +kernel) (dst := fwM c 5) rfl)
  stepD (step_sw m K c (.yf 6) 165 rfl (by decide +kernel) (dst := fwM c 6) rfl)
  stepD (step_sw m K c (.yf 7) 166 rfl (by decide +kernel) (dst := fwM c 7) rfl)
  stepD (step_sw m K c (.yf 8) 167 rfl (by decide +kernel) (dst := fwM c 8) rfl)
  unfold WP; rw [wp_ret]; imodintro
  isplitr; · iexact HR
  iexact HSt

/-- Operations 169 to 174: the read-out of chunks 9 to 14 relayed along the second axis. -/
theorem part55 (c : Dev nD) :
    iprop(records m K ∗ St m c 168)
      ⊢ WP c (k0_part55 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 174)) := by
  rw [k0_part55_eq_skeleton]; unfold k0_part55_skel
  simp only [Prog.lift, Prog.bind_op, Prog.bind_ret, Prog.pure_eq_ret]
  iintro ⟨#HR, HSt⟩
  stepD (step_sw m K c (.yf 9) 168 rfl (by decide +kernel) (dst := fwM c 9) rfl)
  stepD (step_sw m K c (.yf 10) 169 rfl (by decide +kernel) (dst := fwM c 10) rfl)
  stepD (step_sw m K c (.yf 11) 170 rfl (by decide +kernel) (dst := fwM c 11) rfl)
  stepD (step_sw m K c (.yf 12) 171 rfl (by decide +kernel) (dst := fwM c 12) rfl)
  stepD (step_sw m K c (.yf 13) 172 rfl (by decide +kernel) (dst := fwM c 13) rfl)
  stepD (step_sw m K c (.yf 14) 173 rfl (by decide +kernel) (dst := fwM c 14) rfl)
  unfold WP; rw [wp_ret]; imodintro
  isplitr; · iexact HR
  iexact HSt

/-- Operations 175 to 180: the read-out of the last chunk relayed along the second axis, then of the first five
    chunks relayed along the third axis (the same source rows, at the other half share). -/
theorem part56 (c : Dev nD) :
    iprop(records m K ∗ St m c 174)
      ⊢ WP c (k0_part56 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 180)) := by
  rw [k0_part56_eq_skeleton]; unfold k0_part56_skel
  simp only [Prog.lift, Prog.bind_op, Prog.bind_ret, Prog.pure_eq_ret]
  iintro ⟨#HR, HSt⟩
  stepD (step_sw m K c (.yf 15) 174 rfl (by decide +kernel) (dst := fwM c 15) rfl)
  stepD (step_sw m K c (.zf 0) 175 rfl (by decide +kernel) (dst := fwM c 0) rfl)
  stepD (step_sw m K c (.zf 1) 176 rfl (by decide +kernel) (dst := fwM c 1) rfl)
  stepD (step_sw m K c (.zf 2) 177 rfl (by decide +kernel) (dst := fwM c 2) rfl)
  stepD (step_sw m K c (.zf 3) 178 rfl (by decide +kernel) (dst := fwM c 3) rfl)
  stepD (step_sw m K c (.zf 4) 179 rfl (by decide +kernel) (dst := fwM c 4) rfl)
  unfold WP; rw [wp_ret]; imodintro
  isplitr; · iexact HR
  iexact HSt

/-- Operations 181 to 186: the read-out of chunks 5 to 10 relayed along the third axis. -/
theorem part57 (c : Dev nD) :
    iprop(records m K ∗ St m c 180)
      ⊢ WP c (k0_part57 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 186)) := by
  rw [k0_part57_eq_skeleton]; unfold k0_part57_skel
  simp only [Prog.lift, Prog.bind_op, Prog.bind_ret, Prog.pure_eq_ret]
  iintro ⟨#HR, HSt⟩
  stepD (step_sw m K c (.zf 5) 180 rfl (by decide +kernel) (dst := fwM c 5) rfl)
  stepD (step_sw m K c (.zf 6) 181 rfl (by decide +kernel) (dst := fwM c 6) rfl)
  stepD (step_sw m K c (.zf 7) 182 rfl (by decide +kernel) (dst := fwM c 7) rfl)
  stepD (step_sw m K c (.zf 8) 183 rfl (by decide +kernel) (dst := fwM c 8) rfl)
  stepD (step_sw m K c (.zf 9) 184 rfl (by decide +kernel) (dst := fwM c 9) rfl)
  stepD (step_sw m K c (.zf 10) 185 rfl (by decide +kernel) (dst := fwM c 10) rfl)
  unfold WP; rw [wp_ret]; imodintro
  isplitr; · iexact HR
  iexact HSt

/-- Operations 187 to 192: the read-out of chunks 11 to 15 relayed along the third axis, then of the first of the
    four chunks relayed a second time, along the second axis. -/
theorem part58 (c : Dev nD) :
    iprop(records m K ∗ St m c 186)
      ⊢ WP c (k0_part58 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 192)) := by
  rw [k0_part58_eq_skeleton]; unfold k0_part58_skel
  simp only [Prog.lift, Prog.bind_op, Prog.bind_ret, Prog.pure_eq_ret]
  iintro ⟨#HR, HSt⟩
  stepD (step_sw m K c (.zf 11) 186 rfl (by decide +kernel) (dst := fwM c 11) rfl)
  stepD (step_sw m K c (.zf 12) 187 rfl (by decide +kernel) (dst := fwM c 12) rfl)
  stepD (step_sw m K c (.zf 13) 188 rfl (by decide +kernel) (dst := fwM c 13) rfl)
  stepD (step_sw m K c (.zf 14) 189 rfl (by decide +kernel) (dst := fwM c 14) rfl)
  stepD (step_sw m K c (.zf 15) 190 rfl (by decide +kernel) (dst := fwM c 15) rfl)
  stepD (step_sw m K c (.ya 0) 191 rfl (by decide +kernel) (dst := yaM c 0) rfl)
  unfold WP; rw [wp_ret]; imodintro
  isplitr; · iexact HR
  iexact HSt

/-- info: 'Cert.KernelIdeal.AG.part49' depends on axioms: [propext, Classical.choice, Quot.sound] -/
#guard_msgs in #print axioms part49

/-- info: 'Cert.KernelIdeal.AG.part58' depends on axioms: [propext, Classical.choice, Quot.sound] -/
#guard_msgs in #print axioms part58

end Cert.KernelIdeal.AG

end
-- ==== Proof.Data.lean ====
/-
  What the launch deals each device and what its body must return: the tallies a device owes at launch (its
  three entry signals and the landings of its 64 copies), the ghost state it starts from (every cell's invariant and
  that every cell has reached round 0; its positions on its own 130 cells; the tokens of the duties it pays), the
  credit tokens of its barrier cell and of its 64 landing cells, the pipeline's proof data (the argument block staged
  unchanged, the result staged with what it must end with), and the body's precondition and postcondition in the
  pipeline's form.
-/
import proofs.«900661_g7700000000000662_dist_ag_v7x_xyz2x2x2_x_m2048_n512_f32_1_alg».proof.Proof.Acc

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device c owes at launch: the landing of each of its copies and one unit to each neighbour's barrier cell. -/
def O₀ (c : Dev nD) : CellTallies nD τ sig Unit := owedAll c [0, 1, 2] sendOrder

/-- The persistent records: every protocol cell's invariant under the names K, and that each has reached round 0. -/
def recs (K : Dev nD × Fin 130 → ℕ) : sProp 𝕄 :=
  iprop((bigSep Finset.univ fun ck : Dev nD × Fin 130 => cellInv ER (sched m) (K ck) (kcell ck))
    ∗ (bigSep Finset.univ fun ck : Dev nD × Fin 130 => reached ER (kcell ck) 0))

instance recs_persistent (K : Dev nD × Fin 130 → ℕ) : BI.Persistent (recs m K) := by unfold recs; infer_instance

/-- What stays with device c alone: its positions on its own cells, and the tokens of the duties IT pays. -/
def linear (c : Dev nD) : sProp 𝕄 :=
  iprop((bigSep Finset.univ fun k : Fin 130 => atPos ER (kcell (c, k)) 0 ∅ 0)
    ∗ (bigSep Finset.univ fun d : Fin 3 => dutyTok ER (barCell (peer d c)) 0 d)
    ∗ (bigSep Finset.univ fun i : Xf => iprop(dutyTok ER (rCell i (peer i.dir c)) 0 0 ∗ dutyTok ER (sCell i c) 0 0))
    ∗ dutyTok ER (locCell c) 0 0)

/-- The protocol's ghost state device c starts from, at the names K. -/
def ghost (K : Dev nD × Fin 130 → ℕ) (c : Dev nD) : sProp 𝕄 := iprop(recs m K ∗ linear c)

/-- The credit tokens device c is dealt: three units on its barrier cell, a copy's credit on each landing cell. -/
def creds (c : Dev nD) : sProp 𝕄 :=
  iprop(cred (tallyAt (barCell c) () 3) ∗ bigSep Finset.univ fun i : Xf => cred (tallyAt (rCell i c) () NC))

/-- What device c's body starts from. -/
def start (c : Dev nD) : sProp 𝕄 := iprop((∃ K, ghost m K c) ∗ creds c ∗ levAts L lv)

def Φ₀ (c : Dev nD) : sProp 𝕄 := start m c
/-- After the point: the kernel's own 129 semaphores back at zero. -/
def Φ₁ (c : Dev nD) : sProp 𝕄 := bigSep Finset.univ fun k : Fin 129 => semVal ((c : Thread nD τ), osem k) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The one grid point. -/
abbrev t₀ : Fin cfg0.N := t0_0

/-- A staging buffer held whole at given contents, in the pipeline's form. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 130 → ℕ) (c : Dev nD) : sProp 𝕄 :=
  iprop((ghost m K c ∗ creds c ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (outAt m c))

/-- The kernel function as the pipeline calls it at the one point. -/
abbrev theBody : Prog (TpuEff nD τ sig (Elt F) Λ₀ .tc) PUnit :=
  cc0_body (Memref.whole cc0_stg0_0) (Memref.isWhole_whole _) (Memref.whole cc0_stg1_0) (Memref.isWhole_whole _)
    cc0_scratch0 cc0_scratch1 cc0_scratch2 cc0_scratch3 cc0_scratch4 cc0_scratch5 cc0_scratch6 cc0_scratch7 cc0_scratch8 cc0_scratch9 cc0_scratch10

end Cert.KernelIdeal.AG

end
-- ==== Proof.Run.lean ====
/-
  The body of one device, whole: its 198 memory operations in program order. The printed body is a sequence of 58
  parts and a tail of six waits; the first part only reads the device's position; each further part is run by its own
  lemma from the state after the operations before it to the state after its own, and the lemmas are chained in the
  parts' order; the tail is stepped directly.
-/
import proofs.«900661_g7700000000000662_dist_ag_v7x_xyz2x2x2_x_m2048_n512_f32_1_alg».proof.Proof.PartsA
import proofs.«900661_g7700000000000662_dist_ag_v7x_xyz2x2x2_x_m2048_n512_f32_1_alg».proof.Proof.PartsB
import proofs.«900661_g7700000000000662_dist_ag_v7x_xyz2x2x2_x_m2048_n512_f32_1_alg».proof.Proof.PartsC
import proofs.«900661_g7700000000000662_dist_ag_v7x_xyz2x2x2_x_m2048_n512_f32_1_alg».proof.Proof.PartsD
import proofs.«900661_g7700000000000662_dist_ag_v7x_xyz2x2x2_x_m2048_n512_f32_1_alg».proof.Proof.Data

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

set_option hygiene false in
/-- One part of the chain: run the part by its lemma, go on in its continuation. -/
local macro "chainpart " t:term : tactic =>
  `(tactic| (refine ($t).trans (wp_mono _ _ _ fun r => ?_); try (rcases r with ⟨_, _⟩); try dsimp only))
set_option hygiene false in
/-- One operation of the tail: the step lemma, the records and the state handed over, the new state taken back. -/
local macro "tailstep " t:pmTerm : tactic =>
  `(tactic| (iapply $t; isplitr; (· iexact HR); isplitl [HSt]; (· iexact HSt); iintro HSt))

set_option maxRecDepth 65536 in
set_option maxHeartbeats 4000000 in
/-- The whole body of device c: from its state before its first memory operation to its state after its 198th. -/
theorem run_parts (c : Dev nD) : iprop(records m K ∗ St m c 0) ⊢ WP c (theBody (F := F)) (fun _ => St m c 198) := by
  unfold theBody WP
  rw [cc0_body_eq_skeleton]; unfold cc0_body_skel
  rw [k0_part59_eq_skeleton]; unfold k0_part59_skel
  rw [k0_part1_eq_skeleton]; unfold k0_part1_skel
  simp only [Prog.lift, Prog.bind_op, Prog.bind_ret, Prog.pure_eq_ret, wp_deviceId, wp_bind]
  chainpart (part2 m K c _ _ _ _ _ _ _ _)
  chainpart (part3 m K c _ _ _ _ _)
  chainpart (part4 m K c _ _ _ _ _ _)
  chainpart (part5 m K c _ _ _ _ _)
  chainpart (part6 m K c _ _ _ _ _ _)
  chainpart (part7 m K c _ _ _ _ _ _ _)
  chainpart (part8 m K c _ _ _ _ _)
  chainpart (part9 m K c _ _ _ _ _ _)
  chainpart (part10 m K c _ _ _ _ _ _ _)
  chainpart (part11 m K c _ _ _ _ _)
  chainpart (part12 m K c _ _ _ _ _)
  chainpart (part13 m K c _ _ _ _ _ _ _ _)
  chainpart (part14 m K c _ _ _ _ _ _ _ _)
  chainpart (part15 m K c _ _ _ _ _ _ _ _)
  chainpart (part16 m K c _ _ _ _ _ _ _ _)
  chainpart (part17 m K c _ _ _ _ _ _ _ _)
  chainpart (part18 m K c _ _ _ _ _ _ _ _)
  chainpart (part19 m K c _ _ _ _ _ _ _ _)
  chainpart (part20 m K c _ _ _ _ _ _ _ _ _)
  chainpart (part21 m K c _ _ _ _ _ _ _ _)
  chainpart (part22 m K c _ _ _ _ _ _ _)
  chainpart (part23 m K c _ _ _ _ _ _ _ _ _)
  chainpart (part24 m K c _ _ _ _ _ _ _ _)
  chainpart (part25 m K c _ _ _ _ _ _ _ _)
  chainpart (part26 m K c _ _ _ _ _ _ _ _)
  chainpart (part27 m K c _ _ _ _ _ _ _ _)
  chainpart (part28 m K c _ _ _ _ _ _ _ _)
  chainpart (part29 m K c _ _ _ _ _ _ _ _)
  chainpart (part30 m K c _ _ _ _ _ _ _ _)
  chainpart (part31 m K c _ _ _ _ _ _)
  chainpart (part32 m K c _ _ _ _ _ _)
  chainpart (part33 m K c _ _ _ _ _ _)
  chainpart (part34 m K c _ _ _ _ _)
  chainpart (part35 m K c _ _ _ _ _)
  chainpart (part36 m K c _ _ _ _ _ _)
  chainpart (part37 m K c _ _ _ _ _ _ _)
  chainpart (part38 m K c _ _ _ _ _ _ _)
  chainpart (part39 m K c _ _ _ _ _ _)
  chainpart (part40 m K c _ _ _ _ _ _ _)
  chainpart (part41 m K c _ _ _ _ _ _ _ _ _)
  chainpart (part42 m K c _ _ _ _ _ _ _)
  chainpart (part43 m K c _ _ _ _ _ _ _)
  chainpart (part44 m K c _ _ _)
  chainpart (part45 m K c _ _ _)
  chainpart (part46 m K c _ _ _)
  chainpart (part47 m K c _ _ _)
  chainpart (part48 m K c _ _ _ _ _ _ _)
  chainpart (part49 m K c _ _ _)
  chainpart (part50 m K c)
  chainpart (part51 m K c)
  chainpart (part52 m K c)
  chainpart (part53 m K c)
  chainpart (part54 m K c)
  chainpart (part55 m K c)
  chainpart (part56 m K c)
  chainpart (part57 m K c)
  chainpart (part58 m K c)
  rw [wp_ret]
  iintro ⟨#HR, HSt⟩
  imodintro
  tailstep (step_sw m K c (.ya 1) 192 rfl (by decide) (by rfl))
  tailstep (step_sw m K c (.ya 2) 193 rfl (by decide) (by rfl))
  tailstep (step_sw m K c (.ya 3) 194 rfl (by decide) (by rfl))
  tailstep (step_sw m K c (.zb 0) 195 rfl (by decide) (by rfl))
  tailstep (step_sw m K c (.zb 1) 196 rfl (by decide) (by rfl))
  tailstep (step_sw m K c (.zb 2) 197 rfl (by decide) (by rfl))
  unfold WP; rw [wp_ret]; imodintro
  iexact HSt

/-- info: 'Cert.KernelIdeal.AG.run_parts' depends on axioms: [propext, Classical.choice, Quot.sound] -/
#guard_msgs in #print axioms run_parts

end Cert.KernelIdeal.AG

end
-- ==== Proof.EntryExit.lean ====
/-
  The first and the last step of a device's body. At entry the launch's deal — every cell's invariant, the device's
  positions on its own 130 cells, its duty tokens, its credit tokens, its two staging buffers held whole — is cut
  into the pieces of the state after 0 memory operations; at exit the pieces of the state after all 198 operations
  are put back together into what the pipeline takes back: the kernel's own 129 semaphores at zero, nothing owed,
  the argument block unchanged and the result holding what it must end with.

  The cutting rests on three facts. The pieces fall into thirteen kinds, so a family over them is thirteen families
  conjoined. A device's 130 cells are its barrier cell, the read-out cell and the landing cell of each of the 64
  copies, and the local copy's cell, each exactly once. And the 4096 rows of the result buffer are the device's own
  2048-row half and the 64 landing slots of 32 rows each, pairwise apart and together everything; likewise the 25
  slices of the argument block the remote copies read are pairwise apart. The row facts are arithmetic on the closed
  forms of the program's offset functions, decided over the eight devices and the 32-row chunks.
-/
import proofs.«900661_g7700000000000662_dist_ag_v7x_xyz2x2x2_x_m2048_n512_f32_1_alg».proof.Proof.Data

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pieces by kind -/

/-- The pieces of a device's state, as the disjoint sum of their kinds. -/
abbrev ResSum : Type := Xf ⊕ Xf ⊕ Xf ⊕ Xf ⊕ Xf ⊕ Xf ⊕ Fin 3 ⊕ Unit ⊕ Unit ⊕ Unit ⊕ Unit ⊕ Unit ⊕ Unit

def resOf : ResSum → Res
  | .inl i => .slot i
  | .inr (.inl i) => .pslot i
  | .inr (.inr (.inl i)) => .tok i
  | .inr (.inr (.inr (.inl i))) => .scell i
  | .inr (.inr (.inr (.inr (.inl i)))) => .rcell i
  | .inr (.inr (.inr (.inr (.inr (.inl i))))) => .xR i
  | .inr (.inr (.inr (.inr (.inr (.inr (.inl d)))))) => .sigtok d
  | .inr (.inr (.inr (.inr (.inr (.inr (.inr (.inl _))))))) => .bar
  | .inr (.inr (.inr (.inr (.inr (.inr (.inr (.inr (.inl _)))))))) => .xL
  | .inr (.inr (.inr (.inr (.inr (.inr (.inr (.inr (.inr (.inl _))))))))) => .xRrest
  | .inr (.inr (.inr (.inr (.inr (.inr (.inr (.inr (.inr (.inr (.inl _)))))))))) => .own
  | .inr (.inr (.inr (.inr (.inr (.inr (.inr (.inr (.inr (.inr (.inr (.inl _))))))))))) => .loccell
  | .inr (.inr (.inr (.inr (.inr (.inr (.inr (.inr (.inr (.inr (.inr (.inr _))))))))))) => .owes

def ofRes : Res → ResSum
  | .slot i => .inl i
  | .pslot i => .inr (.inl i)
  | .tok i => .inr (.inr (.inl i))
  | .scell i => .inr (.inr (.inr (.inl i)))
  | .rcell i => .inr (.inr (.inr (.inr (.inl i))))
  | .xR i => .inr (.inr (.inr (.inr (.inr (.inl i)))))
  | .sigtok d => .inr (.inr (.inr (.inr (.inr (.inr (.inl d))))))
  | .bar => .inr (.inr (.inr (.inr (.inr (.inr (.inr (.inl ())))))))
  | .xL => .inr (.inr (.inr (.inr (.inr (.inr (.inr (.inr (.inl ()))))))))
  | .xRrest => .inr (.inr (.inr (.inr (.inr (.inr (.inr (.inr (.inr (.inl ())))))))))
  | .own => .inr (.inr (.inr (.inr (.inr (.inr (.inr (.inr (.inr (.inr (.inl ()))))))))))
  | .loccell => .inr (.inr (.inr (.inr (.inr (.inr (.inr (.inr (.inr (.inr (.inr (.inl ())))))))))))
  | .owes => .inr (.inr (.inr (.inr (.inr (.inr (.inr (.inr (.inr (.inr (.inr (.inr ())))))))))))

def resEquiv : ResSum ≃ Res where
  toFun := resOf
  invFun := ofRes
  left_inv := by
    rintro (i | i | i | i | i | i | d | u | u | u | u | u | u) <;> rfl
  right_inv := by
    intro r; cases r <;> rfl

/-- A family over the pieces is the families over each kind, conjoined. -/
theorem bigSep_Res {M : Type} [URA M] (Φ : Res → sProp M) :
    bigSep Finset.univ Φ = iprop(
      (bigSep Finset.univ fun i : Xf => Φ (.slot i)) ∗ (bigSep Finset.univ fun i : Xf => Φ (.pslot i))
      ∗ (bigSep Finset.univ fun i : Xf => Φ (.tok i)) ∗ (bigSep Finset.univ fun i : Xf => Φ (.scell i))
      ∗ (bigSep Finset.univ fun i : Xf => Φ (.rcell i)) ∗ (bigSep Finset.univ fun i : Xf => Φ (.xR i))
      ∗ (bigSep Finset.univ fun d : Fin 3 => Φ (.sigtok d))
      ∗ Φ .bar ∗ Φ .xL ∗ Φ .xRrest ∗ Φ .own ∗ Φ .loccell ∗ Φ .owes) := by
  rw [bigSep_univ_equiv resEquiv Φ]
  rw [bigSep_univ_sum, bigSep_univ_sum, bigSep_univ_sum, bigSep_univ_sum, bigSep_univ_sum, bigSep_univ_sum,
    bigSep_univ_sum, bigSep_univ_sum, bigSep_univ_sum, bigSep_univ_sum, bigSep_univ_sum, bigSep_univ_sum]
  rw [bigSep_univ_of_subsingleton (), bigSep_univ_of_subsingleton (), bigSep_univ_of_subsingleton (),
    bigSep_univ_of_subsingleton (), bigSep_univ_of_subsingleton (), bigSep_univ_of_subsingleton ()]
  rfl

/-! ## A device's 130 cells by role -/

theorem sIdx_ge (i : Xf) : 2 ≤ i.sIdx := by cases i <;> simp only [Xf.sIdx] <;> omega
theorem rIdx_ge (i : Xf) : 2 ≤ i.rIdx := by cases i <;> simp only [Xf.rIdx] <;> omega

/-- The barrier, the 64 read-out cells, the 64 landing cells and the local copy's cell, as positions among the 130. -/
def cellIx : Unit ⊕ Xf ⊕ Xf ⊕ Unit → Fin 130
  | .inl _ => ⟨0, by decide⟩
  | .inr (.inl i) => ⟨i.sIdx - 1, by have := i.sIdx_lt; omega⟩
  | .inr (.inr (.inl i)) => ⟨i.rIdx - 1, by have := i.rIdx_lt; omega⟩
  | .inr (.inr (.inr _)) => ⟨129, by decide⟩

/-- Every one of the 130 positions is exactly one of these. -/
theorem cellIx_bijective : Function.Bijective cellIx := by decide +kernel

/-- The same for the kernel's own 129 semaphores. -/
def ownIx : Xf ⊕ Xf ⊕ Unit → Fin 129
  | .inl i => ⟨i.sIdx - 2, by have := i.sIdx_lt; have := sIdx_ge i; omega⟩
  | .inr (.inl i) => ⟨i.rIdx - 2, by have := i.rIdx_lt; have := rIdx_ge i; omega⟩
  | .inr (.inr _) => ⟨128, by decide⟩

theorem ownIx_bijective : Function.Bijective ownIx := by decide +kernel

theorem csem_s (i : Xf) : csem (cellIx (.inr (.inl i))) = SemLoc.dma (sS i) := by
  have h2 := sIdx_ge i
  show csem ⟨i.sIdx - 1, _⟩ = _
  unfold csem
  rw [dif_neg (by show ¬ i.sIdx - 1 = 0; omega)]
  congr 1; apply Fin.ext; show i.sIdx - 1 + 1 = i.sIdx; omega

theorem csem_r (i : Xf) : csem (cellIx (.inr (.inr (.inl i)))) = SemLoc.dma (rS i) := by
  have h2 := rIdx_ge i
  show csem ⟨i.rIdx - 1, _⟩ = _
  unfold csem
  rw [dif_neg (by show ¬ i.rIdx - 1 = 0; omega)]
  congr 1; apply Fin.ext; show i.rIdx - 1 + 1 = i.rIdx; omega

theorem osem_s (i : Xf) : osem (ownIx (.inl i)) = SemLoc.dma (sS i) := by
  have h2 := sIdx_ge i
  show SemLoc.dma ⟨i.sIdx - 2 + 2, _⟩ = _
  congr 1; apply Fin.ext; show i.sIdx - 2 + 2 = i.sIdx; omega

theorem osem_r (i : Xf) : osem (ownIx (.inr (.inl i))) = SemLoc.dma (rS i) := by
  have h2 := rIdx_ge i
  show SemLoc.dma ⟨i.rIdx - 2 + 2, _⟩ = _
  congr 1; apply Fin.ext; show i.rIdx - 2 + 2 = i.rIdx; omega

/-- A family over a device's 130 cells, by role. -/
theorem bigSep_cells {M : Type} [URA M] (c : Dev nD) (Ψ : GSem nD τ sig → sProp M) :
    (bigSep Finset.univ fun k : Fin 130 => Ψ (kcell (c, k)))
      = iprop(Ψ (barCell c) ∗ (bigSep Finset.univ fun i : Xf => Ψ (sCell i c))
          ∗ (bigSep Finset.univ fun i : Xf => Ψ (rCell i c)) ∗ Ψ (locCell c)) := by
  rw [bigSep_univ_equiv (Equiv.ofBijective cellIx cellIx_bijective) (fun k : Fin 130 => Ψ (kcell (c, k)))]
  rw [bigSep_univ_sum, bigSep_univ_sum, bigSep_univ_sum]
  rw [bigSep_univ_of_subsingleton (), bigSep_univ_of_subsingleton ()]
  simp only [Equiv.ofBijective_apply]
  have hs : ∀ i : Xf, kcell (c, cellIx (.inr (.inl i))) = sCell i c := fun i => by
    show ((c : Thread nD τ), csem (cellIx (.inr (.inl i)))) = _; rw [csem_s]
  have hr : ∀ i : Xf, kcell (c, cellIx (.inr (.inr (.inl i)))) = rCell i c := fun i => by
    show ((c : Thread nD τ), csem (cellIx (.inr (.inr (.inl i))))) = _; rw [csem_r]
  simp only [hs, hr]
  rfl

/-- A family over a device's own 129 semaphores, by role. -/
theorem bigSep_own {M : Type} [URA M] (c : Dev nD) (Ψ : GSem nD τ sig → sProp M) :
    (bigSep Finset.univ fun k : Fin 129 => Ψ ((c : Thread nD τ), osem k))
      = iprop((bigSep Finset.univ fun i : Xf => Ψ (sCell i c))
          ∗ (bigSep Finset.univ fun i : Xf => Ψ (rCell i c)) ∗ Ψ (locCell c)) := by
  rw [bigSep_univ_equiv (Equiv.ofBijective ownIx ownIx_bijective) (fun k : Fin 129 => Ψ ((c : Thread nD τ), osem k))]
  rw [bigSep_univ_sum, bigSep_univ_sum]
  rw [bigSep_univ_of_subsingleton ()]
  simp only [Equiv.ofBijective_apply, osem_s, osem_r]
  rfl

/-! ## Rows: where each slice of the two staging buffers lies -/

/-- A 32-row slice of the result buffer at row offset `A`: the rows `A ≤ r < A + 32`, every column. -/
theorem mem_rows32_o (off : Fin 2 → ℕ) (A : ℕ) (hoff : off = ![A, 0]) (inb) (i : OIx) :
    i ∈ ((oM : Memref sig .tc .vmem S4096x512 .f32).slice (Rect.unit (s := S4096x512) off S32x512.size inb) (fun _ => rfl)).view.set
      ↔ A ≤ (i 0).val ∧ (i 0).val < A + 32 := by
  subst hoff
  rw [show ((oM : Memref sig .tc .vmem S4096x512 .f32).slice (Rect.unit (s := S4096x512) ![A, 0] S32x512.size inb) (fun _ => rfl)).view.set
      = (Rect.unit (s := S4096x512) ![A, 0] S32x512.size inb).set from View.set_slice_whole _ _, Rect.mem_set_unit]
  constructor
  · intro h; exact h 0
  · intro h a
    rcases a with ⟨_ | _ | n, hb⟩
    · exact h
    · have h1 : (i 1).val < 512 := (i 1).isLt
      exact ⟨Nat.zero_le _, by show (i 1).val < 0 + 512; omega⟩
    · exact absurd hb (by simp)

/-- The same in the argument's staging buffer. -/
theorem mem_rows32_x (off : Fin 2 → ℕ) (A : ℕ) (hoff : off = ![A, 0]) (inb) (i : XIx) :
    i ∈ ((xM : Memref sig .tc .vmem S2048x512 .f32).slice (Rect.unit (s := S2048x512) off S32x512.size inb) (fun _ => rfl)).view.set
      ↔ A ≤ (i 0).val ∧ (i 0).val < A + 32 := by
  subst hoff
  rw [show ((xM : Memref sig .tc .vmem S2048x512 .f32).slice (Rect.unit (s := S2048x512) ![A, 0] S32x512.size inb) (fun _ => rfl)).view.set
      = (Rect.unit (s := S2048x512) ![A, 0] S32x512.size inb).set from View.set_slice_whole _ _, Rect.mem_set_unit]
  constructor
  · intro h; exact h 0
  · intro h a
    rcases a with ⟨_ | _ | n, hb⟩
    · exact h
    · have h1 : (i 1).val < 512 := (i 1).isLt
      exact ⟨Nat.zero_le _, by show (i 1).val < 0 + 512; omega⟩
    · exact absurd hb (by simp)

/-- A 2048-row slice of the result buffer at row offset `A`. -/
theorem mem_rows2048_o (off : Fin 2 → ℕ) (A : ℕ) (hoff : off = ![A, 0]) (inb) (i : OIx) :
    i ∈ ((oM : Memref sig .tc .vmem S4096x512 .f32).slice (Rect.unit (s := S4096x512) off S2048x512.size inb) (fun _ => rfl)).view.set
      ↔ A ≤ (i 0).val ∧ (i 0).val < A + 2048 := by
  subst hoff
  rw [show ((oM : Memref sig .tc .vmem S4096x512 .f32).slice (Rect.unit (s := S4096x512) ![A, 0] S2048x512.size inb) (fun _ => rfl)).view.set
      = (Rect.unit (s := S4096x512) ![A, 0] S2048x512.size inb).set from View.set_slice_whole _ _, Rect.mem_set_unit]
  constructor
  · intro h; exact h 0
  · intro h a
    rcases a with ⟨_ | _ | n, hb⟩
    · exact h
    · have h1 : (i 1).val < 512 := (i 1).isLt
      exact ⟨Nat.zero_le _, by show (i 1).val < 0 + 512; omega⟩
    · exact absurd hb (by simp)

/-- The first row copy j writes, by the number of the device that issues it. -/
def dRow (j : Xf) (cv : ℕ) : ℕ :=
  match j with
  | .xa k => 2048 * (cv / 4) + 1024 * (cv % 2) + 512 * ((cv / 2) % 2) + 32 * k.val
  | .xb k => (2048 * (cv / 4) + 32 * k.val + 1536) - (1024 * (cv % 2) + 512 * ((cv / 2) % 2))
  | .yf k => (1024 * (cv % 2) + 512 * ((cv / 2) % 2) + 32 * k.val + 2048) - 2048 * (cv / 4)
  | .zf k => (1024 * (cv % 2) + 512 * ((cv / 2) % 2) + 32 * k.val + 2048) - 2048 * (cv / 4)
  | .ya k => (512 * ((cv / 2) % 2) + 32 * k.val + 3360) - (2048 * (cv / 4) + 1024 * (cv % 2))
  | .zb k => (1024 * (cv % 2) + 32 * k.val + 2976) - (2048 * (cv / 4) + 512 * ((cv / 2) % 2))

theorem mem_dstSet (j : Xf) (c : Dev nD) (i : OIx) :
    i ∈ dstSet j c ↔ dRow j c.val ≤ (i 0).val ∧ (i 0).val < dRow j c.val + 32 := by
  cases j with
  | xa k => exact mem_rows32_o _ _ (k0_off1_eq c k) (k0_off1_inb c k) i
  | xb k => exact mem_rows32_o _ _ (k0_off3_eq c k) (k0_off3_inb c k) i
  | yf k => exact mem_rows32_o _ _ (k0_off6_eq c k) (k0_off6_inb c k) i
  | zf k => exact mem_rows32_o _ _ (k0_off6_eq c k) (k0_off6_inb c k) i
  | ya k => exact mem_rows32_o _ _ (k0_off7_eq c k) (k0_off7_inb c k) i
  | zb k => exact mem_rows32_o _ _ (k0_off8_eq c k) (k0_off8_inb c k) i

/-- The number of the neighbour along each axis. -/
def pv (d : Fin 3) (cv : ℕ) : ℕ :=
  match d with
  | 0 => (2 * ((cv / 2) % 2) + (cv % 2) + 4) - 4 * (cv / 4)
  | 1 => (4 * (cv / 4) + (cv % 2) + 2) - 2 * ((cv / 2) % 2)
  | 2 => (4 * (cv / 4) + 2 * ((cv / 2) % 2) + 1) - (cv % 2)

theorem peer_val : ∀ (d : Fin 3) (c : Dev nD), (peer d c).val = pv d c.val
  | 0, c => k0_dev1_eq c
  | 1, c => k0_dev2_eq c
  | 2, c => k0_dev3_eq c

/-- The first row where the copy j addressed to a device lands, by the device's number. -/
def slotRow (j : Xf) (cv : ℕ) : ℕ := dRow j (pv j.dir cv)

theorem mem_slotSet (j : Xf) (c : Dev nD) (i : OIx) :
    i ∈ slotSet j c ↔ slotRow j c.val ≤ (i 0).val ∧ (i 0).val < slotRow j c.val + 32 := by
  unfold slotSet slotRow
  rw [mem_dstSet, peer_val]

theorem mem_ownSet (c : Dev nD) (i : OIx) :
    i ∈ ownSet c ↔ 2048 * (c.val / 4) ≤ (i 0).val ∧ (i 0).val < 2048 * (c.val / 4) + 2048 :=
  mem_rows2048_o _ _ (k0_off5_eq c) (k0_off5_inb c) i

/-! ### The result buffer: the device's own half and the 64 landing slots partition its 4096 rows -/

theorem slot_own_sep : ∀ (c : Fin 8) (j : Xf),
    slotRow j c.val + 32 ≤ 2048 * (c.val / 4) ∨ 2048 * (c.val / 4) + 2048 ≤ slotRow j c.val := by decide +kernel

theorem slot_slot_sep : ∀ (c : Fin 8) (j j' : Xf), j ≠ j' →
    slotRow j c.val + 32 ≤ slotRow j' c.val ∨ slotRow j' c.val + 32 ≤ slotRow j c.val := by decide +kernel

/-- Every 32-row chunk of the result is in the device's own half or is exactly one landing slot. -/
theorem chunk_cover : ∀ (c : Fin 8) (ch : Fin 128),
    (64 * (c.val / 4) ≤ ch.val ∧ ch.val < 64 * (c.val / 4) + 64) ∨ ∃ j : Xf, slotRow j c.val = 32 * ch.val := by
  decide +kernel

theorem disjoint_own_slot (c : Dev nD) (j : Xf) : Disjoint (ownSet c) (slotSet j c) :=
  Finset.disjoint_left.mpr fun i h1 h2 => by
    rw [mem_ownSet] at h1; rw [mem_slotSet] at h2
    have := slot_own_sep c j
    omega

theorem disjoint_slots (c : Dev nD) (j j' : Xf) (h : j ≠ j') : Disjoint (slotSet j c) (slotSet j' c) :=
  Finset.disjoint_left.mpr fun i h1 h2 => by
    rw [mem_slotSet] at h1 h2
    have := slot_slot_sep c j j' h
    omega

theorem o_cover (c : Dev nD) : ownSet c ∪ Finset.univ.biUnion (fun j : Xf => slotSet j c) = (Finset.univ : Finset OIx) := by
  ext i
  simp only [Finset.mem_union, Finset.mem_biUnion, Finset.mem_univ, true_and, iff_true]
  have hi : (i 0).val < 4096 := (i 0).isLt
  rcases chunk_cover c ⟨(i 0).val / 32, by omega⟩ with h | ⟨j, hj⟩
  · left; rw [mem_ownSet]
    have h' : 64 * (c.val / 4) ≤ (i 0).val / 32 ∧ (i 0).val / 32 < 64 * (c.val / 4) + 64 := h
    omega
  · right; refine ⟨j, ?_⟩; rw [mem_slotSet]
    have hj' : slotRow j c.val = 32 * ((i 0).val / 32) := hj
    omega

/-- The whole result buffer is the device's own half and its 64 landing slots. -/
theorem o_split (c : Dev nD) (q : PosShare TreeShare) (f : Buf (Elt F) ((c : Thread nD τ).loc cc0_stg1_0)) :
    (oPts c Finset.univ q f : sProp 𝕄)
      = iprop(oPts c (ownSet c) q f ∗ bigSep Finset.univ fun j : Xf => oPts c (slotSet j c) q f) := by
  unfold oPts
  have hu := pointsTo_union (ℓ := (c : Thread nD τ).loc cc0_stg1_0) (I := ownSet c)
    (J := Finset.univ.biUnion fun j : Xf => slotSet j c) (q := q) (f := f) (Val := Elt F) (Ix := Unit) (Name := ℕ) (U := UU) (Lvl := ℕ)
    ((Finset.disjoint_biUnion_right _ _ _).mpr fun j _ => disjoint_own_slot c j)
  have hb := pointsTo_biUnion (ℓ := (c : Thread nD τ).loc cc0_stg1_0) (q := q) (f := f) (Val := Elt F) (Ix := Unit) (Name := ℕ) (U := UU) (Lvl := ℕ)
    Finset.univ (fun j : Xf => slotSet j c) (fun j _ j' _ h => disjoint_slots c j j' h)
  rw [← o_cover c, BI.equiv_iff.mp ⟨hu.1, hu.2⟩, hb]

/-! ### The argument block: the 25 slices the remote copies read, and the rest -/

def xLive : Xf → Bool
  | .xa _ => true | .xb _ => true | _ => false

def xRow (j : Xf) (cv : ℕ) : ℕ :=
  match j with
  | .xa k => 1024 * (cv % 2) + 512 * ((cv / 2) % 2) + 32 * k.val
  | .xb k => (32 * k.val + 1536) - (1024 * (cv % 2) + 512 * ((cv / 2) % 2))
  | _ => 0

theorem mem_xSet (j : Xf) (c : Dev nD) (i : XIx) :
    i ∈ xSet j c ↔ xLive j = true ∧ xRow j c.val ≤ (i 0).val ∧ (i 0).val < xRow j c.val + 32 := by
  cases j with
  | xa k => exact (mem_rows32_x _ _ (k0_off2_eq c k) (k0_off2_inb c k) i).trans ⟨fun h => ⟨rfl, h⟩, fun h => h.2⟩
  | xb k => exact (mem_rows32_x _ _ (k0_off4_eq c k) (k0_off4_inb c k) i).trans ⟨fun h => ⟨rfl, h⟩, fun h => h.2⟩
  | yf k => exact ⟨fun h => absurd h (Finset.notMem_empty i), fun h => absurd (show false = true from h.1) (by decide)⟩
  | zf k => exact ⟨fun h => absurd h (Finset.notMem_empty i), fun h => absurd (show false = true from h.1) (by decide)⟩
  | ya k => exact ⟨fun h => absurd h (Finset.notMem_empty i), fun h => absurd (show false = true from h.1) (by decide)⟩
  | zb k => exact ⟨fun h => absurd h (Finset.notMem_empty i), fun h => absurd (show false = true from h.1) (by decide)⟩

theorem x_sep : ∀ (c : Fin 8) (j j' : Xf), j ≠ j' → xLive j = true → xLive j' = true →
    xRow j c.val + 32 ≤ xRow j' c.val ∨ xRow j' c.val + 32 ≤ xRow j c.val := by decide +kernel

theorem disjoint_xSets (c : Dev nD) (j j' : Xf) (h : j ≠ j') : Disjoint (xSet j c) (xSet j' c) :=
  Finset.disjoint_left.mpr fun i h1 h2 => by
    rw [mem_xSet] at h1 h2
    have := x_sep c j j' h h1.1 h2.1
    omega
/-! ## The state after 0 and after all 198 operations, piece by piece -/

theorem tag0_slot : ∀ i : Xf, tag (.slot i) 0 = 0 := by decide
theorem tag0_pslot : ∀ i : Xf, tag (.pslot i) 0 = 0 := by decide
theorem tag0_tok : ∀ i : Xf, tag (.tok i) 0 = 1 := by decide
theorem tag0_scell : ∀ i : Xf, tag (.scell i) 0 = 0 := by decide
theorem tag0_rcell : ∀ i : Xf, tag (.rcell i) 0 = 0 := by decide
theorem tag0_xR : ∀ i : Xf, tag (.xR i) 0 = 1 := by decide
theorem tag0_sigtok : ∀ d : Fin 3, tag (.sigtok d) 0 = 1 := by decide
theorem tag0_bar : tag .bar 0 = 0 := by decide
theorem tag0_xL : tag .xL 0 = 1 := by decide
theorem tag0_xRrest : tag .xRrest 0 = 1 := by decide
theorem tag0_own : tag .own 0 = 0 := by decide
theorem tag0_loccell : tag .loccell 0 = 0 := by decide
theorem tag0_owes : tag .owes 0 = 0 := by decide
theorem tagE_slot : ∀ i : Xf, tag (.slot i) 198 = 2 := by decide
theorem tagE_pslot : ∀ i : Xf, tag (.pslot i) 198 = 0 := by decide
theorem tagE_tok : ∀ i : Xf, tag (.tok i) 198 = 0 := by decide
theorem tagE_scell : ∀ i : Xf, tag (.scell i) 198 = 2 := by decide
theorem tagE_rcell : ∀ i : Xf, tag (.rcell i) 198 = 2 := by decide
theorem tagE_xR : ∀ i : Xf, tag (.xR i) 198 = 1 := by decide
theorem tagE_sigtok : ∀ d : Fin 3, tag (.sigtok d) 198 = 0 := by decide
theorem tagE_bar : tag .bar 198 = 1 := by decide
theorem tagE_xL : tag .xL 198 = 1 := by decide
theorem tagE_xRrest : tag .xRrest 198 = 1 := by decide
theorem tagE_own : tag .own 198 = 2 := by decide
theorem tagE_loccell : tag .loccell 198 = 2 := by decide
theorem tagE_owes : tag .owes 198 = 364 := by decide

theorem sendOrder_drop_end : sendOrder.drop (364 % 100) = [] := by decide
theorem sig_drop_end : ([0, 1, 2] : List (Fin 3)).drop (364 / 100) = [] := by decide

variable (m : (ℓ : Loc nD τ sig) → Buf (Elt F) ℓ) (ρ : Dev nD → PrngReg)

/-- After 0 operations: every row of the result at arbitrary contents, every cell at round 0 with its credit,
    every duty token and the whole argument block in hand, everything still owed. -/
theorem St_zero (c : Dev nD) : St m c 0 = iprop(
    (bigSep Finset.univ fun i : Xf => iprop(∃ f, oPts c (slotSet i c) fullShare f))
    ∗ (bigSep Finset.univ fun i : Xf => (iprop(emp) : sProp 𝕄))
    ∗ (bigSep Finset.univ fun i : Xf => iprop(dutyTok ER (rCell i (peer i.dir c)) 0 0 ∗ dutyTok ER (sCell i c) 0 0))
    ∗ (bigSep Finset.univ fun i : Xf => atPos ER (sCell i c) 0 ∅ 0)
    ∗ (bigSep Finset.univ fun i : Xf => iprop(atPos ER (rCell i c) 0 ∅ 0 ∗ cred (tallyAt (rCell i c) () NC)))
    ∗ (bigSep Finset.univ fun i : Xf => xPts m c (xSet i c) fullShare.right)
    ∗ (bigSep Finset.univ fun d : Fin 3 => dutyTok ER (barCell (peer d c)) 0 d)
    ∗ iprop(atPos ER (barCell c) 0 ∅ 0 ∗ cred (tallyAt (barCell c) () 3))
    ∗ xPts m c Finset.univ fullShare.left
    ∗ xPts m c (xRest c) fullShare.right
    ∗ iprop(∃ f, oPts c (ownSet c) fullShare f)
    ∗ iprop(atPos ER (locCell c) 0 ∅ 0 ∗ dutyTok ER (locCell c) 0 0)
    ∗ iprop(∃ W : Waits sig Unit, owes (c : Thread nD τ) (owedAll c [0, 1, 2] sendOrder) W)) := by
  unfold St
  rw [bigSep_Res]
  simp only [tag0_slot, tag0_pslot, tag0_tok, tag0_scell, tag0_rcell, tag0_xR, tag0_sigtok, tag0_bar, tag0_xL,
    tag0_xRrest, tag0_own, tag0_loccell, tag0_owes]
  rfl

/-- After all 198 operations: every row of the result holding what it must end with, the argument block back,
    every own cell closed at zero, nothing owed. -/
theorem St_end (c : Dev nD) : St m c 198 = iprop(
    (bigSep Finset.univ fun i : Xf => oPts c (slotSet i c) fullShare (outAt m c))
    ∗ (bigSep Finset.univ fun i : Xf => (iprop(emp) : sProp 𝕄))
    ∗ (bigSep Finset.univ fun i : Xf => (iprop(emp) : sProp 𝕄))
    ∗ (bigSep Finset.univ fun i : Xf => (semVal (sCell i c) 0 : sProp 𝕄))
    ∗ (bigSep Finset.univ fun i : Xf => (semVal (rCell i c) 0 : sProp 𝕄))
    ∗ (bigSep Finset.univ fun i : Xf => xPts m c (xSet i c) fullShare.right)
    ∗ (bigSep Finset.univ fun d : Fin 3 => (iprop(emp) : sProp 𝕄))
    ∗ atPos ER (barCell c) 1 ∅ 0
    ∗ xPts m c Finset.univ fullShare.left
    ∗ xPts m c (xRest c) fullShare.right
    ∗ oPts c (ownSet c) fullShare (outAt m c)
    ∗ semVal (locCell c) 0
    ∗ iprop(∃ W : Waits sig Unit, owes (c : Thread nD τ) (0 : CellTallies nD τ sig Unit) W)) := by
  unfold St
  rw [bigSep_Res]
  simp only [tagE_slot, tagE_pslot, tagE_tok, tagE_scell, tagE_rcell, tagE_xR, tagE_sigtok, tagE_bar, tagE_xL,
    tagE_xRrest, tagE_own, tagE_loccell, tagE_owes]
  have ho : interp m c .owes 364
      = iprop(∃ W : Waits sig Unit, owes (c : Thread nD τ) (0 : CellTallies nD τ sig Unit) W) := by
    show iprop(∃ W : Waits sig Unit, owes (c : Thread nD τ)
      (owedAll c (([0, 1, 2] : List (Fin 3)).drop (364 / 100)) (sendOrder.drop (364 % 100))) W) = _
    rw [sendOrder_drop_end, sig_drop_end]
    rfl
  rw [ho]
  rfl

/-- The whole argument block is its left half share, and at the right half share the slices the remote copies
    read and the rest. -/
theorem x_split (c : Dev nD) :
    (xPts m c Finset.univ fullShare : sProp 𝕄)
      = iprop(xPts m c Finset.univ fullShare.left
          ∗ (bigSep Finset.univ fun j : Xf => xPts m c (xSet j c) fullShare.right) ∗ xPts m c (xRest c) fullShare.right) := by
  unfold xPts xRest
  have hs := pointsTo_share (ℓ := (c : Thread nD τ).loc cc0_stg0_0) (I := Finset.univ) (f := xstg m c) (Val := Elt F) (Ix := Unit) (Name := ℕ) (U := UU) (Lvl := ℕ)
    (PosShare.mem_left_op_right fullShare)
  have hp := pointsTo_split_subset (ℓ := (c : Thread nD τ).loc cc0_stg0_0) (q := fullShare.right) (f := xstg m c) (Val := Elt F) (Ix := Unit) (Name := ℕ) (U := UU) (Lvl := ℕ)
    (Finset.subset_univ (Finset.univ.biUnion fun j : Xf => xSet j c))
  have hb := pointsTo_biUnion (ℓ := (c : Thread nD τ).loc cc0_stg0_0) (q := fullShare.right) (f := xstg m c) (Val := Elt F) (Ix := Unit) (Name := ℕ) (U := UU) (Lvl := ℕ)
    Finset.univ (fun j : Xf => xSet j c) (fun j _ j' _ h => disjoint_xSets c j j' h)
  rw [BI.equiv_iff.mp ⟨hs.1, hs.2⟩, BI.equiv_iff.mp ⟨hp.1, hp.2⟩, hb]

/-! ## Cutting the two staging buffers at entry, and putting them back at exit -/

theorem x_cut (c : Dev nD) :
    ((((c : Thread nD τ).loc cc0_stg0_0) ↦{fullShare} xstg m c) : sProp 𝕄)
      ⊢ iprop(xPts m c Finset.univ fullShare.left
          ∗ (bigSep Finset.univ fun j : Xf => xPts m c (xSet j c) fullShare.right) ∗ xPts m c (xRest c) fullShare.right) :=
  Entails.of_eq (x_split m c)

theorem x_glue (c : Dev nD) :
    iprop(xPts m c Finset.univ fullShare.left
          ∗ (bigSep Finset.univ fun j : Xf => xPts m c (xSet j c) fullShare.right) ∗ xPts m c (xRest c) fullShare.right)
      ⊢ ((((c : Thread nD τ).loc cc0_stg0_0) ↦{fullShare} xstg m c) : sProp 𝕄) :=
  Entails.of_eq (x_split m c).symm

theorem o_cut (c : Dev nD) (f : Buf (Elt F) ((c : Thread nD τ).loc cc0_stg1_0)) :
    ((((c : Thread nD τ).loc cc0_stg1_0) ↦{fullShare} f) : sProp 𝕄)
      ⊢ iprop((∃ f, oPts c (ownSet c) fullShare f)
          ∗ bigSep Finset.univ fun j : Xf => iprop(∃ f, oPts c (slotSet j c) fullShare f)) := by
  have h1 : (oPts c (ownSet c) fullShare f : sProp 𝕄) ⊢ iprop(∃ f, oPts c (ownSet c) fullShare f) := by
    iintro H; iexists f; iexact H
  have h2 : ∀ j : Xf, (oPts c (slotSet j c) fullShare f : sProp 𝕄) ⊢ iprop(∃ f, oPts c (slotSet j c) fullShare f) :=
    fun j => by iintro H; iexists f; iexact H
  exact (Entails.of_eq (o_split c fullShare f)).trans (BI.sep_mono h1 (bigSep_mono fun j _ => h2 j))

theorem o_glue (c : Dev nD) (f : Buf (Elt F) ((c : Thread nD τ).loc cc0_stg1_0)) :
    iprop(oPts c (ownSet c) fullShare f ∗ bigSep Finset.univ fun j : Xf => oPts c (slotSet j c) fullShare f)
      ⊢ ((((c : Thread nD τ).loc cc0_stg1_0) ↦{fullShare} f) : sProp 𝕄) :=
  Entails.of_eq (o_split c fullShare f).symm

/-- Nothing, as often as wanted. -/
theorem emp_bigSep {I : Type} (s : Finset I) : (iprop(emp) : sProp 𝕄) ⊢ bigSep s fun _ : I => (iprop(emp) : sProp 𝕄) :=
  Entails.of_eq (bigSep_emp_const s).symm

/-! ## Entry and exit -/

/-- What the launch deals a device is the records and the pieces of its state after 0 operations. -/
theorem entry (K : Dev nD × Fin 130 → ℕ) (c : Dev nD) : bodyPre m ρ K c ⊢ iprop(records m K ∗ St m c 0) := by
  rw [St_zero]
  unfold bodyPre ghost recs linear creds records
  have hat : (bigSep Finset.univ fun k : Fin 130 => (atPos ER (kcell (c, k)) 0 ∅ 0 : sProp 𝕄))
      = iprop(atPos ER (barCell c) 0 ∅ 0 ∗ (bigSep Finset.univ fun i : Xf => atPos ER (sCell i c) 0 ∅ 0)
          ∗ (bigSep Finset.univ fun i : Xf => atPos ER (rCell i c) 0 ∅ 0) ∗ atPos ER (locCell c) 0 ∅ 0) :=
    bigSep_cells c (fun g => (atPos ER g 0 ∅ 0 : sProp 𝕄))
  have hrc : (bigSep Finset.univ fun i : Xf => (iprop(atPos ER (rCell i c) 0 ∅ 0 ∗ cred (tallyAt (rCell i c) () NC)) : sProp 𝕄))
      = iprop((bigSep Finset.univ fun i : Xf => atPos ER (rCell i c) 0 ∅ 0)
          ∗ (bigSep Finset.univ fun i : Xf => cred (tallyAt (rCell i c) () NC))) :=
    bigSep_sep _ _ _
  rw [hat, hrc]
  unfold Dat.owesAt Pipeline.owesWithin
  iintro ⟨⟨⟨⟨HI, HR⟩, ⟨HaB, HaS, HaR, HaL⟩, Hsig, Htok, Hloc⟩, ⟨HcB, HcR⟩, Hlev⟩, ⟨%W, %hW, HO⟩, ⟨%d0, %g0, %hg0, Hx⟩, ⟨%d1, %g1, %hg1, Hout⟩⟩
  have hx : g0 = xstg m c := by rw [hg0]; unfold Dat.before; rw [if_pos (fetch0_0 t₀)]; rfl
  subst hx
  ihave Hx := (x_cut m c) $$ Hx
  icases Hx with ⟨HxL, HxR, HxRest⟩
  ihave Hout := (o_cut c g1) $$ Hout
  icases Hout with ⟨Hown, Hslots⟩
  -- the records
  isplitl [HI HR Hlev]
  · isplitl [HI]; · iexact HI
    isplitl [HR]; · iexact HR
    iexact Hlev
  -- the pieces, kind by kind
  isplitl [Hslots]; · iexact Hslots
  isplitr
  · iapply (emp_bigSep (F := F) (Finset.univ : Finset Xf))
    iempintro
  isplitl [Htok]; · iexact Htok
  isplitl [HaS]; · iexact HaS
  isplitl [HaR HcR]
  · isplitl [HaR]; · iexact HaR
    iexact HcR
  isplitl [HxR]; · iexact HxR
  isplitl [Hsig]; · iexact Hsig
  isplitl [HaB HcB]
  · isplitl [HaB]; · iexact HaB
    iexact HcB
  isplitl [HxL]; · iexact HxL
  isplitl [HxRest]; · iexact HxRest
  isplitl [Hown]; · iexact Hown
  isplitl [HaL Hloc]
  · isplitl [HaL]; · iexact HaL
    iexact Hloc
  iexists W
  rw [show (dats m ρ 0 c).owed t₀.castSucc = owedAll c [0, 1, 2] sendOrder from rfl]
  iexact HO

/-- The pieces of a device's state after all 198 operations are what the pipeline takes back. -/
theorem exit (c : Dev nD) : St m c 198 ⊢ bodyPost m ρ c := by
  rw [St_end]
  unfold bodyPost Φ₁
  have hsv : (bigSep Finset.univ fun k : Fin 129 => (semVal ((c : Thread nD τ), osem k) 0 : sProp 𝕄))
      = iprop((bigSep Finset.univ fun i : Xf => semVal (sCell i c) 0)
          ∗ (bigSep Finset.univ fun i : Xf => semVal (rCell i c) 0) ∗ semVal (locCell c) 0) :=
    bigSep_own c (fun g => (semVal g 0 : sProp 𝕄))
  rw [hsv]
  unfold Dat.owesAt Pipeline.owesWithin
  iintro ⟨Hslots, He1, He2, HS, HR, HxR, He3, Hbar, HxL, HxRest, Hown, Hloc, ⟨%W, HO⟩⟩
  isplitl [HS HR Hloc]
  · isplitl [HS]; · iexact HS
    isplitl [HR]; · iexact HR
    iexact Hloc
  isplitl [HO]
  · iexists W
    isplitr
    · ipureintro; exact fun x _ => Or.inl (Set.mem_univ x)
    rw [show (dats m ρ 0 c).owed t₀.succ = (0 : CellTallies nD τ sig Unit) from rfl]
    iexact HO
  isplitl [HxL HxR HxRest]
  · iexists (xstg m c)
    isplitr; · (ipureintro; rfl)
    iapply (x_glue m c)
    isplitl [HxL]; · iexact HxL
    isplitl [HxR]; · iexact HxR
    iexact HxRest
  · iexists (outAt m c)
    isplitr; · (ipureintro; rfl)
    iapply (o_glue c (outAt m c))
    isplitl [Hown]; · iexact Hown
    iexact Hslots

/-! ## The pipeline's obligation on the body -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 100000 in
/-- The body obligation on device c, given the body run from the state after 0 to the state after 198 operations. -/
theorem body_obligation
    (hrun : ∀ (K : Dev nD × Fin 130 → ℕ) (c : Dev nD),
      iprop(records m K ∗ St m c 0) ⊢ WP c (theBody (F := F)) (fun _ => St m c 198))
    (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m c ∗ (dats m ρ 0 c).owesAt () t₀.castSucc
      ∗ (∃ d, stg c cc0_stg0_0 ((dats m ρ 0 c).before (0 : Fin 2) t₀ d))
      ∗ (∃ d, stg c cc0_stg1_0 ((dats m ρ 0 c).before (1 : Fin 2) t₀ d)))
    ⊢ WP c (theBody (F := F)) (fun _ => bodyPost m ρ c)
  unfold Φ₀ start
  iintro ⟨⟨⟨%K, Hg⟩, Hrest⟩, Ho, Hx, Hout⟩
  iapply (wp_mono frame (wpE (defs₀ (F := F)) 𝒱₀ (c : Thread nD τ) none) Set.univ (fun _ => exit m ρ c))
  iapply (hrun K c)
  iapply (entry m ρ K c)
  unfold bodyPre
  isplitl [Hg Hrest]
  · isplitl [Hg]; · iexact Hg
    iexact Hrest
  isplitl [Ho]; · iexact Ho
  isplitl [Hx] <;> iassumption

/-- info: 'Cert.KernelIdeal.AG.body_obligation' depends on axioms: [propext, Classical.choice, Quot.sound] -/
#guard_msgs in #print axioms body_obligation

end Cert.KernelIdeal.AG

end
-- ==== Proof.Launch.lean ====
/-
  The launch of the all-gather on the eight devices: the ghost state the launch element funds (every protocol
  cell's round state, positions and duty tokens), the global step that allocates every cell's invariant and deals
  the duty tokens to the devices that pay them, the credit tokens each device is dealt for what the others owe its
  cells, the level facts that let the pipeline's own staging waits pass, and the run of the whole program from
  each device's body obligation, with the final arrays named.
-/
import proofs.«900661_g7700000000000662_dist_ag_v7x_xyz2x2x2_x_m2048_n512_f32_1_alg».proof.Proof.Data
import proofs.«900661_g7700000000000662_dist_ag_v7x_xyz2x2x2_x_m2048_n512_f32_1_alg».proof.Proof.Gen.KernelIdeal.Frame

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! Everything up to the run is auxiliary to it and lives in a namespace of its own. -/
namespace Launch

/-! ## The kernel's own semaphores, the protocol's cells and the minted duty tokens -/

/-- The index of a DMA cell among the core's DMA semaphores (0 for a regular semaphore). -/
def semIx : SemLoc sig → ℕ
  | .dma j => j.val
  | .reg _ => 0

theorem ownSemFacts : Pipeline.OwnSemFacts cfg0.spec osem where
  isScoped := by decide +kernel
  inj := fun k k' h => by
    have h' : k.val + 2 = k'.val + 2 := congrArg semIx h
    exact Fin.ext (by omega)
  disj := fun k w s h => by
    have h' : k.val + 2 = ((cfg0.spec w).sem s).val := congrArg semIx h
    have h2 : ((cfg0.spec w).sem s).val < 2 := by fin_cases w <;> fin_cases s <;> decide
    omega

theorem share_eq (c : Dev nD) (w : Fin cfg0.W) : (dats m ρ 0 c).share w = fullShare := by unfold Dat.share; split <;> rfl

theorem csem_zero {k : Fin 130} (h : k.val = 0) : (csem k : SemLoc sig) = .reg barS := dif_pos h
theorem csem_pos {k : Fin 130} (h : ¬ k.val = 0) :
    (csem k : SemLoc sig) = .dma ⟨k.val + 1, by have := k.isLt; show k.val + 1 < 131; omega⟩ := dif_neg h

theorem csem_injective : Function.Injective (csem : Fin 130 → SemLoc sig) := by
  intro k k' h
  by_cases h0 : k.val = 0 <;> by_cases h0' : k'.val = 0
  · exact Fin.ext (h0.trans h0'.symm)
  · rw [csem_zero h0, csem_pos h0'] at h; cases h
  · rw [csem_pos h0, csem_zero h0'] at h; cases h
  · rw [csem_pos h0, csem_pos h0'] at h
    have h2 : k.val + 1 = k'.val + 1 := congrArg semIx h
    exact Fin.ext (by omega)

/-- The cell after the barrier's k-th is the kernel's own k-th semaphore. -/
theorem csem_succ (k : Fin 129) : (csem k.succ : SemLoc sig) = osem k := by
  rw [csem_pos (by simp)]
  rfl

theorem kcell_injective : Function.Injective (kcell : Dev nD × Fin 130 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

/-- A device's own cells' duty tokens as minted: the three duties of its barrier cell, the one duty of each of its
    129 DMA cells. -/
abbrev tokOf (cj : Dev nD × (Fin 3 ⊕ Fin 129)) : GSem nD τ sig × ℕ × Fin 3 :=
  match cj.2 with
  | .inl d => (barCell cj.1, 0, d)
  | .inr k => (((cj.1 : Thread nD τ), osem k), 0, 0)

theorem tokOf_injective : Function.Injective (tokOf : Dev nD × (Fin 3 ⊕ Fin 129) → GSem nD τ sig × ℕ × Fin 3) := by
  rintro ⟨c, x⟩ ⟨c', x'⟩ h
  have h1 : c = c' := by
    have := congrArg (fun y : GSem nD τ sig × ℕ × Fin 3 => y.1.1.1) h
    cases x <;> cases x' <;> exact this
  subst h1
  cases x with
  | inl d =>
    cases x' with
    | inl d' =>
      have h2 : d = d' := congrArg (fun y : GSem nD τ sig × ℕ × Fin 3 => y.2.2) h
      rw [h2]
    | inr k' => exact absurd (congrArg (fun y : GSem nD τ sig × ℕ × Fin 3 => y.1.2) h) (fun h' => by cases h')
  | inr k =>
    cases x' with
    | inl d' => exact absurd (congrArg (fun y : GSem nD τ sig × ℕ × Fin 3 => y.1.2) h) (fun h' => by cases h')
    | inr k' =>
      have h2 : k = k' := ownSemFacts.inj (congrArg (fun y : GSem nD τ sig × ℕ × Fin 3 => y.1.2) h)
      rw [h2]

def protoToks : Finset (GSem nD τ sig × ℕ × Fin 3) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  iprop((bigSep Finset.univ fun d : Fin 3 => dutyTok ER (barCell c) 0 d)
    ∗ (bigSep Finset.univ fun k : Fin 129 => dutyTok ER ((c : Thread nD τ), osem k) 0 0))

/-- What the launch element deals device c. -/
def G (c : Dev nD) : sProp 𝕄 :=
  iprop((bigSep Finset.univ fun k : Fin 130 => roundState ER (sched m) (kcell (c, k)) 0)
    ∗ (bigSep Finset.univ fun k : Fin 130 => iprop(atPos ER (kcell (c, k)) 0 ∅ 0 ∗ reached ER (kcell (c, k)) 0)) ∗ toks c)

/-- What the global step makes of it. -/
def G' (c : Dev nD) : sProp 𝕄 := iprop(∃ K, ghost m K c)

/-- Every payload of the schedule can be kept in an invariant. -/
instance sched_payload_storable (g : GSem nD τ sig) (r : ℕ) (d : Fin 3) :
    BI.Storable (upEmb : UEmb _ 𝕄) ((sched (F := F) m).payload g r d) := by
  rcases g with ⟨⟨c, p⟩, sm⟩
  cases sm with
  | reg s => show BI.Storable upEmb (barPay c d); unfold barPay oPts; infer_instance
  | dma j =>
    show BI.Storable upEmb (match roleOf j.val with
      | .send i => sendPay m c i | .recv i => recvPay m c i | .loc => locPay m c | .none => iprop(emp))
    cases roleOf j.val with
    | send i => show BI.Storable upEmb (sendPay m c i); cases i <;> (unfold sendPay oPts xPts; infer_instance)
    | recv i => show BI.Storable upEmb (recvPay m c i); unfold recvPay oPts; infer_instance
    | loc => show BI.Storable upEmb (locPay m c); unfold locPay oPts xPts; infer_instance
    | none => show BI.Storable upEmb (iprop(emp) : sProp 𝕄); infer_instance

theorem fund_proto : BI.own (ER (initOf protoCells protoToks)) ⊢ (|==> bigSep Finset.univ (G m) : sProp 𝕄) := by
  have hX (Φ : GSem nD τ sig → sProp 𝕄) : bigSep protoCells Φ
      = bigSep Finset.univ fun c : Dev nD => bigSep Finset.univ fun k : Fin 130 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the duty tokens dealt to their payers -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 130 => semVal (kcell (c, k)) 0 : sProp 𝕄) := by
  have hS : (Pipeline.ownSems0 (Ix := Unit) (Name := ℕ) (U := UU) (Lvl := ℕ) (Val := Elt F) (τ := τ) osem c : sProp 𝕄)
      = bigSep Finset.univ fun k : Fin 129 => semVal (kcell (c, k.succ)) 0 := by
    unfold Pipeline.ownSems0
    exact bigSep_congr fun k _ => by
      rw [show kcell (c, k.succ) = ((c : Thread nD τ), osem k) from congrArg (Prod.mk _) (csem_succ k)]
  rw [hS, unscopedSems0_eq, bigSep_fin_succ (fun k : Fin 130 => (semVal (kcell (c, k)) 0 : sProp 𝕄))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 130 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 130 => semVal (kcell (c, k)) 0) ∗ bigSep Finset.univ fun k : Fin 130 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem peer_peer : ∀ (d : Fin 3) (c : Dev nD), peer d (peer d c) = c := by decide +kernel

/-- Flipping one mesh coordinate, as a permutation of the devices. -/
def peerE (d : Fin 3) : Dev nD ≃ Dev nD := ⟨peer d, peer d, peer_peer d, peer_peer d⟩

/-- A family indexed by devices and by things that each name a mesh axis, dealt to the neighbours along those axes. -/
theorem bigSep_deal {I : Type} [Fintype I] (dir : I → Fin 3) (Φ : I → Dev nD → sProp 𝕄) :
    (bigSep Finset.univ fun c : Dev nD => bigSep Finset.univ fun i : I => Φ i c)
      = bigSep Finset.univ fun c : Dev nD => bigSep Finset.univ fun i : I => Φ i (peer (dir i) c) := by
  rw [bigSep_univ_comm (fun (c : Dev nD) (i : I) => Φ i c), bigSep_univ_comm (fun (c : Dev nD) (i : I) => Φ i (peer (dir i) c))]
  exact bigSep_congr fun i _ => bigSep_univ_equiv (peerE (dir i)) (fun c => Φ i c)

/-- The kernel's own 129 semaphores by what they are for: the read-out cell and the landing cell of each of the 64
    copies, and the local copy's cell. -/
def dmaOf : Xf ⊕ Xf ⊕ Unit → Fin 129
  | .inl i => ⟨i.sIdx - 2, by have := i.sIdx_lt; omega⟩
  | .inr (.inl i) => ⟨i.rIdx - 2, by have := i.rIdx_lt; omega⟩
  | .inr (.inr _) => ⟨128, by decide⟩
def roleAt (k : Fin 129) : Xf ⊕ Xf ⊕ Unit :=
  match roleOf (k.val + 2) with
  | .send i => .inl i
  | .recv i => .inr (.inl i)
  | .loc => .inr (.inr ())
  | .none => .inr (.inr ())
theorem roleAt_dmaOf : ∀ x, roleAt (dmaOf x) = x := by decide +kernel
theorem dmaOf_roleAt : ∀ k, dmaOf (roleAt k) = k := by decide +kernel
def dmaE : Xf ⊕ Xf ⊕ Unit ≃ Fin 129 := ⟨dmaOf, roleAt, roleAt_dmaOf, dmaOf_roleAt⟩

theorem two_le_sIdx (i : Xf) : 2 ≤ i.sIdx := by cases i <;> simp only [Xf.sIdx] <;> omega
theorem two_le_rIdx (i : Xf) : 2 ≤ i.rIdx := by cases i <;> simp only [Xf.rIdx] <;> omega

theorem osem_send (i : Xf) : (osem (dmaE (.inl i)) : SemLoc sig) = .dma (sS i) :=
  congrArg SemLoc.dma (Fin.ext (by show i.sIdx - 2 + 2 = i.sIdx; have := two_le_sIdx i; omega))
theorem osem_recv (i : Xf) : (osem (dmaE (.inr (.inl i))) : SemLoc sig) = .dma (rS i) :=
  congrArg SemLoc.dma (Fin.ext (by show i.rIdx - 2 + 2 = i.rIdx; have := two_le_rIdx i; omega))
theorem osem_loc (u : Unit) : (osem (dmaE (.inr (.inr u))) : SemLoc sig) = .dma locS := rfl

theorem own_split (Φ : SemLoc sig → sProp 𝕄) :
    (bigSep Finset.univ fun k : Fin 129 => Φ (osem k))
      = iprop((bigSep Finset.univ fun i : Xf => Φ (.dma (sS i))) ∗ (bigSep Finset.univ fun i : Xf => Φ (.dma (rS i))) ∗ Φ (.dma locS)) := by
  rw [bigSep_univ_equiv dmaE (fun k : Fin 129 => Φ (osem k)), bigSep_univ_sum, bigSep_univ_sum, bigSep_univ_of_subsingleton ()]
  simp only [osem_send, osem_recv, osem_loc]
  rfl

/-- What stays with device c of the tokens: those of the duties IT pays. -/
def payToks (c : Dev nD) : sProp 𝕄 :=
  iprop((bigSep Finset.univ fun d : Fin 3 => dutyTok ER (barCell (peer d c)) 0 d)
    ∗ (bigSep Finset.univ fun i : Xf => iprop(dutyTok ER (rCell i (peer i.dir c)) 0 0 ∗ dutyTok ER (sCell i c) 0 0))
    ∗ dutyTok ER (locCell c) 0 0)

/-- The tokens dealt: a barrier's duty d to the neighbour along axis d, a landing cell's to the neighbour along
    the copy's axis; the read-out cells' and the local copy's stay. -/
theorem toks_around : (bigSep Finset.univ fun c : Dev nD => (toks c : sProp 𝕄)) ⊢ bigSep Finset.univ fun c : Dev nD => payToks c := by
  have h1 : (bigSep Finset.univ fun c : Dev nD => (toks c : sProp 𝕄))
      = iprop((bigSep Finset.univ fun c : Dev nD => bigSep Finset.univ fun d : Fin 3 => dutyTok ER (barCell c) 0 d)
        ∗ (bigSep Finset.univ fun c : Dev nD => bigSep Finset.univ fun i : Xf => dutyTok ER (sCell i c) 0 0)
        ∗ (bigSep Finset.univ fun c : Dev nD => bigSep Finset.univ fun i : Xf => dutyTok ER (rCell i c) 0 0)
        ∗ (bigSep Finset.univ fun c : Dev nD => dutyTok ER (locCell c) 0 0)) := by
    rw [← bigSep_sep', ← bigSep_sep', ← bigSep_sep']
    exact bigSep_congr fun c _ => by
      unfold toks; rw [own_split fun s => dutyTok ER ((c : Thread nD τ), s) 0 0]
  rw [h1, bigSep_deal (fun d : Fin 3 => d) (fun d c => (dutyTok ER (barCell c) 0 d : sProp 𝕄)),
    bigSep_deal Xf.dir (fun i c => (dutyTok ER (rCell i c) 0 0 : sProp 𝕄))]
  unfold payToks
  rw [bigSep_sep', bigSep_sep',
    bigSep_congr (s := Finset.univ) (fun (c : Dev nD) _ => bigSep_sep' Finset.univ
      (fun i : Xf => (dutyTok ER (rCell i (peer i.dir c)) 0 0 : sProp 𝕄)) (fun i => dutyTok ER (sCell i c) 0 0)),
    bigSep_sep']
  iintro ⟨HA, HS, HR, HL⟩
  isplitl [HA]; · iexact HA
  isplitl [HR HS]
  · isplitl [HR]; · iexact HR
    iexact HS
  iexact HL

theorem ghost_intro (K : Dev nD × Fin 130 → ℕ) (c : Dev nD) : iprop(recs m K ∗ linear c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 130 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 130 => iprop(∃ κ : ℕ, cellInv ER (sched m) κ (kcell ck))),
    bigSep_congr (s := Finset.univ) (fun (c : Dev nD) _ => bigSep_sep' Finset.univ (fun k : Fin 130 => (atPos ER (kcell (c, k)) 0 ∅ 0 : sProp 𝕄)) (fun k => reached ER (kcell (c, k)) 0)),
    bigSep_sep', ← bigSep_univ_prod (fun ck : Dev nD × Fin 130 => (reached ER (kcell ck) 0 : sProp 𝕄))]
  iintro ⟨HI, ⟨Hat, #HR⟩, Htok⟩
  ihave HK := (BI.bigSep_exists_pi Finset.univ (fun (ck : Dev nD × Fin 130) (κ : ℕ) => (cellInv ER (sched m) κ (kcell ck) : sProp 𝕄))) $$ HI
  icases HK with ⟨%K, #HI⟩
  ihave Htk := (toks_around (F := F)) $$ Htok
  iapply (bigSep_with_persistent (R := recs m K) fun c _ => ghost_intro m K c)
  isplitr
  · unfold recs; isplitl; · iexact HI
    iexact HR
  · iapply ((Entails.of_eq (bigSep_sep' Finset.univ (fun c : Dev nD => bigSep Finset.univ fun k : Fin 130 => (atPos ER (kcell (c, k)) 0 ∅ 0 : sProp 𝕄)) payToks).symm).trans
      (bigSep_mono fun c _ => show _ ⊢ linear c from Entails.of_eq (by unfold linear payToks; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owedX_eq (c : Dev nD) (l : List Xf) : owedX c l = (l.map fun i => tallyAt (rCell i (peer i.dir c)) () NC).sum := by
  induction l with
  | nil => rfl
  | cons i l ih =>
    show owedX c l + tallyAt (rCell i (peer i.dir c)) () NC = _
    rw [ih, List.map_cons, List.sum_cons, add_comm]

theorem sendOrder_nodup : sendOrder.Nodup := by decide +kernel
theorem sendOrder_univ : sendOrder.toFinset = Finset.univ := by decide +kernel

/-- What a device owes at launch, as sums: the landing of each of its copies, one unit to each neighbour's barrier. -/
theorem O₀_eq (c : Dev nD) :
    O₀ c = (∑ i : Xf, tallyAt (rCell i (peer i.dir c)) () NC) + ∑ e : Fin 3, tallyAt (barCell (peer e c)) () 1 := by
  show owedX c sendOrder + tallyAt (barCell (peer 2 c)) () 1 + tallyAt (barCell (peer 1 c)) () 1 + tallyAt (barCell (peer 0 c)) () 1 = _
  rw [owedX_eq, ← List.sum_toFinset _ sendOrder_nodup, sendOrder_univ, Fin.sum_univ_three]
  ac_rfl

theorem sum_peer {M : Type} [AddCommMonoid M] (e : Fin 3) (g : Dev nD → M) : ∑ d, g (peer e d) = ∑ d, g d :=
  (peerE e).sum_comp g

/-- What a device's own cells are owed by all the others together. -/
def T₀ (c : Dev nD) : CellTallies nD τ sig Unit := tallyAt (barCell c) () 3 + ∑ i : Xf, tallyAt (rCell i c) () NC

theorem bar_three (g : GSem nD τ sig) :
    tallyAt g () 1 + tallyAt g () 1 + tallyAt g () 1 = (tallyAt g () 3 : CellTallies nD τ sig Unit) := by
  rw [tallyAt_add, tallyAt_add]

theorem sum_recv (n : ℕ) : (∑ d : Dev nD, ∑ i : Xf, tallyAt (rCell i (peer i.dir d)) () n)
    = ∑ d : Dev nD, ∑ i : Xf, (tallyAt (rCell i d) () n : CellTallies nD τ sig Unit) := by
  rw [Finset.sum_comm, Finset.sum_congr rfl fun i _ => sum_peer i.dir (fun d => (tallyAt (rCell i d) () n : CellTallies nD τ sig Unit)),
    Finset.sum_comm]

theorem sum_bar : (∑ d : Dev nD, ∑ e : Fin 3, tallyAt (barCell (peer e d)) () 1)
    = ∑ d : Dev nD, (tallyAt (barCell d) () 3 : CellTallies nD τ sig Unit) := by
  rw [Finset.sum_comm, Finset.sum_congr rfl fun e _ => sum_peer e (fun d => (tallyAt (barCell d) () 1 : CellTallies nD τ sig Unit)),
    Fin.sum_univ_three, ← Finset.sum_add_distrib, ← Finset.sum_add_distrib]
  exact Finset.sum_congr rfl fun d _ => bar_three (barCell d)

theorem sum_O₀ : (∑ d : Dev nD, O₀ d) = ∑ d : Dev nD, T₀ d := by
  have h1 : (∑ d : Dev nD, O₀ d) = (∑ d : Dev nD, ∑ i : Xf, tallyAt (rCell i (peer i.dir d)) () NC)
      + ∑ d : Dev nD, ∑ e : Fin 3, tallyAt (barCell (peer e d)) () 1 := by
    rw [← Finset.sum_add_distrib]; exact Finset.sum_congr rfl fun d _ => O₀_eq d
  rw [h1, sum_recv NC, sum_bar, add_comm, ← Finset.sum_add_distrib]
  rfl

theorem T₀_support (d : Dev nD) (g : GSem nD τ sig) (h : T₀ d g ≠ 0) : g.1 = (d : Thread nD τ) := by
  by_contra hne
  apply h
  unfold T₀
  rw [Pi.add_apply, Finset.sum_apply, tallyAt_ne_cell (fun h' => hne (congrArg Prod.fst h')), zero_add]
  exact Finset.sum_eq_zero fun i _ => tallyAt_ne_cell (fun h' => hne (congrArg Prod.fst h')) () NC

theorem creds_of_launch (c : Dev nD) : (Pipeline.launchCred O₀ c : sProp 𝕄) ⊢ creds c := by
  rw [Pipeline.launchCred_of_sum O₀ T₀ sum_O₀ T₀_support c]
  unfold T₀ creds
  refine (cred_add _ _).1.trans (sep_mono_right ?_)
  rw [Pipeline.cred_finsetSum]

/-! ## The levels: the pipeline's own staging waits pass -/

theorem L_of_ne (g : GSem nD τ sig) (h : g.1.2 ≠ .tc) : L g = ∅ := if_neg h
theorem L_tc (c : Dev nD) (sm : SemLoc sig) : L ((c : Thread nD τ), sm) = {()} := if_pos rfl

theorem owedX_pos {c : Dev nD} {l : List Xf} {g : GSem nD τ sig} {u : Unit} (h : 0 < owedX c l g u) :
    ∃ i, g = rCell i (peer i.dir c) := by
  induction l with
  | nil => exact absurd h (Nat.lt_irrefl 0)
  | cons i l ih =>
    rcases Pipeline.add_pos_cases (D₁ := owedX c l) (D₂ := tallyAt (rCell i (peer i.dir c)) () NC) h with h | h
    · exact ih h
    · exact ⟨i, (Pipeline.tallyAt_pos h).1⟩

theorem O₀_pos {c : Dev nD} {g : GSem nD τ sig} {u : Unit} (h : 0 < O₀ c g u) :
    (∃ d, g = barCell (peer d c)) ∨ ∃ i, g = rCell i (peer i.dir c) := by
  have h' : 0 < (owedX c sendOrder + tallyAt (barCell (peer 2 c)) () 1 + tallyAt (barCell (peer 1 c)) () 1
      + tallyAt (barCell (peer 0 c)) () 1) g u := h
  rcases Pipeline.add_pos_cases h' with h' | h'
  · rcases Pipeline.add_pos_cases h' with h' | h'
    · rcases Pipeline.add_pos_cases h' with h' | h'
      · exact .inr (owedX_pos h')
      · exact .inl ⟨2, (Pipeline.tallyAt_pos h').1⟩
    · exact .inl ⟨1, (Pipeline.tallyAt_pos h').1⟩
  · exact .inl ⟨0, (Pipeline.tallyAt_pos h').1⟩

theorem rIdx_range (i : Xf) : (27 ≤ i.rIdx ∧ i.rIdx < 52) ∨ (68 ≤ i.rIdx ∧ i.rIdx < 84) ∨ (100 ≤ i.rIdx ∧ i.rIdx < 116)
    ∨ (120 ≤ i.rIdx ∧ i.rIdx < 124) ∨ (127 ≤ i.rIdx ∧ i.rIdx < 130) := by
  cases i with
  | xa k => have := k.isLt; simp only [Xf.rIdx]; omega
  | xb k => have := k.isLt; simp only [Xf.rIdx]; omega
  | yf k => have := k.isLt; simp only [Xf.rIdx]; omega
  | zf k => have := k.isLt; simp only [Xf.rIdx]; omega
  | ya k => have := k.isLt; simp only [Xf.rIdx]; omega
  | zb k => have := k.isLt; simp only [Xf.rIdx]; omega

/-- A landing cell sits above level 0; -/
theorem lv_rCell_pos (i : Xf) (c : Dev nD) : 0 < lv (rCell i c) () := by
  have hr := rIdx_range i
  show 0 < (if 27 ≤ i.rIdx ∧ i.rIdx < 52 then 2
    else if (68 ≤ i.rIdx ∧ i.rIdx < 84) ∨ (100 ≤ i.rIdx ∧ i.rIdx < 116) then 3
    else if (120 ≤ i.rIdx ∧ i.rIdx < 124) ∨ (127 ≤ i.rIdx ∧ i.rIdx < 130) then 4 else 0)
  split_ifs <;> omega

/-- the pipeline's staging cells (DMA semaphores 0 and 1) at level 0. -/
theorem lv_stage (c : Dev nD) (q : DmaSem sig) (hq : q.val < 2) : lv ((c : Thread nD τ), .dma q) () = 0 := by
  show (if 27 ≤ q.val ∧ q.val < 52 then 2
    else if (68 ≤ q.val ∧ q.val < 84) ∨ (100 ≤ q.val ∧ q.val < 116) then 3
    else if (120 ≤ q.val ∧ q.val < 124) ∨ (127 ≤ q.val ∧ q.val < 130) then 4 else 0) = 0
  split_ifs <;> omega

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨i, rfl⟩ <;> exact Finset.mem_singleton_self _)
      (fun p hp => by rw [Finset.mem_singleton.mp hp]; exact (lv_stage c q hq).le)
      (fun g u hg => by
        rcases O₀_pos hg with ⟨d, rfl⟩ | ⟨i, rfl⟩
        · exact Nat.one_pos
        · exact lv_rCell_pos i _)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ Pipeline.ownSems0
  iintro H
  isplitr; · iempintro
  isplitl [H]; · iexact H
  iempintro

end Launch

open Launch

/-! ## The run -/

/-- The arrays after the run, as the pipeline's proof data computes them. -/
def finalA (c : Dev nD) (w : Fin cfg0.W) : Buf (Elt F) ((cfg0.win w).arr.view.loc (c : Thread nD τ)) := (dats m ρ 0 c).arrAt w cfg0.N

set_option maxRecDepth 8000 in
/-- From any memory with zero counters, given each device's body obligation: every weakly fair execution of the
    program on the eight devices terminates, and every final state has each device's arrays at the computed contents. -/
theorem run_main (hbody : ∀ c : Dev nD, BodyObligation (dats (F := F) m ρ 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = finalA m ρ c w) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run holds what the body left in the result staging buffer. -/
theorem finalA_out (c : Dev nD) : finalA m ρ c (1 : Fin 2) = outAt m c := by
  -- the result window's one block is the whole array at block index 0: reading through it reads the array
  have hz : (fun a => (win0_1.index t₀) a * main_v1.ty.shape.size a) = fun _ => 0 := funext fun a => by fin_cases a <;> decide
  have hr := fun f => Memref.read_access_unit_zero (Elt F) main_v1 hz (fun a => by fin_cases a <;> decide) f
  -- the one point writes the block back: the array is then the write of what the body left
  have h1 : finalA m ρ c (1 : Fin 2)
      = ((cfg0.win (1 : Fin 2)).blk t₀).view.write (Elt F) ((dats m ρ 0 c).arrAt (1 : Fin 2) (t₀ : Fin cfg0.N).val)
          ((dats m ρ 0 c).flushed (1 : Fin 2) t₀) Finset.univ :=
    ((dats m ρ 0 c).arrAt_succ (1 : Fin 2) t₀).trans (if_pos (flush0_1 t₀))
  have h2 := View.read_write_univ (v := ((cfg0.win (1 : Fin 2)).blk t₀).view) (Val := Elt F)
    ((dats m ρ 0 c).arrAt (1 : Fin 2) (t₀ : Fin cfg0.N).val) ((dats m ρ 0 c).flushed (1 : Fin 2) t₀)
  rw [h1]
  exact (hr _).symm.trans h2

/-- info: 'Cert.KernelIdeal.AG.run_main' depends on axioms: [propext, Classical.choice, Quot.sound] -/
#guard_msgs in #print axioms run_main

/-- info: 'Cert.KernelIdeal.AG.finalA_x' depends on axioms: [propext, Classical.choice, Quot.sound] -/
#guard_msgs in #print axioms finalA_x

/-- info: 'Cert.KernelIdeal.AG.finalA_out' depends on axioms: [propext, Classical.choice, Quot.sound] -/
#guard_msgs in #print axioms finalA_out

end Cert.KernelIdeal.AG

end
-- ==== Proof.Main.lean ====
/-
  The whole program on the eight devices: every weakly fair execution terminates, nothing faults, every device's
  result array ends holding what its result staging buffer must end with (its own block in its own half, the other
  block row by row in the other half) and its argument array ends unchanged. This is the launch theorem's run, with
  the body obligation discharged by the run of the body's 198 operations, read at the two arrays.
-/
import proofs.«900661_g7700000000000662_dist_ag_v7x_xyz2x2x2_x_m2048_n512_f32_1_alg».proof.Proof.Run
import proofs.«900661_g7700000000000662_dist_ag_v7x_xyz2x2x2_x_m2048_n512_f32_1_alg».proof.Proof.EntryExit
import proofs.«900661_g7700000000000662_dist_ag_v7x_xyz2x2x2_x_m2048_n512_f32_1_alg».proof.Proof.Launch

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run_vals : θ_run (defs (F := F)) (onTc (τ := τ) (main (F := F))) ⟨m, fun _ => 0, ρ⟩
    (fun r => ∀ c : Dev nD, r.2.mem ((c.tc : Thread nD τ).loc main_v1) = outAt m c
      ∧ r.2.mem ((c.tc : Thread nD τ).loc main_arg0) = m ((c.tc : Thread nD τ).loc main_arg0)) :=
  (θ_run defs _ _).mono (fun r h c => ⟨(h c 1).trans (finalA_out m ρ c), (h c 0).trans (finalA_x m ρ c)⟩)
    (run_main m ρ fun c => body_obligation m ρ (fun K c => run_parts m K c) c)

/-- info: 'Cert.KernelIdeal.AG.run_vals' depends on axioms: [propext, Classical.choice, Quot.sound] -/
#guard_msgs in #print axioms run_vals

end Cert.KernelIdeal.AG

end
-- ==== Proof.K.Proto.lean ====
/-
  An all-gather along the first mesh axis of a 2 x 2 x 2 mesh: every device ends holding both row blocks of the
  array. A device copies its own block into its half of the result locally and receives the other block in four
  quarters: one directly from its neighbour along the first axis, one relayed by its neighbour along the second axis,
  one relayed by its neighbour along the third axis, and the last quarter in three runs of 32-row chunks that arrive
  by the three routes. This module fixes the vocabulary of the proof: the three neighbour involutions, the 32-row
  slices every copy reads and writes (through the program's own offset functions), the semaphore cells, the contents
  each row of the result must end with, the rounds schedule (who pays which cell, with what payload), the levels
  that order the waits, what a device still owes after a number of its payments, and the state of one device's
  resources after a given number of its memory operations.
-/
import proofs.«900661_g7700000000000662_dist_ag_v7x_xyz2x2x2_x_m2048_n512_f32_1_alg».proof.Proof.Gen.Kernel
import proofs.«900661_g7700000000000662_dist_ag_v7x_xyz2x2x2_x_m2048_n512_f32_1_alg».proof.Proof.Gen.Kernel.Skeleton
import proofs.«900661_g7700000000000662_dist_ag_v7x_xyz2x2x2_x_m2048_n512_f32_1_alg».proof.Proof.Gen.Kernel.Launch
import proofs.«900661_g7700000000000662_dist_ag_v7x_xyz2x2x2_x_m2048_n512_f32_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names 0, 1, 2) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The memory at launch: arbitrary contents, every semaphore counter zero, arbitrary generator registers. -/
def s₀ (m : (ℓ : Loc nD τ sig) → Buf (Elt F) ℓ) (ρ : Dev nD → PrngReg) : MemSt nD τ sig (Elt F) := ⟨m, fun _ => 0, ρ⟩

/-! ## The three neighbours: the device with one mesh coordinate flipped -/

/-- Direction 0 flips the first mesh coordinate, 1 the second, 2 the third (the program's own device chains). -/
def peer (d : Fin 3) (c : Dev nD) : Dev nD :=
  match d with
  | 0 => ⟨k0_dev1 c, k0_dev1_lt c⟩
  | 1 => ⟨k0_dev2 c, k0_dev2_lt c⟩
  | 2 => ⟨k0_dev3 c, k0_dev3_lt c⟩

abbrev px (c : Dev nD) : Dev nD := peer 0 c
abbrev py (c : Dev nD) : Dev nD := peer 1 c
abbrev pz (c : Dev nD) : Dev nD := peer 2 c

/-! ## The transfers -/

/-- The 64 remote copies one device issues: the sixteen chunks of its own quarter and the first nine chunks of the
    diagonal quarter to its first-axis neighbour (xa, xb); each chunk it received from that neighbour on to its
    second-axis and third-axis neighbours (yf, zf); four chunks received along the third axis on along the second
    (ya), three received along the second on along the third (zb). -/
inductive Xf where
  | xa (k : Fin 16) | xb (k : Fin 9) | yf (k : Fin 16) | zf (k : Fin 16) | ya (k : Fin 4) | zb (k : Fin 3)
  deriving DecidableEq, Fintype

namespace Xf

/-- Along which mesh axis the copy travels. -/
def dir : Xf → Fin 3
  | xa _ => 0 | xb _ => 0 | yf _ => 1 | ya _ => 1 | zf _ => 2 | zb _ => 2

/-- The index of the copy's send semaphore and of its receive semaphore among the core's DMA semaphores. -/
def sIdx : Xf → ℕ
  | xa k => 2 + k.val | xb k => 18 + k.val | yf k => 52 + k.val | zf k => 84 + k.val | ya k => 116 + k.val | zb k => 124 + k.val
def rIdx : Xf → ℕ
  | xa k => 27 + k.val | xb k => 43 + k.val | yf k => 68 + k.val | zf k => 100 + k.val | ya k => 120 + k.val | zb k => 127 + k.val

theorem sIdx_lt (i : Xf) : i.sIdx < 131 := by cases i <;> simp only [sIdx] <;> omega
theorem rIdx_lt (i : Xf) : i.rIdx < 131 := by cases i <;> simp only [rIdx] <;> omega

/-- How many of the device's memory operations precede the copy's enqueue, the wait for its landing on the
    device it is addressed to (the same count on every device), and the wait for its having been read out. -/
def tSend : Xf → ℕ
  | xa k => 4 + k.val | xb k => 20 + k.val | yf k => 31 + 3 * k.val | zf k => 32 + 3 * k.val
  | ya k => 97 + 3 * k.val | zb k => 110 + 3 * k.val
def tRW : Xf → ℕ
  | xa k => 30 + 3 * k.val | xb k => 117 + k.val
  | zf k => if k.val < 9 then 78 + 2 * k.val else if k.val < 13 then 96 + 3 * (k.val - 9) else 108 + 3 * (k.val - 13)
  | yf k => if k.val < 9 then 79 + 2 * k.val else if k.val < 13 then 98 + 3 * (k.val - 9) else 109 + 3 * (k.val - 13)
  | ya k => 126 + k.val | zb k => 130 + k.val
def tSW : Xf → ℕ
  | xa k => 134 + k.val | xb k => 150 + k.val | yf k => 159 + k.val | zf k => 175 + k.val | ya k => 191 + k.val | zb k => 195 + k.val

end Xf

/-- The remote copies in the order a device enqueues them. -/
def sendOrder : List Xf :=
  (List.finRange 16).map Xf.xa ++ (List.finRange 9).map Xf.xb ++ (List.finRange 16).flatMap (fun k => [Xf.yf k, Xf.zf k])
    ++ (List.finRange 4).map Xf.ya ++ (List.finRange 3).map Xf.zb

/-! ## The memrefs: the two staging buffers and their 32-row slices, through the program's offset functions -/

abbrev xM : Memref sig .tc .vmem S2048x512 .f32 := Memref.whole cc0_stg0_0
abbrev oM : Memref sig .tc .vmem S4096x512 .f32 := Memref.whole cc0_stg1_0

/-- Chunk k's row offset inside a quarter, as the program's word. -/
abbrev wd (k : ℕ) : BitVec 32 := BitVec.ofNat 32 (32 * k)

def xaDst (c : Dev nD) (k : Fin 16) : Memref sig .tc .vmem S32x512 .f32 :=
  oM.slice (Rect.unit (s := S4096x512) (k0_off1 c (wd k.val)) S32x512.size (k0_off1_inb c k)) (fun _ => rfl)
def xaSrc (c : Dev nD) (k : Fin 16) : Memref sig .tc .vmem S32x512 .f32 :=
  xM.slice (Rect.unit (s := S2048x512) (k0_off2 c (wd k.val)) S32x512.size (k0_off2_inb c k)) (fun _ => rfl)
def xbDst (c : Dev nD) (k : Fin 9) : Memref sig .tc .vmem S32x512 .f32 :=
  oM.slice (Rect.unit (s := S4096x512) (k0_off3 c (wd k.val)) S32x512.size (k0_off3_inb c k)) (fun _ => rfl)
def xbSrc (c : Dev nD) (k : Fin 9) : Memref sig .tc .vmem S32x512 .f32 :=
  xM.slice (Rect.unit (s := S2048x512) (k0_off4 c (wd k.val)) S32x512.size (k0_off4_inb c k)) (fun _ => rfl)
/-- The device's own half of the result. -/
def ownM (c : Dev nD) : Memref sig .tc .vmem S2048x512 .f32 :=
  oM.slice (Rect.unit (s := S4096x512) (k0_off5 c) S2048x512.size (k0_off5_inb c)) (fun _ => rfl)
/-- Chunk k of the quarter received along the first axis: source and destination of both relays. -/
def fwM (c : Dev nD) (k : Fin 16) : Memref sig .tc .vmem S32x512 .f32 :=
  oM.slice (Rect.unit (s := S4096x512) (k0_off6 c (wd k.val)) S32x512.size (k0_off6_inb c k)) (fun _ => rfl)
def yaM (c : Dev nD) (k : Fin 4) : Memref sig .tc .vmem S32x512 .f32 :=
  oM.slice (Rect.unit (s := S4096x512) (k0_off7 c (BitVec.ofNat 32 (288 + 32 * k.val))) S32x512.size (k0_off7_inb c k)) (fun _ => rfl)
def zbM (c : Dev nD) (k : Fin 3) : Memref sig .tc .vmem S32x512 .f32 :=
  oM.slice (Rect.unit (s := S4096x512) (k0_off8 c (BitVec.ofNat 32 (416 + 32 * k.val))) S32x512.size (k0_off8_inb c k)) (fun _ => rfl)

/-- Where copy i, issued by device c, lands: a slice of the RESULT buffer (of the device it is addressed to),
    at offsets computed from the issuer's position. -/
def dstM (i : Xf) (c : Dev nD) : Memref sig .tc .vmem S32x512 .f32 :=
  match i with
  | .xa k => xaDst c k | .xb k => xbDst c k | .yf k => fwM c k | .zf k => fwM c k | .ya k => yaM c k | .zb k => zbM c k

/-- The index types of the result staging buffer and of the argument staging buffer. -/
abbrev OIx : Type := (oM : Memref sig .tc .vmem S4096x512 .f32).view.ty.Idx
abbrev XIx : Type := (xM : Memref sig .tc .vmem S2048x512 .f32).view.ty.Idx

/-- The rows of the result buffer that copy i writes on the device it is addressed to / that a relay reads. -/
def dstSet (i : Xf) (c : Dev nD) : Finset OIx :=
  match i with
  | .xa k => (xaDst c k).view.set | .xb k => (xbDst c k).view.set | .yf k => (fwM c k).view.set
  | .zf k => (fwM c k).view.set | .ya k => (yaM c k).view.set | .zb k => (zbM c k).view.set
/-- The rows of the device's own half. -/
def ownSet (c : Dev nD) : Finset OIx := (ownM c).view.set
/-- The rows of device c's result buffer where the copy i ADDRESSED TO IT lands (its issuer is c's
    neighbour along the copy's axis). -/
def slotSet (i : Xf) (c : Dev nD) : Finset OIx := dstSet i (peer i.dir c)

/-- The credit a 32-row copy, and the copy of a whole block, pays a DMA semaphore. -/
abbrev NC : ℕ := (fwM (0 : Dev nD) 0).view.dmaCredit
abbrev NL : ℕ := (ownM (0 : Dev nD)).view.dmaCredit

/-! ## The cells -/

/-- The runtime's barrier semaphore of collective id 0. -/
abbrev barS : Sem sig := (SemArray.scalar (sig.barrier 0 rfl) : Sems sig S_).sem
abbrev sS (i : Xf) : DmaSem sig := ⟨i.sIdx, i.sIdx_lt⟩
abbrev rS (i : Xf) : DmaSem sig := ⟨i.rIdx, i.rIdx_lt⟩
abbrev locS : DmaSem sig := ⟨130, by decide⟩

abbrev barCell (c : Dev nD) : GSem nD τ sig := ((c : Thread nD τ), .reg barS)
abbrev sCell (i : Xf) (c : Dev nD) : GSem nD τ sig := ((c : Thread nD τ), .dma (sS i))
abbrev rCell (i : Xf) (c : Dev nD) : GSem nD τ sig := ((c : Thread nD τ), .dma (rS i))
abbrev locCell (c : Dev nD) : GSem nD τ sig := ((c : Thread nD τ), .dma locS)

/-- The protocol's 130 cells of a device: the barrier, then the kernel's own 129 DMA semaphores (indices 2 to 130). -/
abbrev csem (k : Fin 130) : SemLoc sig :=
  if h : k.val = 0 then .reg barS else .dma ⟨k.val + 1, by have := k.isLt; show k.val + 1 < 131; omega⟩
abbrev kcell (ck : Dev nD × Fin 130) : GSem nD τ sig := ((ck.1 : Thread nD τ), csem ck.2)
/-- The kernel's own (scoped) semaphores as the launch indexes them. -/
abbrev osem (k : Fin 129) : SemLoc sig := .dma ⟨k.val + 2, by have := k.isLt; show k.val + 2 < 131; omega⟩

/-! ## Contents -/

variable (m : (ℓ : Loc nD τ sig) → Buf (Elt F) ℓ)

/-- Device c's staged block of the argument. -/
def xstg (c : Dev nD) : (cc0_stg0_0 : Ref sig .tc).ty.Contents (Elt F) :=
  (win0_0.blk (0 : Fin 1)).view.read (Elt F) (m ((c : Thread nD τ).loc main_arg0))

/-- Which device's block a row of the OTHER half of c's result comes from, by the row's offset r < 2048
    inside that half: the quarter and, in the diagonal quarter, the chunk decide the route it took. -/
def origin (c : Dev nD) (r : ℕ) : Dev nD :=
  let q := r / 512
  let ch := (r % 512) / 32
  let y := (c.val / 2) % 2
  let z := c.val % 2
  if q = 2 * z + y then px c
  else if q = 2 * z + (1 - y) then px (py c)
  else if q = 2 * (1 - z) + y then px (pz c)
  else if ch < 9 then px c else if ch < 13 then px (pz (py c)) else px (py (pz c))

/-- What device c's result buffer ends with: its own block in its own half, and in the other half, row by row,
    the block of the device the row came from. -/
def outAt (c : Dev nD) : (cc0_stg1_0 : Ref sig .tc).ty.Contents (Elt F) := fun i =>
  xstg m (if (i 0).val / 2048 = c.val / 4 then c else origin c ((i 0).val % 2048))
    (ValueIdx.ix2 ⟨(i 0).val % 2048, Nat.mod_lt _ (by decide)⟩ (i 1))

/-! ## Points-to assertions on slices -/

/-- Rows I of device c's result buffer at share q holding f. -/
def oPts (c : Dev nD) (I : Finset OIx) (q : PosShare TreeShare) (f : Buf (Elt F) ((c : Thread nD τ).loc cc0_stg1_0)) : sProp 𝕄 :=
  ((c : Thread nD τ).loc cc0_stg1_0) ↦[I]{q} f
/-- Rows I of device c's staged argument block at share q (it always holds the block). -/
def xPts (c : Dev nD) (I : Finset XIx) (q : PosShare TreeShare) : sProp 𝕄 :=
  ((c : Thread nD τ).loc cc0_stg0_0) ↦[I]{q} xstg m c

/-- The rows of the argument block that the copy i reads (xa, xb only; empty otherwise). -/
def xSet (i : Xf) (c : Dev nD) : Finset XIx :=
  match i with
  | .xa k => (xaSrc c k).view.set | .xb k => (xbSrc c k).view.set | _ => ∅
/-- The rows of the argument block no remote copy reads. -/
def xRest (c : Dev nD) : Finset XIx := Finset.univ \ Finset.univ.biUnion (fun i : Xf => xSet i c)
/-- The share of its source a copy holds while it is in flight. -/
def srcShare : Xf → PosShare TreeShare
  | .xa _ => fullShare.right | .xb _ => fullShare.right | .yf _ => fullShare.left | .zf _ => fullShare.right
  | .ya _ => fullShare | .zb _ => fullShare

/-! ## The schedule -/

/-- What a DMA semaphore index is for. -/
inductive Role where
  | send (i : Xf) | recv (i : Xf) | loc | none

def roleOf (j : ℕ) : Role :=
  if j < 2 then .none
  else if j < 18 then .send (.xa ⟨(j - 2) % 16, Nat.mod_lt _ (by decide)⟩)
  else if j < 27 then .send (.xb ⟨(j - 18) % 9, Nat.mod_lt _ (by decide)⟩)
  else if j < 43 then .recv (.xa ⟨(j - 27) % 16, Nat.mod_lt _ (by decide)⟩)
  else if j < 52 then .recv (.xb ⟨(j - 43) % 9, Nat.mod_lt _ (by decide)⟩)
  else if j < 68 then .send (.yf ⟨(j - 52) % 16, Nat.mod_lt _ (by decide)⟩)
  else if j < 84 then .recv (.yf ⟨(j - 68) % 16, Nat.mod_lt _ (by decide)⟩)
  else if j < 100 then .send (.zf ⟨(j - 84) % 16, Nat.mod_lt _ (by decide)⟩)
  else if j < 116 then .recv (.zf ⟨(j - 100) % 16, Nat.mod_lt _ (by decide)⟩)
  else if j < 120 then .send (.ya ⟨(j - 116) % 4, Nat.mod_lt _ (by decide)⟩)
  else if j < 124 then .recv (.ya ⟨(j - 120) % 4, Nat.mod_lt _ (by decide)⟩)
  else if j < 127 then .send (.zb ⟨(j - 124) % 3, Nat.mod_lt _ (by decide)⟩)
  else if j < 130 then .recv (.zb ⟨(j - 127) % 3, Nat.mod_lt _ (by decide)⟩)
  else if j = 130 then .loc else .none

/-- What the landing of copy i on device c hands c: the rows it wrote, holding what they must end with. -/
def recvPay (c : Dev nD) (i : Xf) : sProp 𝕄 := oPts c (slotSet i c) fullShare (outAt m c)
/-- What copy i of device c having been read out hands c back: its share of the source rows. -/
def sendPay (c : Dev nD) (i : Xf) : sProp 𝕄 :=
  match i with
  | .xa _ => xPts m c (xSet i c) fullShare.right
  | .xb _ => xPts m c (xSet i c) fullShare.right
  | _ => oPts c (dstSet i c) (srcShare i) (outAt m c)
/-- What the local copy completing hands c: its own half holding its block, and its share of the block back. -/
def locPay (c : Dev nD) : sProp 𝕄 :=
  iprop(oPts c (ownSet c) fullShare (outAt m c) ∗ xPts m c Finset.univ fullShare.left)
/-- What the entry signal along axis d hands c: the rows of that neighbour's result buffer c will write. -/
def barPay (c : Dev nD) (d : Fin 3) : sProp 𝕄 :=
  bigSep (Finset.univ.filter fun i : Xf => i.dir = d) fun i => iprop(∃ f, oPts (peer d c) (dstSet i c) fullShare f)

/-- One round, round 0. The barrier cell has the three duties 0, 1, 2 of one unit each, paid by the three
    neighbours; every other protocol cell has the one duty 0, of the copy's credit. -/
def sched : Rounds.Schedule (GSem nD τ sig) (Fin 3) 𝕄 where
  duties g r :=
    if r = 0 ∧ g.1.2 = .tc then
      match g.2 with
      | .reg _ => Finset.univ
      | .dma j => if 2 ≤ j.val then {0} else ∅
    else ∅
  unitless _ := False
  amount g _ _ := match g.2 with
    | .reg _ => 1
    | .dma j => if j.val = 130 then NL else NC
  payload g _ d := match g.2 with
    | .reg _ => barPay g.1.1 d
    | .dma j => match roleOf j.val with
      | .send i => sendPay m g.1.1 i
      | .recv i => recvPay m g.1.1 i
      | .loc => locPay m g.1.1
      | .none => iprop(emp)
  amount_pos g _ _ _ := by
    rcases g with ⟨t, sm⟩
    cases sm with
    | reg s => exact Nat.one_pos
    | dma j =>
      show 0 < (if j.val = 130 then NL else NC)
      split
      · exact View.dmaCredit_pos _ (by decide)
      · exact View.dmaCredit_pos _ (by decide)

/-! ## Levels: barrier cells at 1; the landings from the first axis at 2, the first relays' at 3, the second
    relays' at 4; everything else (staging, read-out, local copy) at 0 -/

def L (g : GSem nD τ sig) : Finset Unit := if g.1.2 = .tc then {()} else ∅
def lv (g : GSem nD τ sig) (_ : Unit) : ℕ :=
  match g.2 with
  | .reg _ => 1
  | .dma j =>
    if 27 ≤ j.val ∧ j.val < 52 then 2
    else if (68 ≤ j.val ∧ j.val < 84) ∨ (100 ≤ j.val ∧ j.val < 116) then 3
    else if (120 ≤ j.val ∧ j.val < 124) ∨ (127 ≤ j.val ∧ j.val < 130) then 4
    else 0

/-! ## What a device still owes -/

/-- The landings device c still owes when the copies l are still to be enqueued, summed so that the first
    of l is the last summand. -/
def owedX (c : Dev nD) : List Xf → CellTallies nD τ sig Unit
  | [] => 0
  | i :: l => owedX c l + tallyAt (rCell i (peer i.dir c)) () NC
/-- With the entry signals along the axes sg still to be made as well (the first of sg the last summand). -/
def owedAll (c : Dev nD) : List (Fin 3) → List Xf → CellTallies nD τ sig Unit
  | [], l => owedX c l
  | d :: sg, l => owedAll c sg l + tallyAt (barCell (peer d c)) () 1

/-- After n of its memory operations: how many entry signals a device has made, how many copies enqueued. -/
def sigsDone (n : ℕ) : ℕ := min n 3
def sentBy (n : ℕ) : ℕ := (sendOrder.filter fun i => i.tSend < n).length
def owedAt (c : Dev nD) (n : ℕ) : CellTallies nD τ sig Unit :=
  owedAll c (([0, 1, 2] : List (Fin 3)).drop (sigsDone n)) (sendOrder.drop (sentBy n))

/-! ## One device's resources after n of its memory operations -/

/-- The separate pieces of one device's state: the rows of its result buffer where the copy i addressed to it
    lands (slot); the rows of a neighbour's result buffer its own copy i writes (pslot); the two duty tokens its
    copy i pays with (tok); its read-out cell of copy i (scell); its landing cell of the copy i addressed to it
    (rcell); its barrier cell; the token of its entry signal along an axis; the left half share of its argument
    block, which the local copy takes (xL); the right half share of the rows copy i reads (xR) and of the rows no
    copy reads (xRrest); its own half of the result; the local copy's cell; what it owes. -/
inductive Res where
  | slot (i : Xf) | pslot (i : Xf) | tok (i : Xf) | scell (i : Xf) | rcell (i : Xf) | bar | sigtok (d : Fin 3)
  | xL | xR (i : Xf) | xRrest | own | loccell | owes
  deriving DecidableEq, Fintype

/-- The relay copies that read the rows where copy i landed: at the left half share, at the right half share
    (a relay that takes the whole share counts as both). -/
def fwdL : Xf → Option Xf
  | .xa k => some (.yf k)
  | .zf k => if h : 9 ≤ k.val ∧ k.val < 13 then some (.ya ⟨k.val - 9, by omega⟩) else none
  | .yf k => if h : 13 ≤ k.val then some (.zb ⟨k.val - 13, by omega⟩) else none
  | _ => none
def fwdR : Xf → Option Xf
  | .xa k => some (.zf k)
  | i => fwdL i

def lent (o : Option Xf) (n : ℕ) : Bool :=
  match o with
  | some j => decide (j.tSend < n ∧ n ≤ j.tSW)
  | none => false

/-- The state of each piece after n operations, as a small number. For a slot: 0 not yet given away (any
    contents), 1 with the neighbour, 2 whole, 3 the left half, 4 the right half, 5 nothing. -/
def tag (r : Res) (n : ℕ) : ℕ :=
  match r with
  | .slot i =>
    if n ≤ i.dir.val then 0
    else if n ≤ i.tRW then 1
    else match lent (fwdL i) n, lent (fwdR i) n with
      | false, false => 2
      | false, true => 3
      | true, false => 4
      | true, true => 5
  | .pslot i => if 3 < n ∧ n ≤ i.tSend then 1 else 0
  | .tok i => if n ≤ i.tSend then 1 else 0
  | .scell i => if n ≤ i.tSend then 0 else if n ≤ i.tSW then 1 else 2
  | .rcell i => if n ≤ i.tRW then 0 else 2
  | .bar => if n ≤ 3 then 0 else 1
  | .sigtok d => if n ≤ d.val then 1 else 0
  | .xL => if 29 < n ∧ n ≤ 133 then 0 else 1
  | .xR i =>
    match i with
    | .xa _ => if i.tSend < n ∧ n ≤ i.tSW then 0 else 1
    | .xb _ => if i.tSend < n ∧ n ≤ i.tSW then 0 else 1
    | _ => 1
  | .xRrest => 1
  | .own => if n ≤ 29 then 0 else if n ≤ 133 then 1 else 2
  | .loccell => if n ≤ 29 then 0 else if n ≤ 133 then 1 else 2
  | .owes => 100 * sigsDone n + sentBy n

/-- What each piece is, by its state. -/
def interp (c : Dev nD) (r : Res) (t : ℕ) : sProp 𝕄 :=
  match r with
  | .slot i =>
    if t = 0 then iprop(∃ f, oPts c (slotSet i c) fullShare f)
    else if t = 2 then oPts c (slotSet i c) fullShare (outAt m c)
    else if t = 3 then oPts c (slotSet i c) fullShare.left (outAt m c)
    else if t = 4 then oPts c (slotSet i c) fullShare.right (outAt m c)
    else iprop(emp)
  | .pslot i => if t = 1 then iprop(∃ f, oPts (peer i.dir c) (dstSet i c) fullShare f) else iprop(emp)
  | .tok i => if t = 1 then iprop(dutyTok ER (rCell i (peer i.dir c)) 0 0 ∗ dutyTok ER (sCell i c) 0 0) else iprop(emp)
  | .scell i =>
    if t = 0 then atPos ER (sCell i c) 0 ∅ 0
    else if t = 1 then iprop(atPos ER (sCell i c) 0 ∅ 0 ∗ cred (tallyAt (sCell i c) () NC))
    else semVal (sCell i c) 0
  | .rcell i =>
    if t = 0 then iprop(atPos ER (rCell i c) 0 ∅ 0 ∗ cred (tallyAt (rCell i c) () NC)) else semVal (rCell i c) 0
  | .bar =>
    if t = 0 then iprop(atPos ER (barCell c) 0 ∅ 0 ∗ cred (tallyAt (barCell c) () 3)) else atPos ER (barCell c) 1 ∅ 0
  | .sigtok d => if t = 1 then dutyTok ER (barCell (peer d c)) 0 d else iprop(emp)
  | .xL => if t = 1 then xPts m c Finset.univ fullShare.left else iprop(emp)
  | .xR i => if t = 1 then xPts m c (xSet i c) fullShare.right else iprop(emp)
  | .xRrest => xPts m c (xRest c) fullShare.right
  | .own =>
    if t = 0 then iprop(∃ f, oPts c (ownSet c) fullShare f)
    else if t = 2 then oPts c (ownSet c) fullShare (outAt m c)
    else iprop(emp)
  | .loccell =>
    if t = 0 then iprop(atPos ER (locCell c) 0 ∅ 0 ∗ dutyTok ER (locCell c) 0 0)
    else if t = 1 then iprop(atPos ER (locCell c) 0 ∅ 0 ∗ cred (tallyAt (locCell c) () NL))
    else semVal (locCell c) 0
  | .owes =>
    iprop(∃ W : Waits sig Unit, owes (c : Thread nD τ)
      (owedAll c (([0, 1, 2] : List (Fin 3)).drop (t / 100)) (sendOrder.drop (t % 100))) W)

/-- Device c's pieces after n of its memory operations. -/
def St (c : Dev nD) (n : ℕ) : sProp 𝕄 := bigSep Finset.univ fun r : Res => interp m c r (tag r n)

/-! ## The records every device's body opens -/

/-- Every protocol cell's invariant, under the names K the launch allocated them at; that every cell has
    reached round 0; the level facts. -/
def records (K : Dev nD × Fin 130 → ℕ) : sProp 𝕄 :=
  iprop((bigSep Finset.univ fun ck : Dev nD × Fin 130 => cellInv ER (sched m) (K ck) (kcell ck))
    ∗ (bigSep Finset.univ fun ck : Dev nD × Fin 130 => reached ER (kcell ck) 0)
    ∗ levAts L lv)

end Cert.Kernel.AG

end
-- ==== Proof.K.Acc.lean ====
/-
  One step of a device's body changes a few pieces of its state and leaves the rest alone. This module states that
  once: the pieces a step touches can be taken out of the state after n operations and, put back in their new
  states, make the state after n' operations, provided every other piece has the same state at n and at n'. It also
  names, for each kind of step, the pieces it touches, and the source of each copy as one family of slices.
-/
import proofs.«900661_g7700000000000662_dist_ag_v7x_xyz2x2x2_x_m2048_n512_f32_1_alg».proof.Proof.K.Proto

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The weakest precondition of a piece of device c's body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every piece outside A is in the same state after n and after n' operations. -/
def Frame (A : Finset Res) (n n' : ℕ) : Prop := ∀ r : Res, r ∉ A → tag r n = tag r n'

instance (A : Finset Res) (n n' : ℕ) : Decidable (Frame A n n') := by unfold Frame; infer_instance

/-- Taking the pieces A out of the state and putting them back changed. -/
theorem St_acc (m : (ℓ : Loc nD τ sig) → Buf (Elt F) ℓ) (c : Dev nD) (A : Finset Res) (n n' : ℕ) (h : Frame A n n') :
    St m c n ⊢ iprop((bigSep A fun r => interp m c r (tag r n))
      ∗ ((bigSep A fun r => interp m c r (tag r n')) -∗ St m c n')) := by
  unfold St
  -- the state is the pieces in A together with the pieces outside A, after n and after n' operations alike
  rw [bigSep_sdiff_split (Finset.subset_univ A) (Φ := fun r => interp m c r (tag r n)),
    bigSep_sdiff_split (Finset.subset_univ A) (Φ := fun r => interp m c r (tag r n'))]
  -- outside A the two families are the same, piece by piece
  have hrest : (bigSep (Finset.univ \ A) fun r => interp m c r (tag r n))
      = bigSep (Finset.univ \ A) fun r => interp m c r (tag r n') :=
    bigSep_congr fun r hr => by rw [h r (Finset.mem_sdiff.mp hr).2]
  rw [hrest]
  show iprop((bigSep A fun r => interp m c r (tag r n)) ∗ (bigSep (Finset.univ \ A) fun r => interp m c r (tag r n')))
    ⊢ iprop((bigSep A fun r => interp m c r (tag r n)) ∗ ((bigSep A fun r => interp m c r (tag r n')) -∗
        ((bigSep A fun r => interp m c r (tag r n')) ∗ (bigSep (Finset.univ \ A) fun r => interp m c r (tag r n')))))
  iintro ⟨HA, HR⟩
  isplitl [HA]
  · iexact HA
  iintro HA'
  isplitl [HA']
  · iexact HA'
  iexact HR

/-- The rows copy i of device c reads: a slice of the argument block (xa, xb) or of the result buffer (relays). -/
def srcM (i : Xf) (c : Dev nD) : Memref sig .tc .vmem S32x512 .f32 :=
  match i with
  | .xa k => xaSrc c k | .xb k => xbSrc c k | .yf k => fwM c k | .zf k => fwM c k | .ya k => yaM c k | .zb k => zbM c k

/-- The piece that holds the source rows of copy i. -/
def srcRes : Xf → Res
  | .xa k => .xR (.xa k) | .xb k => .xR (.xb k) | .yf k => .slot (.xa k) | .zf k => .slot (.xa k)
  | .ya k => .slot (.zf ⟨k.val + 9, by omega⟩) | .zb k => .slot (.yf ⟨k.val + 13, by omega⟩)

/-- The pieces each kind of step touches. -/
def sigA (d : Fin 3) : Finset Res := {Res.sigtok d, Res.owes} ∪ (Finset.univ.filter fun i : Xf => i.dir = d).image Res.slot
def barA : Finset Res := {Res.bar, Res.owes} ∪ Finset.univ.image Res.pslot
def sendA (i : Xf) : Finset Res := {Res.tok i, Res.pslot i, Res.scell i, Res.owes, srcRes i}
def locA : Finset Res := {Res.xL, Res.own, Res.loccell}
def rwA (i : Xf) : Finset Res := {Res.rcell i, Res.slot i, Res.owes}
def locwA : Finset Res := {Res.loccell, Res.own, Res.xL, Res.owes}
def swA (i : Xf) : Finset Res := {Res.scell i, srcRes i, Res.owes}

/-! ## Reading the records -/

/-- The first protocol cell of a device is its barrier cell. -/
theorem kcell_bar (c : Dev nD) : kcell (c, (0 : Fin 130)) = barCell c := rfl

/-- Protocol cell j - 1 of a device, for 2 ≤ j, is its DMA semaphore j. -/
theorem kcell_dma (c : Dev nD) (j : ℕ) (h2 : 2 ≤ j) (h : j < 131) :
    kcell (c, (⟨j - 1, by omega⟩ : Fin 130)) = ((c : Thread nD τ), SemLoc.dma ⟨j, h⟩) := by
  have hne : ¬ ((⟨j - 1, by omega⟩ : Fin 130).val = 0) := by show ¬ (j - 1 = 0); omega
  have hc : csem (⟨j - 1, by omega⟩ : Fin 130) = SemLoc.dma ⟨j, h⟩ := by
    show (if h0 : (⟨j - 1, _⟩ : Fin 130).val = 0 then SemLoc.reg barS else SemLoc.dma ⟨(⟨j - 1, _⟩ : Fin 130).val + 1, _⟩) = _
    rw [dif_neg hne]
    congr 1
    apply Fin.ext
    show j - 1 + 1 = j
    omega
  show ((c : Thread nD τ), csem (⟨j - 1, _⟩ : Fin 130)) = _
  rw [hc]

/-- The invariant of any protocol cell, out of the records. -/
theorem records_inv (m : (ℓ : Loc nD τ sig) → Buf (Elt F) ℓ) (K : Dev nD × Fin 130 → ℕ) (ck : Dev nD × Fin 130) :
    records m K ⊢ cellInv ER (sched m) (K ck) (kcell ck) := by
  unfold records
  have hel : (bigSep Finset.univ fun ck : Dev nD × Fin 130 => cellInv ER (sched m) (K ck) (kcell ck))
      ⊢ cellInv ER (sched m) (K ck) (kcell ck) := bigSep_elim (Finset.mem_univ ck)
  iintro ⟨H, -, -⟩
  iapply hel
  iexact H

/-- That any protocol cell has reached round 0, out of the records. -/
theorem records_reached (m : (ℓ : Loc nD τ sig) → Buf (Elt F) ℓ) (K : Dev nD × Fin 130 → ℕ) (ck : Dev nD × Fin 130) :
    records m K ⊢ reached ER (kcell ck) 0 := by
  unfold records
  have hel : (bigSep Finset.univ fun ck : Dev nD × Fin 130 => (reached ER (kcell ck) 0 : sProp 𝕄))
      ⊢ reached ER (kcell ck) 0 := bigSep_elim (Finset.mem_univ ck)
  iintro ⟨-, H, -⟩
  iapply hel
  iexact H

theorem inv_bar (m : (ℓ : Loc nD τ sig) → Buf (Elt F) ℓ) (K : Dev nD × Fin 130 → ℕ) (c : Dev nD) :
    records m K ⊢ cellInv ER (sched m) (K (c, 0)) (barCell c) := by
  have := records_inv m K (c, 0)
  rwa [kcell_bar] at this

theorem inv_dma (m : (ℓ : Loc nD τ sig) → Buf (Elt F) ℓ) (K : Dev nD × Fin 130 → ℕ) (c : Dev nD) (j : ℕ) (h2 : 2 ≤ j)
    (h : j < 131) :
    records m K ⊢ cellInv ER (sched m) (K (c, ⟨j - 1, by omega⟩)) ((c : Thread nD τ), .dma ⟨j, h⟩) := by
  have := records_inv m K (c, ⟨j - 1, by omega⟩)
  rwa [kcell_dma c j h2 h] at this

theorem reached_bar (m : (ℓ : Loc nD τ sig) → Buf (Elt F) ℓ) (K : Dev nD × Fin 130 → ℕ) (c : Dev nD) :
    records m K ⊢ reached ER (barCell c) 0 := by
  have := records_reached m K (c, 0)
  rwa [kcell_bar] at this

theorem reached_dma (m : (ℓ : Loc nD τ sig) → Buf (Elt F) ℓ) (K : Dev nD × Fin 130 → ℕ) (c : Dev nD) (j : ℕ) (h2 : 2 ≤ j)
    (h : j < 131) :
    records m K ⊢ reached ER ((c : Thread nD τ), .dma ⟨j, h⟩) 0 := by
  have := records_reached m K (c, ⟨j - 1, by omega⟩)
  rwa [kcell_dma c j h2 h] at this

/-- The level facts, out of the records. -/
theorem records_lev (m : (ℓ : Loc nD τ sig) → Buf (Elt F) ℓ) (K : Dev nD × Fin 130 → ℕ) :
    records m K ⊢ (levAts L lv : sProp 𝕄) := by
  unfold records
  iintro ⟨-, -, H⟩
  iexact H

/-- The records are knowledge: they can be used any number of times. -/
instance records_persistent (m : (ℓ : Loc nD τ sig) → Buf (Elt F) ℓ) (K : Dev nD × Fin 130 → ℕ) :
    BI.Persistent (records m K) := by
  unfold records; infer_instance

/-- info: 'Cert.Kernel.AG.inv_dma' depends on axioms: [propext, Classical.choice, Quot.sound] -/
#guard_msgs in #print axioms inv_dma

/-- info: 'Cert.Kernel.AG.St_acc' depends on axioms: [propext, Classical.choice, Quot.sound] -/
#guard_msgs in #print axioms St_acc

end Cert.Kernel.AG

end
-- ==== Proof.K.StepsA.lean ====
/-
  The entry handshake, one step at a time: a device's signal to its neighbour along an axis hands that neighbour
  the rows of its result buffer the neighbour will write; its wait for three units on its own barrier cell hands it
  the rows of its three neighbours' result buffers that it will write.
-/
import proofs.«900661_g7700000000000662_dist_ag_v7x_xyz2x2x2_x_m2048_n512_f32_1_alg».proof.Proof.K.Acc

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

namespace StepsA

/-! ## The neighbours are involutions -/

theorem peer_peer (d : Fin 3) (c : Dev nD) : peer d (peer d c) = c := by
  revert d c; decide +kernel

/-! ## The schedule at a barrier cell -/

theorem duties_bar (c : Dev nD) : (sched m).duties (barCell c) 0 = Finset.univ := rfl

theorem amount_bar (c : Dev nD) (d : Fin 3) : (sched m).amount (barCell c) 0 d = 1 := rfl

theorem payload_bar (c : Dev nD) (d : Fin 3) : (sched m).payload (barCell c) 0 d = barPay c d := rfl

theorem expect_bar (c : Dev nD) : (sched m).expect (barCell c) 0 = 3 := by
  unfold Schedule.expect Schedule.amountOf
  rw [duties_bar, Finset.sum_congr rfl fun d _ => amount_bar m c d, Finset.sum_const, Finset.card_univ, Fintype.card_fin, smul_eq_mul]

/-! ## Counting -/

theorem tRW_ge (i : Xf) : 30 ≤ i.tRW := by
  cases i <;> simp only [Xf.tRW] <;> (try split) <;> (try split) <;> omega

theorem tSend_ge (i : Xf) : 4 ≤ i.tSend := by
  cases i <;> simp only [Xf.tSend] <;> omega

theorem sentBy_early (n : ℕ) (h : n ≤ 4) : sentBy n = 0 := by
  interval_cases n <;> decide +kernel

theorem sigsDone_le (n : ℕ) (h : n ≤ 3) : sigsDone n = n := by
  unfold sigsDone; omega

theorem drop_sig (d : Fin 3) : ([0, 1, 2] : List (Fin 3)).drop d.val = d :: ([0, 1, 2] : List (Fin 3)).drop (d.val + 1) := by
  revert d; decide

/-! ## The pieces an entry signal touches -/

theorem tag_sigtok_at (d : Fin 3) : tag (.sigtok d) d.val = 1 := by
  dsimp only [tag]; rw [if_pos (Nat.le_refl _)]
theorem tag_sigtok_after (d : Fin 3) : tag (.sigtok d) (d.val + 1) = 0 := by
  dsimp only [tag]; rw [if_neg (by omega)]
theorem tag_owes_early (n : ℕ) (h : n ≤ 3) : tag .owes n = 100 * n := by
  dsimp only [tag]; rw [sigsDone_le n h, sentBy_early n (by omega), Nat.add_zero]
theorem tag_owes_four : tag .owes 4 = 300 := by decide +kernel
theorem tag_slot_at (i : Xf) (n : ℕ) (h : n = i.dir.val) : tag (.slot i) n = 0 := by
  dsimp only [tag]; rw [if_pos (by omega)]
theorem tag_slot_after (i : Xf) (n : ℕ) (h : n = i.dir.val) : tag (.slot i) (n + 1) = 1 := by
  have := tRW_ge i; have := i.dir.isLt
  dsimp only [tag]; rw [if_neg (by omega), if_pos (by omega)]

theorem interp_owes (c : Dev nD) (t a b : ℕ) (ha : t / 100 = a) (hb : t % 100 = b) :
    interp m c .owes t = iprop(∃ W : Waits sig Unit, owes (c : Thread nD τ)
      (owedAll c (([0, 1, 2] : List (Fin 3)).drop a) (sendOrder.drop b)) W) := by
  subst ha hb; rfl

theorem sigA_disj (d : Fin 3) :
    Disjoint ({Res.sigtok d, Res.owes} : Finset Res) ((Finset.univ.filter fun i : Xf => i.dir = d).image Res.slot) := by
  rw [Finset.disjoint_left]; intro r hr hi
  rw [Finset.mem_image] at hi; obtain ⟨i, -, rfl⟩ := hi
  simp at hr

theorem slot_injective : Function.Injective Res.slot := fun _ _ h => by cases h; rfl
theorem pslot_injective : Function.Injective Res.pslot := fun _ _ h => by cases h; rfl

theorem bigSep_sigA (d : Fin 3) (Φ : Res → sProp 𝕄) :
    bigSep (sigA d) Φ = iprop(Φ (.sigtok d) ∗ Φ .owes ∗ bigSep (Finset.univ.filter fun i : Xf => i.dir = d) fun i => Φ (.slot i)) := by
  unfold sigA
  have e : (Finset.univ.filter fun i : Xf => i.dir = d).image Res.slot
      = (Finset.univ.filter fun i : Xf => i.dir = d).map ⟨Res.slot, slot_injective⟩ :=
    (Finset.map_eq_image ⟨Res.slot, slot_injective⟩ (Finset.univ.filter fun i : Xf => i.dir = d)).symm
  rw [bigSep_union (sigA_disj d), bigSep_insert (by simp), bigSep_singleton, e, bigSep_map]
  exact (Std.Associative.assoc (op := (BI.sep : sProp 𝕄 → _ → _)) _ _ _)

theorem sigA_open (c : Dev nD) (d : Fin 3) :
    (bigSep (sigA d) fun r => interp m c r (tag r d.val))
      ⊢ iprop(dutyTok ER (barCell (peer d c)) 0 d
          ∗ (∃ W : Waits sig Unit, owes (c : Thread nD τ)
              (owedAll c (([0, 1, 2] : List (Fin 3)).drop (d.val + 1)) sendOrder + tallyAt (barCell (peer d c)) () 1) W)
          ∗ barPay (peer d c) d) := by
  rw [bigSep_sigA]
  refine sep_mono ?_ (sep_mono ?_ ?_)
  · rw [tag_sigtok_at]; exact .refl _
  · rw [tag_owes_early d.val (by omega), interp_owes m c (100 * d.val) d.val 0 (by omega) (by omega), drop_sig d]
    exact .refl _
  · unfold barPay; rw [peer_peer]
    refine Entails.of_eq (bigSep_congr fun i hi => ?_)
    have hd : i.dir = d := (Finset.mem_filter.mp hi).2
    rw [tag_slot_at i d.val (by rw [hd])]
    show iprop(∃ f, oPts c (slotSet i c) fullShare f) = _
    unfold slotSet; rw [hd]

theorem sigA_close (c : Dev nD) (d : Fin 3) :
    iprop(∃ W : Waits sig Unit, owes (c : Thread nD τ) (owedAll c (([0, 1, 2] : List (Fin 3)).drop (d.val + 1)) sendOrder) W)
      ⊢ bigSep (sigA d) fun r => interp m c r (tag r (d.val + 1)) := by
  have hs : (bigSep (Finset.univ.filter fun i : Xf => i.dir = d) fun i => interp m c (.slot i) (tag (.slot i) (d.val + 1)))
      = (iprop(emp) : sProp 𝕄) := by
    rw [bigSep_congr (Ψ := fun _ => (iprop(emp) : sProp 𝕄)) fun i hi => by
      rw [tag_slot_after i d.val (by rw [(Finset.mem_filter.mp hi).2])]; rfl]
    exact bigSep_emp_const _
  have e0 : interp m c (.sigtok d) 0 = (iprop(emp) : sProp 𝕄) := rfl
  rw [bigSep_sigA, tag_sigtok_after, tag_owes_early (d.val + 1) (by omega),
    interp_owes m c (100 * (d.val + 1)) (d.val + 1) 0 (by omega) (by omega), hs, e0]
  iintro H
  isplitr; · iempintro
  isplitl [H]; · iexact H
  iempintro

/-! ## The pieces the wait for the three signals touches -/

theorem tag_pslot_three (i : Xf) : tag (.pslot i) 3 = 0 := by
  dsimp only [tag]; rw [if_neg (by omega)]
theorem tag_pslot_four (i : Xf) : tag (.pslot i) 4 = 1 := by
  have := tSend_ge i
  dsimp only [tag]; rw [if_pos ⟨by omega, by omega⟩]
theorem tag_bar_three : tag .bar 3 = 0 := rfl
theorem tag_bar_four : tag .bar 4 = 1 := rfl

theorem barA_disj : Disjoint ({Res.bar, Res.owes} : Finset Res) ((Finset.univ : Finset Xf).image Res.pslot) := by
  rw [Finset.disjoint_left]; intro r hr hi
  rw [Finset.mem_image] at hi; obtain ⟨i, -, rfl⟩ := hi
  simp at hr

theorem bigSep_barA (Φ : Res → sProp 𝕄) :
    bigSep barA Φ = iprop(Φ .bar ∗ Φ .owes ∗ bigSep (Finset.univ : Finset Xf) fun i => Φ (.pslot i)) := by
  unfold barA
  have e : (Finset.univ : Finset Xf).image Res.pslot = (Finset.univ : Finset Xf).map ⟨Res.pslot, pslot_injective⟩ :=
    (Finset.map_eq_image ⟨Res.pslot, pslot_injective⟩ (Finset.univ : Finset Xf)).symm
  rw [bigSep_union barA_disj, bigSep_insert (by simp), bigSep_singleton, e, bigSep_map]
  exact (Std.Associative.assoc (op := (BI.sep : sProp 𝕄 → _ → _)) _ _ _)

theorem barA_open (c : Dev nD) :
    (bigSep barA fun r => interp m c r (tag r 3))
      ⊢ iprop((atPos ER (barCell c) 0 ∅ 0 ∗ cred (tallyAt (barCell c) () 3))
          ∗ ∃ W : Waits sig Unit, owes (c : Thread nD τ) (owedX c sendOrder) W) := by
  have eb : interp m c .bar 0 = iprop(atPos ER (barCell c) 0 ∅ 0 ∗ cred (tallyAt (barCell c) () 3)) := rfl
  rw [bigSep_barA, tag_bar_three, tag_owes_early 3 (by omega), interp_owes m c (100 * 3) 3 0 (by omega) (by omega), eb]
  iintro ⟨Hb, HO, -⟩
  isplitl [Hb]; · iexact Hb
  iexact HO

theorem barA_close (c : Dev nD) :
    iprop(atPos ER (barCell c) 1 ∅ 0
        ∗ (∃ W : Waits sig Unit, owes (c : Thread nD τ) (owedX c sendOrder) W)
        ∗ bigSep (Finset.univ : Finset Xf) fun i => iprop(∃ f, oPts (peer i.dir c) (dstSet i c) fullShare f))
      ⊢ bigSep barA fun r => interp m c r (tag r 4) := by
  have hs : (bigSep (Finset.univ : Finset Xf) fun i => interp m c (.pslot i) (tag (.pslot i) 4))
      = bigSep (Finset.univ : Finset Xf) fun i => iprop(∃ f, oPts (peer i.dir c) (dstSet i c) fullShare f) :=
    bigSep_congr fun i _ => by rw [tag_pslot_four]; rfl
  have eb : interp m c .bar 1 = atPos ER (barCell c) 1 ∅ 0 := rfl
  rw [bigSep_barA, tag_bar_four, tag_owes_four, interp_owes m c 300 3 0 (by omega) (by omega), hs, eb]
  iintro ⟨Hb, HO, Hp⟩
  isplitl [Hb]; · iexact Hb
  isplitl [HO]; · iexact HO
  iexact Hp

/-- The three signals' payloads together: for every copy, the rows of the neighbour's result buffer it writes. -/
theorem rest_bar (c : Dev nD) :
    bigSep ((sched m).duties (barCell c) 0 \ ∅) (fun d => (sched m).payload (barCell c) 0 d)
      ⊢ bigSep (Finset.univ : Finset Xf) fun i => iprop(∃ f, oPts (peer i.dir c) (dstSet i c) fullShare f) := by
  have e : ∀ d : Fin 3, (sched m).payload (barCell c) 0 d
      = bigSep (Finset.univ.filter fun i : Xf => i.dir = d) fun i => iprop(∃ f, oPts (peer i.dir c) (dstSet i c) fullShare f) := by
    intro d
    rw [payload_bar]; unfold barPay
    refine bigSep_congr fun i hi => ?_
    rw [(Finset.mem_filter.mp hi).2]
  have hu : (Finset.univ : Finset (Fin 3)).biUnion (fun d => Finset.univ.filter fun i : Xf => i.dir = d) = Finset.univ := by
    ext i; simp
  rw [Finset.sdiff_empty, duties_bar, bigSep_congr fun d _ => e d, ← hu]
  exact bigSep_biUnion _ _

/-! ## What is owed while waiting at the barrier sits above it -/

theorem L_tc (c : Dev nD) (sm : SemLoc sig) : L ((c : Thread nD τ), sm) = {()} := if_pos rfl

/-- A landing cell sits at level 2 or above. -/
theorem lv_ge_of (t : Thread nD τ) (j : DmaSem sig)
    (h : (27 ≤ j.val ∧ j.val < 52) ∨ (68 ≤ j.val ∧ j.val < 84) ∨ (100 ≤ j.val ∧ j.val < 116) ∨ (120 ≤ j.val ∧ j.val < 124)
      ∨ (127 ≤ j.val ∧ j.val < 130)) : 2 ≤ lv (t, .dma j) () := by
  simp only [lv]
  split_ifs <;> omega

theorem lv_rCell (i : Xf) (p : Dev nD) : 2 ≤ lv (rCell i p) () := by
  refine lv_ge_of _ (rS i) ?_
  show (27 ≤ i.rIdx ∧ i.rIdx < 52) ∨ (68 ≤ i.rIdx ∧ i.rIdx < 84) ∨ (100 ≤ i.rIdx ∧ i.rIdx < 116) ∨ (120 ≤ i.rIdx ∧ i.rIdx < 124)
      ∨ (127 ≤ i.rIdx ∧ i.rIdx < 130)
  rcases i with k | k | k | k | k | k <;> (have := k.isLt; simp only [Xf.rIdx]; omega)

theorem owedX_pos (c : Dev nD) (l : List Xf) (g : GSem nD τ sig) (u : Unit) (h : 0 < owedX c l g u) :
    ∃ i ∈ l, g = rCell i (peer i.dir c) := by
  induction l with
  | nil => exact absurd h (Nat.lt_irrefl 0)
  | cons i l ih =>
    unfold owedX at h
    rw [Pi.add_apply, Finsupp.add_apply, tallyAt_apply] at h
    by_cases hg : g = rCell i (peer i.dir c) ∧ u = ()
    · exact ⟨i, List.mem_cons_self, hg.1⟩
    · rw [if_neg hg, Nat.add_zero] at h
      obtain ⟨j, hj, e⟩ := ih h
      exact ⟨j, List.mem_cons_of_mem _ hj, e⟩

theorem mayWait_bar (c : Dev nD) (l : List Xf) :
    (levAts L lv : sProp 𝕄) ⊢ MayWait (c : Thread nD τ) (.reg barS) () (owedX c l) :=
  MayOwe.of_cut (L := L) (lev := lv) 1
    (fun p hp => by rw [Finset.mem_singleton.mp hp, L_tc]; exact Finset.mem_singleton_self _)
    (fun g u hg => by obtain ⟨i, -, rfl⟩ := owedX_pos c l g u hg; rw [L_tc]; exact Finset.mem_singleton_self _)
    (fun p hp => by rw [Finset.mem_singleton.mp hp]; exact Nat.le_refl 1)
    (fun g u hg => by obtain ⟨i, -, rfl⟩ := owedX_pos c l g u hg; exact lv_rCell i _)

end StepsA

open StepsA

/-- The entry signal along axis d, the (n+1)-st operation (n = d). -/
theorem step_signal (c : Dev nD) (d : Fin 3) (n : ℕ) (hn : n = d.val) (p : Dev nD) (hp : p = peer d c) (a : ℕ) (ha : a = 1)
    (hfr : Frame (sigA d) n (n + 1)) {α : Type} {Q : α → sProp 𝕄} {k : PUnit → Prog (TpuEff nD τ sig (Elt F) Λ₀ .tc) α} :
    iprop(records m K ∗ St m c n ∗ (St m c (n + 1) -∗ WP c (k ⟨⟩) Q))
      ⊢ WP c (.op (.semSignal (p : Thread nD τ) barS a) k) Q := by
  subst hn hp ha
  iintro ⟨#Hrec, HSt, Hk⟩
  ihave HA := (St_acc m c (sigA d) d.val (d.val + 1) hfr) $$ HSt
  icases HA with ⟨HA, Hclose⟩
  ihave HA' := (sigA_open m c d) $$ HA
  icases HA' with ⟨Htok, ⟨%W, HO⟩, Hpay⟩
  iapply (Rounds.wp_signal 𝒱₀ ER (sched m) (c : Thread nD τ) none (dst := (peer d c : Thread nD τ)) (sem := barS) (κ := K (peer d c, 0))
      (r := 0) (d := d) (by rw [duties_bar]; exact Finset.mem_univ _) (amount_bar m (peer d c) d) ()
      (owedAll c (([0, 1, 2] : List (Fin 3)).drop (d.val + 1)) sendOrder) rfl) $$ [HO Htok Hpay]
  · isplitr; · iapply (inv_bar m K (peer d c)); iexact Hrec
    isplitl [HO]; · iexact HO
    isplitl [Htok]; · iexact Htok
    isplitl [Hpay]; · rw [payload_bar]; iexact Hpay
    iapply (reached_bar m K (peer d c)); iexact Hrec
  iintro HO
  iapply Hk
  iapply Hclose
  iapply (sigA_close m c d)
  iexists W; iexact HO

/-- The wait for the three neighbours' signals, the fourth operation. -/
theorem step_barwait (c : Dev nD) (a : ℕ) (ha : a = 3) (hfr : Frame barA 3 4)
    {α : Type} {Q : α → sProp 𝕄} {k : PUnit → Prog (TpuEff nD τ sig (Elt F) Λ₀ .tc) α} :
    iprop(records m K ∗ St m c 3 ∗ (St m c 4 -∗ WP c (k ⟨⟩) Q))
      ⊢ WP c (.op (.semWait barS a) k) Q := by
  subst ha
  iintro ⟨#Hrec, HSt, Hk⟩
  ihave HA := (St_acc m c barA 3 4 hfr) $$ HSt
  icases HA with ⟨HA, Hclose⟩
  ihave HA' := (barA_open m c) $$ HA
  icases HA' with ⟨⟨Hat, Hcr⟩, ⟨%W, HO⟩⟩
  iapply (Rounds.wp_wait_rest_token 𝒱₀ ER (sched m) (c : Thread nD τ) none (κ := K (c, 0))
      (wpE_semWait_eq 𝒱₀ (c : Thread nD τ) none Set.univ) (Set.mem_univ _) () (O := owedX c sendOrder) (W := W) (R := 0) (m := 0) (T := ∅)
      (by rw [expect_bar])) $$ [Hcr HO Hat]
  · isplitr; · iapply (inv_bar m K c); iexact Hrec
    isplitl [Hcr]; · iexact Hcr
    isplitl [HO]; · iexact HO
    isplitr; · iapply (mayWait_bar c sendOrder); iapply (records_lev m K); iexact Hrec
    iexact Hat
  iintro ⟨HO, Hat, -, Hpay⟩
  ihave Hp := (rest_bar m c) $$ Hpay
  iapply Hk
  iapply Hclose
  iapply (barA_close m c)
  isplitl [Hat]; · iexact Hat
  isplitl [HO]; · (iexists _; iexact HO)
  iexact Hp

/-- info: 'Cert.Kernel.AG.step_signal' depends on axioms: [propext, Classical.choice, Quot.sound] -/
#guard_msgs in #print axioms step_signal

/-- info: 'Cert.Kernel.AG.step_barwait' depends on axioms: [propext, Classical.choice, Quot.sound] -/
#guard_msgs in #print axioms step_barwait

end Cert.Kernel.AG

end
-- ==== Proof.K.StepsB.lean ====
/-
  Enqueuing a copy. A remote copy pays, with the two tokens the device holds for it, the landing cell of the
  neighbour it is addressed to and the device's own read-out cell; it takes the rows it writes (the neighbour's, held
  since the entry handshake) and a share of the rows it reads, and what lands is what those rows of the neighbour's
  result must end with. The local copy takes the device's own half of the result and the left half share of its
  argument block.
-/
import proofs.«900661_g7700000000000662_dist_ag_v7x_xyz2x2x2_x_m2048_n512_f32_1_alg».proof.Proof.K.Acc
import Idealize.ShloMosaic.Lib.Pipeline.Value

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

namespace StepsB

/-! ## The neighbours -/

theorem peer_peer : ∀ (d : Fin 3) (c : Dev nD), peer d (peer d c) = c := by decide +kernel

/-! ## What each semaphore index is for -/

deriving instance DecidableEq for Role

theorem roleOf_sIdx : ∀ i : Xf, roleOf i.sIdx = .send i := by decide +kernel
theorem roleOf_rIdx : ∀ i : Xf, roleOf i.rIdx = .recv i := by decide +kernel
theorem roleOf_loc : roleOf 130 = .loc := by decide

/-! ## The schedule's tables at the cells a copy pays -/

omit [FloatOps F] in
theorem duties_dma (c : Dev nD) (j : DmaSem sig) (h : 2 ≤ j.val) : (sched (F := F) m).duties ((c : Thread nD τ), .dma j) 0 = {0} := by
  dsimp only [sched]; rw [if_pos ⟨rfl, rfl⟩, if_pos h]

theorem sIdx_ge (i : Xf) : 2 ≤ i.sIdx := by cases i <;> simp only [Xf.sIdx] <;> omega
theorem rIdx_ge (i : Xf) : 2 ≤ i.rIdx := by cases i <;> simp only [Xf.rIdx] <;> omega
theorem sIdx_ne (i : Xf) : i.sIdx ≠ 130 := by cases i <;> simp only [Xf.sIdx] <;> omega
theorem rIdx_ne (i : Xf) : i.rIdx ≠ 130 := by cases i <;> simp only [Xf.rIdx] <;> omega

omit [FloatOps F] in
theorem amount_dma (c : Dev nD) (j : DmaSem sig) (h : j.val ≠ 130) (d : Fin 3) : (sched (F := F) m).amount ((c : Thread nD τ), .dma j) 0 d = NC := by
  dsimp only [sched]; exact if_neg h
omit [FloatOps F] in
theorem amount_loc (c : Dev nD) (d : Fin 3) : (sched (F := F) m).amount (locCell c) 0 d = NL := by
  dsimp only [sched]; exact if_pos rfl

theorem payload_s (c : Dev nD) (i : Xf) (d : Fin 3) : (sched m).payload (sCell i c) 0 d = sendPay m c i := by
  dsimp only [sched]; rw [roleOf_sIdx]
theorem payload_r (c : Dev nD) (i : Xf) (d : Fin 3) : (sched m).payload (rCell i c) 0 d = recvPay m c i := by
  dsimp only [sched]; rw [roleOf_rIdx]
theorem payload_loc (c : Dev nD) (d : Fin 3) : (sched m).payload (locCell c) 0 d = locPay m c := by
  dsimp only [sched]; rw [roleOf_loc]

/-! ## The states of the pieces an enqueue touches, before and after it -/

/-- The state of the source piece of copy i before and after its enqueue. -/
def srcPre : Xf → ℕ
  | .xa _ => 1 | .xb _ => 1 | .yf _ => 2 | .zf _ => 4 | .ya _ => 2 | .zb _ => 2
def srcPost : Xf → ℕ
  | .xa _ => 0 | .xb _ => 0 | .yf _ => 4 | .zf _ => 5 | .ya _ => 5 | .zb _ => 5

theorem tags_send : ∀ i : Xf,
    tag (.tok i) i.tSend = 1 ∧ tag (.tok i) (i.tSend + 1) = 0
    ∧ tag (.pslot i) i.tSend = 1 ∧ tag (.pslot i) (i.tSend + 1) = 0
    ∧ tag (.scell i) i.tSend = 0 ∧ tag (.scell i) (i.tSend + 1) = 1
    ∧ tag (srcRes i) i.tSend = srcPre i ∧ tag (srcRes i) (i.tSend + 1) = srcPost i := by decide +kernel

theorem owes_send : ∀ i : Xf,
    tag .owes i.tSend / 100 = 3 ∧ tag .owes (i.tSend + 1) / 100 = 3
    ∧ sendOrder.drop (tag .owes i.tSend % 100) = i :: sendOrder.drop (tag .owes (i.tSend + 1) % 100) := by decide +kernel

theorem tags_loc :
    tag .xL 29 = 1 ∧ tag .xL 30 = 0 ∧ tag .own 29 = 0 ∧ tag .own 30 = 1 ∧ tag .loccell 29 = 0 ∧ tag .loccell 30 = 1 := by decide

/-- The pieces an enqueue touches, one by one. -/
theorem sendA_chain (i : Xf) (Φ : Res → sProp 𝕄) :
    bigSep (sendA i) Φ = iprop(Φ (.tok i) ∗ Φ (.pslot i) ∗ Φ (.scell i) ∗ Φ .owes ∗ Φ (srcRes i)) := by
  unfold sendA
  rw [bigSep_insert (by cases i <;> simp [srcRes]), bigSep_insert (by cases i <;> simp [srcRes]),
    bigSep_insert (by cases i <;> simp [srcRes]), bigSep_insert (by cases i <;> simp [srcRes]), bigSep_singleton]
  rfl

theorem locA_chain (Φ : Res → sProp 𝕄) : bigSep locA Φ = iprop(Φ .xL ∗ Φ .own ∗ Φ .loccell) := by
  unfold locA
  rw [bigSep_insert (by decide), bigSep_insert (by decide), bigSep_singleton]
  rfl

/-! ## The rows a relay reads are the rows where the copy it relays landed -/

theorem off_fw : ∀ (c : Dev nD) (k : Fin 16), k0_off1 (px c) (wd k.val) = k0_off6 c (wd k.val) := by decide +kernel
theorem off_ya : ∀ (c : Dev nD) (k : Fin 4), k0_off6 (pz c) (wd (k.val + 9)) = k0_off7 c (BitVec.ofNat 32 (288 + 32 * k.val)) := by decide +kernel
theorem off_zb : ∀ (c : Dev nD) (k : Fin 3), k0_off6 (py c) (wd (k.val + 13)) = k0_off8 c (BitVec.ofNat 32 (416 + 32 * k.val)) := by decide +kernel

/-- Two 32-row slices of the result buffer at equal offsets have the same rows. -/
theorem oslice_set_congr {off off' : Fin S4096x512.rank → ℕ} (h : off = off') (inb : ∀ a, off a + S32x512.size a ≤ S4096x512.size a)
    (inb' : ∀ a, off' a + S32x512.size a ≤ S4096x512.size a) :
    (oM.slice (Rect.unit (s := S4096x512) off S32x512.size inb) (fun _ => rfl)).view.set
      = (oM.slice (Rect.unit (s := S4096x512) off' S32x512.size inb') (fun _ => rfl)).view.set := by
  subst h; rfl

theorem set_fw (c : Dev nD) (k : Fin 16) : slotSet (.xa k) c = (fwM c k).view.set :=
  oslice_set_congr (off_fw c k) _ _
theorem set_ya (c : Dev nD) (k : Fin 4) : slotSet (.zf ⟨k.val + 9, by omega⟩) c = (yaM c k).view.set :=
  oslice_set_congr (off_ya c k) _ _
theorem set_zb (c : Dev nD) (k : Fin 3) : slotSet (.yf ⟨k.val + 13, by omega⟩) c = (zbM c k).view.set :=
  oslice_set_congr (off_zb c k) _ _

/-! ## Which device's block a row of the result comes from -/

/-- The device whose block row r of device c's result buffer must end holding. -/
def selDev (c : Dev nD) (r : ℕ) : Dev nD := if r / 2048 = c.val / 4 then c else origin c (r % 2048)

theorem outAt_apply (c : Dev nD) (i : OIx) :
    outAt m c i = xstg m (selDev c (i 0).val) (ValueIdx.ix2 ⟨(i 0).val % 2048, Nat.mod_lt _ (by decide)⟩ (i 1)) := rfl

/-- All 32 rows of a chunk come from one device. -/
theorem selDev_add (c : Dev nD) (a y : ℕ) (ha : a % 32 = 0) (hy : y < 32) : selDev c (a + y) = selDev c a := by
  unfold selDev origin
  have h1 : (a + y) / 2048 = a / 2048 := by omega
  have h2 : (a + y) % 2048 / 512 = a % 2048 / 512 := by omega
  have h3 : (a + y) % 2048 % 512 / 32 = a % 2048 % 512 / 32 := by omega
  simp only [h1, h2, h3]

theorem sel_xa : ∀ (c : Dev nD) (k : Fin 16),
    selDev (px c) (k0_off1 c (wd k.val) 0) = c ∧ k0_off1 c (wd k.val) 0 % 32 = 0
    ∧ k0_off1 c (wd k.val) 0 % 2048 = k0_off2 c (wd k.val) 0 ∧ k0_off1 c (wd k.val) 0 % 2048 + 32 ≤ 2048
    ∧ k0_off1 c (wd k.val) 1 = 0 ∧ k0_off2 c (wd k.val) 1 = 0 := by decide +kernel
theorem sel_xb : ∀ (c : Dev nD) (k : Fin 9),
    selDev (px c) (k0_off3 c (wd k.val) 0) = c ∧ k0_off3 c (wd k.val) 0 % 32 = 0
    ∧ k0_off3 c (wd k.val) 0 % 2048 = k0_off4 c (wd k.val) 0 ∧ k0_off3 c (wd k.val) 0 % 2048 + 32 ≤ 2048
    ∧ k0_off3 c (wd k.val) 1 = 0 ∧ k0_off4 c (wd k.val) 1 = 0 := by decide +kernel
theorem sel_yf : ∀ (c : Dev nD) (k : Fin 16),
    selDev c (k0_off6 c (wd k.val) 0) = selDev (py c) (k0_off6 c (wd k.val) 0) ∧ k0_off6 c (wd k.val) 0 % 32 = 0 := by decide +kernel
theorem sel_zf : ∀ (c : Dev nD) (k : Fin 16),
    selDev c (k0_off6 c (wd k.val) 0) = selDev (pz c) (k0_off6 c (wd k.val) 0) ∧ k0_off6 c (wd k.val) 0 % 32 = 0 := by decide +kernel
theorem sel_ya : ∀ (c : Dev nD) (k : Fin 4),
    selDev c (k0_off7 c (BitVec.ofNat 32 (288 + 32 * k.val)) 0) = selDev (py c) (k0_off7 c (BitVec.ofNat 32 (288 + 32 * k.val)) 0)
    ∧ k0_off7 c (BitVec.ofNat 32 (288 + 32 * k.val)) 0 % 32 = 0 := by decide +kernel
theorem sel_zb : ∀ (c : Dev nD) (k : Fin 3),
    selDev c (k0_off8 c (BitVec.ofNat 32 (416 + 32 * k.val)) 0) = selDev (pz c) (k0_off8 c (BitVec.ofNat 32 (416 + 32 * k.val)) 0)
    ∧ k0_off8 c (BitVec.ofNat 32 (416 + 32 * k.val)) 0 % 32 = 0 := by decide +kernel
theorem sel_own : ∀ c : Dev nD, k0_off5 c 0 = 2048 * (c.val / 4) ∧ k0_off5 c 1 = 0 := by decide +kernel

/-! ## Where an index of a slice sits in its buffer -/

theorem oemb_val (off size : Fin 2 → ℕ) (inb : ∀ a, off a + size a ≤ S4096x512.size a)
    (y : (Rect.unit (s := S4096x512) off size inb).shape.Idx) (a : Fin 2) :
    (((oM.slice (Rect.unit (s := S4096x512) off size inb) (fun _ => rfl)).view.emb y a : Fin _) : ℕ) = off a + (y a).val := by
  show off a + 1 * (y a).val = _
  rw [Nat.one_mul]

theorem xemb_val (off size : Fin 2 → ℕ) (inb : ∀ a, off a + size a ≤ S2048x512.size a)
    (y : (Rect.unit (s := S2048x512) off size inb).shape.Idx) (a : Fin 2) :
    (((xM.slice (Rect.unit (s := S2048x512) off size inb) (fun _ => rfl)).view.emb y a : Fin _) : ℕ) = off a + (y a).val := by
  show off a + 1 * (y a).val = _
  rw [Nat.one_mul]

/-! ## What lands is what the rows must end with -/

/-- A chunk of the device's own block, copied to a neighbour: the rows written hold what they must end with. -/
theorem val_first (c p : Dev nD) (offd : Fin 2 → ℕ) (inbd : ∀ a, offd a + S32x512.size a ≤ S4096x512.size a)
    (offs : Fin 2 → ℕ) (inbs : ∀ a, offs a + S32x512.size a ≤ S2048x512.size a)
    (hsel : selDev p (offd 0) = c) (h32 : offd 0 % 32 = 0) (hrow : offd 0 % 2048 = offs 0) (hfit : offd 0 % 2048 + 32 ≤ 2048)
    (hd1 : offd 1 = 0) (hs1 : offs 1 = 0)
    (fd : Buf (Elt F) ((p : Thread nD τ).loc cc0_stg1_0)) :
    ∀ i ∈ (oM.slice (Rect.unit (s := S4096x512) offd S32x512.size inbd) (fun _ => rfl)).view.set,
      (oM.slice (Rect.unit (s := S4096x512) offd S32x512.size inbd) (fun _ => rfl)).view.write (Elt F) fd
        ((xM.slice (Rect.unit (s := S2048x512) offs S32x512.size inbs) (fun _ => rfl)).view.read (Elt F) (xstg m c)) Finset.univ i
      = outAt m p i := by
  intro i hi
  obtain ⟨y, rfl⟩ := View.exists_emb_of_mem_set _ hi
  rw [View.write_emb_of_mem _ _ (Finset.mem_univ _), outAt_apply]
  have hy : (y 0).val < 32 := (y 0).isLt
  have e0 := oemb_val offd S32x512.size inbd y 0
  have e1 := oemb_val offd S32x512.size inbd y 1
  have s0 := xemb_val offs S32x512.size inbs y 0
  have s1 := xemb_val offs S32x512.size inbs y 1
  have hdev : selDev p ((oM.slice (Rect.unit (s := S4096x512) offd S32x512.size inbd) (fun _ => rfl)).view.emb y 0).val = c := by
    rw [e0, selDev_add p _ _ h32 hy, hsel]
  rw [hdev]
  show xstg m c ((xM.slice (Rect.unit (s := S2048x512) offs S32x512.size inbs) (fun _ => rfl)).view.emb y) = _
  congr 1
  apply Shape.idx_ext₂
  · show _ = ((oM.slice (Rect.unit (s := S4096x512) offd S32x512.size inbd) (fun _ => rfl)).view.emb y 0).val % 2048
    rw [e0, s0]; omega
  · show _ = ((oM.slice (Rect.unit (s := S4096x512) offd S32x512.size inbd) (fun _ => rfl)).view.emb y 1).val
    rw [e1, s1]; omega

/-- A chunk relayed: the rows read on the relaying device and written on the neighbour come from the same device. -/
theorem val_relay (c p : Dev nD) (off : Fin 2 → ℕ) (inb : ∀ a, off a + S32x512.size a ≤ S4096x512.size a)
    (hsel : selDev c (off 0) = selDev p (off 0)) (h32 : off 0 % 32 = 0)
    (fd : Buf (Elt F) ((p : Thread nD τ).loc cc0_stg1_0)) :
    ∀ i ∈ (oM.slice (Rect.unit (s := S4096x512) off S32x512.size inb) (fun _ => rfl)).view.set,
      (oM.slice (Rect.unit (s := S4096x512) off S32x512.size inb) (fun _ => rfl)).view.write (Elt F) fd
        ((oM.slice (Rect.unit (s := S4096x512) off S32x512.size inb) (fun _ => rfl)).view.read (Elt F) (outAt m c)) Finset.univ i
      = outAt m p i := by
  intro i hi
  obtain ⟨y, rfl⟩ := View.exists_emb_of_mem_set _ hi
  rw [View.write_emb_of_mem _ _ (Finset.mem_univ _)]
  have hy : (y 0).val < 32 := (y 0).isLt
  have e0 := oemb_val off S32x512.size inb y 0
  show outAt m c ((oM.slice (Rect.unit (s := S4096x512) off S32x512.size inb) (fun _ => rfl)).view.emb y) = _
  rw [outAt_apply, outAt_apply, e0, selDev_add c _ _ h32 hy, selDev_add p _ _ h32 hy, hsel]

/-! ## The pieces an enqueue takes and leaves -/

/-- The contents of the rows copy i reads. -/
def srcBuf (i : Xf) (c : Dev nD) : Buf (Elt F) ((srcM i c).view.loc (c : Thread nD τ)) :=
  match i with
  | .xa _ => xstg m c | .xb _ => xstg m c | .yf _ => outAt m c | .zf _ => outAt m c | .ya _ => outAt m c | .zb _ => outAt m c

/-- The source piece hands the copy its share of the rows it reads. -/
theorem src_take (i : Xf) (c : Dev nD) :
    interp m c (srcRes i) (srcPre i)
      ⊢ iprop(((srcM i c).view.loc (c : Thread nD τ) ↦[(srcM i c).view.set]{srcShare i} srcBuf m i c) ∗ interp m c (srcRes i) (srcPost i)) := by
  cases i with
  | xa k => exact (sep_emp (PROP := sProp 𝕄)).2
  | xb k => exact (sep_emp (PROP := sProp 𝕄)).2
  | yf k =>
    show oPts c (slotSet (.xa k) c) fullShare (outAt m c) ⊢ iprop(oPts c (fwM c k).view.set fullShare.left (outAt m c) ∗ oPts c (slotSet (.xa k) c) fullShare.right (outAt m c))
    rw [set_fw]; exact (pointsTo_share (PosShare.mem_left_op_right fullShare)).1
  | zf k =>
    show oPts c (slotSet (.xa k) c) fullShare.right (outAt m c) ⊢ iprop(oPts c (fwM c k).view.set fullShare.right (outAt m c) ∗ emp)
    rw [set_fw]; exact (sep_emp (PROP := sProp 𝕄)).2
  | ya k =>
    show oPts c (slotSet (.zf ⟨k.val + 9, by omega⟩) c) fullShare (outAt m c) ⊢ iprop(oPts c (yaM c k).view.set fullShare (outAt m c) ∗ emp)
    rw [set_ya]; exact (sep_emp (PROP := sProp 𝕄)).2
  | zb k =>
    show oPts c (slotSet (.yf ⟨k.val + 13, by omega⟩) c) fullShare (outAt m c) ⊢ iprop(oPts c (zbM c k).view.set fullShare (outAt m c) ∗ emp)
    rw [set_zb]; exact (sep_emp (PROP := sProp 𝕄)).2

/-- The neighbour's rows the copy writes, as the destination slice. -/
theorem pslot_take (i : Xf) (c : Dev nD) :
    iprop(∃ f, oPts (F := F) (peer i.dir c) (dstSet i c) fullShare f)
      ⊢ iprop(∃ fd : Buf (Elt F) ((dstM i c).view.loc (Dev.tc (peer i.dir c) : Thread nD τ)),
          ((dstM i c).view.loc (Dev.tc (peer i.dir c) : Thread nD τ) ↦[(dstM i c).view.set]{fullShare} fd)) := by
  cases i <;> exact BI.Entails.refl _

theorem dst_amount (i : Xf) (c : Dev nD) : (dstM i c).view.amount (.dma (rS i)) = NC := by cases i <;> rfl

/-- The share of its source rows the copy holds is what its having been read out hands back. -/
theorem read_pay (i : Xf) (c : Dev nD) :
    ((srcM i c).view.loc (c : Thread nD τ) ↦[(srcM i c).view.set]{srcShare i} srcBuf m i c) ⊢ sendPay m c i := by
  cases i <;> exact BI.Entails.refl _

/-- What lands on the neighbour is what those rows of its result must end with. -/
theorem land_pay (i : Xf) (c : Dev nD) (fd : Buf (Elt F) ((dstM i c).view.loc (Dev.tc (peer i.dir c) : Thread nD τ))) :
    ((dstM i c).view.loc (Dev.tc (peer i.dir c) : Thread nD τ) ↦[(dstM i c).view.set]{fullShare}
        ((dstM i c).view.write (Elt F) fd ((srcM i c).view.read (Elt F) (srcBuf m i c)) Finset.univ))
      ⊢ recvPay m (peer i.dir c) i := by
  unfold recvPay oPts slotSet
  rw [peer_peer]
  cases i with
  | xa k =>
    obtain ⟨h1, h2, h3, h4, h5, h6⟩ := sel_xa c k
    exact Entails.of_eq (pointsTo_congr (val_first m c (px c) _ _ _ _ h1 h2 h3 h4 h5 h6 fd))
  | xb k =>
    obtain ⟨h1, h2, h3, h4, h5, h6⟩ := sel_xb c k
    exact Entails.of_eq (pointsTo_congr (val_first m c (px c) _ _ _ _ h1 h2 h3 h4 h5 h6 fd))
  | yf k => exact Entails.of_eq (pointsTo_congr (val_relay m c (py c) _ _ (sel_yf c k).1 (sel_yf c k).2 fd))
  | zf k => exact Entails.of_eq (pointsTo_congr (val_relay m c (pz c) _ _ (sel_zf c k).1 (sel_zf c k).2 fd))
  | ya k => exact Entails.of_eq (pointsTo_congr (val_relay m c (py c) _ _ (sel_ya c k).1 (sel_ya c k).2 fd))
  | zb k => exact Entails.of_eq (pointsTo_congr (val_relay m c (pz c) _ _ (sel_zb c k).1 (sel_zb c k).2 fd))

/-- The pieces an enqueue touches, before it. -/
theorem send_pre (i : Xf) (c : Dev nD) :
    (bigSep (sendA i) fun r => interp m c r (tag r i.tSend))
      = iprop((dutyTok ER (rCell i (peer i.dir c)) 0 0 ∗ dutyTok ER (sCell i c) 0 0)
          ∗ (∃ f, oPts (peer i.dir c) (dstSet i c) fullShare f)
          ∗ atPos ER (sCell i c) 0 ∅ 0
          ∗ (∃ W : Waits sig Unit, owes (c : Thread nD τ) (owedX c (i :: sendOrder.drop (tag .owes (i.tSend + 1) % 100))) W)
          ∗ interp m c (srcRes i) (srcPre i)) := by
  obtain ⟨t1, -, t3, -, t5, -, t7, -⟩ := tags_send i
  obtain ⟨o1, -, o3⟩ := owes_send i
  rw [sendA_chain, t1, t3, t5, t7,
    show interp m c .owes (tag .owes i.tSend) = iprop(∃ W : Waits sig Unit, owes (c : Thread nD τ)
      (owedAll c (([0, 1, 2] : List (Fin 3)).drop (tag .owes i.tSend / 100)) (sendOrder.drop (tag .owes i.tSend % 100))) W) from rfl,
    o1, o3]
  rfl

/-- The pieces an enqueue touches, after it. -/
theorem send_post (i : Xf) (c : Dev nD) :
    (bigSep (sendA i) fun r => interp m c r (tag r (i.tSend + 1)))
      = iprop(emp ∗ emp
          ∗ (atPos ER (sCell i c) 0 ∅ 0 ∗ cred (tallyAt (sCell i c) () NC))
          ∗ (∃ W : Waits sig Unit, owes (c : Thread nD τ) (owedX c (sendOrder.drop (tag .owes (i.tSend + 1) % 100))) W)
          ∗ interp m c (srcRes i) (srcPost i)) := by
  obtain ⟨-, t2, -, t4, -, t6, -, t8⟩ := tags_send i
  obtain ⟨-, o2, -⟩ := owes_send i
  rw [sendA_chain, t2, t4, t6, t8,
    show interp m c .owes (tag .owes (i.tSend + 1)) = iprop(∃ W : Waits sig Unit, owes (c : Thread nD τ)
      (owedAll c (([0, 1, 2] : List (Fin 3)).drop (tag .owes (i.tSend + 1) / 100)) (sendOrder.drop (tag .owes (i.tSend + 1) % 100))) W) from rfl,
    o2]
  rfl

/-! ## The enqueue of a remote copy -/

/-- The addressed-transfer rule at copy i's two cells, the transfer addressed to p = the neighbour along i's axis
    (substituted, not rewritten), l the copies still to be enqueued after it. -/
theorem wp_send_AG (c : Dev nD) (i : Xf) (p : Dev nD) (hp : p = peer i.dir c)
    {hsc : (dstM i c : Memref sig (Dev.tc p : Thread nD τ).2.kind .vmem S32x512 .f32).view.ref.isScScratch = false}
    {hsrc : (srcM i c).view.WordExact} {hdst : (dstM i c).view.WordExact}
    {hsem : DmaTarget.Typed .vmem (.dma (rS i)) (.remote (Dev.tc p : Thread nD τ) (dstM i c) (.dma (sS i)) hsc)}
    {α : Type} {Q : α → sProp 𝕄} {k : PUnit → Prog (TpuEff nD τ sig (Elt F) Λ₀ .tc) α}
    (fd : Buf (Elt F) ((dstM i c).view.loc (Dev.tc (peer i.dir c) : Thread nD τ))) (W : Waits sig Unit) (l : List Xf) :
    iprop(cellInv ER (sched m) (K (c, ⟨i.sIdx - 1, by have := i.sIdx_lt; omega⟩)) (sCell i c)
        ∗ cellInv ER (sched m) (K (peer i.dir c, ⟨i.rIdx - 1, by have := i.rIdx_lt; omega⟩)) (rCell i (peer i.dir c))
        ∗ ((srcM i c).view.loc (c : Thread nD τ) ↦[(srcM i c).view.set]{srcShare i} srcBuf m i c)
        ∗ ((dstM i c).view.loc (Dev.tc (peer i.dir c) : Thread nD τ) ↦[(dstM i c).view.set]{fullShare} fd)
        ∗ owes (c : Thread nD τ) (owedX c (i :: l)) W
        ∗ dutyTok ER (sCell i c) 0 0 ∗ reached ER (sCell i c) 0
        ∗ dutyTok ER (rCell i (peer i.dir c)) 0 0 ∗ reached ER (rCell i (peer i.dir c)) 0)
      ⊢ iprop(((cred (tallyAt (sCell i c) () NC) ∗ owes (c : Thread nD τ) (owedX c l) W) -∗ WP c (k ⟨⟩) Q)
          -∗ WP c (.op (.enqueueDma (srcM i c) (.remote (Dev.tc p : Thread nD τ) (dstM i c) (.dma (sS i)) hsc) (.dma (rS i)) hsrc hdst hsem) k) Q) := by
  subst hp
  exact Rounds.wp_send_pointsTo 𝒱₀ ER (sched m) (c : Thread nD τ) none
    (κ₁ := K (c, ⟨i.sIdx - 1, by have := i.sIdx_lt; omega⟩)) (κ₂ := K (peer i.dir c, ⟨i.rIdx - 1, by have := i.rIdx_lt; omega⟩))
    (r₁ := 0) (r₂ := 0) (d₁ := 0) (d₂ := 0) (q := srcShare i) (fs := srcBuf m i c) (fd := fd)
    (by rw [duties_dma m c (sS i) (sIdx_ge i)]; exact Finset.mem_singleton_self _)
    (by rw [duties_dma m (peer i.dir c) (rS i) (rIdx_ge i)]; exact Finset.mem_singleton_self _)
    () () NC (dst_amount i c) (amount_dma m c (sS i) (sIdx_ne i) 0) (amount_dma m (peer i.dir c) (rS i) (rIdx_ne i) 0)
    (owedX c l) rfl (W := W)
    (by rw [payload_s]; exact read_pay m i c)
    (by rw [payload_r]; exact land_pay m i c fd)

/-! ## The enqueue of the local copy -/

theorem loc_pre (c : Dev nD) :
    (bigSep locA fun r => interp m c r (tag r 29))
      = iprop(xPts m c Finset.univ fullShare.left ∗ (∃ f, oPts c (ownSet c) fullShare f)
          ∗ (atPos ER (locCell c) 0 ∅ 0 ∗ dutyTok ER (locCell c) 0 0)) := by
  rw [locA_chain]; rfl
theorem loc_post (c : Dev nD) :
    (bigSep locA fun r => interp m c r (tag r 30))
      = iprop(emp ∗ emp ∗ (atPos ER (locCell c) 0 ∅ 0 ∗ cred (tallyAt (locCell c) () NL))) := by
  rw [locA_chain]; rfl

/-- The device's own half of its result, written with its argument block, holds what it must end with. -/
theorem val_own (c : Dev nD) (off : Fin 2 → ℕ) (inb : ∀ a, off a + S2048x512.size a ≤ S4096x512.size a)
    (h0 : off 0 = 2048 * (c.val / 4)) (h1 : off 1 = 0) (fd : Buf (Elt F) ((c : Thread nD τ).loc cc0_stg1_0)) :
    ∀ i ∈ (oM.slice (Rect.unit (s := S4096x512) off S2048x512.size inb) (fun _ => rfl)).view.set,
      (oM.slice (Rect.unit (s := S4096x512) off S2048x512.size inb) (fun _ => rfl)).view.write (Elt F) fd
        (xM.view.read (Elt F) (xstg m c)) Finset.univ i = outAt m c i := by
  intro i hi
  obtain ⟨y, rfl⟩ := View.exists_emb_of_mem_set _ hi
  rw [View.write_emb_of_mem _ _ (Finset.mem_univ _), outAt_apply]
  have hy : (y 0).val < 2048 := (y 0).isLt
  have e0 := oemb_val off S2048x512.size inb y 0
  have e1 := oemb_val off S2048x512.size inb y 1
  have hdev : selDev c ((oM.slice (Rect.unit (s := S4096x512) off S2048x512.size inb) (fun _ => rfl)).view.emb y 0).val = c := by
    rw [e0, h0]; unfold selDev; rw [if_pos (by omega)]
  rw [hdev]
  show xstg m c y = _
  congr 1
  apply Shape.idx_ext₂
  · show (y 0).val = ((oM.slice (Rect.unit (s := S4096x512) off S2048x512.size inb) (fun _ => rfl)).view.emb y 0).val % 2048
    rw [e0, h0]; omega
  · show (y 1).val = ((oM.slice (Rect.unit (s := S4096x512) off S2048x512.size inb) (fun _ => rfl)).view.emb y 1).val
    rw [e1, h1]; omega

theorem loc_pay (c : Dev nD) (fd : Buf (Elt F) ((c : Thread nD τ).loc cc0_stg1_0)) :
    iprop(((ownM c).view.loc (c : Thread nD τ) ↦[(ownM c).view.set]{fullShare}
          ((ownM c).view.write (Elt F) fd (xM.view.read (Elt F) (xstg m c)) Finset.univ))
        ∗ (xM.view.loc (c : Thread nD τ) ↦[Finset.univ]{fullShare.left} xstg m c)) ⊢ locPay m c := by
  unfold locPay oPts xPts ownSet
  have e : ((ownM c).view.loc (c : Thread nD τ) ↦[(ownM c).view.set]{fullShare}
      ((ownM c).view.write (Elt F) fd (xM.view.read (Elt F) (xstg m c)) Finset.univ) : sProp 𝕄)
      = ((c : Thread nD τ).loc cc0_stg1_0 ↦[(ownM c).view.set]{fullShare} outAt m c) :=
    pointsTo_congr (val_own m c (k0_off5 c) (k0_off5_inb c) (sel_own c).1 (sel_own c).2 fd)
  exact sep_mono_left (Entails.of_eq e)

/-- The whole argument block at the left half share, through the whole-buffer view. -/
theorem xwhole_eq (c : Dev nD) :
    xPts m c Finset.univ fullShare.left = (xM.view.loc (c : Thread nD τ) ↦[xM.view.set]{fullShare.left} xstg m c : sProp 𝕄) := by
  unfold xPts; rw [View.set_whole]

theorem own_amount (c : Dev nD) : (ownM c).view.amount (.dma locS) = NL := rfl

set_option maxHeartbeats 800000 in
/-- The local-copy rule at the local copy's cell. -/
theorem wp_copy_AG (c : Dev nD)
    {hsrc : (xM : Memref sig .tc .vmem S2048x512 .f32).view.WordExact} {hdst : (ownM c).view.WordExact}
    {hsem : DmaTarget.Typed (nD := nD) .vmem (.dma locS) (DmaTarget.here (p := (.tc : Proc τ)) (ownM c))}
    {α : Type} {Q : α → sProp 𝕄} {k : PUnit → Prog (TpuEff nD τ sig (Elt F) Λ₀ .tc) α}
    (fd : Buf (Elt F) ((c : Thread nD τ).loc cc0_stg1_0)) :
    iprop(cellInv ER (sched m) (K (c, ⟨130 - 1, by omega⟩)) (locCell c)
        ∗ (xM.view.loc (c : Thread nD τ) ↦[xM.view.set]{fullShare.left} xstg m c) ∗ oPts c (ownSet c) fullShare fd
        ∗ dutyTok ER (locCell c) 0 0 ∗ reached ER (locCell c) 0)
      ⊢ iprop((cred (tallyAt (locCell c) () NL) -∗ WP c (k ⟨⟩) Q)
          -∗ WP c (.op (.enqueueDma xM (DmaTarget.here (p := (.tc : Proc τ)) (ownM c)) (.dma locS) hsrc hdst hsem) k) Q) := by
  exact Rounds.wp_copy_pointsTo 𝒱₀ ER (sched m) (c : Thread nD τ) none (src := xM) (dst := ownM c) (sem := .dma locS)
    (hsrc := hsrc) (hdst := hdst) (hsem := hsem) (k := k) (Q := Q) (q := fullShare.left) (fs := xstg m c) (fd := fd)
    (κ := K (c, ⟨130 - 1, by omega⟩)) (r := 0) (d := 0)
    (by rw [duties_dma m c locS (by decide)]; exact Finset.mem_singleton_self _) () NL (own_amount c) (amount_loc m c 0)
    (by rw [payload_loc, View.set_whole]; exact loc_pay m c fd)

end StepsB

open StepsB

/-- Enqueuing the remote copy i, the (n+1)-st operation (n = i.tSend), addressed to p = the neighbour along i's axis. -/
theorem step_send (c : Dev nD) (i : Xf) (n : ℕ) (hn : n = i.tSend) (p : Dev nD) (hp : p = peer i.dir c)
    (hfr : Frame (sendA i) n (n + 1))
    {hsc : (dstM i c : Memref sig (Dev.tc p : Thread nD τ).2.kind .vmem S32x512 .f32).view.ref.isScScratch = false}
    {hsrc : (srcM i c).view.WordExact} {hdst : (dstM i c).view.WordExact}
    {hsem : DmaTarget.Typed .vmem (.dma (rS i)) (.remote (Dev.tc p : Thread nD τ) (dstM i c) (.dma (sS i)) hsc)}
    {α : Type} {Q : α → sProp 𝕄} {k : PUnit → Prog (TpuEff nD τ sig (Elt F) Λ₀ .tc) α} :
    iprop(records m K ∗ St m c n ∗ (St m c (n + 1) -∗ WP c (k ⟨⟩) Q))
      ⊢ WP c (.op (.enqueueDma (srcM i c) (.remote (Dev.tc p : Thread nD τ) (dstM i c) (.dma (sS i)) hsc) (.dma (rS i)) hsrc hdst hsem) k) Q := by
  subst hn
  have hacc := St_acc m c (sendA i) i.tSend (i.tSend + 1) hfr
  rw [send_pre, send_post] at hacc
  iintro ⟨#Hrec, HSt, Hk⟩
  ihave Hacc := hacc $$ HSt
  icases Hacc with ⟨⟨⟨HtR, HtS⟩, Hps, Hat, ⟨%W, HO⟩, Hsrc⟩, Hclose⟩
  ihave Hs := (src_take m i c) $$ Hsrc
  icases Hs with ⟨Hsrc, Hrest⟩
  ihave Hd := (pslot_take i c) $$ Hps
  icases Hd with ⟨%fd, Hdst⟩
  ihave HI1 := (inv_dma m K c i.sIdx (sIdx_ge i) i.sIdx_lt) $$ Hrec
  ihave HI2 := (inv_dma m K (peer i.dir c) i.rIdx (rIdx_ge i) i.rIdx_lt) $$ Hrec
  ihave HR1 := (reached_dma m K c i.sIdx (sIdx_ge i) i.sIdx_lt) $$ Hrec
  ihave HR2 := (reached_dma m K (peer i.dir c) i.rIdx (rIdx_ge i) i.rIdx_lt) $$ Hrec
  iapply (wp_send_AG m K c i p hp fd W (sendOrder.drop (tag .owes (i.tSend + 1) % 100))) $$ [HI1 HI2 Hsrc Hdst HO HtS HR1 HtR HR2]
  · isplitl [HI1]; · iexact HI1
    isplitl [HI2]; · iexact HI2
    isplitl [Hsrc]; · iexact Hsrc
    isplitl [Hdst]; · iexact Hdst
    isplitl [HO]; · iexact HO
    isplitl [HtS]; · iexact HtS
    isplitl [HR1]; · iexact HR1
    isplitl [HtR]; · iexact HtR
    iexact HR2
  iintro ⟨HcS, HO⟩
  iapply Hk
  iapply Hclose
  isplitr; · iempintro
  isplitr; · iempintro
  isplitl [Hat HcS]
  · isplitl [Hat]; · iexact Hat
    iexact HcS
  isplitl [HO]; · iexists W; iexact HO
  iexact Hrest

/-- Enqueuing the local copy of the argument block into the device's own half, the 30th operation. -/
theorem step_loc (c : Dev nD) (hfr : Frame locA 29 30)
    {hsrc : (xM : Memref sig .tc .vmem S2048x512 .f32).view.WordExact} {hdst : (ownM c).view.WordExact}
    {hsem : DmaTarget.Typed (nD := nD) .vmem (.dma locS) (DmaTarget.here (p := (.tc : Proc τ)) (ownM c))}
    {α : Type} {Q : α → sProp 𝕄} {k : PUnit → Prog (TpuEff nD τ sig (Elt F) Λ₀ .tc) α} :
    iprop(records m K ∗ St m c 29 ∗ (St m c 30 -∗ WP c (k ⟨⟩) Q))
      ⊢ WP c (.op (.enqueueDma xM (DmaTarget.here (p := (.tc : Proc τ)) (ownM c)) (.dma locS) hsrc hdst hsem) k) Q := by
  have hacc := St_acc m c locA 29 30 hfr
  rw [loc_pre, loc_post] at hacc
  iintro ⟨#Hrec, HSt, Hk⟩
  ihave Hacc := hacc $$ HSt
  icases Hacc with ⟨⟨Hx, ⟨%fd, Hown⟩, Hat, Htok⟩, Hclose⟩
  ihave HI := (inv_dma m K c 130 (by decide) (by decide)) $$ Hrec
  ihave HR := (reached_dma m K c 130 (by decide) (by decide)) $$ Hrec
  ihave Hx := (Entails.of_eq (xwhole_eq m c)) $$ Hx
  iapply (wp_copy_AG m K c fd) $$ [HI Hx Hown Htok HR]
  · isplitl [HI]; · iexact HI
    isplitl [Hx]; · iexact Hx
    isplitl [Hown]; · iexact Hown
    isplitl [Htok]; · iexact Htok
    iexact HR
  iintro HcL
  iapply Hk
  iapply Hclose
  isplitr; · iempintro
  isplitr; · iempintro
  isplitl [Hat]; · iexact Hat
  iexact HcL

/-- info: 'Cert.Kernel.AG.step_send' depends on axioms: [propext, Classical.choice, Quot.sound] -/
#guard_msgs in #print axioms step_send

/-- info: 'Cert.Kernel.AG.step_loc' depends on axioms: [propext, Classical.choice, Quot.sound] -/
#guard_msgs in #print axioms step_loc

end Cert.Kernel.AG

end
-- ==== Proof.K.StepsC.lean ====
/-
  Waiting for a copy. The wait on the landing cell of the copy i addressed to the device hands it the rows the
  copy wrote, holding what they must end with, and closes the cell; the wait on its own read-out cell of copy i hands
  back its share of the rows the copy read and closes the cell; the wait for the local copy hands back the device's
  own half, holding its block, and the left half share of the argument block.
-/
import proofs.«900661_g7700000000000662_dist_ag_v7x_xyz2x2x2_x_m2048_n512_f32_1_alg».proof.Proof.K.Acc

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

/-! The auxiliary facts of the three waits live in a namespace of their own. -/
namespace Waits

/-! ## Indices of the semaphores -/

theorem two_le_rIdx (i : Xf) : 2 ≤ i.rIdx := by cases i <;> simp only [Xf.rIdx] <;> omega
theorem two_le_sIdx (i : Xf) : 2 ≤ i.sIdx := by cases i <;> simp only [Xf.sIdx] <;> omega
theorem rIdx_ne (i : Xf) : i.rIdx ≠ 130 := by cases i <;> simp only [Xf.rIdx] <;> omega
theorem sIdx_ne (i : Xf) : i.sIdx ≠ 130 := by cases i <;> simp only [Xf.sIdx] <;> omega

theorem roleOf_rIdx (i : Xf) : roleOf i.rIdx = .recv i := by
  rcases i with k | k | k | k | k | k <;> fin_cases k <;> rfl
theorem roleOf_sIdx (i : Xf) : roleOf i.sIdx = .send i := by
  rcases i with k | k | k | k | k | k <;> fin_cases k <;> rfl
theorem roleOf_loc : roleOf 130 = .loc := rfl

/-! ## The schedule's table at a device's own DMA cells -/

theorem duties_dma (c : Dev nD) (j : DmaSem sig) (h : 2 ≤ j.val) :
    (sched (F := F) m).duties ((c : Thread nD τ), .dma j) 0 = {0} := by
  dsimp only [sched]; rw [if_pos ⟨rfl, rfl⟩, if_pos h]

theorem duties_later (g : GSem nD τ sig) : ∀ r, 1 ≤ r → (sched (F := F) m).duties g r = ∅ :=
  fun r hr => by dsimp only [sched]; rw [if_neg fun h => by have := h.1; omega]

theorem expect_dma (c : Dev nD) (j : DmaSem sig) (h : 2 ≤ j.val) :
    (sched (F := F) m).expect ((c : Thread nD τ), .dma j) 0 = if j.val = 130 then NL else NC := by
  unfold Schedule.expect Schedule.amountOf
  rw [duties_dma m c j h, Finset.sum_singleton]
  rfl

theorem expect_r (c : Dev nD) (i : Xf) : (sched (F := F) m).expect (rCell i c) 0 = NC := by
  rw [expect_dma m c (rS i) (two_le_rIdx i)]; exact if_neg (rIdx_ne i)
theorem expect_s (c : Dev nD) (i : Xf) : (sched (F := F) m).expect (sCell i c) 0 = NC := by
  rw [expect_dma m c (sS i) (two_le_sIdx i)]; exact if_neg (sIdx_ne i)
theorem expect_loc (c : Dev nD) : (sched (F := F) m).expect (locCell c) 0 = NL := by
  rw [expect_dma m c locS (by decide)]; exact if_pos rfl

theorem payload_r (c : Dev nD) (i : Xf) (d : Fin 3) : (sched m).payload (rCell i c) 0 d = recvPay m c i := by
  dsimp only [sched]; rw [roleOf_rIdx]
theorem payload_s (c : Dev nD) (i : Xf) (d : Fin 3) : (sched m).payload (sCell i c) 0 d = sendPay m c i := by
  dsimp only [sched]; rw [roleOf_sIdx]
theorem payload_loc (c : Dev nD) (d : Fin 3) : (sched m).payload (locCell c) 0 d = locPay m c := by
  dsimp only [sched]; rw [roleOf_loc]

/-- The rest of a landing cell's round, no duty taken: the landed rows. -/
theorem rest_r (c : Dev nD) (i : Xf) :
    bigSep ((sched m).duties (rCell i c) 0 \ ∅) (fun d => (sched m).payload (rCell i c) 0 d) = recvPay m c i := by
  rw [Finset.sdiff_empty, duties_dma m c (rS i) (two_le_rIdx i), bigSep_singleton, payload_r]
theorem rest_s (c : Dev nD) (i : Xf) :
    bigSep ((sched m).duties (sCell i c) 0 \ ∅) (fun d => (sched m).payload (sCell i c) 0 d) = sendPay m c i := by
  rw [Finset.sdiff_empty, duties_dma m c (sS i) (two_le_sIdx i), bigSep_singleton, payload_s]
theorem rest_loc (c : Dev nD) :
    bigSep ((sched m).duties (locCell c) 0 \ ∅) (fun d => (sched m).payload (locCell c) 0 d) = locPay m c := by
  rw [Finset.sdiff_empty, duties_dma m c locS (by decide), bigSep_singleton, payload_loc]

/-! ## Taking three or four pieces out of the state -/

theorem St_acc3 (c : Dev nD) (a b d : Res) (hab : a ≠ b) (had : a ≠ d) (hbd : b ≠ d) (n n' : ℕ)
    (h : Frame {a, b, d} n n') :
    St m c n ⊢ iprop((interp m c a (tag a n) ∗ interp m c b (tag b n) ∗ interp m c d (tag d n))
      ∗ ((interp m c a (tag a n') ∗ interp m c b (tag b n') ∗ interp m c d (tag d n')) -∗ St m c n')) := by
  have h0 := St_acc m c {a, b, d} n n' h
  have hb : b ∉ ({d} : Finset Res) := by simpa using hbd
  have ha : a ∉ (insert b {d} : Finset Res) := by simp [hab, had]
  rw [bigSep_insert ha, bigSep_insert hb, bigSep_singleton, bigSep_insert ha, bigSep_insert hb, bigSep_singleton] at h0
  exact h0

theorem St_acc4 (c : Dev nD) (a b d e : Res) (hab : a ≠ b) (had : a ≠ d) (hae : a ≠ e) (hbd : b ≠ d) (hbe : b ≠ e)
    (hde : d ≠ e) (n n' : ℕ) (h : Frame {a, b, d, e} n n') :
    St m c n ⊢ iprop((interp m c a (tag a n) ∗ interp m c b (tag b n) ∗ interp m c d (tag d n) ∗ interp m c e (tag e n))
      ∗ ((interp m c a (tag a n') ∗ interp m c b (tag b n') ∗ interp m c d (tag d n') ∗ interp m c e (tag e n')) -∗ St m c n')) := by
  have h0 := St_acc m c {a, b, d, e} n n' h
  have hd : d ∉ ({e} : Finset Res) := by simpa using hde
  have hb : b ∉ (insert d {e} : Finset Res) := by simp [hbd, hbe]
  have ha : a ∉ (insert b (insert d {e}) : Finset Res) := by simp [hab, had, hae]
  rw [bigSep_insert ha, bigSep_insert hb, bigSep_insert hd, bigSep_singleton,
    bigSep_insert ha, bigSep_insert hb, bigSep_insert hd, bigSep_singleton] at h0
  exact h0

/-! ## The states of the pieces a landing wait touches -/

theorem tag_rcell_rw (i : Xf) : tag (.rcell i) i.tRW = 0 := by simp [tag]
theorem tag_rcell_rw' (i : Xf) : tag (.rcell i) (i.tRW + 1) = 2 := by simp [tag]
theorem tag_slot_rw : ∀ i : Xf, tag (.slot i) i.tRW = 1 := by decide +kernel
theorem tag_slot_rw' : ∀ i : Xf, tag (.slot i) (i.tRW + 1) = 2 := by decide +kernel

/-- The level of the landing cell of copy j, on whichever device. -/
def rLv (j : Xf) : ℕ := lv (rCell j (0 : Dev nD)) ()
theorem lv_rCell (j : Xf) (c : Dev nD) : lv (rCell j c) () = rLv j := rfl

theorem L_tc (c : Dev nD) (sm : SemLoc sig) : L ((c : Thread nD τ), sm) = {()} := if_pos rfl

/-- At the wait for the landing of copy i every entry signal has been made, the wait enqueues nothing, and every
    copy still to be enqueued lands on a cell of a higher level. -/
theorem rw_owes : ∀ i : Xf, ([0, 1, 2] : List (Fin 3)).drop (tag .owes i.tRW / 100) = []
    ∧ tag .owes (i.tRW + 1) = tag .owes i.tRW
    ∧ ∀ j ∈ sendOrder.drop (tag .owes i.tRW % 100), rLv i < rLv j := by decide +kernel

/-- A cell at which the landings of the copies l are owed is the landing cell of one of them. -/
theorem owedX_pos (c : Dev nD) : ∀ (l : List Xf) {g : GSem nD τ sig} {u : Unit}, 0 < owedX c l g u →
    ∃ j ∈ l, g = rCell j (peer j.dir c)
  | [], g, u, h => absurd h (Nat.lt_irrefl 0)
  | j :: l, g, u, h => by
    unfold owedX at h
    rw [Pi.add_apply, Finsupp.add_apply, tallyAt_apply] at h
    by_cases hg : g = rCell j (peer j.dir c) ∧ u = ()
    · exact ⟨j, List.mem_cons_self, hg.1⟩
    · rw [if_neg hg, Nat.add_zero] at h
      obtain ⟨j', hj', e⟩ := owedX_pos c l h
      exact ⟨j', List.mem_cons_of_mem _ hj', e⟩

/-- A device may wait on the landing cell of copy i while the copies it still owes land on cells of higher levels. -/
theorem mayWait_rw (c : Dev nD) (i : Xf) (l : List Xf) (hl : ∀ j ∈ l, rLv i < rLv j) :
    (levAts L lv : sProp 𝕄) ⊢ MayWait (c : Thread nD τ) (.dma (rS i)) () (owedX c l) :=
  MayOwe.of_cut (L := L) (lev := lv) (rLv i)
    (fun p hp => by rw [Finset.mem_singleton.mp hp, L_tc]; exact Finset.mem_singleton_self _)
    (fun g u hg => by obtain ⟨j, _, rfl⟩ := owedX_pos c l hg; rw [L_tc]; exact Finset.mem_singleton_self _)
    (fun p hp => by rw [Finset.mem_singleton.mp hp]; exact le_of_eq (lv_rCell i c))
    (fun g u hg => by obtain ⟨j, hj, rfl⟩ := owedX_pos c l hg; rw [lv_rCell]; exact hl j hj)

theorem interp_owes_rw (c : Dev nD) (i : Xf) :
    interp m c .owes (tag .owes i.tRW)
      = iprop(∃ W : Waits sig Unit, owes (c : Thread nD τ) (owedX c (sendOrder.drop (tag .owes i.tRW % 100))) W) := by
  show iprop(∃ W : Waits sig Unit, owes (c : Thread nD τ)
      (owedAll c (([0, 1, 2] : List (Fin 3)).drop (tag .owes i.tRW / 100)) (sendOrder.drop (tag .owes i.tRW % 100))) W) = _
  rw [(rw_owes i).1]
  rfl

/-- The pieces the landing wait takes out of the state, and what it puts back. -/
theorem acc_rw (c : Dev nD) (i : Xf) (hfr : Frame (rwA i) i.tRW (i.tRW + 1)) :
    St m c i.tRW ⊢ iprop(((atPos ER (rCell i c) 0 ∅ 0 ∗ cred (tallyAt (rCell i c) () NC)) ∗ emp
        ∗ (∃ W : Waits sig Unit, owes (c : Thread nD τ) (owedX c (sendOrder.drop (tag .owes i.tRW % 100))) W))
      ∗ ((semVal (rCell i c) 0 ∗ oPts c (slotSet i c) fullShare (outAt m c)
        ∗ (∃ W : Waits sig Unit, owes (c : Thread nD τ) (owedX c (sendOrder.drop (tag .owes i.tRW % 100))) W))
        -∗ St m c (i.tRW + 1))) := by
  have h := St_acc3 m c (.rcell i) (.slot i) .owes (by simp) (by simp) (by simp) _ _ hfr
  rw [tag_rcell_rw, tag_rcell_rw', tag_slot_rw, tag_slot_rw', (rw_owes i).2.1, interp_owes_rw] at h
  exact h

/-! ## When every copy has been enqueued nothing is owed -/

theorem owes_done : tag .owes 133 = 364 ∧ tag .owes 134 = 364 ∧ sendOrder.drop 64 = []
    ∧ ∀ i : Xf, tag .owes i.tSW = 364 ∧ tag .owes (i.tSW + 1) = 364 := by decide +kernel

theorem interp_owes_done (c : Dev nD) :
    interp m c .owes 364 = iprop(∃ W : Waits sig Unit, owes (c : Thread nD τ) 0 W) := by
  show iprop(∃ W : Waits sig Unit, owes (c : Thread nD τ)
      (owedAll c (([0, 1, 2] : List (Fin 3)).drop (364 / 100)) (sendOrder.drop (364 % 100))) W) = _
  rw [show 364 % 100 = 64 from rfl, owes_done.2.2.1]
  rfl

/-! ## The local copy's wait -/

theorem acc_locw (c : Dev nD) (hfr : Frame locwA 133 134) :
    St m c 133 ⊢ iprop(((atPos ER (locCell c) 0 ∅ 0 ∗ cred (tallyAt (locCell c) () NL)) ∗ emp ∗ emp
        ∗ (∃ W : Waits sig Unit, owes (c : Thread nD τ) 0 W))
      ∗ ((semVal (locCell c) 0 ∗ oPts c (ownSet c) fullShare (outAt m c) ∗ xPts m c Finset.univ fullShare.left
        ∗ (∃ W : Waits sig Unit, owes (c : Thread nD τ) 0 W))
        -∗ St m c 134)) := by
  have h := St_acc4 m c .loccell .own .xL .owes (by simp) (by simp) (by simp) (by simp) (by simp) (by simp) _ _ hfr
  rw [owes_done.1, owes_done.2.1, interp_owes_done] at h
  exact h

/-! ## The rows a relay reads are the rows an earlier copy wrote -/

theorem off_1_6 : ∀ c : Dev nD, ∀ k : Fin 16, k0_off1 (px c) (wd k.val) = k0_off6 c (wd k.val) := by decide +kernel
theorem off_6_7 : ∀ c : Dev nD, ∀ k : Fin 4,
    k0_off6 (pz c) (wd (k.val + 9)) = k0_off7 c (BitVec.ofNat 32 (288 + 32 * k.val)) := by decide +kernel
theorem off_6_8 : ∀ c : Dev nD, ∀ k : Fin 3,
    k0_off6 (py c) (wd (k.val + 13)) = k0_off8 c (BitVec.ofNat 32 (416 + 32 * k.val)) := by decide +kernel

/-- The 32 rows of the result buffer at a given offset. -/
def slSet (o : Fin 2 → ℕ) (h : ∀ a, o a + S32x512.size a ≤ S4096x512.size a) : Finset OIx :=
  (oM.slice (Rect.unit (s := S4096x512) o S32x512.size h) (fun _ => rfl)).view.set

theorem slSet_congr {o o' : Fin 2 → ℕ} (e : o = o') (h : ∀ a, o a + S32x512.size a ≤ S4096x512.size a)
    (h' : ∀ a, o' a + S32x512.size a ≤ S4096x512.size a) : slSet o h = slSet o' h' := by subst e; rfl

/-- Chunk k of the first-axis neighbour's own quarter lands on the rows both relays of chunk k read. -/
theorem slot_xa (c : Dev nD) (k : Fin 16) : slotSet (.xa k) c = (fwM c k).view.set := by
  simp only [slotSet, dstSet, Xf.dir]
  unfold xaDst fwM
  exact slSet_congr (off_1_6 c k) _ _

/-- Chunks 9 to 12 relayed along the third axis land on the rows the second relays along the second axis read. -/
theorem slot_zf9 (c : Dev nD) (k : Fin 4) : slotSet (.zf ⟨k.val + 9, by omega⟩) c = (yaM c k).view.set := by
  simp only [slotSet, dstSet, Xf.dir]
  unfold fwM yaM
  exact slSet_congr (off_6_7 c k) _ _

/-- Chunks 13 to 15 relayed along the second axis land on the rows the second relays along the third axis read. -/
theorem slot_yf13 (c : Dev nD) (k : Fin 3) : slotSet (.yf ⟨k.val + 13, by omega⟩) c = (zbM c k).view.set := by
  simp only [slotSet, dstSet, Xf.dir]
  unfold fwM zbM
  exact slSet_congr (off_6_8 c k) _ _

/-! ## The states of the pieces a read-out wait touches -/

/-- The state of the piece holding copy i's source rows before and after the wait for its read-out. -/
def tb : Xf → ℕ | .xa _ => 0 | .xb _ => 0 | .yf _ => 5 | .zf _ => 3 | .ya _ => 5 | .zb _ => 5
def ta : Xf → ℕ | .xa _ => 1 | .xb _ => 1 | .yf _ => 3 | .zf _ => 2 | .ya _ => 2 | .zb _ => 2

theorem tags_sw : ∀ i : Xf, tag (.scell i) i.tSW = 1 ∧ tag (.scell i) (i.tSW + 1) = 2
    ∧ tag (srcRes i) i.tSW = tb i ∧ tag (srcRes i) (i.tSW + 1) = ta i := by decide +kernel

/-- The share of the source rows a read-out hands back joins what the piece holds. -/
theorem src_back (c : Dev nD) (i : Xf) :
    iprop(interp m c (srcRes i) (tb i) ∗ sendPay m c i) ⊢ interp m c (srcRes i) (ta i) := by
  rcases i with k | k | k | k | k | k
  · show iprop(emp ∗ xPts m c (xSet (.xa k) c) fullShare.right) ⊢ xPts m c (xSet (.xa k) c) fullShare.right
    iintro ⟨-, H⟩; iexact H
  · show iprop(emp ∗ xPts m c (xSet (.xb k) c) fullShare.right) ⊢ xPts m c (xSet (.xb k) c) fullShare.right
    iintro ⟨-, H⟩; iexact H
  · show iprop(emp ∗ oPts c (fwM c k).view.set fullShare.left (outAt m c))
      ⊢ oPts c (slotSet (.xa k) c) fullShare.left (outAt m c)
    rw [slot_xa]
    iintro ⟨-, H⟩; iexact H
  · show iprop(oPts c (slotSet (.xa k) c) fullShare.left (outAt m c) ∗ oPts c (fwM c k).view.set fullShare.right (outAt m c))
      ⊢ oPts c (slotSet (.xa k) c) fullShare (outAt m c)
    rw [slot_xa]
    unfold oPts
    exact (pointsTo_share (PosShare.mem_left_op_right fullShare)).2
  · show iprop(emp ∗ oPts c (yaM c k).view.set fullShare (outAt m c))
      ⊢ oPts c (slotSet (.zf ⟨k.val + 9, by omega⟩) c) fullShare (outAt m c)
    rw [slot_zf9]
    iintro ⟨-, H⟩; iexact H
  · show iprop(emp ∗ oPts c (zbM c k).view.set fullShare (outAt m c))
      ⊢ oPts c (slotSet (.yf ⟨k.val + 13, by omega⟩) c) fullShare (outAt m c)
    rw [slot_yf13]
    iintro ⟨-, H⟩; iexact H

theorem scell_ne_src (i : Xf) : Res.scell i ≠ srcRes i := by cases i <;> simp [srcRes]
theorem src_ne_owes (i : Xf) : srcRes i ≠ Res.owes := by cases i <;> simp [srcRes]

/-- The pieces the read-out wait takes out of the state, and what it puts back. -/
theorem acc_sw (c : Dev nD) (i : Xf) (hfr : Frame (swA i) i.tSW (i.tSW + 1)) :
    St m c i.tSW ⊢ iprop(((atPos ER (sCell i c) 0 ∅ 0 ∗ cred (tallyAt (sCell i c) () NC)) ∗ interp m c (srcRes i) (tb i)
        ∗ (∃ W : Waits sig Unit, owes (c : Thread nD τ) 0 W))
      ∗ ((semVal (sCell i c) 0 ∗ interp m c (srcRes i) (ta i) ∗ (∃ W : Waits sig Unit, owes (c : Thread nD τ) 0 W))
        -∗ St m c (i.tSW + 1))) := by
  have h := St_acc3 m c (.scell i) (srcRes i) .owes (scell_ne_src i) (by simp) (src_ne_owes i) _ _ hfr
  rw [(tags_sw i).1, (tags_sw i).2.1, (tags_sw i).2.2.1, (tags_sw i).2.2.2, (owes_done.2.2.2 i).1, (owes_done.2.2.2 i).2,
    interp_owes_done] at h
  exact h

end Waits

open Waits

/-- The wait for the landing of the copy i addressed to the device, the (n+1)-st operation (n = i.tRW). -/
theorem step_rw (c : Dev nD) (i : Xf) (n : ℕ) (hn : n = i.tRW) (hfr : Frame (rwA i) n (n + 1))
    {src dst : Memref sig .tc .vmem S32x512 .f32} {hsrc : src.view.WordExact} {hdst : dst.view.WordExact} (hcr : dst.view.dmaCredit = NC)
    {α : Type} {Q : α → sProp 𝕄} {k : PUnit → Prog (TpuEff nD τ sig (Elt F) Λ₀ .tc) α} :
    iprop(records m K ∗ St m c n ∗ (St m c (n + 1) -∗ WP c (k ⟨⟩) Q))
      ⊢ WP c (.op (.waitDma2 (rS i) src dst hsrc hdst) k) Q := by
  subst hn
  iintro ⟨#Hrec, HSt, Hk⟩
  ihave HA := (acc_rw m c i hfr) $$ HSt
  icases HA with ⟨⟨⟨Hat, Hcr⟩, -, ⟨%W, HO⟩⟩, Hclose⟩
  ihave #HI := (inv_dma m K c i.rIdx (two_le_rIdx i) i.rIdx_lt) $$ Hrec
  ihave #Hlev := (records_lev m K) $$ Hrec
  -- the wait: the copy's credit against the cell's one duty
  iapply (Rounds.wp_wait_rest_token 𝒱₀ ER (sched m) (c : Thread nD τ) none (κ := K (c, ⟨i.rIdx - 1, by have := i.rIdx_lt; omega⟩)) (k' := NC)
      (fun K' => (wpE_waitDma2_eq 𝒱₀ (c : Thread nD τ) none Set.univ K').trans (by rw [hcr])) (Set.mem_univ _) ()
      (O := owedX c (sendOrder.drop (tag .owes i.tRW % 100))) (W := W) (R := 0) (m := 0) (T := ∅)
      (by rw [Nat.zero_add, expect_r])) $$ [Hcr HO Hat]
  · isplitr; · iexact HI
    isplitl [Hcr]; · iexact Hcr
    isplitl [HO]; · iexact HO
    isplitr; · iapply (mayWait_rw c i _ (rw_owes i).2.2); iexact Hlev
    iexact Hat
  iintro ⟨HO, Hat, -, Hpay⟩
  ihave Hp := (Entails.of_eq (rest_r m c i)) $$ Hpay
  -- the cell closes: its counter at zero is the device's again
  imod (Rounds.cell_close ER (sched m) (Set.mem_univ (K (c, ⟨i.rIdx - 1, by have := i.rIdx_lt; omega⟩))) (fun h => h) (R := 0 + 1)
    (duties_later m (rCell i c))) $$ [Hat] with Hz
  · isplitr; · iexact HI
    iexact Hat
  iapply Hk
  iapply Hclose
  isplitl [Hz]; · iexact Hz
  isplitl [Hp]; · unfold recvPay; iexact Hp
  iexists _; iexact HO

/-- The wait for the device's own copy i to have been read out, the (n+1)-st operation (n = i.tSW). -/
theorem step_sw (c : Dev nD) (i : Xf) (n : ℕ) (hn : n = i.tSW) (hfr : Frame (swA i) n (n + 1))
    {src dst : Memref sig .tc .vmem S32x512 .f32} {hsrc : src.view.WordExact} {hdst : dst.view.WordExact} (hcr : dst.view.dmaCredit = NC)
    {α : Type} {Q : α → sProp 𝕄} {k : PUnit → Prog (TpuEff nD τ sig (Elt F) Λ₀ .tc) α} :
    iprop(records m K ∗ St m c n ∗ (St m c (n + 1) -∗ WP c (k ⟨⟩) Q))
      ⊢ WP c (.op (.waitDma2 (sS i) src dst hsrc hdst) k) Q := by
  subst hn
  iintro ⟨#Hrec, HSt, Hk⟩
  ihave HA := (acc_sw m c i hfr) $$ HSt
  icases HA with ⟨⟨⟨Hat, Hcr⟩, Hsrc, ⟨%W, HO⟩⟩, Hclose⟩
  ihave #HI := (inv_dma m K c i.sIdx (two_le_sIdx i) i.sIdx_lt) $$ Hrec
  -- the wait: the copy's credit against the cell's one duty; nothing is owed any more
  iapply (Rounds.wp_wait_rest_token 𝒱₀ ER (sched m) (c : Thread nD τ) none (κ := K (c, ⟨i.sIdx - 1, by have := i.sIdx_lt; omega⟩)) (k' := NC)
      (fun K' => (wpE_waitDma2_eq 𝒱₀ (c : Thread nD τ) none Set.univ K').trans (by rw [hcr])) (Set.mem_univ _) ()
      (O := 0) (W := W) (R := 0) (m := 0) (T := ∅)
      (by rw [Nat.zero_add, expect_s])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_s m c i)) $$ Hpay
  ihave Hsrc' := (src_back m c i) $$ [Hsrc Hp]
  · isplitl [Hsrc]; · iexact Hsrc
    iexact Hp
  -- the cell closes: its counter at zero is the device's again
  imod (Rounds.cell_close ER (sched m) (Set.mem_univ (K (c, ⟨i.sIdx - 1, by have := i.sIdx_lt; omega⟩))) (fun h => h) (R := 0 + 1)
    (duties_later m (sCell i c))) $$ [Hat] with Hz
  · isplitr; · iexact HI
    iexact Hat
  iapply Hk
  iapply Hclose
  isplitl [Hz]; · iexact Hz
  isplitl [Hsrc']; · iexact Hsrc'
  iexists _; iexact HO

/-- The wait for the local copy, the 134th operation. -/
theorem step_locw (c : Dev nD) (hfr : Frame locwA 133 134)
    {src dst : Memref sig .tc .vmem S2048x512 .f32} {hsrc : src.view.WordExact} {hdst : dst.view.WordExact} (hcr : dst.view.dmaCredit = NL)
    {α : Type} {Q : α → sProp 𝕄} {k : PUnit → Prog (TpuEff nD τ sig (Elt F) Λ₀ .tc) α} :
    iprop(records m K ∗ St m c 133 ∗ (St m c 134 -∗ WP c (k ⟨⟩) Q))
      ⊢ WP c (.op (.waitDma2 locS src dst hsrc hdst) k) Q := by
  iintro ⟨#Hrec, HSt, Hk⟩
  ihave HA := (acc_locw m c hfr) $$ HSt
  icases HA with ⟨⟨⟨Hat, Hcr⟩, -, -, ⟨%W, HO⟩⟩, Hclose⟩
  ihave #HI := (inv_dma m K c 130 (by decide) (by decide)) $$ Hrec
  -- the wait: the block's credit against the cell's one duty; nothing is owed any more
  iapply (Rounds.wp_wait_rest_token 𝒱₀ ER (sched m) (c : Thread nD τ) none (κ := K (c, ⟨130 - 1, by decide⟩)) (k' := NL)
      (fun K' => (wpE_waitDma2_eq 𝒱₀ (c : Thread nD τ) none Set.univ K').trans (by rw [hcr])) (Set.mem_univ _) ()
      (O := 0) (W := W) (R := 0) (m := 0) (T := ∅)
      (by rw [Nat.zero_add, expect_loc])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_loc m c)) $$ Hpay
  unfold locPay
  icases Hp with ⟨Hown, HxL⟩
  -- the cell closes
  imod (Rounds.cell_close ER (sched m) (Set.mem_univ (K (c, ⟨130 - 1, by decide⟩))) (fun h => h) (R := 0 + 1)
    (duties_later m (locCell c))) $$ [Hat] with Hz
  · isplitr; · iexact HI
    iexact Hat
  iapply Hk
  iapply Hclose
  isplitl [Hz]; · iexact Hz
  isplitl [Hown]; · iexact Hown
  isplitl [HxL]; · iexact HxL
  iexists _; iexact HO

/-- info: 'Cert.Kernel.AG.step_rw' depends on axioms: [propext, Classical.choice, Quot.sound] -/
#guard_msgs in #print axioms step_rw

/-- info: 'Cert.Kernel.AG.step_sw' depends on axioms: [propext, Classical.choice, Quot.sound] -/
#guard_msgs in #print axioms step_sw

/-- info: 'Cert.Kernel.AG.step_locw' depends on axioms: [propext, Classical.choice, Quot.sound] -/
#guard_msgs in #print axioms step_locw

end Cert.Kernel.AG

end
-- ==== Proof.K.PartsA.lean ====
/-
  The first forty memory operations of a device's body, part by part. The entry handshake (three signals, one to each
  neighbour, and the wait for the three neighbours' signals), the sixteen chunks of the device's own quarter and the
  first nine chunks of the diagonal quarter sent to the first-axis neighbour, the local copy of the device's block into
  its own half of the result, and the first three rounds of the relays: a chunk that has landed from the first-axis
  neighbour is waited for after the previous chunk has been sent on along the second and the third axis. Each part
  takes the device's state after the operations before it to its state after its own operations, one step at a time;
  the records of the cells' invariants are knowledge and pass through unchanged.
-/
import proofs.«900661_g7700000000000662_dist_ag_v7x_xyz2x2x2_x_m2048_n512_f32_1_alg».proof.Proof.K.StepsA
import proofs.«900661_g7700000000000662_dist_ag_v7x_xyz2x2x2_x_m2048_n512_f32_1_alg».proof.Proof.K.StepsB
import proofs.«900661_g7700000000000662_dist_ag_v7x_xyz2x2x2_x_m2048_n512_f32_1_alg».proof.Proof.K.StepsC

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

namespace PartsA

/-! ## The device every operation addresses is one of the three neighbours -/

theorem dev1_eq (c : Dev nD) : (⟨k0_dev1 c, k0_dev1_lt c⟩ : Dev nD) = peer 0 c := rfl
theorem dev2_eq (c : Dev nD) : (⟨k0_dev2 c, k0_dev2_lt c⟩ : Dev nD) = peer 1 c := rfl
theorem dev3_eq (c : Dev nD) : (⟨k0_dev3 c, k0_dev3_lt c⟩ : Dev nD) = peer 2 c := rfl
theorem dev4_eq (c : Dev nD) : (⟨k0_dev4 c, k0_dev4_lt c⟩ : Dev nD) = peer 0 c :=
  Fin.ext (by show k0_dev4 c = k0_dev1 c; rw [k0_dev4_eq, k0_dev1_eq])
theorem dev5_eq (c : Dev nD) : (⟨k0_dev5 c, k0_dev5_lt c⟩ : Dev nD) = peer 0 c :=
  Fin.ext (by show k0_dev5 c = k0_dev1 c; rw [k0_dev5_eq, k0_dev1_eq])
theorem dev6_eq (c : Dev nD) : (⟨k0_dev6 c, k0_dev6_lt c⟩ : Dev nD) = peer 0 c :=
  Fin.ext (by show k0_dev6 c = k0_dev1 c; rw [k0_dev6_eq, k0_dev1_eq])
theorem dev7_eq (c : Dev nD) : (⟨k0_dev7 c, k0_dev7_lt c⟩ : Dev nD) = peer 0 c :=
  Fin.ext (by show k0_dev7 c = k0_dev1 c; rw [k0_dev7_eq, k0_dev1_eq])
theorem dev8_eq (c : Dev nD) : (⟨k0_dev8 c, k0_dev8_lt c⟩ : Dev nD) = peer 0 c :=
  Fin.ext (by show k0_dev8 c = k0_dev1 c; rw [k0_dev8_eq, k0_dev1_eq])
theorem dev9_eq (c : Dev nD) : (⟨k0_dev9 c, k0_dev9_lt c⟩ : Dev nD) = peer 0 c :=
  Fin.ext (by show k0_dev9 c = k0_dev1 c; rw [k0_dev9_eq, k0_dev1_eq])
theorem dev10_eq (c : Dev nD) : (⟨k0_dev10 c, k0_dev10_lt c⟩ : Dev nD) = peer 0 c :=
  Fin.ext (by show k0_dev10 c = k0_dev1 c; rw [k0_dev10_eq, k0_dev1_eq])
theorem dev11_eq (c : Dev nD) : (⟨k0_dev11 c, k0_dev11_lt c⟩ : Dev nD) = peer 0 c :=
  Fin.ext (by show k0_dev11 c = k0_dev1 c; rw [k0_dev11_eq, k0_dev1_eq])
theorem dev12_eq (c : Dev nD) : (⟨k0_dev12 c, k0_dev12_lt c⟩ : Dev nD) = peer 0 c :=
  Fin.ext (by show k0_dev12 c = k0_dev1 c; rw [k0_dev12_eq, k0_dev1_eq])
theorem dev13_eq (c : Dev nD) : (⟨k0_dev13 c, k0_dev13_lt c⟩ : Dev nD) = peer 0 c :=
  Fin.ext (by show k0_dev13 c = k0_dev1 c; rw [k0_dev13_eq, k0_dev1_eq])
theorem dev14_eq (c : Dev nD) : (⟨k0_dev14 c, k0_dev14_lt c⟩ : Dev nD) = peer 0 c :=
  Fin.ext (by show k0_dev14 c = k0_dev1 c; rw [k0_dev14_eq, k0_dev1_eq])
theorem dev15_eq (c : Dev nD) : (⟨k0_dev15 c, k0_dev15_lt c⟩ : Dev nD) = peer 0 c :=
  Fin.ext (by show k0_dev15 c = k0_dev1 c; rw [k0_dev15_eq, k0_dev1_eq])
theorem dev16_eq (c : Dev nD) : (⟨k0_dev16 c, k0_dev16_lt c⟩ : Dev nD) = peer 0 c :=
  Fin.ext (by show k0_dev16 c = k0_dev1 c; rw [k0_dev16_eq, k0_dev1_eq])
theorem dev17_eq (c : Dev nD) : (⟨k0_dev17 c, k0_dev17_lt c⟩ : Dev nD) = peer 0 c :=
  Fin.ext (by show k0_dev17 c = k0_dev1 c; rw [k0_dev17_eq, k0_dev1_eq])
theorem dev18_eq (c : Dev nD) : (⟨k0_dev18 c, k0_dev18_lt c⟩ : Dev nD) = peer 0 c :=
  Fin.ext (by show k0_dev18 c = k0_dev1 c; rw [k0_dev18_eq, k0_dev1_eq])
theorem dev19_eq (c : Dev nD) : (⟨k0_dev19 c, k0_dev19_lt c⟩ : Dev nD) = peer 0 c :=
  Fin.ext (by show k0_dev19 c = k0_dev1 c; rw [k0_dev19_eq, k0_dev1_eq])
theorem dev20_eq (c : Dev nD) : (⟨k0_dev20 c, k0_dev20_lt c⟩ : Dev nD) = peer 0 c :=
  Fin.ext (by show k0_dev20 c = k0_dev1 c; rw [k0_dev20_eq, k0_dev1_eq])
theorem dev21_eq (c : Dev nD) : (⟨k0_dev21 c, k0_dev21_lt c⟩ : Dev nD) = peer 0 c :=
  Fin.ext (by show k0_dev21 c = k0_dev1 c; rw [k0_dev21_eq, k0_dev1_eq])
theorem dev22_eq (c : Dev nD) : (⟨k0_dev22 c, k0_dev22_lt c⟩ : Dev nD) = peer 0 c :=
  Fin.ext (by show k0_dev22 c = k0_dev1 c; rw [k0_dev22_eq, k0_dev1_eq])
theorem dev23_eq (c : Dev nD) : (⟨k0_dev23 c, k0_dev23_lt c⟩ : Dev nD) = peer 0 c :=
  Fin.ext (by show k0_dev23 c = k0_dev1 c; rw [k0_dev23_eq, k0_dev1_eq])
theorem dev24_eq (c : Dev nD) : (⟨k0_dev24 c, k0_dev24_lt c⟩ : Dev nD) = peer 0 c :=
  Fin.ext (by show k0_dev24 c = k0_dev1 c; rw [k0_dev24_eq, k0_dev1_eq])
theorem dev25_eq (c : Dev nD) : (⟨k0_dev25 c, k0_dev25_lt c⟩ : Dev nD) = peer 0 c :=
  Fin.ext (by show k0_dev25 c = k0_dev1 c; rw [k0_dev25_eq, k0_dev1_eq])
theorem dev26_eq (c : Dev nD) : (⟨k0_dev26 c, k0_dev26_lt c⟩ : Dev nD) = peer 0 c :=
  Fin.ext (by show k0_dev26 c = k0_dev1 c; rw [k0_dev26_eq, k0_dev1_eq])
theorem dev27_eq (c : Dev nD) : (⟨k0_dev27 c, k0_dev27_lt c⟩ : Dev nD) = peer 0 c :=
  Fin.ext (by show k0_dev27 c = k0_dev1 c; rw [k0_dev27_eq, k0_dev1_eq])
theorem dev28_eq (c : Dev nD) : (⟨k0_dev28 c, k0_dev28_lt c⟩ : Dev nD) = peer 0 c :=
  Fin.ext (by show k0_dev28 c = k0_dev1 c; rw [k0_dev28_eq, k0_dev1_eq])
theorem dev29_eq (c : Dev nD) : (⟨k0_dev29 c, k0_dev29_lt c⟩ : Dev nD) = peer 1 c :=
  Fin.ext (by show k0_dev29 c = k0_dev2 c; rw [k0_dev29_eq, k0_dev2_eq])
theorem dev30_eq (c : Dev nD) : (⟨k0_dev30 c, k0_dev30_lt c⟩ : Dev nD) = peer 2 c :=
  Fin.ext (by show k0_dev30 c = k0_dev3 c; rw [k0_dev30_eq, k0_dev3_eq])
theorem dev31_eq (c : Dev nD) : (⟨k0_dev31 c, k0_dev31_lt c⟩ : Dev nD) = peer 1 c :=
  Fin.ext (by show k0_dev31 c = k0_dev2 c; rw [k0_dev31_eq, k0_dev2_eq])
theorem dev32_eq (c : Dev nD) : (⟨k0_dev32 c, k0_dev32_lt c⟩ : Dev nD) = peer 2 c :=
  Fin.ext (by show k0_dev32 c = k0_dev3 c; rw [k0_dev32_eq, k0_dev3_eq])
theorem dev33_eq (c : Dev nD) : (⟨k0_dev33 c, k0_dev33_lt c⟩ : Dev nD) = peer 1 c :=
  Fin.ext (by show k0_dev33 c = k0_dev2 c; rw [k0_dev33_eq, k0_dev2_eq])
theorem dev34_eq (c : Dev nD) : (⟨k0_dev34 c, k0_dev34_lt c⟩ : Dev nD) = peer 2 c :=
  Fin.ext (by show k0_dev34 c = k0_dev3 c; rw [k0_dev34_eq, k0_dev3_eq])

/-- A chunk landing from the first-axis neighbour pays its landing cell the credit of a 32-row copy. -/
theorem credit_xaDst (c : Dev nD) (k : Fin 16) : (xaDst c k).view.dmaCredit = NC := rfl

end PartsA

set_option hygiene false in
/-- One operation: its step, with the records and the state handed over and the new state taken back. -/
local macro "step " t:pmTerm : tactic =>
  `(tactic| (iapply $t; isplitr; (iexact HR); isplitl [HSt]; (iexact HSt); iintro HSt))

/-- Operations 1 to 5 of the body. -/
theorem part2 (c : Dev nD) (v2 v5 v8 v9 v10 v11 v13 v24 : BitVec 32) :
    iprop(records m K ∗ St m c 0) ⊢ WP c (k0_part2 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v24 (SemArray.scalar (sig.barrier 0 rfl))) (fun _ => iprop(records m K ∗ St m c 5)) := by
  rw [k0_part2_eq_skeleton]; unfold k0_part2_skel
  simp only [semSignalWord, semWaitWord, Prog.lift, Prog.bind_op, Prog.bind_ret, Prog.pure_eq_ret]
  iintro ⟨#HR, HSt⟩
  step (step_signal m K c 0 0 rfl _ (PartsA.dev1_eq c) _ rfl (by decide +kernel))
  step (step_signal m K c 1 1 rfl _ (PartsA.dev2_eq c) _ rfl (by decide +kernel))
  step (step_signal m K c 2 2 rfl _ (PartsA.dev3_eq c) _ rfl (by decide +kernel))
  step (step_barwait m K c _ rfl (by decide +kernel))
  step (step_send m K c (.xa 0) 4 rfl _ (PartsA.dev4_eq c) (by decide +kernel))
  unfold WP; rw [wp_ret]; imodintro
  isplitr
  · iexact HR
  iexact HSt

/-- Operations 6 to 7 of the body. -/
theorem part3 (c : Dev nD) (v5 v8 v9 v13 v24 : BitVec 32) :
    iprop(records m K ∗ St m c 5) ⊢ WP c (k0_part3 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24) (fun _ => iprop(records m K ∗ St m c 7)) := by
  rw [k0_part3_eq_skeleton]; unfold k0_part3_skel
  simp only [Prog.lift, Prog.bind_op, Prog.bind_ret, Prog.pure_eq_ret]
  iintro ⟨#HR, HSt⟩
  step (step_send m K c (.xa 1) 5 rfl _ (PartsA.dev5_eq c) (by decide +kernel))
  step (step_send m K c (.xa 2) 6 rfl _ (PartsA.dev6_eq c) (by decide +kernel))
  unfold WP; rw [wp_ret]; imodintro
  isplitr
  · iexact HR
  iexact HSt

/-- Operations 8 to 9 of the body. -/
theorem part4 (c : Dev nD) (v5 v8 v9 v13 v24 v97 : BitVec 32) :
    iprop(records m K ∗ St m c 7) ⊢ WP c (k0_part4 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24 v97) (fun _ => iprop(records m K ∗ St m c 9)) := by
  rw [k0_part4_eq_skeleton]; unfold k0_part4_skel
  simp only [Prog.lift, Prog.bind_op, Prog.bind_ret, Prog.pure_eq_ret]
  iintro ⟨#HR, HSt⟩
  step (step_send m K c (.xa 3) 7 rfl _ (PartsA.dev7_eq c) (by decide +kernel))
  step (step_send m K c (.xa 4) 8 rfl _ (PartsA.dev8_eq c) (by decide +kernel))
  unfold WP; rw [wp_ret]; imodintro
  isplitr
  · iexact HR
  iexact HSt

/-- Operations 10 to 12 of the body. -/
theorem part5 (c : Dev nD) (v5 v8 v9 v13 v24 : BitVec 32) :
    iprop(records m K ∗ St m c 9) ⊢ WP c (k0_part5 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24) (fun _ => iprop(records m K ∗ St m c 12)) := by
  rw [k0_part5_eq_skeleton]; unfold k0_part5_skel
  simp only [Prog.lift, Prog.bind_op, Prog.bind_ret, Prog.pure_eq_ret]
  iintro ⟨#HR, HSt⟩
  step (step_send m K c (.xa 5) 9 rfl _ (PartsA.dev9_eq c) (by decide +kernel))
  step (step_send m K c (.xa 6) 10 rfl _ (PartsA.dev10_eq c) (by decide +kernel))
  step (step_send m K c (.xa 7) 11 rfl _ (PartsA.dev11_eq c) (by decide +kernel))
  unfold WP; rw [wp_ret]; imodintro
  isplitr
  · iexact HR
  iexact HSt

/-- Operations 13 to 14 of the body. -/
theorem part6 (c : Dev nD) (v5 v8 v9 v13 v24 v167 : BitVec 32) :
    iprop(records m K ∗ St m c 12) ⊢ WP c (k0_part6 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24 v167) (fun _ => iprop(records m K ∗ St m c 14)) := by
  rw [k0_part6_eq_skeleton]; unfold k0_part6_skel
  simp only [Prog.lift, Prog.bind_op, Prog.bind_ret, Prog.pure_eq_ret]
  iintro ⟨#HR, HSt⟩
  step (step_send m K c (.xa 8) 12 rfl _ (PartsA.dev12_eq c) (by decide +kernel))
  step (step_send m K c (.xa 9) 13 rfl _ (PartsA.dev13_eq c) (by decide +kernel))
  unfold WP; rw [wp_ret]; imodintro
  isplitr
  · iexact HR
  iexact HSt

/-- Operations 15 to 16 of the body. -/
theorem part7 (c : Dev nD) (v5 v8 v9 v13 v24 v200 c2_i32_119 : BitVec 32) :
    iprop(records m K ∗ St m c 14) ⊢ WP c (k0_part7 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24 v200 c2_i32_119) (fun _ => iprop(records m K ∗ St m c 16)) := by
  rw [k0_part7_eq_skeleton]; unfold k0_part7_skel
  simp only [Prog.lift, Prog.bind_op, Prog.bind_ret, Prog.pure_eq_ret]
  iintro ⟨#HR, HSt⟩
  step (step_send m K c (.xa 10) 14 rfl _ (PartsA.dev14_eq c) (by decide +kernel))
  step (step_send m K c (.xa 11) 15 rfl _ (PartsA.dev15_eq c) (by decide +kernel))
  unfold WP; rw [wp_ret]; imodintro
  isplitr
  · iexact HR
  iexact HSt

/-- Operations 17 to 19 of the body. -/
theorem part8 (c : Dev nD) (v5 v8 v9 v13 v24 : BitVec 32) :
    iprop(records m K ∗ St m c 16) ⊢ WP c (k0_part8 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v13 v24) (fun _ => iprop(records m K ∗ St m c 19)) := by
  rw [k0_part8_eq_skeleton]; unfold k0_part8_skel
  simp only [Prog.lift, Prog.bind_op, Prog.bind_ret, Prog.pure_eq_ret]
  iintro ⟨#HR, HSt⟩
  step (step_send m K c (.xa 12) 16 rfl _ (PartsA.dev16_eq c) (by decide +kernel))
  step (step_send m K c (.xa 13) 17 rfl _ (PartsA.dev17_eq c) (by decide +kernel))
  step (step_send m K c (.xa 14) 18 rfl _ (PartsA.dev18_eq c) (by decide +kernel))
  unfold WP; rw [wp_ret]; imodintro
  isplitr
  · iexact HR
  iexact HSt

/-- Operations 20 to 21 of the body. -/
theorem part9 (c : Dev nD) (v5 v8 v9 v23 v24 v271 : BitVec 32) :
    iprop(records m K ∗ St m c 19) ⊢ WP c (k0_part9 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v23 v24 v271) (fun _ => iprop(records m K ∗ St m c 21)) := by
  rw [k0_part9_eq_skeleton]; unfold k0_part9_skel
  simp only [Prog.lift, Prog.bind_op, Prog.bind_ret, Prog.pure_eq_ret]
  iintro ⟨#HR, HSt⟩
  step (step_send m K c (.xa 15) 19 rfl _ (PartsA.dev19_eq c) (by decide +kernel))
  step (step_send m K c (.xb 0) 20 rfl _ (PartsA.dev20_eq c) (by decide +kernel))
  unfold WP; rw [wp_ret]; imodintro
  isplitr
  · iexact HR
  iexact HSt

/-- Operations 22 to 23 of the body. -/
theorem part10 (c : Dev nD) (v5 v8 v9 v23 v24 v304 c0_i32_176 : BitVec 32) :
    iprop(records m K ∗ St m c 21) ⊢ WP c (k0_part10 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v23 v24 v304 c0_i32_176) (fun _ => iprop(records m K ∗ St m c 23)) := by
  rw [k0_part10_eq_skeleton]; unfold k0_part10_skel
  simp only [Prog.lift, Prog.bind_op, Prog.bind_ret, Prog.pure_eq_ret]
  iintro ⟨#HR, HSt⟩
  step (step_send m K c (.xb 1) 21 rfl _ (PartsA.dev21_eq c) (by decide +kernel))
  step (step_send m K c (.xb 2) 22 rfl _ (PartsA.dev22_eq c) (by decide +kernel))
  unfold WP; rw [wp_ret]; imodintro
  isplitr
  · iexact HR
  iexact HSt

/-- Operations 24 to 26 of the body. -/
theorem part11 (c : Dev nD) (v5 v8 v9 v23 v24 : BitVec 32) :
    iprop(records m K ∗ St m c 23) ⊢ WP c (k0_part11 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v23 v24) (fun _ => iprop(records m K ∗ St m c 26)) := by
  rw [k0_part11_eq_skeleton]; unfold k0_part11_skel
  simp only [Prog.lift, Prog.bind_op, Prog.bind_ret, Prog.pure_eq_ret]
  iintro ⟨#HR, HSt⟩
  step (step_send m K c (.xb 3) 23 rfl _ (PartsA.dev23_eq c) (by decide +kernel))
  step (step_send m K c (.xb 4) 24 rfl _ (PartsA.dev24_eq c) (by decide +kernel))
  step (step_send m K c (.xb 5) 25 rfl _ (PartsA.dev25_eq c) (by decide +kernel))
  unfold WP; rw [wp_ret]; imodintro
  isplitr
  · iexact HR
  iexact HSt

/-- Operations 27 to 28 of the body. -/
theorem part12 (c : Dev nD) (v5 v8 v9 v23 v24 : BitVec 32) :
    iprop(records m K ∗ St m c 26) ⊢ WP c (k0_part12 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9 v23 v24) (fun _ => iprop(records m K ∗ St m c 28)) := by
  rw [k0_part12_eq_skeleton]; unfold k0_part12_skel
  simp only [Prog.lift, Prog.bind_op, Prog.bind_ret, Prog.pure_eq_ret]
  iintro ⟨#HR, HSt⟩
  step (step_send m K c (.xb 6) 26 rfl _ (PartsA.dev26_eq c) (by decide +kernel))
  step (step_send m K c (.xb 7) 27 rfl _ (PartsA.dev27_eq c) (by decide +kernel))
  unfold WP; rw [wp_ret]; imodintro
  isplitr
  · iexact HR
  iexact HSt

/-- Operations 29 to 31 of the body. -/
theorem part13 (c : Dev nD) (v2 v5 v8 v9 v10 v13 v26 c4_i32_238 : BitVec 32) :
    iprop(records m K ∗ St m c 28) ⊢ WP c (k0_part13 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v13 v26 c4_i32_238) (fun _ => iprop(records m K ∗ St m c 31)) := by
  rw [k0_part13_eq_skeleton]; unfold k0_part13_skel
  simp only [Prog.lift, Prog.bind_op, Prog.bind_ret, Prog.pure_eq_ret]
  iintro ⟨#HR, HSt⟩
  step (step_send m K c (.xb 8) 28 rfl _ (PartsA.dev28_eq c) (by decide +kernel))
  step (step_loc m K c (by decide +kernel))
  step (step_rw m K c (.xa 0) 30 rfl (by decide +kernel) (PartsA.credit_xaDst c 0))
  unfold WP; rw [wp_ret]; imodintro
  isplitr
  · iexact HR
  iexact HSt

/-- Operations 32 to 34 of the body. -/
theorem part14 (c : Dev nD) (v2 v5 v8 v9 v10 v11 v13 v26 : BitVec 32) :
    iprop(records m K ∗ St m c 31) ⊢ WP c (k0_part14 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 34)) := by
  rw [k0_part14_eq_skeleton]; unfold k0_part14_skel
  simp only [Prog.lift, Prog.bind_op, Prog.bind_ret, Prog.pure_eq_ret]
  iintro ⟨#HR, HSt⟩
  step (step_send m K c (.yf 0) 31 rfl _ (PartsA.dev29_eq c) (by decide +kernel))
  step (step_send m K c (.zf 0) 32 rfl _ (PartsA.dev30_eq c) (by decide +kernel))
  step (step_rw m K c (.xa 1) 33 rfl (by decide +kernel) (PartsA.credit_xaDst c 1))
  unfold WP; rw [wp_ret]; imodintro
  isplitr
  · iexact HR
  iexact HSt

/-- Operations 35 to 37 of the body. -/
theorem part15 (c : Dev nD) (v2 v5 v8 v9 v11 v13 v26 v475 : BitVec 32) :
    iprop(records m K ∗ St m c 34) ⊢ WP c (k0_part15 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v11 v13 v26 v475) (fun _ => iprop(records m K ∗ St m c 37)) := by
  rw [k0_part15_eq_skeleton]; unfold k0_part15_skel
  simp only [Prog.lift, Prog.bind_op, Prog.bind_ret, Prog.pure_eq_ret]
  iintro ⟨#HR, HSt⟩
  step (step_send m K c (.yf 1) 34 rfl _ (PartsA.dev31_eq c) (by decide +kernel))
  step (step_send m K c (.zf 1) 35 rfl _ (PartsA.dev32_eq c) (by decide +kernel))
  step (step_rw m K c (.xa 2) 36 rfl (by decide +kernel) (PartsA.credit_xaDst c 2))
  unfold WP; rw [wp_ret]; imodintro
  isplitr
  · iexact HR
  iexact HSt

/-- Operations 38 to 40 of the body. -/
theorem part16 (c : Dev nD) (v2 v5 v8 v9 v10 v11 v13 c4_i32_309 : BitVec 32) :
    iprop(records m K ∗ St m c 37) ⊢ WP c (k0_part16 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 c4_i32_309) (fun _ => iprop(records m K ∗ St m c 40)) := by
  rw [k0_part16_eq_skeleton]; unfold k0_part16_skel
  simp only [Prog.lift, Prog.bind_op, Prog.bind_ret, Prog.pure_eq_ret]
  iintro ⟨#HR, HSt⟩
  step (step_send m K c (.yf 2) 37 rfl _ (PartsA.dev33_eq c) (by decide +kernel))
  step (step_send m K c (.zf 2) 38 rfl _ (PartsA.dev34_eq c) (by decide +kernel))
  step (step_rw m K c (.xa 3) 39 rfl (by decide +kernel) (PartsA.credit_xaDst c 3))
  unfold WP; rw [wp_ret]; imodintro
  isplitr
  · iexact HR
  iexact HSt

/-- info: 'Cert.Kernel.AG.part2' depends on axioms: [propext, Classical.choice, Quot.sound] -/
#guard_msgs in #print axioms part2

/-- info: 'Cert.Kernel.AG.part3' depends on axioms: [propext, Classical.choice, Quot.sound] -/
#guard_msgs in #print axioms part3

/-- info: 'Cert.Kernel.AG.part4' depends on axioms: [propext, Classical.choice, Quot.sound] -/
#guard_msgs in #print axioms part4

/-- info: 'Cert.Kernel.AG.part5' depends on axioms: [propext, Classical.choice, Quot.sound] -/
#guard_msgs in #print axioms part5

/-- info: 'Cert.Kernel.AG.part6' depends on axioms: [propext, Classical.choice, Quot.sound] -/
#guard_msgs in #print axioms part6

/-- info: 'Cert.Kernel.AG.part7' depends on axioms: [propext, Classical.choice, Quot.sound] -/
#guard_msgs in #print axioms part7

/-- info: 'Cert.Kernel.AG.part8' depends on axioms: [propext, Classical.choice, Quot.sound] -/
#guard_msgs in #print axioms part8

/-- info: 'Cert.Kernel.AG.part9' depends on axioms: [propext, Classical.choice, Quot.sound] -/
#guard_msgs in #print axioms part9

/-- info: 'Cert.Kernel.AG.part10' depends on axioms: [propext, Classical.choice, Quot.sound] -/
#guard_msgs in #print axioms part10

/-- info: 'Cert.Kernel.AG.part11' depends on axioms: [propext, Classical.choice, Quot.sound] -/
#guard_msgs in #print axioms part11

/-- info: 'Cert.Kernel.AG.part12' depends on axioms: [propext, Classical.choice, Quot.sound] -/
#guard_msgs in #print axioms part12

/-- info: 'Cert.Kernel.AG.part13' depends on axioms: [propext, Classical.choice, Quot.sound] -/
#guard_msgs in #print axioms part13

/-- info: 'Cert.Kernel.AG.part14' depends on axioms: [propext, Classical.choice, Quot.sound] -/
#guard_msgs in #print axioms part14

/-- info: 'Cert.Kernel.AG.part15' depends on axioms: [propext, Classical.choice, Quot.sound] -/
#guard_msgs in #print axioms part15

/-- info: 'Cert.Kernel.AG.part16' depends on axioms: [propext, Classical.choice, Quot.sound] -/
#guard_msgs in #print axioms part16

end Cert.Kernel.AG

end
-- ==== Proof.K.PartsB.lean ====
/-
  The middle stretch of a device's body: its 41st to 78th memory operation, from the state after 40 operations to
  the state after 78. Rows that have landed from the neighbour along the
  first axis are relayed on to the neighbours along the second and the third axis (the copies yf k and zf k, for
  k = 3, …, 15), and between these relays the device waits for the landings of the copies xa 4, …, xa 15 addressed
  to it. Each part of the body is two or three such operations. Every operation moves the device's state on by one,
  by the step lemma of its kind; the records of the protocol cells are knowledge and are carried along unchanged, so
  that the parts chain: the state a part ends in is the state the next part starts from.
-/
import proofs.«900661_g7700000000000662_dist_ag_v7x_xyz2x2x2_x_m2048_n512_f32_1_alg».proof.Proof.K.StepsA
import proofs.«900661_g7700000000000662_dist_ag_v7x_xyz2x2x2_x_m2048_n512_f32_1_alg».proof.Proof.K.StepsB
import proofs.«900661_g7700000000000662_dist_ag_v7x_xyz2x2x2_x_m2048_n512_f32_1_alg».proof.Proof.K.StepsC

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

namespace PartsB

/-! ## The addressees

  The device a relay is addressed to is computed by the program afresh at every copy; each of these computations
  gives the neighbour along the second axis (for a copy yf k) or along the third axis (for a copy zf k). -/

theorem dev35_eq (c : Dev nD) : (⟨k0_dev35 c, k0_dev35_lt c⟩ : Dev nD) = peer 1 c :=
  Fin.ext (by show k0_dev35 c = k0_dev2 c; rw [k0_dev35_eq, k0_dev2_eq])
theorem dev36_eq (c : Dev nD) : (⟨k0_dev36 c, k0_dev36_lt c⟩ : Dev nD) = peer 2 c :=
  Fin.ext (by show k0_dev36 c = k0_dev3 c; rw [k0_dev36_eq, k0_dev3_eq])
theorem dev37_eq (c : Dev nD) : (⟨k0_dev37 c, k0_dev37_lt c⟩ : Dev nD) = peer 1 c :=
  Fin.ext (by show k0_dev37 c = k0_dev2 c; rw [k0_dev37_eq, k0_dev2_eq])
theorem dev38_eq (c : Dev nD) : (⟨k0_dev38 c, k0_dev38_lt c⟩ : Dev nD) = peer 2 c :=
  Fin.ext (by show k0_dev38 c = k0_dev3 c; rw [k0_dev38_eq, k0_dev3_eq])
theorem dev39_eq (c : Dev nD) : (⟨k0_dev39 c, k0_dev39_lt c⟩ : Dev nD) = peer 1 c :=
  Fin.ext (by show k0_dev39 c = k0_dev2 c; rw [k0_dev39_eq, k0_dev2_eq])
theorem dev40_eq (c : Dev nD) : (⟨k0_dev40 c, k0_dev40_lt c⟩ : Dev nD) = peer 2 c :=
  Fin.ext (by show k0_dev40 c = k0_dev3 c; rw [k0_dev40_eq, k0_dev3_eq])
theorem dev41_eq (c : Dev nD) : (⟨k0_dev41 c, k0_dev41_lt c⟩ : Dev nD) = peer 1 c :=
  Fin.ext (by show k0_dev41 c = k0_dev2 c; rw [k0_dev41_eq, k0_dev2_eq])
theorem dev42_eq (c : Dev nD) : (⟨k0_dev42 c, k0_dev42_lt c⟩ : Dev nD) = peer 2 c :=
  Fin.ext (by show k0_dev42 c = k0_dev3 c; rw [k0_dev42_eq, k0_dev3_eq])
theorem dev43_eq (c : Dev nD) : (⟨k0_dev43 c, k0_dev43_lt c⟩ : Dev nD) = peer 1 c :=
  Fin.ext (by show k0_dev43 c = k0_dev2 c; rw [k0_dev43_eq, k0_dev2_eq])
theorem dev44_eq (c : Dev nD) : (⟨k0_dev44 c, k0_dev44_lt c⟩ : Dev nD) = peer 2 c :=
  Fin.ext (by show k0_dev44 c = k0_dev3 c; rw [k0_dev44_eq, k0_dev3_eq])
theorem dev45_eq (c : Dev nD) : (⟨k0_dev45 c, k0_dev45_lt c⟩ : Dev nD) = peer 1 c :=
  Fin.ext (by show k0_dev45 c = k0_dev2 c; rw [k0_dev45_eq, k0_dev2_eq])
theorem dev46_eq (c : Dev nD) : (⟨k0_dev46 c, k0_dev46_lt c⟩ : Dev nD) = peer 2 c :=
  Fin.ext (by show k0_dev46 c = k0_dev3 c; rw [k0_dev46_eq, k0_dev3_eq])
theorem dev47_eq (c : Dev nD) : (⟨k0_dev47 c, k0_dev47_lt c⟩ : Dev nD) = peer 1 c :=
  Fin.ext (by show k0_dev47 c = k0_dev2 c; rw [k0_dev47_eq, k0_dev2_eq])
theorem dev48_eq (c : Dev nD) : (⟨k0_dev48 c, k0_dev48_lt c⟩ : Dev nD) = peer 2 c :=
  Fin.ext (by show k0_dev48 c = k0_dev3 c; rw [k0_dev48_eq, k0_dev3_eq])
theorem dev49_eq (c : Dev nD) : (⟨k0_dev49 c, k0_dev49_lt c⟩ : Dev nD) = peer 1 c :=
  Fin.ext (by show k0_dev49 c = k0_dev2 c; rw [k0_dev49_eq, k0_dev2_eq])
theorem dev50_eq (c : Dev nD) : (⟨k0_dev50 c, k0_dev50_lt c⟩ : Dev nD) = peer 2 c :=
  Fin.ext (by show k0_dev50 c = k0_dev3 c; rw [k0_dev50_eq, k0_dev3_eq])
theorem dev51_eq (c : Dev nD) : (⟨k0_dev51 c, k0_dev51_lt c⟩ : Dev nD) = peer 1 c :=
  Fin.ext (by show k0_dev51 c = k0_dev2 c; rw [k0_dev51_eq, k0_dev2_eq])
theorem dev52_eq (c : Dev nD) : (⟨k0_dev52 c, k0_dev52_lt c⟩ : Dev nD) = peer 2 c :=
  Fin.ext (by show k0_dev52 c = k0_dev3 c; rw [k0_dev52_eq, k0_dev3_eq])
theorem dev53_eq (c : Dev nD) : (⟨k0_dev53 c, k0_dev53_lt c⟩ : Dev nD) = peer 1 c :=
  Fin.ext (by show k0_dev53 c = k0_dev2 c; rw [k0_dev53_eq, k0_dev2_eq])
theorem dev54_eq (c : Dev nD) : (⟨k0_dev54 c, k0_dev54_lt c⟩ : Dev nD) = peer 2 c :=
  Fin.ext (by show k0_dev54 c = k0_dev3 c; rw [k0_dev54_eq, k0_dev3_eq])
theorem dev55_eq (c : Dev nD) : (⟨k0_dev55 c, k0_dev55_lt c⟩ : Dev nD) = peer 1 c :=
  Fin.ext (by show k0_dev55 c = k0_dev2 c; rw [k0_dev55_eq, k0_dev2_eq])
theorem dev56_eq (c : Dev nD) : (⟨k0_dev56 c, k0_dev56_lt c⟩ : Dev nD) = peer 2 c :=
  Fin.ext (by show k0_dev56 c = k0_dev3 c; rw [k0_dev56_eq, k0_dev3_eq])
theorem dev57_eq (c : Dev nD) : (⟨k0_dev57 c, k0_dev57_lt c⟩ : Dev nD) = peer 1 c :=
  Fin.ext (by show k0_dev57 c = k0_dev2 c; rw [k0_dev57_eq, k0_dev2_eq])
theorem dev58_eq (c : Dev nD) : (⟨k0_dev58 c, k0_dev58_lt c⟩ : Dev nD) = peer 2 c :=
  Fin.ext (by show k0_dev58 c = k0_dev3 c; rw [k0_dev58_eq, k0_dev3_eq])
theorem dev59_eq (c : Dev nD) : (⟨k0_dev59 c, k0_dev59_lt c⟩ : Dev nD) = peer 1 c :=
  Fin.ext (by show k0_dev59 c = k0_dev2 c; rw [k0_dev59_eq, k0_dev2_eq])
theorem dev60_eq (c : Dev nD) : (⟨k0_dev60 c, k0_dev60_lt c⟩ : Dev nD) = peer 2 c :=
  Fin.ext (by show k0_dev60 c = k0_dev3 c; rw [k0_dev60_eq, k0_dev3_eq])

end PartsB

/-! ## The parts

  In every proof below the records are the persistent hypothesis HR and the device's state is the hypothesis HSt.
  One operation: apply its step lemma, give it the records and the state, and take the state after the operation
  back under the same name. -/

set_option hygiene false

local macro "stepB " t:pmTerm : tactic =>
  `(tactic| (
      iapply $t
      isplitr
      · iexact HR
      isplitl [HSt]
      · iexact HSt
      iintro HSt))

-- A part's last line returns a value the state does not depend on: the records and the state are what is left.
local macro "closeB" : tactic =>
  `(tactic| (
      unfold WP
      rw [wp_ret]
      imodintro
      isplitr
      · iexact HR
      iexact HSt))

set_option hygiene true

/-- Operations 41, 42: the relays of the fourth landed slice. -/
theorem part17 (c : Dev nD) (v2 v5 v8 v9 v10 v11 v26 v543 : BitVec 32) :
    iprop(records m K ∗ St m c 40)
      ⊢ WP c (k0_part17 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v26 v543) (fun _ => iprop(records m K ∗ St m c 42)) := by
  rw [k0_part17_eq_skeleton]; unfold k0_part17_skel
  simp only [Prog.lift, Prog.bind_op, Prog.bind_ret, Prog.pure_eq_ret]
  iintro ⟨#HR, HSt⟩
  stepB (step_send m K c (.yf 3) 40 rfl _ (PartsB.dev35_eq c) (by decide))
  stepB (step_send m K c (.zf 3) 41 rfl _ (PartsB.dev36_eq c) (by decide))
  closeB

/-- Operations 43 to 45: the landing of xa 4, then its relays. -/
theorem part18 (c : Dev nD) (v2 v5 v8 v9 v10 v11 v13 v26 : BitVec 32) :
    iprop(records m K ∗ St m c 42)
      ⊢ WP c (k0_part18 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 45)) := by
  rw [k0_part18_eq_skeleton]; unfold k0_part18_skel
  simp only [Prog.lift, Prog.bind_op, Prog.bind_ret, Prog.pure_eq_ret]
  iintro ⟨#HR, HSt⟩
  stepB (step_rw m K c (.xa 4) 42 rfl (by decide) (by rfl))
  stepB (step_send m K c (.yf 4) 43 rfl _ (PartsB.dev37_eq c) (by decide))
  stepB (step_send m K c (.zf 4) 44 rfl _ (PartsB.dev38_eq c) (by decide))
  closeB

/-- Operations 46 to 48: the landing of xa 5, then its relays. -/
theorem part19 (c : Dev nD) (v2 v5 v8 v10 v11 v13 v26 v610 : BitVec 32) :
    iprop(records m K ∗ St m c 45)
      ⊢ WP c (k0_part19 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v13 v26 v610) (fun _ => iprop(records m K ∗ St m c 48)) := by
  rw [k0_part19_eq_skeleton]; unfold k0_part19_skel
  simp only [Prog.lift, Prog.bind_op, Prog.bind_ret, Prog.pure_eq_ret]
  iintro ⟨#HR, HSt⟩
  stepB (step_rw m K c (.xa 5) 45 rfl (by decide) (by rfl))
  stepB (step_send m K c (.yf 5) 46 rfl _ (PartsB.dev39_eq c) (by decide))
  stepB (step_send m K c (.zf 5) 47 rfl _ (PartsB.dev40_eq c) (by decide))
  closeB

/-- Operations 49, 50: the landing of xa 6, then its relay along the second axis. -/
theorem part20 (c : Dev nD) (v2 v5 v8 v9 v10 v11 v13 v26 c4_i32_403 : BitVec 32) :
    iprop(records m K ∗ St m c 48)
      ⊢ WP c (k0_part20 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26 c4_i32_403) (fun _ => iprop(records m K ∗ St m c 50)) := by
  rw [k0_part20_eq_skeleton]; unfold k0_part20_skel
  simp only [Prog.lift, Prog.bind_op, Prog.bind_ret, Prog.pure_eq_ret]
  iintro ⟨#HR, HSt⟩
  stepB (step_rw m K c (.xa 6) 48 rfl (by decide) (by rfl))
  stepB (step_send m K c (.yf 6) 49 rfl _ (PartsB.dev41_eq c) (by decide))
  closeB

/-- Operations 51 to 53: the relay of the slice of xa 6 along the third axis, the landing of xa 7, its relay along the second axis. -/
theorem part21 (c : Dev nD) (v2 v5 v8 v9 v10 v11 v13 v26 : BitVec 32) :
    iprop(records m K ∗ St m c 50)
      ⊢ WP c (k0_part21 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 53)) := by
  rw [k0_part21_eq_skeleton]; unfold k0_part21_skel
  simp only [Prog.lift, Prog.bind_op, Prog.bind_ret, Prog.pure_eq_ret]
  iintro ⟨#HR, HSt⟩
  stepB (step_send m K c (.zf 6) 50 rfl _ (PartsB.dev42_eq c) (by decide))
  stepB (step_rw m K c (.xa 7) 51 rfl (by decide) (by rfl))
  stepB (step_send m K c (.yf 7) 52 rfl _ (PartsB.dev43_eq c) (by decide))
  closeB

/-- Operations 54 to 56: the relay of the slice of xa 7 along the third axis, the landing of xa 8, its relay along the second axis. -/
theorem part22 (c : Dev nD) (v2 v5 v8 v9 v10 v13 v26 : BitVec 32) :
    iprop(records m K ∗ St m c 53)
      ⊢ WP c (k0_part22 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v13 v26) (fun _ => iprop(records m K ∗ St m c 56)) := by
  rw [k0_part22_eq_skeleton]; unfold k0_part22_skel
  simp only [Prog.lift, Prog.bind_op, Prog.bind_ret, Prog.pure_eq_ret]
  iintro ⟨#HR, HSt⟩
  stepB (step_send m K c (.zf 7) 53 rfl _ (PartsB.dev44_eq c) (by decide))
  stepB (step_rw m K c (.xa 8) 54 rfl (by decide) (by rfl))
  stepB (step_send m K c (.yf 8) 55 rfl _ (PartsB.dev45_eq c) (by decide))
  closeB

/-- Operations 57 to 59: the relay of the slice of xa 8 along the third axis, the landing of xa 9, its relay along the second axis. -/
theorem part23 (c : Dev nD) (v2 v5 v8 v9 v10 v11 v13 v26 v744 : BitVec 32) :
    iprop(records m K ∗ St m c 56)
      ⊢ WP c (k0_part23 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26 v744) (fun _ => iprop(records m K ∗ St m c 59)) := by
  rw [k0_part23_eq_skeleton]; unfold k0_part23_skel
  simp only [Prog.lift, Prog.bind_op, Prog.bind_ret, Prog.pure_eq_ret]
  iintro ⟨#HR, HSt⟩
  stepB (step_send m K c (.zf 8) 56 rfl _ (PartsB.dev46_eq c) (by decide))
  stepB (step_rw m K c (.xa 9) 57 rfl (by decide) (by rfl))
  stepB (step_send m K c (.yf 9) 58 rfl _ (PartsB.dev47_eq c) (by decide))
  closeB

/-- Operations 60, 61: the relay of the slice of xa 9 along the third axis, then the landing of xa 10. -/
theorem part24 (c : Dev nD) (v2 v5 v8 v9 v10 v11 v13 v26 : BitVec 32) :
    iprop(records m K ∗ St m c 59)
      ⊢ WP c (k0_part24 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 61)) := by
  rw [k0_part24_eq_skeleton]; unfold k0_part24_skel
  simp only [Prog.lift, Prog.bind_op, Prog.bind_ret, Prog.pure_eq_ret]
  iintro ⟨#HR, HSt⟩
  stepB (step_send m K c (.zf 9) 59 rfl _ (PartsB.dev48_eq c) (by decide))
  stepB (step_rw m K c (.xa 10) 60 rfl (by decide) (by rfl))
  closeB

/-- Operations 62 to 64: the relays of the slice of xa 10, then the landing of xa 11. -/
theorem part25 (c : Dev nD) (v2 v5 v8 v9 v10 v11 v13 v26 : BitVec 32) :
    iprop(records m K ∗ St m c 61)
      ⊢ WP c (k0_part25 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 64)) := by
  rw [k0_part25_eq_skeleton]; unfold k0_part25_skel
  simp only [Prog.lift, Prog.bind_op, Prog.bind_ret, Prog.pure_eq_ret]
  iintro ⟨#HR, HSt⟩
  stepB (step_send m K c (.yf 10) 61 rfl _ (PartsB.dev49_eq c) (by decide))
  stepB (step_send m K c (.zf 10) 62 rfl _ (PartsB.dev50_eq c) (by decide))
  stepB (step_rw m K c (.xa 11) 63 rfl (by decide) (by rfl))
  closeB

/-- Operations 65 to 67: the relays of the slice of xa 11, then the landing of xa 12. -/
theorem part26 (c : Dev nD) (v2 v5 v8 v9 v11 v13 v26 v845 : BitVec 32) :
    iprop(records m K ∗ St m c 64)
      ⊢ WP c (k0_part26 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v11 v13 v26 v845) (fun _ => iprop(records m K ∗ St m c 67)) := by
  rw [k0_part26_eq_skeleton]; unfold k0_part26_skel
  simp only [Prog.lift, Prog.bind_op, Prog.bind_ret, Prog.pure_eq_ret]
  iintro ⟨#HR, HSt⟩
  stepB (step_send m K c (.yf 11) 64 rfl _ (PartsB.dev51_eq c) (by decide))
  stepB (step_send m K c (.zf 11) 65 rfl _ (PartsB.dev52_eq c) (by decide))
  stepB (step_rw m K c (.xa 12) 66 rfl (by decide) (by rfl))
  closeB

/-- Operations 68 to 70: the relays of the slice of xa 12, then the landing of xa 13. -/
theorem part27 (c : Dev nD) (v2 v5 v8 v9 v10 v11 v13 c4_i32_569 : BitVec 32) :
    iprop(records m K ∗ St m c 67)
      ⊢ WP c (k0_part27 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 c4_i32_569) (fun _ => iprop(records m K ∗ St m c 70)) := by
  rw [k0_part27_eq_skeleton]; unfold k0_part27_skel
  simp only [Prog.lift, Prog.bind_op, Prog.bind_ret, Prog.pure_eq_ret]
  iintro ⟨#HR, HSt⟩
  stepB (step_send m K c (.yf 12) 67 rfl _ (PartsB.dev53_eq c) (by decide))
  stepB (step_send m K c (.zf 12) 68 rfl _ (PartsB.dev54_eq c) (by decide))
  stepB (step_rw m K c (.xa 13) 69 rfl (by decide) (by rfl))
  closeB

/-- Operations 71, 72: the relays of the slice of xa 13. -/
theorem part28 (c : Dev nD) (v2 v5 v8 v9 v10 v11 v26 v913 : BitVec 32) :
    iprop(records m K ∗ St m c 70)
      ⊢ WP c (k0_part28 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v26 v913) (fun _ => iprop(records m K ∗ St m c 72)) := by
  rw [k0_part28_eq_skeleton]; unfold k0_part28_skel
  simp only [Prog.lift, Prog.bind_op, Prog.bind_ret, Prog.pure_eq_ret]
  iintro ⟨#HR, HSt⟩
  stepB (step_send m K c (.yf 13) 70 rfl _ (PartsB.dev55_eq c) (by decide))
  stepB (step_send m K c (.zf 13) 71 rfl _ (PartsB.dev56_eq c) (by decide))
  closeB

/-- Operations 73 to 75: the landing of xa 14, then its relays. -/
theorem part29 (c : Dev nD) (v2 v5 v8 v9 v10 v11 v13 v26 : BitVec 32) :
    iprop(records m K ∗ St m c 72)
      ⊢ WP c (k0_part29 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v9 v10 v11 v13 v26) (fun _ => iprop(records m K ∗ St m c 75)) := by
  rw [k0_part29_eq_skeleton]; unfold k0_part29_skel
  simp only [Prog.lift, Prog.bind_op, Prog.bind_ret, Prog.pure_eq_ret]
  iintro ⟨#HR, HSt⟩
  stepB (step_rw m K c (.xa 14) 72 rfl (by decide) (by rfl))
  stepB (step_send m K c (.yf 14) 73 rfl _ (PartsB.dev57_eq c) (by decide))
  stepB (step_send m K c (.zf 14) 74 rfl _ (PartsB.dev58_eq c) (by decide))
  closeB

/-- Operations 76 to 78: the landing of xa 15, then its relays. -/
theorem part30 (c : Dev nD) (v2 v5 v8 v10 v11 v13 v26 v980 : BitVec 32) :
    iprop(records m K ∗ St m c 75)
      ⊢ WP c (k0_part30 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v13 v26 v980) (fun _ => iprop(records m K ∗ St m c 78)) := by
  rw [k0_part30_eq_skeleton]; unfold k0_part30_skel
  simp only [Prog.lift, Prog.bind_op, Prog.bind_ret, Prog.pure_eq_ret]
  iintro ⟨#HR, HSt⟩
  stepB (step_rw m K c (.xa 15) 75 rfl (by decide) (by rfl))
  stepB (step_send m K c (.yf 15) 76 rfl _ (PartsB.dev59_eq c) (by decide))
  stepB (step_send m K c (.zf 15) 77 rfl _ (PartsB.dev60_eq c) (by decide))
  closeB

/-- info: 'Cert.Kernel.AG.part30' depends on axioms: [propext, Classical.choice, Quot.sound] -/
#guard_msgs in #print axioms part30

end Cert.Kernel.AG

end
-- ==== Proof.K.PartsC.lean ====
/-
  The middle of a device's body, from its 79th to its 132nd memory operation: the device waits for the landing of
  the relayed chunks its second-axis and third-axis neighbours addressed to it, enqueues its own seven second-hand
  relays (four chunks received along the third axis on along the second, three received along the second on along
  the third), and waits for the nine chunks of the diagonal quarter and for the seven second-hand relays addressed
  to it. Each stretch of the body is a few memory operations in a row; each operation moves the device's state one
  step on, and the records of the cells are knowledge that every step may use again.
-/
import proofs.«900661_g7700000000000662_dist_ag_v7x_xyz2x2x2_x_m2048_n512_f32_1_alg».proof.Proof.K.StepsA
import proofs.«900661_g7700000000000662_dist_ag_v7x_xyz2x2x2_x_m2048_n512_f32_1_alg».proof.Proof.K.StepsB
import proofs.«900661_g7700000000000662_dist_ag_v7x_xyz2x2x2_x_m2048_n512_f32_1_alg».proof.Proof.K.StepsC

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

namespace PartsC

/-! The device the four second-hand relays along the second axis are addressed to is the second-axis neighbour;
    the device the three along the third axis are addressed to is the third-axis neighbour. -/

theorem dev61_eq (c : Dev nD) : (⟨k0_dev61 c, k0_dev61_lt c⟩ : Dev nD) = peer 1 c :=
  Fin.ext (by show k0_dev61 c = k0_dev2 c; rw [k0_dev61_eq, k0_dev2_eq])
theorem dev62_eq (c : Dev nD) : (⟨k0_dev62 c, k0_dev62_lt c⟩ : Dev nD) = peer 1 c :=
  Fin.ext (by show k0_dev62 c = k0_dev2 c; rw [k0_dev62_eq, k0_dev2_eq])
theorem dev63_eq (c : Dev nD) : (⟨k0_dev63 c, k0_dev63_lt c⟩ : Dev nD) = peer 1 c :=
  Fin.ext (by show k0_dev63 c = k0_dev2 c; rw [k0_dev63_eq, k0_dev2_eq])
theorem dev64_eq (c : Dev nD) : (⟨k0_dev64 c, k0_dev64_lt c⟩ : Dev nD) = peer 1 c :=
  Fin.ext (by show k0_dev64 c = k0_dev2 c; rw [k0_dev64_eq, k0_dev2_eq])
theorem dev65_eq (c : Dev nD) : (⟨k0_dev65 c, k0_dev65_lt c⟩ : Dev nD) = peer 2 c :=
  Fin.ext (by show k0_dev65 c = k0_dev3 c; rw [k0_dev65_eq, k0_dev3_eq])
theorem dev66_eq (c : Dev nD) : (⟨k0_dev66 c, k0_dev66_lt c⟩ : Dev nD) = peer 2 c :=
  Fin.ext (by show k0_dev66 c = k0_dev3 c; rw [k0_dev66_eq, k0_dev3_eq])
theorem dev67_eq (c : Dev nD) : (⟨k0_dev67 c, k0_dev67_lt c⟩ : Dev nD) = peer 2 c :=
  Fin.ext (by show k0_dev67 c = k0_dev3 c; rw [k0_dev67_eq, k0_dev3_eq])

end PartsC

/-! One memory operation: apply its step lemma, hand it the records (kept) and the state, and take the next state. -/
set_option hygiene false in
local macro "stepC " t:pmTerm : tactic =>
  `(tactic| (iapply $t; isplitr; (· iexact HR); isplitl [HSt]; (· iexact HSt); iintro HSt))

/-! When the stretch's operations are done: the records and the state reached. -/
set_option hygiene false in
local macro "doneC" : tactic =>
  `(tactic| (unfold WP; rw [wp_ret]; imodintro; isplitr; (· iexact HR); iexact HSt))

/-- Operations 79 to 81: the landings of the relayed chunks zf 0, yf 0, zf 1. -/
theorem part31 (c : Dev nD) (v2 v5 v8 v10 v11 c4_i32_663 : BitVec 32) :
    iprop(records m K ∗ St m c 78) ⊢ WP c (k0_part31 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 c4_i32_663) (fun _ => iprop(records m K ∗ St m c 81)) := by
  rw [k0_part31_eq_skeleton]; unfold k0_part31_skel
  simp only [Prog.lift, Prog.bind_op, Prog.bind_ret, Prog.pure_eq_ret]
  iintro ⟨#HR, HSt⟩
  stepC (step_rw m K c (.zf 0) 78 rfl (by decide) (by rfl))
  stepC (step_rw m K c (.yf 0) 79 rfl (by decide) (by rfl))
  stepC (step_rw m K c (.zf 1) 80 rfl (by decide) (by rfl))
  doneC

/-- Operations 82 to 84: the landings of yf 1, zf 2, yf 2. -/
theorem part32 (c : Dev nD) (v2 v5 v8 v10 v11 v1045 : BitVec 32) :
    iprop(records m K ∗ St m c 81) ⊢ WP c (k0_part32 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v1045) (fun _ => iprop(records m K ∗ St m c 84)) := by
  rw [k0_part32_eq_skeleton]; unfold k0_part32_skel
  simp only [Prog.lift, Prog.bind_op, Prog.bind_ret, Prog.pure_eq_ret]
  iintro ⟨#HR, HSt⟩
  stepC (step_rw m K c (.yf 1) 81 rfl (by decide) (by rfl))
  stepC (step_rw m K c (.zf 2) 82 rfl (by decide) (by rfl))
  stepC (step_rw m K c (.yf 2) 83 rfl (by decide) (by rfl))
  doneC

/-- Operations 85 to 87: the landings of zf 3, yf 3, zf 4. -/
theorem part33 (c : Dev nD) (v2 v5 v8 v10 v11 v1077 : BitVec 32) :
    iprop(records m K ∗ St m c 84) ⊢ WP c (k0_part33 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v1077) (fun _ => iprop(records m K ∗ St m c 87)) := by
  rw [k0_part33_eq_skeleton]; unfold k0_part33_skel
  simp only [Prog.lift, Prog.bind_op, Prog.bind_ret, Prog.pure_eq_ret]
  iintro ⟨#HR, HSt⟩
  stepC (step_rw m K c (.zf 3) 84 rfl (by decide) (by rfl))
  stepC (step_rw m K c (.yf 3) 85 rfl (by decide) (by rfl))
  stepC (step_rw m K c (.zf 4) 86 rfl (by decide) (by rfl))
  doneC

/-- Operations 88 to 90: the landings of yf 4, zf 5, yf 5. -/
theorem part34 (c : Dev nD) (v2 v5 v8 v10 v11 : BitVec 32) :
    iprop(records m K ∗ St m c 87) ⊢ WP c (k0_part34 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11) (fun _ => iprop(records m K ∗ St m c 90)) := by
  rw [k0_part34_eq_skeleton]; unfold k0_part34_skel
  simp only [Prog.lift, Prog.bind_op, Prog.bind_ret, Prog.pure_eq_ret]
  iintro ⟨#HR, HSt⟩
  stepC (step_rw m K c (.yf 4) 87 rfl (by decide) (by rfl))
  stepC (step_rw m K c (.zf 5) 88 rfl (by decide) (by rfl))
  stepC (step_rw m K c (.yf 5) 89 rfl (by decide) (by rfl))
  doneC

/-- Operations 91 to 93: the landings of zf 6, yf 6, zf 7. -/
theorem part35 (c : Dev nD) (v2 v5 v8 v10 v11 : BitVec 32) :
    iprop(records m K ∗ St m c 90) ⊢ WP c (k0_part35 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11) (fun _ => iprop(records m K ∗ St m c 93)) := by
  rw [k0_part35_eq_skeleton]; unfold k0_part35_skel
  simp only [Prog.lift, Prog.bind_op, Prog.bind_ret, Prog.pure_eq_ret]
  iintro ⟨#HR, HSt⟩
  stepC (step_rw m K c (.zf 6) 90 rfl (by decide) (by rfl))
  stepC (step_rw m K c (.yf 6) 91 rfl (by decide) (by rfl))
  stepC (step_rw m K c (.zf 7) 92 rfl (by decide) (by rfl))
  doneC

/-- Operations 94 to 97: the landings of yf 7, zf 8, yf 8, zf 9. -/
theorem part36 (c : Dev nD) (v2 v5 v8 v10 v11 v19 : BitVec 32) :
    iprop(records m K ∗ St m c 93) ⊢ WP c (k0_part36 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v19) (fun _ => iprop(records m K ∗ St m c 97)) := by
  rw [k0_part36_eq_skeleton]; unfold k0_part36_skel
  simp only [Prog.lift, Prog.bind_op, Prog.bind_ret, Prog.pure_eq_ret]
  iintro ⟨#HR, HSt⟩
  stepC (step_rw m K c (.yf 7) 93 rfl (by decide) (by rfl))
  stepC (step_rw m K c (.zf 8) 94 rfl (by decide) (by rfl))
  stepC (step_rw m K c (.yf 8) 95 rfl (by decide) (by rfl))
  stepC (step_rw m K c (.zf 9) 96 rfl (by decide) (by rfl))
  doneC

/-- Operations 98 and 99: the relay ya 0 is enqueued; the landing of yf 9. -/
theorem part37 (c : Dev nD) (v2 v5 v8 v10 v11 v26 v1204 : BitVec 32) :
    iprop(records m K ∗ St m c 97) ⊢ WP c (k0_part37 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v26 v1204) (fun _ => iprop(records m K ∗ St m c 99)) := by
  rw [k0_part37_eq_skeleton]; unfold k0_part37_skel
  simp only [Prog.lift, Prog.bind_op, Prog.bind_ret, Prog.pure_eq_ret]
  iintro ⟨#HR, HSt⟩
  stepC (step_send m K c (.ya 0) 97 rfl _ (PartsC.dev61_eq c) (by decide))
  stepC (step_rw m K c (.yf 9) 98 rfl (by decide) (by rfl))
  doneC

/-- Operations 100 to 102: the landing of zf 10; the relay ya 1 is enqueued; the landing of yf 10. -/
theorem part38 (c : Dev nD) (v2 v5 v8 v10 v11 v19 v26 : BitVec 32) :
    iprop(records m K ∗ St m c 99) ⊢ WP c (k0_part38 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v19 v26) (fun _ => iprop(records m K ∗ St m c 102)) := by
  rw [k0_part38_eq_skeleton]; unfold k0_part38_skel
  simp only [Prog.lift, Prog.bind_op, Prog.bind_ret, Prog.pure_eq_ret]
  iintro ⟨#HR, HSt⟩
  stepC (step_rw m K c (.zf 10) 99 rfl (by decide) (by rfl))
  stepC (step_send m K c (.ya 1) 100 rfl _ (PartsC.dev62_eq c) (by decide))
  stepC (step_rw m K c (.yf 10) 101 rfl (by decide) (by rfl))
  doneC

/-- Operations 103 to 105: the landing of zf 11; the relay ya 2 is enqueued; the landing of yf 11. -/
theorem part39 (c : Dev nD) (v2 v5 v8 v10 v19 v26 : BitVec 32) :
    iprop(records m K ∗ St m c 102) ⊢ WP c (k0_part39 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v19 v26) (fun _ => iprop(records m K ∗ St m c 105)) := by
  rw [k0_part39_eq_skeleton]; unfold k0_part39_skel
  simp only [Prog.lift, Prog.bind_op, Prog.bind_ret, Prog.pure_eq_ret]
  iintro ⟨#HR, HSt⟩
  stepC (step_rw m K c (.zf 11) 102 rfl (by decide) (by rfl))
  stepC (step_send m K c (.ya 2) 103 rfl _ (PartsC.dev63_eq c) (by decide))
  stepC (step_rw m K c (.yf 11) 104 rfl (by decide) (by rfl))
  doneC

/-- Operations 106 to 108: the landing of zf 12; the relay ya 3 is enqueued; the landing of yf 12. -/
theorem part40 (c : Dev nD) (v2 v8 v10 v11 v19 v26 v1302 : BitVec 32) :
    iprop(records m K ∗ St m c 105) ⊢ WP c (k0_part40 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v8 v10 v11 v19 v26 v1302) (fun _ => iprop(records m K ∗ St m c 108)) := by
  rw [k0_part40_eq_skeleton]; unfold k0_part40_skel
  simp only [Prog.lift, Prog.bind_op, Prog.bind_ret, Prog.pure_eq_ret]
  iintro ⟨#HR, HSt⟩
  stepC (step_rw m K c (.zf 12) 105 rfl (by decide) (by rfl))
  stepC (step_send m K c (.ya 3) 106 rfl _ (PartsC.dev64_eq c) (by decide))
  stepC (step_rw m K c (.yf 12) 107 rfl (by decide) (by rfl))
  doneC

/-- Operations 109 to 111: the landings of zf 13 and yf 13; the relay zb 0 is enqueued. -/
theorem part41 (c : Dev nD) (v2 v5 v8 v10 v11 v16 v26 v1334 c0_i32_912 : BitVec 32) :
    iprop(records m K ∗ St m c 108) ⊢ WP c (k0_part41 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v16 v26 v1334 c0_i32_912) (fun _ => iprop(records m K ∗ St m c 111)) := by
  rw [k0_part41_eq_skeleton]; unfold k0_part41_skel
  simp only [Prog.lift, Prog.bind_op, Prog.bind_ret, Prog.pure_eq_ret]
  iintro ⟨#HR, HSt⟩
  stepC (step_rw m K c (.zf 13) 108 rfl (by decide) (by rfl))
  stepC (step_rw m K c (.yf 13) 109 rfl (by decide) (by rfl))
  stepC (step_send m K c (.zb 0) 110 rfl _ (PartsC.dev65_eq c) (by decide))
  doneC

/-- Operations 112 and 113: the landings of zf 14 and yf 14. -/
theorem part42 (c : Dev nD) (v2 v5 v8 v10 v11 v16 v26 : BitVec 32) :
    iprop(records m K ∗ St m c 111) ⊢ WP c (k0_part42 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v16 v26) (fun _ => iprop(records m K ∗ St m c 113)) := by
  rw [k0_part42_eq_skeleton]; unfold k0_part42_skel
  simp only [Prog.lift, Prog.bind_op, Prog.bind_ret, Prog.pure_eq_ret]
  iintro ⟨#HR, HSt⟩
  stepC (step_rw m K c (.zf 14) 111 rfl (by decide) (by rfl))
  stepC (step_rw m K c (.yf 14) 112 rfl (by decide) (by rfl))
  doneC

/-- Operations 114 to 116: the relay zb 1 is enqueued; the landings of zf 15 and yf 15. -/
theorem part43 (c : Dev nD) (v2 v5 v8 v10 v11 v16 v26 : BitVec 32) :
    iprop(records m K ∗ St m c 113) ⊢ WP c (k0_part43 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v16 v26) (fun _ => iprop(records m K ∗ St m c 116)) := by
  rw [k0_part43_eq_skeleton]; unfold k0_part43_skel
  simp only [Prog.lift, Prog.bind_op, Prog.bind_ret, Prog.pure_eq_ret]
  iintro ⟨#HR, HSt⟩
  stepC (step_send m K c (.zb 1) 113 rfl _ (PartsC.dev66_eq c) (by decide))
  stepC (step_rw m K c (.zf 15) 114 rfl (by decide) (by rfl))
  stepC (step_rw m K c (.yf 15) 115 rfl (by decide) (by rfl))
  doneC

/-- Operations 117 to 119: the relay zb 2 is enqueued; the landings of the diagonal quarter's chunks xb 0, xb 1. -/
theorem part44 (c : Dev nD) (v5 v8 v9 : BitVec 32) :
    iprop(records m K ∗ St m c 116) ⊢ WP c (k0_part44 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9) (fun _ => iprop(records m K ∗ St m c 119)) := by
  rw [k0_part44_eq_skeleton]; unfold k0_part44_skel
  simp only [Prog.lift, Prog.bind_op, Prog.bind_ret, Prog.pure_eq_ret]
  iintro ⟨#HR, HSt⟩
  stepC (step_send m K c (.zb 2) 116 rfl _ (PartsC.dev67_eq c) (by decide))
  stepC (step_rw m K c (.xb 0) 117 rfl (by decide) (by rfl))
  stepC (step_rw m K c (.xb 1) 118 rfl (by decide) (by rfl))
  doneC

/-- Operations 120 to 122: the landings of xb 2, xb 3, xb 4. -/
theorem part45 (c : Dev nD) (v5 v8 v9 : BitVec 32) :
    iprop(records m K ∗ St m c 119) ⊢ WP c (k0_part45 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9) (fun _ => iprop(records m K ∗ St m c 122)) := by
  rw [k0_part45_eq_skeleton]; unfold k0_part45_skel
  simp only [Prog.lift, Prog.bind_op, Prog.bind_ret, Prog.pure_eq_ret]
  iintro ⟨#HR, HSt⟩
  stepC (step_rw m K c (.xb 2) 119 rfl (by decide) (by rfl))
  stepC (step_rw m K c (.xb 3) 120 rfl (by decide) (by rfl))
  stepC (step_rw m K c (.xb 4) 121 rfl (by decide) (by rfl))
  doneC

/-- Operations 123 to 126: the landings of xb 5, xb 6, xb 7, xb 8. -/
theorem part46 (c : Dev nD) (v5 v8 v9 : BitVec 32) :
    iprop(records m K ∗ St m c 122) ⊢ WP c (k0_part46 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v5 v8 v9) (fun _ => iprop(records m K ∗ St m c 126)) := by
  rw [k0_part46_eq_skeleton]; unfold k0_part46_skel
  simp only [Prog.lift, Prog.bind_op, Prog.bind_ret, Prog.pure_eq_ret]
  iintro ⟨#HR, HSt⟩
  stepC (step_rw m K c (.xb 5) 122 rfl (by decide) (by rfl))
  stepC (step_rw m K c (.xb 6) 123 rfl (by decide) (by rfl))
  stepC (step_rw m K c (.xb 7) 124 rfl (by decide) (by rfl))
  stepC (step_rw m K c (.xb 8) 125 rfl (by decide) (by rfl))
  doneC

/-- Operations 127 to 129: the landings of the second-hand relays ya 0, ya 1, ya 2. -/
theorem part47 (c : Dev nD) (v2 v8 v10 : BitVec 32) :
    iprop(records m K ∗ St m c 126) ⊢ WP c (k0_part47 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v8 v10) (fun _ => iprop(records m K ∗ St m c 129)) := by
  rw [k0_part47_eq_skeleton]; unfold k0_part47_skel
  simp only [Prog.lift, Prog.bind_op, Prog.bind_ret, Prog.pure_eq_ret]
  iintro ⟨#HR, HSt⟩
  stepC (step_rw m K c (.ya 0) 126 rfl (by decide) (by rfl))
  stepC (step_rw m K c (.ya 1) 127 rfl (by decide) (by rfl))
  stepC (step_rw m K c (.ya 2) 128 rfl (by decide) (by rfl))
  doneC

/-- Operations 130 to 132: the landings of ya 3, zb 0, zb 1. -/
theorem part48 (c : Dev nD) (v2 v5 v8 v10 v11 v1559 c0_i32_1086 : BitVec 32) :
    iprop(records m K ∗ St m c 129) ⊢ WP c (k0_part48 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v2 v5 v8 v10 v11 v1559 c0_i32_1086) (fun _ => iprop(records m K ∗ St m c 132)) := by
  rw [k0_part48_eq_skeleton]; unfold k0_part48_skel
  simp only [Prog.lift, Prog.bind_op, Prog.bind_ret, Prog.pure_eq_ret]
  iintro ⟨#HR, HSt⟩
  stepC (step_rw m K c (.ya 3) 129 rfl (by decide) (by rfl))
  stepC (step_rw m K c (.zb 0) 130 rfl (by decide) (by rfl))
  stepC (step_rw m K c (.zb 1) 131 rfl (by decide) (by rfl))
  doneC

/-- info: 'Cert.Kernel.AG.part48' depends on axioms: [propext, Classical.choice, Quot.sound] -/
#guard_msgs in #print axioms part48

end Cert.Kernel.AG

end
-- ==== Proof.K.PartsD.lean ====
/-
  The closing stretch of a device's body. After the landing of the last relayed chunk and the completion of the
  local copy, a device waits, copy by copy and in the order it enqueued them, for each of its own remote copies to
  have been read out of its buffers. Each such wait hands back the share of the source rows the copy held while in
  flight and closes the copy's read-out cell; the local copy's wait hands back the device's own half of the result,
  holding its block, and the left half share of its argument block. The body is cut into parts of six memory
  operations; this module walks the ten parts that hold operations 133 to 192 (counted from one): every operation
  is one step of the device's state, and the state after a part is the state before the next.
-/
import proofs.«900661_g7700000000000662_dist_ag_v7x_xyz2x2x2_x_m2048_n512_f32_1_alg».proof.Proof.K.StepsA
import proofs.«900661_g7700000000000662_dist_ag_v7x_xyz2x2x2_x_m2048_n512_f32_1_alg».proof.Proof.K.StepsB
import proofs.«900661_g7700000000000662_dist_ag_v7x_xyz2x2x2_x_m2048_n512_f32_1_alg».proof.Proof.K.StepsC

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

-- One operation of the body: the step rule for it, fed the records (knowledge, kept) and the state before the
-- operation; what remains to prove is the rest of the body from the state after it.
set_option hygiene false in
local macro "stepD " t:pmTerm : tactic => `(tactic| (
  iapply $t
  isplitr
  · iexact HR
  isplitl [HSt]
  · iexact HSt
  iintro HSt))

/-- Operations 133 to 138: the landing of the last chunk relayed along the third axis, the completion of the local
    copy, and the read-out of the first four chunks sent along the first axis. Each read-out wait names the chunk's
    source rows in the argument block as the view whose credit it consumes. -/
theorem part49 (c : Dev nD) (v11 v1590 v1591 : BitVec 32) :
    iprop(records m K ∗ St m c 132)
      ⊢ WP c (k0_part49 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c v11 v1590 v1591)
        (fun _ => iprop(records m K ∗ St m c 138)) := by
  rw [k0_part49_eq_skeleton]; unfold k0_part49_skel
  simp only [Prog.lift, Prog.bind_op, Prog.bind_ret, Prog.pure_eq_ret]
  iintro ⟨#HR, HSt⟩
  stepD (step_rw m K c (.zb 2) 132 rfl (by decide +kernel) (dst := zbM c 2) rfl)
  stepD (step_locw m K c (by decide +kernel) (dst := ownM c) rfl)
  stepD (step_sw m K c (.xa 0) 134 rfl (by decide +kernel) (dst := xaSrc c 0) rfl)
  stepD (step_sw m K c (.xa 1) 135 rfl (by decide +kernel) (dst := xaSrc c 1) rfl)
  stepD (step_sw m K c (.xa 2) 136 rfl (by decide +kernel) (dst := xaSrc c 2) rfl)
  stepD (step_sw m K c (.xa 3) 137 rfl (by decide +kernel) (dst := xaSrc c 3) rfl)
  unfold WP; rw [wp_ret]; imodintro
  isplitr; · iexact HR
  iexact HSt

/-- Operations 139 to 144: the read-out of chunks 4 to 9 sent along the first axis. -/
theorem part50 (c : Dev nD) :
    iprop(records m K ∗ St m c 138)
      ⊢ WP c (k0_part50 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 144)) := by
  rw [k0_part50_eq_skeleton]; unfold k0_part50_skel
  simp only [Prog.lift, Prog.bind_op, Prog.bind_ret, Prog.pure_eq_ret]
  iintro ⟨#HR, HSt⟩
  stepD (step_sw m K c (.xa 4) 138 rfl (by decide +kernel) (dst := xaSrc c 4) rfl)
  stepD (step_sw m K c (.xa 5) 139 rfl (by decide +kernel) (dst := xaSrc c 5) rfl)
  stepD (step_sw m K c (.xa 6) 140 rfl (by decide +kernel) (dst := xaSrc c 6) rfl)
  stepD (step_sw m K c (.xa 7) 141 rfl (by decide +kernel) (dst := xaSrc c 7) rfl)
  stepD (step_sw m K c (.xa 8) 142 rfl (by decide +kernel) (dst := xaSrc c 8) rfl)
  stepD (step_sw m K c (.xa 9) 143 rfl (by decide +kernel) (dst := xaSrc c 9) rfl)
  unfold WP; rw [wp_ret]; imodintro
  isplitr; · iexact HR
  iexact HSt

/-- Operations 145 to 150: the read-out of chunks 10 to 15 sent along the first axis. -/
theorem part51 (c : Dev nD) :
    iprop(records m K ∗ St m c 144)
      ⊢ WP c (k0_part51 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 150)) := by
  rw [k0_part51_eq_skeleton]; unfold k0_part51_skel
  simp only [Prog.lift, Prog.bind_op, Prog.bind_ret, Prog.pure_eq_ret]
  iintro ⟨#HR, HSt⟩
  stepD (step_sw m K c (.xa 10) 144 rfl (by decide +kernel) (dst := xaSrc c 10) rfl)
  stepD (step_sw m K c (.xa 11) 145 rfl (by decide +kernel) (dst := xaSrc c 11) rfl)
  stepD (step_sw m K c (.xa 12) 146 rfl (by decide +kernel) (dst := xaSrc c 12) rfl)
  stepD (step_sw m K c (.xa 13) 147 rfl (by decide +kernel) (dst := xaSrc c 13) rfl)
  stepD (step_sw m K c (.xa 14) 148 rfl (by decide +kernel) (dst := xaSrc c 14) rfl)
  stepD (step_sw m K c (.xa 15) 149 rfl (by decide +kernel) (dst := xaSrc c 15) rfl)
  unfold WP; rw [wp_ret]; imodintro
  isplitr; · iexact HR
  iexact HSt

/-- Operations 151 to 156: the read-out of the first six chunks of the diagonal quarter sent along the first axis. -/
theorem part52 (c : Dev nD) :
    iprop(records m K ∗ St m c 150)
      ⊢ WP c (k0_part52 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 156)) := by
  rw [k0_part52_eq_skeleton]; unfold k0_part52_skel
  simp only [Prog.lift, Prog.bind_op, Prog.bind_ret, Prog.pure_eq_ret]
  iintro ⟨#HR, HSt⟩
  stepD (step_sw m K c (.xb 0) 150 rfl (by decide +kernel) (dst := xbSrc c 0) rfl)
  stepD (step_sw m K c (.xb 1) 151 rfl (by decide +kernel) (dst := xbSrc c 1) rfl)
  stepD (step_sw m K c (.xb 2) 152 rfl (by decide +kernel) (dst := xbSrc c 2) rfl)
  stepD (step_sw m K c (.xb 3) 153 rfl (by decide +kernel) (dst := xbSrc c 3) rfl)
  stepD (step_sw m K c (.xb 4) 154 rfl (by decide +kernel) (dst := xbSrc c 4) rfl)
  stepD (step_sw m K c (.xb 5) 155 rfl (by decide +kernel) (dst := xbSrc c 5) rfl)
  unfold WP; rw [wp_ret]; imodintro
  isplitr; · iexact HR
  iexact HSt

/-- Operations 157 to 162: the read-out of the last three chunks of the diagonal quarter sent along the first
    axis, then of the first three chunks relayed along the second axis (their source rows are rows of the
    result buffer, where the chunk landed). -/
theorem part53 (c : Dev nD) :
    iprop(records m K ∗ St m c 156)
      ⊢ WP c (k0_part53 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 162)) := by
  rw [k0_part53_eq_skeleton]; unfold k0_part53_skel
  simp only [Prog.lift, Prog.bind_op, Prog.bind_ret, Prog.pure_eq_ret]
  iintro ⟨#HR, HSt⟩
  stepD (step_sw m K c (.xb 6) 156 rfl (by decide +kernel) (dst := xbSrc c 6) rfl)
  stepD (step_sw m K c (.xb 7) 157 rfl (by decide +kernel) (dst := xbSrc c 7) rfl)
  stepD (step_sw m K c (.xb 8) 158 rfl (by decide +kernel) (dst := xbSrc c 8) rfl)
  stepD (step_sw m K c (.yf 0) 159 rfl (by decide +kernel) (dst := fwM c 0) rfl)
  stepD (step_sw m K c (.yf 1) 160 rfl (by decide +kernel) (dst := fwM c 1) rfl)
  stepD (step_sw m K c (.yf 2) 161 rfl (by decide +kernel) (dst := fwM c 2) rfl)
  unfold WP; rw [wp_ret]; imodintro
  isplitr; · iexact HR
  iexact HSt

/-- Operations 163 to 168: the read-out of chunks 3 to 8 relayed along the second axis. -/
theorem part54 (c : Dev nD) :
    iprop(records m K ∗ St m c 162)
      ⊢ WP c (k0_part54 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 168)) := by
  rw [k0_part54_eq_skeleton]; unfold k0_part54_skel
  simp only [Prog.lift, Prog.bind_op, Prog.bind_ret, Prog.pure_eq_ret]
  iintro ⟨#HR, HSt⟩
  stepD (step_sw m K c (.yf 3) 162 rfl (by decide +kernel) (dst := fwM c 3) rfl)
  stepD (step_sw m K c (.yf 4) 163 rfl (by decide +kernel) (dst := fwM c 4) rfl)
  stepD (step_sw m K c (.yf 5) 164 rfl (by decide +kernel) (dst := fwM c 5) rfl)
  stepD (step_sw m K c (.yf 6) 165 rfl (by decide +kernel) (dst := fwM c 6) rfl)
  stepD (step_sw m K c (.yf 7) 166 rfl (by decide +kernel) (dst := fwM c 7) rfl)
  stepD (step_sw m K c (.yf 8) 167 rfl (by decide +kernel) (dst := fwM c 8) rfl)
  unfold WP; rw [wp_ret]; imodintro
  isplitr; · iexact HR
  iexact HSt

/-- Operations 169 to 174: the read-out of chunks 9 to 14 relayed along the second axis. -/
theorem part55 (c : Dev nD) :
    iprop(records m K ∗ St m c 168)
      ⊢ WP c (k0_part55 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 174)) := by
  rw [k0_part55_eq_skeleton]; unfold k0_part55_skel
  simp only [Prog.lift, Prog.bind_op, Prog.bind_ret, Prog.pure_eq_ret]
  iintro ⟨#HR, HSt⟩
  stepD (step_sw m K c (.yf 9) 168 rfl (by decide +kernel) (dst := fwM c 9) rfl)
  stepD (step_sw m K c (.yf 10) 169 rfl (by decide +kernel) (dst := fwM c 10) rfl)
  stepD (step_sw m K c (.yf 11) 170 rfl (by decide +kernel) (dst := fwM c 11) rfl)
  stepD (step_sw m K c (.yf 12) 171 rfl (by decide +kernel) (dst := fwM c 12) rfl)
  stepD (step_sw m K c (.yf 13) 172 rfl (by decide +kernel) (dst := fwM c 13) rfl)
  stepD (step_sw m K c (.yf 14) 173 rfl (by decide +kernel) (dst := fwM c 14) rfl)
  unfold WP; rw [wp_ret]; imodintro
  isplitr; · iexact HR
  iexact HSt

/-- Operations 175 to 180: the read-out of the last chunk relayed along the second axis, then of the first five
    chunks relayed along the third axis (the same source rows, at the other half share). -/
theorem part56 (c : Dev nD) :
    iprop(records m K ∗ St m c 174)
      ⊢ WP c (k0_part56 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 180)) := by
  rw [k0_part56_eq_skeleton]; unfold k0_part56_skel
  simp only [Prog.lift, Prog.bind_op, Prog.bind_ret, Prog.pure_eq_ret]
  iintro ⟨#HR, HSt⟩
  stepD (step_sw m K c (.yf 15) 174 rfl (by decide +kernel) (dst := fwM c 15) rfl)
  stepD (step_sw m K c (.zf 0) 175 rfl (by decide +kernel) (dst := fwM c 0) rfl)
  stepD (step_sw m K c (.zf 1) 176 rfl (by decide +kernel) (dst := fwM c 1) rfl)
  stepD (step_sw m K c (.zf 2) 177 rfl (by decide +kernel) (dst := fwM c 2) rfl)
  stepD (step_sw m K c (.zf 3) 178 rfl (by decide +kernel) (dst := fwM c 3) rfl)
  stepD (step_sw m K c (.zf 4) 179 rfl (by decide +kernel) (dst := fwM c 4) rfl)
  unfold WP; rw [wp_ret]; imodintro
  isplitr; · iexact HR
  iexact HSt

/-- Operations 181 to 186: the read-out of chunks 5 to 10 relayed along the third axis. -/
theorem part57 (c : Dev nD) :
    iprop(records m K ∗ St m c 180)
      ⊢ WP c (k0_part57 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 186)) := by
  rw [k0_part57_eq_skeleton]; unfold k0_part57_skel
  simp only [Prog.lift, Prog.bind_op, Prog.bind_ret, Prog.pure_eq_ret]
  iintro ⟨#HR, HSt⟩
  stepD (step_sw m K c (.zf 5) 180 rfl (by decide +kernel) (dst := fwM c 5) rfl)
  stepD (step_sw m K c (.zf 6) 181 rfl (by decide +kernel) (dst := fwM c 6) rfl)
  stepD (step_sw m K c (.zf 7) 182 rfl (by decide +kernel) (dst := fwM c 7) rfl)
  stepD (step_sw m K c (.zf 8) 183 rfl (by decide +kernel) (dst := fwM c 8) rfl)
  stepD (step_sw m K c (.zf 9) 184 rfl (by decide +kernel) (dst := fwM c 9) rfl)
  stepD (step_sw m K c (.zf 10) 185 rfl (by decide +kernel) (dst := fwM c 10) rfl)
  unfold WP; rw [wp_ret]; imodintro
  isplitr; · iexact HR
  iexact HSt

/-- Operations 187 to 192: the read-out of chunks 11 to 15 relayed along the third axis, then of the first of the
    four chunks relayed a second time, along the second axis. -/
theorem part58 (c : Dev nD) :
    iprop(records m K ∗ St m c 186)
      ⊢ WP c (k0_part58 (F := F) xM (Memref.isWhole_whole _) oM (Memref.isWhole_whole _) cc0_scratch0 cc0_scratch1 cc0_scratch2 cc0_scratch3 cc0_scratch4 cc0_scratch5 cc0_scratch6 cc0_scratch7 cc0_scratch8 cc0_scratch9 cc0_scratch10 c)
        (fun _ => iprop(records m K ∗ St m c 192)) := by
  rw [k0_part58_eq_skeleton]; unfold k0_part58_skel
  simp only [Prog.lift, Prog.bind_op, Prog.bind_ret, Prog.pure_eq_ret]
  iintro ⟨#HR, HSt⟩
  stepD (step_sw m K c (.zf 11) 186 rfl (by decide +kernel) (dst := fwM c 11) rfl)
  stepD (step_sw m K c (.zf 12) 187 rfl (by decide +kernel) (dst := fwM c 12) rfl)
  stepD (step_sw m K c (.zf 13) 188 rfl (by decide +kernel) (dst := fwM c 13) rfl)
  stepD (step_sw m K c (.zf 14) 189 rfl (by decide +kernel) (dst := fwM c 14) rfl)
  stepD (step_sw m K c (.zf 15) 190 rfl (by decide +kernel) (dst := fwM c 15) rfl)
  stepD (step_sw m K c (.ya 0) 191 rfl (by decide +kernel) (dst := yaM c 0) rfl)
  unfold WP; rw [wp_ret]; imodintro
  isplitr; · iexact HR
  iexact HSt

/-- info: 'Cert.Kernel.AG.part49' depends on axioms: [propext, Classical.choice, Quot.sound] -/
#guard_msgs in #print axioms part49

/-- info: 'Cert.Kernel.AG.part58' depends on axioms: [propext, Classical.choice, Quot.sound] -/
#guard_msgs in #print axioms part58

end Cert.Kernel.AG

end
-- ==== Proof.K.Data.lean ====
/-
  What the launch deals each device and what its body must return: the tallies a device owes at launch (its
  three entry signals and the landings of its 64 copies), the ghost state it starts from (every cell's invariant and
  that every cell has reached round 0; its positions on its own 130 cells; the tokens of the duties it pays), the
  credit tokens of its barrier cell and of its 64 landing cells, the pipeline's proof data (the argument block staged
  unchanged, the result staged with what it must end with), and the body's precondition and postcondition in the
  pipeline's form.
-/
import proofs.«900661_g7700000000000662_dist_ag_v7x_xyz2x2x2_x_m2048_n512_f32_1_alg».proof.Proof.K.Acc

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device c owes at launch: the landing of each of its copies and one unit to each neighbour's barrier cell. -/
def O₀ (c : Dev nD) : CellTallies nD τ sig Unit := owedAll c [0, 1, 2] sendOrder

/-- The persistent records: every protocol cell's invariant under the names K, and that each has reached round 0. -/
def recs (K : Dev nD × Fin 130 → ℕ) : sProp 𝕄 :=
  iprop((bigSep Finset.univ fun ck : Dev nD × Fin 130 => cellInv ER (sched m) (K ck) (kcell ck))
    ∗ (bigSep Finset.univ fun ck : Dev nD × Fin 130 => reached ER (kcell ck) 0))

instance recs_persistent (K : Dev nD × Fin 130 → ℕ) : BI.Persistent (recs m K) := by unfold recs; infer_instance

/-- What stays with device c alone: its positions on its own cells, and the tokens of the duties IT pays. -/
def linear (c : Dev nD) : sProp 𝕄 :=
  iprop((bigSep Finset.univ fun k : Fin 130 => atPos ER (kcell (c, k)) 0 ∅ 0)
    ∗ (bigSep Finset.univ fun d : Fin 3 => dutyTok ER (barCell (peer d c)) 0 d)
    ∗ (bigSep Finset.univ fun i : Xf => iprop(dutyTok ER (rCell i (peer i.dir c)) 0 0 ∗ dutyTok ER (sCell i c) 0 0))
    ∗ dutyTok ER (locCell c) 0 0)

/-- The protocol's ghost state device c starts from, at the names K. -/
def ghost (K : Dev nD × Fin 130 → ℕ) (c : Dev nD) : sProp 𝕄 := iprop(recs m K ∗ linear c)

/-- The credit tokens device c is dealt: three units on its barrier cell, a copy's credit on each landing cell. -/
def creds (c : Dev nD) : sProp 𝕄 :=
  iprop(cred (tallyAt (barCell c) () 3) ∗ bigSep Finset.univ fun i : Xf => cred (tallyAt (rCell i c) () NC))

/-- What device c's body starts from. -/
def start (c : Dev nD) : sProp 𝕄 := iprop((∃ K, ghost m K c) ∗ creds c ∗ levAts L lv)

def Φ₀ (c : Dev nD) : sProp 𝕄 := start m c
/-- After the point: the kernel's own 129 semaphores back at zero. -/
def Φ₁ (c : Dev nD) : sProp 𝕄 := bigSep Finset.univ fun k : Fin 129 => semVal ((c : Thread nD τ), osem k) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The one grid point. -/
abbrev t₀ : Fin cfg0.N := t0_0

/-- A staging buffer held whole at given contents, in the pipeline's form. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 130 → ℕ) (c : Dev nD) : sProp 𝕄 :=
  iprop((ghost m K c ∗ creds c ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (outAt m c))

/-- The kernel function as the pipeline calls it at the one point. -/
abbrev theBody : Prog (TpuEff nD τ sig (Elt F) Λ₀ .tc) PUnit :=
  cc0_body (Memref.whole cc0_stg0_0) (Memref.isWhole_whole _) (Memref.whole cc0_stg1_0) (Memref.isWhole_whole _)
    cc0_scratch0 cc0_scratch1 cc0_scratch2 cc0_scratch3 cc0_scratch4 cc0_scratch5 cc0_scratch6 cc0_scratch7 cc0_scratch8 cc0_scratch9 cc0_scratch10

end Cert.Kernel.AG

end
-- ==== Proof.K.Run.lean ====
/-
  The body of one device, whole: its 198 memory operations in program order. The printed body is a sequence of 58
  parts and a tail of six waits; the first part only reads the device's position; each further part is run by its own
  lemma from the state after the operations before it to the state after its own, and the lemmas are chained in the
  parts' order; the tail is stepped directly.
-/
import proofs.«900661_g7700000000000662_dist_ag_v7x_xyz2x2x2_x_m2048_n512_f32_1_alg».proof.Proof.K.PartsA
import proofs.«900661_g7700000000000662_dist_ag_v7x_xyz2x2x2_x_m2048_n512_f32_1_alg».proof.Proof.K.PartsB
import proofs.«900661_g7700000000000662_dist_ag_v7x_xyz2x2x2_x_m2048_n512_f32_1_alg».proof.Proof.K.PartsC
import proofs.«900661_g7700000000000662_dist_ag_v7x_xyz2x2x2_x_m2048_n512_f32_1_alg».proof.Proof.K.PartsD
import proofs.«900661_g7700000000000662_dist_ag_v7x_xyz2x2x2_x_m2048_n512_f32_1_alg».proof.Proof.K.Data

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 130 → ℕ)

set_option hygiene false in
/-- One part of the chain: run the part by its lemma, go on in its continuation. -/
local macro "chainpart " t:term : tactic =>
  `(tactic| (refine ($t).trans (wp_mono _ _ _ fun r => ?_); try (rcases r with ⟨_, _⟩); try dsimp only))
set_option hygiene false in
/-- One operation of the tail: the step lemma, the records and the state handed over, the new state taken back. -/
local macro "tailstep " t:pmTerm : tactic =>
  `(tactic| (iapply $t; isplitr; (· iexact HR); isplitl [HSt]; (· iexact HSt); iintro HSt))

set_option maxRecDepth 65536 in
set_option maxHeartbeats 4000000 in
/-- The whole body of device c: from its state before its first memory operation to its state after its 198th. -/
theorem run_parts (c : Dev nD) : iprop(records m K ∗ St m c 0) ⊢ WP c (theBody (F := F)) (fun _ => St m c 198) := by
  unfold theBody WP
  rw [cc0_body_eq_skeleton]; unfold cc0_body_skel
  rw [k0_part59_eq_skeleton]; unfold k0_part59_skel
  rw [k0_part1_eq_skeleton]; unfold k0_part1_skel
  simp only [Prog.lift, Prog.bind_op, Prog.bind_ret, Prog.pure_eq_ret, wp_deviceId, wp_bind]
  chainpart (part2 m K c _ _ _ _ _ _ _ _)
  chainpart (part3 m K c _ _ _ _ _)
  chainpart (part4 m K c _ _ _ _ _ _)
  chainpart (part5 m K c _ _ _ _ _)
  chainpart (part6 m K c _ _ _ _ _ _)
  chainpart (part7 m K c _ _ _ _ _ _ _)
  chainpart (part8 m K c _ _ _ _ _)
  chainpart (part9 m K c _ _ _ _ _ _)
  chainpart (part10 m K c _ _ _ _ _ _ _)
  chainpart (part11 m K c _ _ _ _ _)
  chainpart (part12 m K c _ _ _ _ _)
  chainpart (part13 m K c _ _ _ _ _ _ _ _)
  chainpart (part14 m K c _ _ _ _ _ _ _ _)
  chainpart (part15 m K c _ _ _ _ _ _ _ _)
  chainpart (part16 m K c _ _ _ _ _ _ _ _)
  chainpart (part17 m K c _ _ _ _ _ _ _ _)
  chainpart (part18 m K c _ _ _ _ _ _ _ _)
  chainpart (part19 m K c _ _ _ _ _ _ _ _)
  chainpart (part20 m K c _ _ _ _ _ _ _ _ _)
  chainpart (part21 m K c _ _ _ _ _ _ _ _)
  chainpart (part22 m K c _ _ _ _ _ _ _)
  chainpart (part23 m K c _ _ _ _ _ _ _ _ _)
  chainpart (part24 m K c _ _ _ _ _ _ _ _)
  chainpart (part25 m K c _ _ _ _ _ _ _ _)
  chainpart (part26 m K c _ _ _ _ _ _ _ _)
  chainpart (part27 m K c _ _ _ _ _ _ _ _)
  chainpart (part28 m K c _ _ _ _ _ _ _ _)
  chainpart (part29 m K c _ _ _ _ _ _ _ _)
  chainpart (part30 m K c _ _ _ _ _ _ _ _)
  chainpart (part31 m K c _ _ _ _ _ _)
  chainpart (part32 m K c _ _ _ _ _ _)
  chainpart (part33 m K c _ _ _ _ _ _)
  chainpart (part34 m K c _ _ _ _ _)
  chainpart (part35 m K c _ _ _ _ _)
  chainpart (part36 m K c _ _ _ _ _ _)
  chainpart (part37 m K c _ _ _ _ _ _ _)
  chainpart (part38 m K c _ _ _ _ _ _ _)
  chainpart (part39 m K c _ _ _ _ _ _)
  chainpart (part40 m K c _ _ _ _ _ _ _)
  chainpart (part41 m K c _ _ _ _ _ _ _ _ _)
  chainpart (part42 m K c _ _ _ _ _ _ _)
  chainpart (part43 m K c _ _ _ _ _ _ _)
  chainpart (part44 m K c _ _ _)
  chainpart (part45 m K c _ _ _)
  chainpart (part46 m K c _ _ _)
  chainpart (part47 m K c _ _ _)
  chainpart (part48 m K c _ _ _ _ _ _ _)
  chainpart (part49 m K c _ _ _)
  chainpart (part50 m K c)
  chainpart (part51 m K c)
  chainpart (part52 m K c)
  chainpart (part53 m K c)
  chainpart (part54 m K c)
  chainpart (part55 m K c)
  chainpart (part56 m K c)
  chainpart (part57 m K c)
  chainpart (part58 m K c)
  rw [wp_ret]
  iintro ⟨#HR, HSt⟩
  imodintro
  tailstep (step_sw m K c (.ya 1) 192 rfl (by decide) (by rfl))
  tailstep (step_sw m K c (.ya 2) 193 rfl (by decide) (by rfl))
  tailstep (step_sw m K c (.ya 3) 194 rfl (by decide) (by rfl))
  tailstep (step_sw m K c (.zb 0) 195 rfl (by decide) (by rfl))
  tailstep (step_sw m K c (.zb 1) 196 rfl (by decide) (by rfl))
  tailstep (step_sw m K c (.zb 2) 197 rfl (by decide) (by rfl))
  unfold WP; rw [wp_ret]; imodintro
  iexact HSt

/-- info: 'Cert.Kernel.AG.run_parts' depends on axioms: [propext, Classical.choice, Quot.sound] -/
#guard_msgs in #print axioms run_parts

end Cert.Kernel.AG

end
-- ==== Proof.K.EntryExit.lean ====
/-
  The first and the last step of a device's body. At entry the launch's deal — every cell's invariant, the device's
  positions on its own 130 cells, its duty tokens, its credit tokens, its two staging buffers held whole — is cut
  into the pieces of the state after 0 memory operations; at exit the pieces of the state after all 198 operations
  are put back together into what the pipeline takes back: the kernel's own 129 semaphores at zero, nothing owed,
  the argument block unchanged and the result holding what it must end with.

  The cutting rests on three facts. The pieces fall into thirteen kinds, so a family over them is thirteen families
  conjoined. A device's 130 cells are its barrier cell, the read-out cell and the landing cell of each of the 64
  copies, and the local copy's cell, each exactly once. And the 4096 rows of the result buffer are the device's own
  2048-row half and the 64 landing slots of 32 rows each, pairwise apart and together everything; likewise the 25
  slices of the argument block the remote copies read are pairwise apart. The row facts are arithmetic on the closed
  forms of the program's offset functions, decided over the eight devices and the 32-row chunks.
-/
import proofs.«900661_g7700000000000662_dist_ag_v7x_xyz2x2x2_x_m2048_n512_f32_1_alg».proof.Proof.K.Data

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pieces by kind -/

/-- The pieces of a device's state, as the disjoint sum of their kinds. -/
abbrev ResSum : Type := Xf ⊕ Xf ⊕ Xf ⊕ Xf ⊕ Xf ⊕ Xf ⊕ Fin 3 ⊕ Unit ⊕ Unit ⊕ Unit ⊕ Unit ⊕ Unit ⊕ Unit

def resOf : ResSum → Res
  | .inl i => .slot i
  | .inr (.inl i) => .pslot i
  | .inr (.inr (.inl i)) => .tok i
  | .inr (.inr (.inr (.inl i))) => .scell i
  | .inr (.inr (.inr (.inr (.inl i)))) => .rcell i
  | .inr (.inr (.inr (.inr (.inr (.inl i))))) => .xR i
  | .inr (.inr (.inr (.inr (.inr (.inr (.inl d)))))) => .sigtok d
  | .inr (.inr (.inr (.inr (.inr (.inr (.inr (.inl _))))))) => .bar
  | .inr (.inr (.inr (.inr (.inr (.inr (.inr (.inr (.inl _)))))))) => .xL
  | .inr (.inr (.inr (.inr (.inr (.inr (.inr (.inr (.inr (.inl _))))))))) => .xRrest
  | .inr (.inr (.inr (.inr (.inr (.inr (.inr (.inr (.inr (.inr (.inl _)))))))))) => .own
  | .inr (.inr (.inr (.inr (.inr (.inr (.inr (.inr (.inr (.inr (.inr (.inl _))))))))))) => .loccell
  | .inr (.inr (.inr (.inr (.inr (.inr (.inr (.inr (.inr (.inr (.inr (.inr _))))))))))) => .owes

def ofRes : Res → ResSum
  | .slot i => .inl i
  | .pslot i => .inr (.inl i)
  | .tok i => .inr (.inr (.inl i))
  | .scell i => .inr (.inr (.inr (.inl i)))
  | .rcell i => .inr (.inr (.inr (.inr (.inl i))))
  | .xR i => .inr (.inr (.inr (.inr (.inr (.inl i)))))
  | .sigtok d => .inr (.inr (.inr (.inr (.inr (.inr (.inl d))))))
  | .bar => .inr (.inr (.inr (.inr (.inr (.inr (.inr (.inl ())))))))
  | .xL => .inr (.inr (.inr (.inr (.inr (.inr (.inr (.inr (.inl ()))))))))
  | .xRrest => .inr (.inr (.inr (.inr (.inr (.inr (.inr (.inr (.inr (.inl ())))))))))
  | .own => .inr (.inr (.inr (.inr (.inr (.inr (.inr (.inr (.inr (.inr (.inl ()))))))))))
  | .loccell => .inr (.inr (.inr (.inr (.inr (.inr (.inr (.inr (.inr (.inr (.inr (.inl ())))))))))))
  | .owes => .inr (.inr (.inr (.inr (.inr (.inr (.inr (.inr (.inr (.inr (.inr (.inr ())))))))))))

def resEquiv : ResSum ≃ Res where
  toFun := resOf
  invFun := ofRes
  left_inv := by
    rintro (i | i | i | i | i | i | d | u | u | u | u | u | u) <;> rfl
  right_inv := by
    intro r; cases r <;> rfl

/-- A family over the pieces is the families over each kind, conjoined. -/
theorem bigSep_Res {M : Type} [URA M] (Φ : Res → sProp M) :
    bigSep Finset.univ Φ = iprop(
      (bigSep Finset.univ fun i : Xf => Φ (.slot i)) ∗ (bigSep Finset.univ fun i : Xf => Φ (.pslot i))
      ∗ (bigSep Finset.univ fun i : Xf => Φ (.tok i)) ∗ (bigSep Finset.univ fun i : Xf => Φ (.scell i))
      ∗ (bigSep Finset.univ fun i : Xf => Φ (.rcell i)) ∗ (bigSep Finset.univ fun i : Xf => Φ (.xR i))
      ∗ (bigSep Finset.univ fun d : Fin 3 => Φ (.sigtok d))
      ∗ Φ .bar ∗ Φ .xL ∗ Φ .xRrest ∗ Φ .own ∗ Φ .loccell ∗ Φ .owes) := by
  rw [bigSep_univ_equiv resEquiv Φ]
  rw [bigSep_univ_sum, bigSep_univ_sum, bigSep_univ_sum, bigSep_univ_sum, bigSep_univ_sum, bigSep_univ_sum,
    bigSep_univ_sum, bigSep_univ_sum, bigSep_univ_sum, bigSep_univ_sum, bigSep_univ_sum, bigSep_univ_sum]
  rw [bigSep_univ_of_subsingleton (), bigSep_univ_of_subsingleton (), bigSep_univ_of_subsingleton (),
    bigSep_univ_of_subsingleton (), bigSep_univ_of_subsingleton (), bigSep_univ_of_subsingleton ()]
  rfl

/-! ## A device's 130 cells by role -/

theorem sIdx_ge (i : Xf) : 2 ≤ i.sIdx := by cases i <;> simp only [Xf.sIdx] <;> omega
theorem rIdx_ge (i : Xf) : 2 ≤ i.rIdx := by cases i <;> simp only [Xf.rIdx] <;> omega

/-- The barrier, the 64 read-out cells, the 64 landing cells and the local copy's cell, as positions among the 130. -/
def cellIx : Unit ⊕ Xf ⊕ Xf ⊕ Unit → Fin 130
  | .inl _ => ⟨0, by decide⟩
  | .inr (.inl i) => ⟨i.sIdx - 1, by have := i.sIdx_lt; omega⟩
  | .inr (.inr (.inl i)) => ⟨i.rIdx - 1, by have := i.rIdx_lt; omega⟩
  | .inr (.inr (.inr _)) => ⟨129, by decide⟩

/-- Every one of the 130 positions is exactly one of these. -/
theorem cellIx_bijective : Function.Bijective cellIx := by decide +kernel

/-- The same for the kernel's own 129 semaphores. -/
def ownIx : Xf ⊕ Xf ⊕ Unit → Fin 129
  | .inl i => ⟨i.sIdx - 2, by have := i.sIdx_lt; have := sIdx_ge i; omega⟩
  | .inr (.inl i) => ⟨i.rIdx - 2, by have := i.rIdx_lt; have := rIdx_ge i; omega⟩
  | .inr (.inr _) => ⟨128, by decide⟩

theorem ownIx_bijective : Function.Bijective ownIx := by decide +kernel

theorem csem_s (i : Xf) : csem (cellIx (.inr (.inl i))) = SemLoc.dma (sS i) := by
  have h2 := sIdx_ge i
  show csem ⟨i.sIdx - 1, _⟩ = _
  unfold csem
  rw [dif_neg (by show ¬ i.sIdx - 1 = 0; omega)]
  congr 1; apply Fin.ext; show i.sIdx - 1 + 1 = i.sIdx; omega

theorem csem_r (i : Xf) : csem (cellIx (.inr (.inr (.inl i)))) = SemLoc.dma (rS i) := by
  have h2 := rIdx_ge i
  show csem ⟨i.rIdx - 1, _⟩ = _
  unfold csem
  rw [dif_neg (by show ¬ i.rIdx - 1 = 0; omega)]
  congr 1; apply Fin.ext; show i.rIdx - 1 + 1 = i.rIdx; omega

theorem osem_s (i : Xf) : osem (ownIx (.inl i)) = SemLoc.dma (sS i) := by
  have h2 := sIdx_ge i
  show SemLoc.dma ⟨i.sIdx - 2 + 2, _⟩ = _
  congr 1; apply Fin.ext; show i.sIdx - 2 + 2 = i.sIdx; omega

theorem osem_r (i : Xf) : osem (ownIx (.inr (.inl i))) = SemLoc.dma (rS i) := by
  have h2 := rIdx_ge i
  show SemLoc.dma ⟨i.rIdx - 2 + 2, _⟩ = _
  congr 1; apply Fin.ext; show i.rIdx - 2 + 2 = i.rIdx; omega

/-- A family over a device's 130 cells, by role. -/
theorem bigSep_cells {M : Type} [URA M] (c : Dev nD) (Ψ : GSem nD τ sig → sProp M) :
    (bigSep Finset.univ fun k : Fin 130 => Ψ (kcell (c, k)))
      = iprop(Ψ (barCell c) ∗ (bigSep Finset.univ fun i : Xf => Ψ (sCell i c))
          ∗ (bigSep Finset.univ fun i : Xf => Ψ (rCell i c)) ∗ Ψ (locCell c)) := by
  rw [bigSep_univ_equiv (Equiv.ofBijective cellIx cellIx_bijective) (fun k : Fin 130 => Ψ (kcell (c, k)))]
  rw [bigSep_univ_sum, bigSep_univ_sum, bigSep_univ_sum]
  rw [bigSep_univ_of_subsingleton (), bigSep_univ_of_subsingleton ()]
  simp only [Equiv.ofBijective_apply]
  have hs : ∀ i : Xf, kcell (c, cellIx (.inr (.inl i))) = sCell i c := fun i => by
    show ((c : Thread nD τ), csem (cellIx (.inr (.inl i)))) = _; rw [csem_s]
  have hr : ∀ i : Xf, kcell (c, cellIx (.inr (.inr (.inl i)))) = rCell i c := fun i => by
    show ((c : Thread nD τ), csem (cellIx (.inr (.inr (.inl i))))) = _; rw [csem_r]
  simp only [hs, hr]
  rfl

/-- A family over a device's own 129 semaphores, by role. -/
theorem bigSep_own {M : Type} [URA M] (c : Dev nD) (Ψ : GSem nD τ sig → sProp M) :
    (bigSep Finset.univ fun k : Fin 129 => Ψ ((c : Thread nD τ), osem k))
      = iprop((bigSep Finset.univ fun i : Xf => Ψ (sCell i c))
          ∗ (bigSep Finset.univ fun i : Xf => Ψ (rCell i c)) ∗ Ψ (locCell c)) := by
  rw [bigSep_univ_equiv (Equiv.ofBijective ownIx ownIx_bijective) (fun k : Fin 129 => Ψ ((c : Thread nD τ), osem k))]
  rw [bigSep_univ_sum, bigSep_univ_sum]
  rw [bigSep_univ_of_subsingleton ()]
  simp only [Equiv.ofBijective_apply, osem_s, osem_r]
  rfl

/-! ## Rows: where each slice of the two staging buffers lies -/

/-- A 32-row slice of the result buffer at row offset `A`: the rows `A ≤ r < A + 32`, every column. -/
theorem mem_rows32_o (off : Fin 2 → ℕ) (A : ℕ) (hoff : off = ![A, 0]) (inb) (i : OIx) :
    i ∈ ((oM : Memref sig .tc .vmem S4096x512 .f32).slice (Rect.unit (s := S4096x512) off S32x512.size inb) (fun _ => rfl)).view.set
      ↔ A ≤ (i 0).val ∧ (i 0).val < A + 32 := by
  subst hoff
  rw [show ((oM : Memref sig .tc .vmem S4096x512 .f32).slice (Rect.unit (s := S4096x512) ![A, 0] S32x512.size inb) (fun _ => rfl)).view.set
      = (Rect.unit (s := S4096x512) ![A, 0] S32x512.size inb).set from View.set_slice_whole _ _, Rect.mem_set_unit]
  constructor
  · intro h; exact h 0
  · intro h a
    rcases a with ⟨_ | _ | n, hb⟩
    · exact h
    · have h1 : (i 1).val < 512 := (i 1).isLt
      exact ⟨Nat.zero_le _, by show (i 1).val < 0 + 512; omega⟩
    · exact absurd hb (by simp)

/-- The same in the argument's staging buffer. -/
theorem mem_rows32_x (off : Fin 2 → ℕ) (A : ℕ) (hoff : off = ![A, 0]) (inb) (i : XIx) :
    i ∈ ((xM : Memref sig .tc .vmem S2048x512 .f32).slice (Rect.unit (s := S2048x512) off S32x512.size inb) (fun _ => rfl)).view.set
      ↔ A ≤ (i 0).val ∧ (i 0).val < A + 32 := by
  subst hoff
  rw [show ((xM : Memref sig .tc .vmem S2048x512 .f32).slice (Rect.unit (s := S2048x512) ![A, 0] S32x512.size inb) (fun _ => rfl)).view.set
      = (Rect.unit (s := S2048x512) ![A, 0] S32x512.size inb).set from View.set_slice_whole _ _, Rect.mem_set_unit]
  constructor
  · intro h; exact h 0
  · intro h a
    rcases a with ⟨_ | _ | n, hb⟩
    · exact h
    · have h1 : (i 1).val < 512 := (i 1).isLt
      exact ⟨Nat.zero_le _, by show (i 1).val < 0 + 512; omega⟩
    · exact absurd hb (by simp)

/-- A 2048-row slice of the result buffer at row offset `A`. -/
theorem mem_rows2048_o (off : Fin 2 → ℕ) (A : ℕ) (hoff : off = ![A, 0]) (inb) (i : OIx) :
    i ∈ ((oM : Memref sig .tc .vmem S4096x512 .f32).slice (Rect.unit (s := S4096x512) off S2048x512.size inb) (fun _ => rfl)).view.set
      ↔ A ≤ (i 0).val ∧ (i 0).val < A + 2048 := by
  subst hoff
  rw [show ((oM : Memref sig .tc .vmem S4096x512 .f32).slice (Rect.unit (s := S4096x512) ![A, 0] S2048x512.size inb) (fun _ => rfl)).view.set
      = (Rect.unit (s := S4096x512) ![A, 0] S2048x512.size inb).set from View.set_slice_whole _ _, Rect.mem_set_unit]
  constructor
  · intro h; exact h 0
  · intro h a
    rcases a with ⟨_ | _ | n, hb⟩
    · exact h
    · have h1 : (i 1).val < 512 := (i 1).isLt
      exact ⟨Nat.zero_le _, by show (i 1).val < 0 + 512; omega⟩
    · exact absurd hb (by simp)

/-- The first row copy j writes, by the number of the device that issues it. -/
def dRow (j : Xf) (cv : ℕ) : ℕ :=
  match j with
  | .xa k => 2048 * (cv / 4) + 1024 * (cv % 2) + 512 * ((cv / 2) % 2) + 32 * k.val
  | .xb k => (2048 * (cv / 4) + 32 * k.val + 1536) - (1024 * (cv % 2) + 512 * ((cv / 2) % 2))
  | .yf k => (1024 * (cv % 2) + 512 * ((cv / 2) % 2) + 32 * k.val + 2048) - 2048 * (cv / 4)
  | .zf k => (1024 * (cv % 2) + 512 * ((cv / 2) % 2) + 32 * k.val + 2048) - 2048 * (cv / 4)
  | .ya k => (512 * ((cv / 2) % 2) + 32 * k.val + 3360) - (2048 * (cv / 4) + 1024 * (cv % 2))
  | .zb k => (1024 * (cv % 2) + 32 * k.val + 2976) - (2048 * (cv / 4) + 512 * ((cv / 2) % 2))

theorem mem_dstSet (j : Xf) (c : Dev nD) (i : OIx) :
    i ∈ dstSet j c ↔ dRow j c.val ≤ (i 0).val ∧ (i 0).val < dRow j c.val + 32 := by
  cases j with
  | xa k => exact mem_rows32_o _ _ (k0_off1_eq c k) (k0_off1_inb c k) i
  | xb k => exact mem_rows32_o _ _ (k0_off3_eq c k) (k0_off3_inb c k) i
  | yf k => exact mem_rows32_o _ _ (k0_off6_eq c k) (k0_off6_inb c k) i
  | zf k => exact mem_rows32_o _ _ (k0_off6_eq c k) (k0_off6_inb c k) i
  | ya k => exact mem_rows32_o _ _ (k0_off7_eq c k) (k0_off7_inb c k) i
  | zb k => exact mem_rows32_o _ _ (k0_off8_eq c k) (k0_off8_inb c k) i

/-- The number of the neighbour along each axis. -/
def pv (d : Fin 3) (cv : ℕ) : ℕ :=
  match d with
  | 0 => (2 * ((cv / 2) % 2) + (cv % 2) + 4) - 4 * (cv / 4)
  | 1 => (4 * (cv / 4) + (cv % 2) + 2) - 2 * ((cv / 2) % 2)
  | 2 => (4 * (cv / 4) + 2 * ((cv / 2) % 2) + 1) - (cv % 2)

theorem peer_val : ∀ (d : Fin 3) (c : Dev nD), (peer d c).val = pv d c.val
  | 0, c => k0_dev1_eq c
  | 1, c => k0_dev2_eq c
  | 2, c => k0_dev3_eq c

/-- The first row where the copy j addressed to a device lands, by the device's number. -/
def slotRow (j : Xf) (cv : ℕ) : ℕ := dRow j (pv j.dir cv)

theorem mem_slotSet (j : Xf) (c : Dev nD) (i : OIx) :
    i ∈ slotSet j c ↔ slotRow j c.val ≤ (i 0).val ∧ (i 0).val < slotRow j c.val + 32 := by
  unfold slotSet slotRow
  rw [mem_dstSet, peer_val]

theorem mem_ownSet (c : Dev nD) (i : OIx) :
    i ∈ ownSet c ↔ 2048 * (c.val / 4) ≤ (i 0).val ∧ (i 0).val < 2048 * (c.val / 4) + 2048 :=
  mem_rows2048_o _ _ (k0_off5_eq c) (k0_off5_inb c) i

/-! ### The result buffer: the device's own half and the 64 landing slots partition its 4096 rows -/

theorem slot_own_sep : ∀ (c : Fin 8) (j : Xf),
    slotRow j c.val + 32 ≤ 2048 * (c.val / 4) ∨ 2048 * (c.val / 4) + 2048 ≤ slotRow j c.val := by decide +kernel

theorem slot_slot_sep : ∀ (c : Fin 8) (j j' : Xf), j ≠ j' →
    slotRow j c.val + 32 ≤ slotRow j' c.val ∨ slotRow j' c.val + 32 ≤ slotRow j c.val := by decide +kernel

/-- Every 32-row chunk of the result is in the device's own half or is exactly one landing slot. -/
theorem chunk_cover : ∀ (c : Fin 8) (ch : Fin 128),
    (64 * (c.val / 4) ≤ ch.val ∧ ch.val < 64 * (c.val / 4) + 64) ∨ ∃ j : Xf, slotRow j c.val = 32 * ch.val := by
  decide +kernel

theorem disjoint_own_slot (c : Dev nD) (j : Xf) : Disjoint (ownSet c) (slotSet j c) :=
  Finset.disjoint_left.mpr fun i h1 h2 => by
    rw [mem_ownSet] at h1; rw [mem_slotSet] at h2
    have := slot_own_sep c j
    omega

theorem disjoint_slots (c : Dev nD) (j j' : Xf) (h : j ≠ j') : Disjoint (slotSet j c) (slotSet j' c) :=
  Finset.disjoint_left.mpr fun i h1 h2 => by
    rw [mem_slotSet] at h1 h2
    have := slot_slot_sep c j j' h
    omega

theorem o_cover (c : Dev nD) : ownSet c ∪ Finset.univ.biUnion (fun j : Xf => slotSet j c) = (Finset.univ : Finset OIx) := by
  ext i
  simp only [Finset.mem_union, Finset.mem_biUnion, Finset.mem_univ, true_and, iff_true]
  have hi : (i 0).val < 4096 := (i 0).isLt
  rcases chunk_cover c ⟨(i 0).val / 32, by omega⟩ with h | ⟨j, hj⟩
  · left; rw [mem_ownSet]
    have h' : 64 * (c.val / 4) ≤ (i 0).val / 32 ∧ (i 0).val / 32 < 64 * (c.val / 4) + 64 := h
    omega
  · right; refine ⟨j, ?_⟩; rw [mem_slotSet]
    have hj' : slotRow j c.val = 32 * ((i 0).val / 32) := hj
    omega

/-- The whole result buffer is the device's own half and its 64 landing slots. -/
theorem o_split (c : Dev nD) (q : PosShare TreeShare) (f : Buf (Elt F) ((c : Thread nD τ).loc cc0_stg1_0)) :
    (oPts c Finset.univ q f : sProp 𝕄)
      = iprop(oPts c (ownSet c) q f ∗ bigSep Finset.univ fun j : Xf => oPts c (slotSet j c) q f) := by
  unfold oPts
  have hu := pointsTo_union (ℓ := (c : Thread nD τ).loc cc0_stg1_0) (I := ownSet c)
    (J := Finset.univ.biUnion fun j : Xf => slotSet j c) (q := q) (f := f) (Val := Elt F) (Ix := Unit) (Name := ℕ) (U := UU) (Lvl := ℕ)
    ((Finset.disjoint_biUnion_right _ _ _).mpr fun j _ => disjoint_own_slot c j)
  have hb := pointsTo_biUnion (ℓ := (c : Thread nD τ).loc cc0_stg1_0) (q := q) (f := f) (Val := Elt F) (Ix := Unit) (Name := ℕ) (U := UU) (Lvl := ℕ)
    Finset.univ (fun j : Xf => slotSet j c) (fun j _ j' _ h => disjoint_slots c j j' h)
  rw [← o_cover c, BI.equiv_iff.mp ⟨hu.1, hu.2⟩, hb]

/-! ### The argument block: the 25 slices the remote copies read, and the rest -/

def xLive : Xf → Bool
  | .xa _ => true | .xb _ => true | _ => false

def xRow (j : Xf) (cv : ℕ) : ℕ :=
  match j with
  | .xa k => 1024 * (cv % 2) + 512 * ((cv / 2) % 2) + 32 * k.val
  | .xb k => (32 * k.val + 1536) - (1024 * (cv % 2) + 512 * ((cv / 2) % 2))
  | _ => 0

theorem mem_xSet (j : Xf) (c : Dev nD) (i : XIx) :
    i ∈ xSet j c ↔ xLive j = true ∧ xRow j c.val ≤ (i 0).val ∧ (i 0).val < xRow j c.val + 32 := by
  cases j with
  | xa k => exact (mem_rows32_x _ _ (k0_off2_eq c k) (k0_off2_inb c k) i).trans ⟨fun h => ⟨rfl, h⟩, fun h => h.2⟩
  | xb k => exact (mem_rows32_x _ _ (k0_off4_eq c k) (k0_off4_inb c k) i).trans ⟨fun h => ⟨rfl, h⟩, fun h => h.2⟩
  | yf k => exact ⟨fun h => absurd h (Finset.notMem_empty i), fun h => absurd (show false = true from h.1) (by decide)⟩
  | zf k => exact ⟨fun h => absurd h (Finset.notMem_empty i), fun h => absurd (show false = true from h.1) (by decide)⟩
  | ya k => exact ⟨fun h => absurd h (Finset.notMem_empty i), fun h => absurd (show false = true from h.1) (by decide)⟩
  | zb k => exact ⟨fun h => absurd h (Finset.notMem_empty i), fun h => absurd (show false = true from h.1) (by decide)⟩

theorem x_sep : ∀ (c : Fin 8) (j j' : Xf), j ≠ j' → xLive j = true → xLive j' = true →
    xRow j c.val + 32 ≤ xRow j' c.val ∨ xRow j' c.val + 32 ≤ xRow j c.val := by decide +kernel

theorem disjoint_xSets (c : Dev nD) (j j' : Xf) (h : j ≠ j') : Disjoint (xSet j c) (xSet j' c) :=
  Finset.disjoint_left.mpr fun i h1 h2 => by
    rw [mem_xSet] at h1 h2
    have := x_sep c j j' h h1.1 h2.1
    omega
/-! ## The state after 0 and after all 198 operations, piece by piece -/

theorem tag0_slot : ∀ i : Xf, tag (.slot i) 0 = 0 := by decide
theorem tag0_pslot : ∀ i : Xf, tag (.pslot i) 0 = 0 := by decide
theorem tag0_tok : ∀ i : Xf, tag (.tok i) 0 = 1 := by decide
theorem tag0_scell : ∀ i : Xf, tag (.scell i) 0 = 0 := by decide
theorem tag0_rcell : ∀ i : Xf, tag (.rcell i) 0 = 0 := by decide
theorem tag0_xR : ∀ i : Xf, tag (.xR i) 0 = 1 := by decide
theorem tag0_sigtok : ∀ d : Fin 3, tag (.sigtok d) 0 = 1 := by decide
theorem tag0_bar : tag .bar 0 = 0 := by decide
theorem tag0_xL : tag .xL 0 = 1 := by decide
theorem tag0_xRrest : tag .xRrest 0 = 1 := by decide
theorem tag0_own : tag .own 0 = 0 := by decide
theorem tag0_loccell : tag .loccell 0 = 0 := by decide
theorem tag0_owes : tag .owes 0 = 0 := by decide
theorem tagE_slot : ∀ i : Xf, tag (.slot i) 198 = 2 := by decide
theorem tagE_pslot : ∀ i : Xf, tag (.pslot i) 198 = 0 := by decide
theorem tagE_tok : ∀ i : Xf, tag (.tok i) 198 = 0 := by decide
theorem tagE_scell : ∀ i : Xf, tag (.scell i) 198 = 2 := by decide
theorem tagE_rcell : ∀ i : Xf, tag (.rcell i) 198 = 2 := by decide
theorem tagE_xR : ∀ i : Xf, tag (.xR i) 198 = 1 := by decide
theorem tagE_sigtok : ∀ d : Fin 3, tag (.sigtok d) 198 = 0 := by decide
theorem tagE_bar : tag .bar 198 = 1 := by decide
theorem tagE_xL : tag .xL 198 = 1 := by decide
theorem tagE_xRrest : tag .xRrest 198 = 1 := by decide
theorem tagE_own : tag .own 198 = 2 := by decide
theorem tagE_loccell : tag .loccell 198 = 2 := by decide
theorem tagE_owes : tag .owes 198 = 364 := by decide

theorem sendOrder_drop_end : sendOrder.drop (364 % 100) = [] := by decide
theorem sig_drop_end : ([0, 1, 2] : List (Fin 3)).drop (364 / 100) = [] := by decide

variable (m : (ℓ : Loc nD τ sig) → Buf (Elt F) ℓ) (ρ : Dev nD → PrngReg)

/-- After 0 operations: every row of the result at arbitrary contents, every cell at round 0 with its credit,
    every duty token and the whole argument block in hand, everything still owed. -/
theorem St_zero (c : Dev nD) : St m c 0 = iprop(
    (bigSep Finset.univ fun i : Xf => iprop(∃ f, oPts c (slotSet i c) fullShare f))
    ∗ (bigSep Finset.univ fun i : Xf => (iprop(emp) : sProp 𝕄))
    ∗ (bigSep Finset.univ fun i : Xf => iprop(dutyTok ER (rCell i (peer i.dir c)) 0 0 ∗ dutyTok ER (sCell i c) 0 0))
    ∗ (bigSep Finset.univ fun i : Xf => atPos ER (sCell i c) 0 ∅ 0)
    ∗ (bigSep Finset.univ fun i : Xf => iprop(atPos ER (rCell i c) 0 ∅ 0 ∗ cred (tallyAt (rCell i c) () NC)))
    ∗ (bigSep Finset.univ fun i : Xf => xPts m c (xSet i c) fullShare.right)
    ∗ (bigSep Finset.univ fun d : Fin 3 => dutyTok ER (barCell (peer d c)) 0 d)
    ∗ iprop(atPos ER (barCell c) 0 ∅ 0 ∗ cred (tallyAt (barCell c) () 3))
    ∗ xPts m c Finset.univ fullShare.left
    ∗ xPts m c (xRest c) fullShare.right
    ∗ iprop(∃ f, oPts c (ownSet c) fullShare f)
    ∗ iprop(atPos ER (locCell c) 0 ∅ 0 ∗ dutyTok ER (locCell c) 0 0)
    ∗ iprop(∃ W : Waits sig Unit, owes (c : Thread nD τ) (owedAll c [0, 1, 2] sendOrder) W)) := by
  unfold St
  rw [bigSep_Res]
  simp only [tag0_slot, tag0_pslot, tag0_tok, tag0_scell, tag0_rcell, tag0_xR, tag0_sigtok, tag0_bar, tag0_xL,
    tag0_xRrest, tag0_own, tag0_loccell, tag0_owes]
  rfl

/-- After all 198 operations: every row of the result holding what it must end with, the argument block back,
    every own cell closed at zero, nothing owed. -/
theorem St_end (c : Dev nD) : St m c 198 = iprop(
    (bigSep Finset.univ fun i : Xf => oPts c (slotSet i c) fullShare (outAt m c))
    ∗ (bigSep Finset.univ fun i : Xf => (iprop(emp) : sProp 𝕄))
    ∗ (bigSep Finset.univ fun i : Xf => (iprop(emp) : sProp 𝕄))
    ∗ (bigSep Finset.univ fun i : Xf => (semVal (sCell i c) 0 : sProp 𝕄))
    ∗ (bigSep Finset.univ fun i : Xf => (semVal (rCell i c) 0 : sProp 𝕄))
    ∗ (bigSep Finset.univ fun i : Xf => xPts m c (xSet i c) fullShare.right)
    ∗ (bigSep Finset.univ fun d : Fin 3 => (iprop(emp) : sProp 𝕄))
    ∗ atPos ER (barCell c) 1 ∅ 0
    ∗ xPts m c Finset.univ fullShare.left
    ∗ xPts m c (xRest c) fullShare.right
    ∗ oPts c (ownSet c) fullShare (outAt m c)
    ∗ semVal (locCell c) 0
    ∗ iprop(∃ W : Waits sig Unit, owes (c : Thread nD τ) (0 : CellTallies nD τ sig Unit) W)) := by
  unfold St
  rw [bigSep_Res]
  simp only [tagE_slot, tagE_pslot, tagE_tok, tagE_scell, tagE_rcell, tagE_xR, tagE_sigtok, tagE_bar, tagE_xL,
    tagE_xRrest, tagE_own, tagE_loccell, tagE_owes]
  have ho : interp m c .owes 364
      = iprop(∃ W : Waits sig Unit, owes (c : Thread nD τ) (0 : CellTallies nD τ sig Unit) W) := by
    show iprop(∃ W : Waits sig Unit, owes (c : Thread nD τ)
      (owedAll c (([0, 1, 2] : List (Fin 3)).drop (364 / 100)) (sendOrder.drop (364 % 100))) W) = _
    rw [sendOrder_drop_end, sig_drop_end]
    rfl
  rw [ho]
  rfl

/-- The whole argument block is its left half share, and at the right half share the slices the remote copies
    read and the rest. -/
theorem x_split (c : Dev nD) :
    (xPts m c Finset.univ fullShare : sProp 𝕄)
      = iprop(xPts m c Finset.univ fullShare.left
          ∗ (bigSep Finset.univ fun j : Xf => xPts m c (xSet j c) fullShare.right) ∗ xPts m c (xRest c) fullShare.right) := by
  unfold xPts xRest
  have hs := pointsTo_share (ℓ := (c : Thread nD τ).loc cc0_stg0_0) (I := Finset.univ) (f := xstg m c) (Val := Elt F) (Ix := Unit) (Name := ℕ) (U := UU) (Lvl := ℕ)
    (PosShare.mem_left_op_right fullShare)
  have hp := pointsTo_split_subset (ℓ := (c : Thread nD τ).loc cc0_stg0_0) (q := fullShare.right) (f := xstg m c) (Val := Elt F) (Ix := Unit) (Name := ℕ) (U := UU) (Lvl := ℕ)
    (Finset.subset_univ (Finset.univ.biUnion fun j : Xf => xSet j c))
  have hb := pointsTo_biUnion (ℓ := (c : Thread nD τ).loc cc0_stg0_0) (q := fullShare.right) (f := xstg m c) (Val := Elt F) (Ix := Unit) (Name := ℕ) (U := UU) (Lvl := ℕ)
    Finset.univ (fun j : Xf => xSet j c) (fun j _ j' _ h => disjoint_xSets c j j' h)
  rw [BI.equiv_iff.mp ⟨hs.1, hs.2⟩, BI.equiv_iff.mp ⟨hp.1, hp.2⟩, hb]

/-! ## Cutting the two staging buffers at entry, and putting them back at exit -/

theorem x_cut (c : Dev nD) :
    ((((c : Thread nD τ).loc cc0_stg0_0) ↦{fullShare} xstg m c) : sProp 𝕄)
      ⊢ iprop(xPts m c Finset.univ fullShare.left
          ∗ (bigSep Finset.univ fun j : Xf => xPts m c (xSet j c) fullShare.right) ∗ xPts m c (xRest c) fullShare.right) :=
  Entails.of_eq (x_split m c)

theorem x_glue (c : Dev nD) :
    iprop(xPts m c Finset.univ fullShare.left
          ∗ (bigSep Finset.univ fun j : Xf => xPts m c (xSet j c) fullShare.right) ∗ xPts m c (xRest c) fullShare.right)
      ⊢ ((((c : Thread nD τ).loc cc0_stg0_0) ↦{fullShare} xstg m c) : sProp 𝕄) :=
  Entails.of_eq (x_split m c).symm

theorem o_cut (c : Dev nD) (f : Buf (Elt F) ((c : Thread nD τ).loc cc0_stg1_0)) :
    ((((c : Thread nD τ).loc cc0_stg1_0) ↦{fullShare} f) : sProp 𝕄)
      ⊢ iprop((∃ f, oPts c (ownSet c) fullShare f)
          ∗ bigSep Finset.univ fun j : Xf => iprop(∃ f, oPts c (slotSet j c) fullShare f)) := by
  have h1 : (oPts c (ownSet c) fullShare f : sProp 𝕄) ⊢ iprop(∃ f, oPts c (ownSet c) fullShare f) := by
    iintro H; iexists f; iexact H
  have h2 : ∀ j : Xf, (oPts c (slotSet j c) fullShare f : sProp 𝕄) ⊢ iprop(∃ f, oPts c (slotSet j c) fullShare f) :=
    fun j => by iintro H; iexists f; iexact H
  exact (Entails.of_eq (o_split c fullShare f)).trans (BI.sep_mono h1 (bigSep_mono fun j _ => h2 j))

theorem o_glue (c : Dev nD) (f : Buf (Elt F) ((c : Thread nD τ).loc cc0_stg1_0)) :
    iprop(oPts c (ownSet c) fullShare f ∗ bigSep Finset.univ fun j : Xf => oPts c (slotSet j c) fullShare f)
      ⊢ ((((c : Thread nD τ).loc cc0_stg1_0) ↦{fullShare} f) : sProp 𝕄) :=
  Entails.of_eq (o_split c fullShare f).symm

/-- Nothing, as often as wanted. -/
theorem emp_bigSep {I : Type} (s : Finset I) : (iprop(emp) : sProp 𝕄) ⊢ bigSep s fun _ : I => (iprop(emp) : sProp 𝕄) :=
  Entails.of_eq (bigSep_emp_const s).symm

/-! ## Entry and exit -/

/-- What the launch deals a device is the records and the pieces of its state after 0 operations. -/
theorem entry (K : Dev nD × Fin 130 → ℕ) (c : Dev nD) : bodyPre m ρ K c ⊢ iprop(records m K ∗ St m c 0) := by
  rw [St_zero]
  unfold bodyPre ghost recs linear creds records
  have hat : (bigSep Finset.univ fun k : Fin 130 => (atPos ER (kcell (c, k)) 0 ∅ 0 : sProp 𝕄))
      = iprop(atPos ER (barCell c) 0 ∅ 0 ∗ (bigSep Finset.univ fun i : Xf => atPos ER (sCell i c) 0 ∅ 0)
          ∗ (bigSep Finset.univ fun i : Xf => atPos ER (rCell i c) 0 ∅ 0) ∗ atPos ER (locCell c) 0 ∅ 0) :=
    bigSep_cells c (fun g => (atPos ER g 0 ∅ 0 : sProp 𝕄))
  have hrc : (bigSep Finset.univ fun i : Xf => (iprop(atPos ER (rCell i c) 0 ∅ 0 ∗ cred (tallyAt (rCell i c) () NC)) : sProp 𝕄))
      = iprop((bigSep Finset.univ fun i : Xf => atPos ER (rCell i c) 0 ∅ 0)
          ∗ (bigSep Finset.univ fun i : Xf => cred (tallyAt (rCell i c) () NC))) :=
    bigSep_sep _ _ _
  rw [hat, hrc]
  unfold Dat.owesAt Pipeline.owesWithin
  iintro ⟨⟨⟨⟨HI, HR⟩, ⟨HaB, HaS, HaR, HaL⟩, Hsig, Htok, Hloc⟩, ⟨HcB, HcR⟩, Hlev⟩, ⟨%W, %hW, HO⟩, ⟨%d0, %g0, %hg0, Hx⟩, ⟨%d1, %g1, %hg1, Hout⟩⟩
  have hx : g0 = xstg m c := by rw [hg0]; unfold Dat.before; rw [if_pos (fetch0_0 t₀)]; rfl
  subst hx
  ihave Hx := (x_cut m c) $$ Hx
  icases Hx with ⟨HxL, HxR, HxRest⟩
  ihave Hout := (o_cut c g1) $$ Hout
  icases Hout with ⟨Hown, Hslots⟩
  -- the records
  isplitl [HI HR Hlev]
  · isplitl [HI]; · iexact HI
    isplitl [HR]; · iexact HR
    iexact Hlev
  -- the pieces, kind by kind
  isplitl [Hslots]; · iexact Hslots
  isplitr
  · iapply (emp_bigSep (F := F) (Finset.univ : Finset Xf))
    iempintro
  isplitl [Htok]; · iexact Htok
  isplitl [HaS]; · iexact HaS
  isplitl [HaR HcR]
  · isplitl [HaR]; · iexact HaR
    iexact HcR
  isplitl [HxR]; · iexact HxR
  isplitl [Hsig]; · iexact Hsig
  isplitl [HaB HcB]
  · isplitl [HaB]; · iexact HaB
    iexact HcB
  isplitl [HxL]; · iexact HxL
  isplitl [HxRest]; · iexact HxRest
  isplitl [Hown]; · iexact Hown
  isplitl [HaL Hloc]
  · isplitl [HaL]; · iexact HaL
    iexact Hloc
  iexists W
  rw [show (dats m ρ 0 c).owed t₀.castSucc = owedAll c [0, 1, 2] sendOrder from rfl]
  iexact HO

/-- The pieces of a device's state after all 198 operations are what the pipeline takes back. -/
theorem exit (c : Dev nD) : St m c 198 ⊢ bodyPost m ρ c := by
  rw [St_end]
  unfold bodyPost Φ₁
  have hsv : (bigSep Finset.univ fun k : Fin 129 => (semVal ((c : Thread nD τ), osem k) 0 : sProp 𝕄))
      = iprop((bigSep Finset.univ fun i : Xf => semVal (sCell i c) 0)
          ∗ (bigSep Finset.univ fun i : Xf => semVal (rCell i c) 0) ∗ semVal (locCell c) 0) :=
    bigSep_own c (fun g => (semVal g 0 : sProp 𝕄))
  rw [hsv]
  unfold Dat.owesAt Pipeline.owesWithin
  iintro ⟨Hslots, He1, He2, HS, HR, HxR, He3, Hbar, HxL, HxRest, Hown, Hloc, ⟨%W, HO⟩⟩
  isplitl [HS HR Hloc]
  · isplitl [HS]; · iexact HS
    isplitl [HR]; · iexact HR
    iexact Hloc
  isplitl [HO]
  · iexists W
    isplitr
    · ipureintro; exact fun x _ => Or.inl (Set.mem_univ x)
    rw [show (dats m ρ 0 c).owed t₀.succ = (0 : CellTallies nD τ sig Unit) from rfl]
    iexact HO
  isplitl [HxL HxR HxRest]
  · iexists (xstg m c)
    isplitr; · (ipureintro; rfl)
    iapply (x_glue m c)
    isplitl [HxL]; · iexact HxL
    isplitl [HxR]; · iexact HxR
    iexact HxRest
  · iexists (outAt m c)
    isplitr; · (ipureintro; rfl)
    iapply (o_glue c (outAt m c))
    isplitl [Hown]; · iexact Hown
    iexact Hslots

/-! ## The pipeline's obligation on the body -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 100000 in
/-- The body obligation on device c, given the body run from the state after 0 to the state after 198 operations. -/
theorem body_obligation
    (hrun : ∀ (K : Dev nD × Fin 130 → ℕ) (c : Dev nD),
      iprop(records m K ∗ St m c 0) ⊢ WP c (theBody (F := F)) (fun _ => St m c 198))
    (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m c ∗ (dats m ρ 0 c).owesAt () t₀.castSucc
      ∗ (∃ d, stg c cc0_stg0_0 ((dats m ρ 0 c).before (0 : Fin 2) t₀ d))
      ∗ (∃ d, stg c cc0_stg1_0 ((dats m ρ 0 c).before (1 : Fin 2) t₀ d)))
    ⊢ WP c (theBody (F := F)) (fun _ => bodyPost m ρ c)
  unfold Φ₀ start
  iintro ⟨⟨⟨%K, Hg⟩, Hrest⟩, Ho, Hx, Hout⟩
  iapply (wp_mono frame (wpE (defs₀ (F := F)) 𝒱₀ (c : Thread nD τ) none) Set.univ (fun _ => exit m ρ c))
  iapply (hrun K c)
  iapply (entry m ρ K c)
  unfold bodyPre
  isplitl [Hg Hrest]
  · isplitl [Hg]; · iexact Hg
    iexact Hrest
  isplitl [Ho]; · iexact Ho
  isplitl [Hx] <;> iassumption

/-- info: 'Cert.Kernel.AG.body_obligation' depends on axioms: [propext, Classical.choice, Quot.sound] -/
#guard_msgs in #print axioms body_obligation

end Cert.Kernel.AG

end
-- ==== Proof.K.Launch.lean ====
/-
  The launch of the all-gather on the eight devices: the ghost state the launch element funds (every protocol
  cell's round state, positions and duty tokens), the global step that allocates every cell's invariant and deals
  the duty tokens to the devices that pay them, the credit tokens each device is dealt for what the others owe its
  cells, the level facts that let the pipeline's own staging waits pass, and the run of the whole program from
  each device's body obligation, with the final arrays named.
-/
import proofs.«900661_g7700000000000662_dist_ag_v7x_xyz2x2x2_x_m2048_n512_f32_1_alg».proof.Proof.K.Data
import proofs.«900661_g7700000000000662_dist_ag_v7x_xyz2x2x2_x_m2048_n512_f32_1_alg».proof.Proof.Gen.Kernel.Frame

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! Everything up to the run is auxiliary to it and lives in a namespace of its own. -/
namespace Launch

/-! ## The kernel's own semaphores, the protocol's cells and the minted duty tokens -/

/-- The index of a DMA cell among the core's DMA semaphores (0 for a regular semaphore). -/
def semIx : SemLoc sig → ℕ
  | .dma j => j.val
  | .reg _ => 0

theorem ownSemFacts : Pipeline.OwnSemFacts cfg0.spec osem where
  isScoped := by decide +kernel
  inj := fun k k' h => by
    have h' : k.val + 2 = k'.val + 2 := congrArg semIx h
    exact Fin.ext (by omega)
  disj := fun k w s h => by
    have h' : k.val + 2 = ((cfg0.spec w).sem s).val := congrArg semIx h
    have h2 : ((cfg0.spec w).sem s).val < 2 := by fin_cases w <;> fin_cases s <;> decide
    omega

theorem share_eq (c : Dev nD) (w : Fin cfg0.W) : (dats m ρ 0 c).share w = fullShare := by unfold Dat.share; split <;> rfl

theorem csem_zero {k : Fin 130} (h : k.val = 0) : (csem k : SemLoc sig) = .reg barS := dif_pos h
theorem csem_pos {k : Fin 130} (h : ¬ k.val = 0) :
    (csem k : SemLoc sig) = .dma ⟨k.val + 1, by have := k.isLt; show k.val + 1 < 131; omega⟩ := dif_neg h

theorem csem_injective : Function.Injective (csem : Fin 130 → SemLoc sig) := by
  intro k k' h
  by_cases h0 : k.val = 0 <;> by_cases h0' : k'.val = 0
  · exact Fin.ext (h0.trans h0'.symm)
  · rw [csem_zero h0, csem_pos h0'] at h; cases h
  · rw [csem_pos h0, csem_zero h0'] at h; cases h
  · rw [csem_pos h0, csem_pos h0'] at h
    have h2 : k.val + 1 = k'.val + 1 := congrArg semIx h
    exact Fin.ext (by omega)

/-- The cell after the barrier's k-th is the kernel's own k-th semaphore. -/
theorem csem_succ (k : Fin 129) : (csem k.succ : SemLoc sig) = osem k := by
  rw [csem_pos (by simp)]
  rfl

theorem kcell_injective : Function.Injective (kcell : Dev nD × Fin 130 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

/-- A device's own cells' duty tokens as minted: the three duties of its barrier cell, the one duty of each of its
    129 DMA cells. -/
abbrev tokOf (cj : Dev nD × (Fin 3 ⊕ Fin 129)) : GSem nD τ sig × ℕ × Fin 3 :=
  match cj.2 with
  | .inl d => (barCell cj.1, 0, d)
  | .inr k => (((cj.1 : Thread nD τ), osem k), 0, 0)

theorem tokOf_injective : Function.Injective (tokOf : Dev nD × (Fin 3 ⊕ Fin 129) → GSem nD τ sig × ℕ × Fin 3) := by
  rintro ⟨c, x⟩ ⟨c', x'⟩ h
  have h1 : c = c' := by
    have := congrArg (fun y : GSem nD τ sig × ℕ × Fin 3 => y.1.1.1) h
    cases x <;> cases x' <;> exact this
  subst h1
  cases x with
  | inl d =>
    cases x' with
    | inl d' =>
      have h2 : d = d' := congrArg (fun y : GSem nD τ sig × ℕ × Fin 3 => y.2.2) h
      rw [h2]
    | inr k' => exact absurd (congrArg (fun y : GSem nD τ sig × ℕ × Fin 3 => y.1.2) h) (fun h' => by cases h')
  | inr k =>
    cases x' with
    | inl d' => exact absurd (congrArg (fun y : GSem nD τ sig × ℕ × Fin 3 => y.1.2) h) (fun h' => by cases h')
    | inr k' =>
      have h2 : k = k' := ownSemFacts.inj (congrArg (fun y : GSem nD τ sig × ℕ × Fin 3 => y.1.2) h)
      rw [h2]

def protoToks : Finset (GSem nD τ sig × ℕ × Fin 3) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  iprop((bigSep Finset.univ fun d : Fin 3 => dutyTok ER (barCell c) 0 d)
    ∗ (bigSep Finset.univ fun k : Fin 129 => dutyTok ER ((c : Thread nD τ), osem k) 0 0))

/-- What the launch element deals device c. -/
def G (c : Dev nD) : sProp 𝕄 :=
  iprop((bigSep Finset.univ fun k : Fin 130 => roundState ER (sched m) (kcell (c, k)) 0)
    ∗ (bigSep Finset.univ fun k : Fin 130 => iprop(atPos ER (kcell (c, k)) 0 ∅ 0 ∗ reached ER (kcell (c, k)) 0)) ∗ toks c)

/-- What the global step makes of it. -/
def G' (c : Dev nD) : sProp 𝕄 := iprop(∃ K, ghost m K c)

/-- Every payload of the schedule can be kept in an invariant. -/
instance sched_payload_storable (g : GSem nD τ sig) (r : ℕ) (d : Fin 3) :
    BI.Storable (upEmb : UEmb _ 𝕄) ((sched (F := F) m).payload g r d) := by
  rcases g with ⟨⟨c, p⟩, sm⟩
  cases sm with
  | reg s => show BI.Storable upEmb (barPay c d); unfold barPay oPts; infer_instance
  | dma j =>
    show BI.Storable upEmb (match roleOf j.val with
      | .send i => sendPay m c i | .recv i => recvPay m c i | .loc => locPay m c | .none => iprop(emp))
    cases roleOf j.val with
    | send i => show BI.Storable upEmb (sendPay m c i); cases i <;> (unfold sendPay oPts xPts; infer_instance)
    | recv i => show BI.Storable upEmb (recvPay m c i); unfold recvPay oPts; infer_instance
    | loc => show BI.Storable upEmb (locPay m c); unfold locPay oPts xPts; infer_instance
    | none => show BI.Storable upEmb (iprop(emp) : sProp 𝕄); infer_instance

theorem fund_proto : BI.own (ER (initOf protoCells protoToks)) ⊢ (|==> bigSep Finset.univ (G m) : sProp 𝕄) := by
  have hX (Φ : GSem nD τ sig → sProp 𝕄) : bigSep protoCells Φ
      = bigSep Finset.univ fun c : Dev nD => bigSep Finset.univ fun k : Fin 130 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the duty tokens dealt to their payers -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 130 => semVal (kcell (c, k)) 0 : sProp 𝕄) := by
  have hS : (Pipeline.ownSems0 (Ix := Unit) (Name := ℕ) (U := UU) (Lvl := ℕ) (Val := Elt F) (τ := τ) osem c : sProp 𝕄)
      = bigSep Finset.univ fun k : Fin 129 => semVal (kcell (c, k.succ)) 0 := by
    unfold Pipeline.ownSems0
    exact bigSep_congr fun k _ => by
      rw [show kcell (c, k.succ) = ((c : Thread nD τ), osem k) from congrArg (Prod.mk _) (csem_succ k)]
  rw [hS, unscopedSems0_eq, bigSep_fin_succ (fun k : Fin 130 => (semVal (kcell (c, k)) 0 : sProp 𝕄))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 130 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 130 => semVal (kcell (c, k)) 0) ∗ bigSep Finset.univ fun k : Fin 130 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem peer_peer : ∀ (d : Fin 3) (c : Dev nD), peer d (peer d c) = c := by decide +kernel

/-- Flipping one mesh coordinate, as a permutation of the devices. -/
def peerE (d : Fin 3) : Dev nD ≃ Dev nD := ⟨peer d, peer d, peer_peer d, peer_peer d⟩

/-- A family indexed by devices and by things that each name a mesh axis, dealt to the neighbours along those axes. -/
theorem bigSep_deal {I : Type} [Fintype I] (dir : I → Fin 3) (Φ : I → Dev nD → sProp 𝕄) :
    (bigSep Finset.univ fun c : Dev nD => bigSep Finset.univ fun i : I => Φ i c)
      = bigSep Finset.univ fun c : Dev nD => bigSep Finset.univ fun i : I => Φ i (peer (dir i) c) := by
  rw [bigSep_univ_comm (fun (c : Dev nD) (i : I) => Φ i c), bigSep_univ_comm (fun (c : Dev nD) (i : I) => Φ i (peer (dir i) c))]
  exact bigSep_congr fun i _ => bigSep_univ_equiv (peerE (dir i)) (fun c => Φ i c)

/-- The kernel's own 129 semaphores by what they are for: the read-out cell and the landing cell of each of the 64
    copies, and the local copy's cell. -/
def dmaOf : Xf ⊕ Xf ⊕ Unit → Fin 129
  | .inl i => ⟨i.sIdx - 2, by have := i.sIdx_lt; omega⟩
  | .inr (.inl i) => ⟨i.rIdx - 2, by have := i.rIdx_lt; omega⟩
  | .inr (.inr _) => ⟨128, by decide⟩
def roleAt (k : Fin 129) : Xf ⊕ Xf ⊕ Unit :=
  match roleOf (k.val + 2) with
  | .send i => .inl i
  | .recv i => .inr (.inl i)
  | .loc => .inr (.inr ())
  | .none => .inr (.inr ())
theorem roleAt_dmaOf : ∀ x, roleAt (dmaOf x) = x := by decide +kernel
theorem dmaOf_roleAt : ∀ k, dmaOf (roleAt k) = k := by decide +kernel
def dmaE : Xf ⊕ Xf ⊕ Unit ≃ Fin 129 := ⟨dmaOf, roleAt, roleAt_dmaOf, dmaOf_roleAt⟩

theorem two_le_sIdx (i : Xf) : 2 ≤ i.sIdx := by cases i <;> simp only [Xf.sIdx] <;> omega
theorem two_le_rIdx (i : Xf) : 2 ≤ i.rIdx := by cases i <;> simp only [Xf.rIdx] <;> omega

theorem osem_send (i : Xf) : (osem (dmaE (.inl i)) : SemLoc sig) = .dma (sS i) :=
  congrArg SemLoc.dma (Fin.ext (by show i.sIdx - 2 + 2 = i.sIdx; have := two_le_sIdx i; omega))
theorem osem_recv (i : Xf) : (osem (dmaE (.inr (.inl i))) : SemLoc sig) = .dma (rS i) :=
  congrArg SemLoc.dma (Fin.ext (by show i.rIdx - 2 + 2 = i.rIdx; have := two_le_rIdx i; omega))
theorem osem_loc (u : Unit) : (osem (dmaE (.inr (.inr u))) : SemLoc sig) = .dma locS := rfl

theorem own_split (Φ : SemLoc sig → sProp 𝕄) :
    (bigSep Finset.univ fun k : Fin 129 => Φ (osem k))
      = iprop((bigSep Finset.univ fun i : Xf => Φ (.dma (sS i))) ∗ (bigSep Finset.univ fun i : Xf => Φ (.dma (rS i))) ∗ Φ (.dma locS)) := by
  rw [bigSep_univ_equiv dmaE (fun k : Fin 129 => Φ (osem k)), bigSep_univ_sum, bigSep_univ_sum, bigSep_univ_of_subsingleton ()]
  simp only [osem_send, osem_recv, osem_loc]
  rfl

/-- What stays with device c of the tokens: those of the duties IT pays. -/
def payToks (c : Dev nD) : sProp 𝕄 :=
  iprop((bigSep Finset.univ fun d : Fin 3 => dutyTok ER (barCell (peer d c)) 0 d)
    ∗ (bigSep Finset.univ fun i : Xf => iprop(dutyTok ER (rCell i (peer i.dir c)) 0 0 ∗ dutyTok ER (sCell i c) 0 0))
    ∗ dutyTok ER (locCell c) 0 0)

/-- The tokens dealt: a barrier's duty d to the neighbour along axis d, a landing cell's to the neighbour along
    the copy's axis; the read-out cells' and the local copy's stay. -/
theorem toks_around : (bigSep Finset.univ fun c : Dev nD => (toks c : sProp 𝕄)) ⊢ bigSep Finset.univ fun c : Dev nD => payToks c := by
  have h1 : (bigSep Finset.univ fun c : Dev nD => (toks c : sProp 𝕄))
      = iprop((bigSep Finset.univ fun c : Dev nD => bigSep Finset.univ fun d : Fin 3 => dutyTok ER (barCell c) 0 d)
        ∗ (bigSep Finset.univ fun c : Dev nD => bigSep Finset.univ fun i : Xf => dutyTok ER (sCell i c) 0 0)
        ∗ (bigSep Finset.univ fun c : Dev nD => bigSep Finset.univ fun i : Xf => dutyTok ER (rCell i c) 0 0)
        ∗ (bigSep Finset.univ fun c : Dev nD => dutyTok ER (locCell c) 0 0)) := by
    rw [← bigSep_sep', ← bigSep_sep', ← bigSep_sep']
    exact bigSep_congr fun c _ => by
      unfold toks; rw [own_split fun s => dutyTok ER ((c : Thread nD τ), s) 0 0]
  rw [h1, bigSep_deal (fun d : Fin 3 => d) (fun d c => (dutyTok ER (barCell c) 0 d : sProp 𝕄)),
    bigSep_deal Xf.dir (fun i c => (dutyTok ER (rCell i c) 0 0 : sProp 𝕄))]
  unfold payToks
  rw [bigSep_sep', bigSep_sep',
    bigSep_congr (s := Finset.univ) (fun (c : Dev nD) _ => bigSep_sep' Finset.univ
      (fun i : Xf => (dutyTok ER (rCell i (peer i.dir c)) 0 0 : sProp 𝕄)) (fun i => dutyTok ER (sCell i c) 0 0)),
    bigSep_sep']
  iintro ⟨HA, HS, HR, HL⟩
  isplitl [HA]; · iexact HA
  isplitl [HR HS]
  · isplitl [HR]; · iexact HR
    iexact HS
  iexact HL

theorem ghost_intro (K : Dev nD × Fin 130 → ℕ) (c : Dev nD) : iprop(recs m K ∗ linear c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 130 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 130 => iprop(∃ κ : ℕ, cellInv ER (sched m) κ (kcell ck))),
    bigSep_congr (s := Finset.univ) (fun (c : Dev nD) _ => bigSep_sep' Finset.univ (fun k : Fin 130 => (atPos ER (kcell (c, k)) 0 ∅ 0 : sProp 𝕄)) (fun k => reached ER (kcell (c, k)) 0)),
    bigSep_sep', ← bigSep_univ_prod (fun ck : Dev nD × Fin 130 => (reached ER (kcell ck) 0 : sProp 𝕄))]
  iintro ⟨HI, ⟨Hat, #HR⟩, Htok⟩
  ihave HK := (BI.bigSep_exists_pi Finset.univ (fun (ck : Dev nD × Fin 130) (κ : ℕ) => (cellInv ER (sched m) κ (kcell ck) : sProp 𝕄))) $$ HI
  icases HK with ⟨%K, #HI⟩
  ihave Htk := (toks_around (F := F)) $$ Htok
  iapply (bigSep_with_persistent (R := recs m K) fun c _ => ghost_intro m K c)
  isplitr
  · unfold recs; isplitl; · iexact HI
    iexact HR
  · iapply ((Entails.of_eq (bigSep_sep' Finset.univ (fun c : Dev nD => bigSep Finset.univ fun k : Fin 130 => (atPos ER (kcell (c, k)) 0 ∅ 0 : sProp 𝕄)) payToks).symm).trans
      (bigSep_mono fun c _ => show _ ⊢ linear c from Entails.of_eq (by unfold linear payToks; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owedX_eq (c : Dev nD) (l : List Xf) : owedX c l = (l.map fun i => tallyAt (rCell i (peer i.dir c)) () NC).sum := by
  induction l with
  | nil => rfl
  | cons i l ih =>
    show owedX c l + tallyAt (rCell i (peer i.dir c)) () NC = _
    rw [ih, List.map_cons, List.sum_cons, add_comm]

theorem sendOrder_nodup : sendOrder.Nodup := by decide +kernel
theorem sendOrder_univ : sendOrder.toFinset = Finset.univ := by decide +kernel

/-- What a device owes at launch, as sums: the landing of each of its copies, one unit to each neighbour's barrier. -/
theorem O₀_eq (c : Dev nD) :
    O₀ c = (∑ i : Xf, tallyAt (rCell i (peer i.dir c)) () NC) + ∑ e : Fin 3, tallyAt (barCell (peer e c)) () 1 := by
  show owedX c sendOrder + tallyAt (barCell (peer 2 c)) () 1 + tallyAt (barCell (peer 1 c)) () 1 + tallyAt (barCell (peer 0 c)) () 1 = _
  rw [owedX_eq, ← List.sum_toFinset _ sendOrder_nodup, sendOrder_univ, Fin.sum_univ_three]
  ac_rfl

theorem sum_peer {M : Type} [AddCommMonoid M] (e : Fin 3) (g : Dev nD → M) : ∑ d, g (peer e d) = ∑ d, g d :=
  (peerE e).sum_comp g

/-- What a device's own cells are owed by all the others together. -/
def T₀ (c : Dev nD) : CellTallies nD τ sig Unit := tallyAt (barCell c) () 3 + ∑ i : Xf, tallyAt (rCell i c) () NC

theorem bar_three (g : GSem nD τ sig) :
    tallyAt g () 1 + tallyAt g () 1 + tallyAt g () 1 = (tallyAt g () 3 : CellTallies nD τ sig Unit) := by
  rw [tallyAt_add, tallyAt_add]

theorem sum_recv (n : ℕ) : (∑ d : Dev nD, ∑ i : Xf, tallyAt (rCell i (peer i.dir d)) () n)
    = ∑ d : Dev nD, ∑ i : Xf, (tallyAt (rCell i d) () n : CellTallies nD τ sig Unit) := by
  rw [Finset.sum_comm, Finset.sum_congr rfl fun i _ => sum_peer i.dir (fun d => (tallyAt (rCell i d) () n : CellTallies nD τ sig Unit)),
    Finset.sum_comm]

theorem sum_bar : (∑ d : Dev nD, ∑ e : Fin 3, tallyAt (barCell (peer e d)) () 1)
    = ∑ d : Dev nD, (tallyAt (barCell d) () 3 : CellTallies nD τ sig Unit) := by
  rw [Finset.sum_comm, Finset.sum_congr rfl fun e _ => sum_peer e (fun d => (tallyAt (barCell d) () 1 : CellTallies nD τ sig Unit)),
    Fin.sum_univ_three, ← Finset.sum_add_distrib, ← Finset.sum_add_distrib]
  exact Finset.sum_congr rfl fun d _ => bar_three (barCell d)

theorem sum_O₀ : (∑ d : Dev nD, O₀ d) = ∑ d : Dev nD, T₀ d := by
  have h1 : (∑ d : Dev nD, O₀ d) = (∑ d : Dev nD, ∑ i : Xf, tallyAt (rCell i (peer i.dir d)) () NC)
      + ∑ d : Dev nD, ∑ e : Fin 3, tallyAt (barCell (peer e d)) () 1 := by
    rw [← Finset.sum_add_distrib]; exact Finset.sum_congr rfl fun d _ => O₀_eq d
  rw [h1, sum_recv NC, sum_bar, add_comm, ← Finset.sum_add_distrib]
  rfl

theorem T₀_support (d : Dev nD) (g : GSem nD τ sig) (h : T₀ d g ≠ 0) : g.1 = (d : Thread nD τ) := by
  by_contra hne
  apply h
  unfold T₀
  rw [Pi.add_apply, Finset.sum_apply, tallyAt_ne_cell (fun h' => hne (congrArg Prod.fst h')), zero_add]
  exact Finset.sum_eq_zero fun i _ => tallyAt_ne_cell (fun h' => hne (congrArg Prod.fst h')) () NC

theorem creds_of_launch (c : Dev nD) : (Pipeline.launchCred O₀ c : sProp 𝕄) ⊢ creds c := by
  rw [Pipeline.launchCred_of_sum O₀ T₀ sum_O₀ T₀_support c]
  unfold T₀ creds
  refine (cred_add _ _).1.trans (sep_mono_right ?_)
  rw [Pipeline.cred_finsetSum]

/-! ## The levels: the pipeline's own staging waits pass -/

theorem L_of_ne (g : GSem nD τ sig) (h : g.1.2 ≠ .tc) : L g = ∅ := if_neg h
theorem L_tc (c : Dev nD) (sm : SemLoc sig) : L ((c : Thread nD τ), sm) = {()} := if_pos rfl

theorem owedX_pos {c : Dev nD} {l : List Xf} {g : GSem nD τ sig} {u : Unit} (h : 0 < owedX c l g u) :
    ∃ i, g = rCell i (peer i.dir c) := by
  induction l with
  | nil => exact absurd h (Nat.lt_irrefl 0)
  | cons i l ih =>
    rcases Pipeline.add_pos_cases (D₁ := owedX c l) (D₂ := tallyAt (rCell i (peer i.dir c)) () NC) h with h | h
    · exact ih h
    · exact ⟨i, (Pipeline.tallyAt_pos h).1⟩

theorem O₀_pos {c : Dev nD} {g : GSem nD τ sig} {u : Unit} (h : 0 < O₀ c g u) :
    (∃ d, g = barCell (peer d c)) ∨ ∃ i, g = rCell i (peer i.dir c) := by
  have h' : 0 < (owedX c sendOrder + tallyAt (barCell (peer 2 c)) () 1 + tallyAt (barCell (peer 1 c)) () 1
      + tallyAt (barCell (peer 0 c)) () 1) g u := h
  rcases Pipeline.add_pos_cases h' with h' | h'
  · rcases Pipeline.add_pos_cases h' with h' | h'
    · rcases Pipeline.add_pos_cases h' with h' | h'
      · exact .inr (owedX_pos h')
      · exact .inl ⟨2, (Pipeline.tallyAt_pos h').1⟩
    · exact .inl ⟨1, (Pipeline.tallyAt_pos h').1⟩
  · exact .inl ⟨0, (Pipeline.tallyAt_pos h').1⟩

theorem rIdx_range (i : Xf) : (27 ≤ i.rIdx ∧ i.rIdx < 52) ∨ (68 ≤ i.rIdx ∧ i.rIdx < 84) ∨ (100 ≤ i.rIdx ∧ i.rIdx < 116)
    ∨ (120 ≤ i.rIdx ∧ i.rIdx < 124) ∨ (127 ≤ i.rIdx ∧ i.rIdx < 130) := by
  cases i with
  | xa k => have := k.isLt; simp only [Xf.rIdx]; omega
  | xb k => have := k.isLt; simp only [Xf.rIdx]; omega
  | yf k => have := k.isLt; simp only [Xf.rIdx]; omega
  | zf k => have := k.isLt; simp only [Xf.rIdx]; omega
  | ya k => have := k.isLt; simp only [Xf.rIdx]; omega
  | zb k => have := k.isLt; simp only [Xf.rIdx]; omega

/-- A landing cell sits above level 0; -/
theorem lv_rCell_pos (i : Xf) (c : Dev nD) : 0 < lv (rCell i c) () := by
  have hr := rIdx_range i
  show 0 < (if 27 ≤ i.rIdx ∧ i.rIdx < 52 then 2
    else if (68 ≤ i.rIdx ∧ i.rIdx < 84) ∨ (100 ≤ i.rIdx ∧ i.rIdx < 116) then 3
    else if (120 ≤ i.rIdx ∧ i.rIdx < 124) ∨ (127 ≤ i.rIdx ∧ i.rIdx < 130) then 4 else 0)
  split_ifs <;> omega

/-- the pipeline's staging cells (DMA semaphores 0 and 1) at level 0. -/
theorem lv_stage (c : Dev nD) (q : DmaSem sig) (hq : q.val < 2) : lv ((c : Thread nD τ), .dma q) () = 0 := by
  show (if 27 ≤ q.val ∧ q.val < 52 then 2
    else if (68 ≤ q.val ∧ q.val < 84) ∨ (100 ≤ q.val ∧ q.val < 116) then 3
    else if (120 ≤ q.val ∧ q.val < 124) ∨ (127 ≤ q.val ∧ q.val < 130) then 4 else 0) = 0
  split_ifs <;> omega

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨i, rfl⟩ <;> exact Finset.mem_singleton_self _)
      (fun p hp => by rw [Finset.mem_singleton.mp hp]; exact (lv_stage c q hq).le)
      (fun g u hg => by
        rcases O₀_pos hg with ⟨d, rfl⟩ | ⟨i, rfl⟩
        · exact Nat.one_pos
        · exact lv_rCell_pos i _)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ Pipeline.ownSems0
  iintro H
  isplitr; · iempintro
  isplitl [H]; · iexact H
  iempintro

end Launch

open Launch

/-! ## The run -/

/-- The arrays after the run, as the pipeline's proof data computes them. -/
def finalA (c : Dev nD) (w : Fin cfg0.W) : Buf (Elt F) ((cfg0.win w).arr.view.loc (c : Thread nD τ)) := (dats m ρ 0 c).arrAt w cfg0.N

set_option maxRecDepth 8000 in
/-- From any memory with zero counters, given each device's body obligation: every weakly fair execution of the
    program on the eight devices terminates, and every final state has each device's arrays at the computed contents. -/
theorem run_main (hbody : ∀ c : Dev nD, BodyObligation (dats (F := F) m ρ 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = finalA m ρ c w) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run holds what the body left in the result staging buffer. -/
theorem finalA_out (c : Dev nD) : finalA m ρ c (1 : Fin 2) = outAt m c := by
  -- the result window's one block is the whole array at block index 0: reading through it reads the array
  have hz : (fun a => (win0_1.index t₀) a * main_v1.ty.shape.size a) = fun _ => 0 := funext fun a => by fin_cases a <;> decide
  have hr := fun f => Memref.read_access_unit_zero (Elt F) main_v1 hz (fun a => by fin_cases a <;> decide) f
  -- the one point writes the block back: the array is then the write of what the body left
  have h1 : finalA m ρ c (1 : Fin 2)
      = ((cfg0.win (1 : Fin 2)).blk t₀).view.write (Elt F) ((dats m ρ 0 c).arrAt (1 : Fin 2) (t₀ : Fin cfg0.N).val)
          ((dats m ρ 0 c).flushed (1 : Fin 2) t₀) Finset.univ :=
    ((dats m ρ 0 c).arrAt_succ (1 : Fin 2) t₀).trans (if_pos (flush0_1 t₀))
  have h2 := View.read_write_univ (v := ((cfg0.win (1 : Fin 2)).blk t₀).view) (Val := Elt F)
    ((dats m ρ 0 c).arrAt (1 : Fin 2) (t₀ : Fin cfg0.N).val) ((dats m ρ 0 c).flushed (1 : Fin 2) t₀)
  rw [h1]
  exact (hr _).symm.trans h2

/-- info: 'Cert.Kernel.AG.run_main' depends on axioms: [propext, Classical.choice, Quot.sound] -/
#guard_msgs in #print axioms run_main

/-- info: 'Cert.Kernel.AG.finalA_x' depends on axioms: [propext, Classical.choice, Quot.sound] -/
#guard_msgs in #print axioms finalA_x

/-- info: 'Cert.Kernel.AG.finalA_out' depends on axioms: [propext, Classical.choice, Quot.sound] -/
#guard_msgs in #print axioms finalA_out

end Cert.Kernel.AG

end
-- ==== Proof.K.Main.lean ====
/-
  The whole program on the eight devices: every weakly fair execution terminates, nothing faults, every device's
  result array ends holding what its result staging buffer must end with (its own block in its own half, the other
  block row by row in the other half) and its argument array ends unchanged. This is the launch theorem's run, with
  the body obligation discharged by the run of the body's 198 operations, read at the two arrays.
-/
import proofs.«900661_g7700000000000662_dist_ag_v7x_xyz2x2x2_x_m2048_n512_f32_1_alg».proof.Proof.K.Run
import proofs.«900661_g7700000000000662_dist_ag_v7x_xyz2x2x2_x_m2048_n512_f32_1_alg».proof.Proof.K.EntryExit
import proofs.«900661_g7700000000000662_dist_ag_v7x_xyz2x2x2_x_m2048_n512_f32_1_alg».proof.Proof.K.Launch

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run_vals : θ_run (defs (F := F)) (onTc (τ := τ) (main (F := F))) ⟨m, fun _ => 0, ρ⟩
    (fun r => ∀ c : Dev nD, r.2.mem ((c.tc : Thread nD τ).loc main_v1) = outAt m c
      ∧ r.2.mem ((c.tc : Thread nD τ).loc main_arg0) = m ((c.tc : Thread nD τ).loc main_arg0)) :=
  (θ_run defs _ _).mono (fun r h c => ⟨(h c 1).trans (finalA_out m ρ c), (h c 0).trans (finalA_x m ρ c)⟩)
    (run_main m ρ fun c => body_obligation m ρ (fun K c => run_parts m K c) c)

/-- info: 'Cert.Kernel.AG.run_vals' depends on axioms: [propext, Classical.choice, Quot.sound] -/
#guard_msgs in #print axioms run_vals

end Cert.Kernel.AG

end
-- ==== Proof.LibBlockRows.lean ====
import Idealize.ShloMosaic.Lib.Layout

/-!
  Rows of a two-dimensional array held across a 2 x 2 x 2 mesh of eight devices.

  A `[4096, 512]` array is cut along dimension 0 into two blocks of `[2048, 512]`, the cut
  following mesh axis 0. The devices are numbered row-major over the three axes, so device `c` has
  coordinate `c / 4` on axis 0 and holds the rows `2048 * (c / 4) .. 2048 * (c / 4) + 2047`.

  * `rowShift c i` is the index of the whole array at which element `i` of device `c`'s block lies;
    `rowShift_val0`, `rowShift_val1` give its two coordinates.
  * `blockRows_apply`: device `c`'s block of the contents `X`, read at `i`, is `X (rowShift c i)`.
  * `rows_cover`: every index of the whole array is `rowShift c i` for a device `c` whose number is a
    multiple of four (device 0 or device 4) and some `i`.
  * `whole_of_blocks`: two contents of the whole array that agree at every `rowShift c i` are equal.
-/

namespace Cert.LibBlockRows

open Idealize.ShloMosaic

/-- The index of the whole `[4096, 512]` array at which element `i` of device `c`'s `[2048, 512]`
    block lies: `2048 * (c / 4)` rows further down, in the same column. -/
def rowShift (c : Fin 8) (i : (⟨2, ![2048, 512]⟩ : Shape).Idx) : (⟨2, ![4096, 512]⟩ : Shape).Idx :=
  Shape.pair (d := ![4096, 512])
    ⟨2048 * (c.val / 4) + (i 0).val, by
      have h0 : (i 0).val < 2048 := (i 0).isLt
      have hc : c.val < 8 := c.isLt
      show 2048 * (c.val / 4) + (i 0).val < 4096
      omega⟩
    ⟨(i 1).val, (i 1).isLt⟩

theorem rowShift_val0 (c : Fin 8) (i : (⟨2, ![2048, 512]⟩ : Shape).Idx) :
    ((rowShift c i) 0).val = 2048 * (c.val / 4) + (i 0).val := rfl

theorem rowShift_val1 (c : Fin 8) (i : (⟨2, ![2048, 512]⟩ : Shape).Idx) :
    ((rowShift c i) 1).val = (i 1).val := rfl

/-- The block coordinates of device `c`: along dimension 0 its coordinate on mesh axis 0, which in
    the row-major numbering of a 2 x 2 x 2 mesh is `c / 4`; dimension 1 is not cut. -/
theorem meshBlock_rows (c : Fin 8) :
    ((Layout.meshBlock [2, 2, 2] ![[0], []] c) 0).val = c.val / 4 ∧
    ((Layout.meshBlock [2, 2, 2] ![[0], []] c) 1).val = 0 := by
  revert c; decide

/-- Device `c`'s block of the whole contents `X`, read at `i`, is `X` read `2048 * (c / 4)` rows
    further down. -/
theorem blockRows_apply {α : Type} (c : Fin 8) (X : (⟨2, ![4096, 512]⟩ : Shape).Idx → α)
    (i : (⟨2, ![2048, 512]⟩ : Shape).Idx) :
    (Layout.blockN ⟨2, ![2048, 512]⟩ ⟨2, ![4096, 512]⟩ (Layout.meshBlock [2, 2, 2] ![[0], []] c) X) i
      = X (rowShift c i) := by
  rw [Layout.blockN_apply]
  congr 1
  funext b
  apply Fin.ext
  rw [Layout.TilesN.idx_val]
  rcases b with ⟨_ | _ | n, hb⟩
  · show ((Layout.meshBlock [2, 2, 2] ![[0], []] c) 0).val * 2048 + (i 0).val
        = 2048 * (c.val / 4) + (i 0).val
    rw [(meshBlock_rows c).1]; omega
  · show ((Layout.meshBlock [2, 2, 2] ![[0], []] c) 1).val * 512 + (i 1).val = (i 1).val
    rw [(meshBlock_rows c).2]; omega
  · exact absurd hb (by simp)

/-- Every index of the whole array lies in the block of device 0 or of device 4. -/
theorem rows_cover (j : (⟨2, ![4096, 512]⟩ : Shape).Idx) :
    ∃ (c : Fin 8) (i : (⟨2, ![2048, 512]⟩ : Shape).Idx), j = rowShift c i ∧ c.val % 4 = 0 := by
  have h0 : (j 0).val < 4096 := (j 0).isLt
  refine ⟨⟨4 * ((j 0).val / 2048), by omega⟩,
    Shape.pair (d := ![2048, 512]) ⟨(j 0).val % 2048, by show _ < 2048; omega⟩ ⟨(j 1).val, (j 1).isLt⟩,
    ?_, by show 4 * ((j 0).val / 2048) % 4 = 0; omega⟩
  funext b
  apply Fin.ext
  rcases b with ⟨_ | _ | n, hb⟩
  · show (j 0).val = 2048 * (4 * ((j 0).val / 2048) / 4) + (j 0).val % 2048
    omega
  · rfl
  · exact absurd hb (by simp)

/-- Two contents of the whole array that agree on the blocks of devices 0 and 4 are equal. -/
theorem whole_of_blocks_of_multiples {α : Type} (X Y : (⟨2, ![4096, 512]⟩ : Shape).Idx → α)
    (h : ∀ c : Fin 8, c.val % 4 = 0 → ∀ i : (⟨2, ![2048, 512]⟩ : Shape).Idx,
      Y (rowShift c i) = X (rowShift c i)) : Y = X := by
  funext j
  obtain ⟨c, i, rfl, hc⟩ := rows_cover j
  exact h c hc i

/-- Two contents of the whole array that agree on every device's block are equal. -/
theorem whole_of_blocks {α : Type} (X Y : (⟨2, ![4096, 512]⟩ : Shape).Idx → α)
    (h : ∀ (c : Fin 8) (i : (⟨2, ![2048, 512]⟩ : Shape).Idx), Y (rowShift c i) = X (rowShift c i)) :
    Y = X :=
  whole_of_blocks_of_multiples X Y fun c _ i => h c i

/-- info: 'Cert.LibBlockRows.blockRows_apply' depends on axioms: [propext, Quot.sound] -/
#guard_msgs in #print axioms blockRows_apply

/-- info: 'Cert.LibBlockRows.whole_of_blocks' depends on axioms: [propext, Quot.sound] -/
#guard_msgs in #print axioms whole_of_blocks

end Cert.LibBlockRows
-- ==== Proof.Value.lean ====
import proofs.«900661_g7700000000000662_dist_ag_v7x_xyz2x2x2_x_m2048_n512_f32_1_alg».proof.Proof.Proto
import proofs.«900661_g7700000000000662_dist_ag_v7x_xyz2x2x2_x_m2048_n512_f32_1_alg».proof.Proof.LibBlockRows

/-!
  The contents every device's result buffer must end with, read against the whole array.

  Each device's argument buffer holds its block of a whole `[4096, 512]` array `X`: the rows
  `2048 * (c / 4) .. 2048 * (c / 4) + 2047` on device `c`. The staged argument block is that buffer
  itself (`xstg_eq`: the window's one block is the whole buffer). The required final contents of a
  device's result buffer take each row from the block of a chosen device: the device itself in its own
  half, and in the other half a device reached through the neighbour along the first mesh axis, possibly
  after steps along the other two axes. A step along the first axis flips the first mesh coordinate and
  steps along the other axes keep it (`px_div`, `py_div`, `pz_div`), so the chosen device always holds
  the half of `X` the row lies in (`origin_div`, `source_div`), and the required contents are `X` on
  every device (`outAt_eq_whole`).
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The staged argument block is the device's argument buffer: the window has one block, at offset
    zero and of the buffer's own sizes, and reading a buffer through that rectangle returns it. -/
theorem xstg_eq (c : Dev nD) : xstg m c = m ((c : Thread nD τ).loc main_arg0) := by
  unfold xstg
  exact Memref.read_access_unit_zero (Elt F) main_arg0 (funext fun a => Nat.zero_mul _) _ _

/-- The neighbour along the first mesh axis lies in the other half of the mesh; -/
theorem px_div (e : Dev nD) : (px e).val / 4 = 1 - e.val / 4 := by revert e; decide
/-- the neighbours along the second and the third axis lie in the same half. -/
theorem py_div (e : Dev nD) : (py e).val / 4 = e.val / 4 := by revert e; decide
theorem pz_div (e : Dev nD) : (pz e).val / 4 = e.val / 4 := by revert e; decide

/-- Whatever route a row of the other half took, it started on a device of the other half of the mesh. -/
theorem origin_div (c : Dev nD) (r : ℕ) : (origin c r).val / 4 = 1 - c.val / 4 := by
  unfold origin
  dsimp only
  split_ifs <;> simp only [px_div, py_div, pz_div]

/-- The device whose block a row of the result is taken from holds the half of the whole array the
    row lies in. -/
theorem source_div (c : Dev nD) (r : ℕ) (hr : r < 4096) :
    (if r / 2048 = c.val / 4 then c else origin c (r % 2048)).val / 4 = r / 2048 := by
  have hc : c.val < 8 := c.isLt
  split_ifs with hq
  · exact hq.symm
  · rw [origin_div]; omega

/-- With every device's argument buffer holding its block of the whole array `X`, the contents each
    device's result buffer must end with are `X`. -/
theorem outAt_eq_whole (X : (⟨2, ![4096, 512]⟩ : Shape).Idx → Elt F .f32)
    (h : ∀ c : Dev nD, m ((c.tc : Thread nD τ).loc main_arg0)
      = Layout.blockN ⟨2, ![2048, 512]⟩ ⟨2, ![4096, 512]⟩ (Layout.meshBlock [2, 2, 2] ![[0], []] c) X)
    (c : Dev nD) : outAt m c = X := by
  refine funext fun (i : (⟨2, ![4096, 512]⟩ : Shape).Idx) => ?_
  have hi : (i 0).val < 4096 := (i 0).isLt
  show xstg m (if (i 0).val / 2048 = c.val / 4 then c else origin c ((i 0).val % 2048))
      (ValueIdx.ix2 ⟨(i 0).val % 2048, Nat.mod_lt _ (by decide)⟩ (i 1)) = X i
  rw [xstg_eq, h, Cert.LibBlockRows.blockRows_apply]
  congr 1
  funext b
  apply Fin.ext
  match b with
  | ⟨0, _⟩ =>
    refine (Cert.LibBlockRows.rowShift_val0 _ _).trans ?_
    rw [source_div c (i 0).val hi]
    exact Nat.div_add_mod (i 0).val 2048
  | ⟨1, _⟩ => exact Cert.LibBlockRows.rowShift_val1 _ _

/-- info: 'Cert.KernelIdeal.AG.outAt_eq_whole' depends on axioms: [propext, Classical.choice, Quot.sound] -/
#guard_msgs in #print axioms outAt_eq_whole

end Cert.KernelIdeal.AG

end
-- ==== Proof.RefRun.lean ====
/- The reference program's run. Its @main performs no operation and returns its argument array:
   every weakly fair execution terminates at once, and the argument array (which is the result)
   holds at the end what it held at the start. -/
import proofs.«900661_g7700000000000662_dist_ag_v7x_xyz2x2x2_x_m2048_n512_f32_1_alg».proof.ReferenceIdeal
import proofs.«900661_g7700000000000662_dist_ag_v7x_xyz2x2x2_x_m2048_n512_f32_1_alg».proof.Proof.Gen.ReferenceIdeal
import Idealize.ShloMosaic.Lib.StableHlo.Run

noncomputable section

namespace Cert.ReferenceIdeal.RefRun

open Cert.ReferenceIdeal Idealize.ShloMosaic Idealize.SL.Sem Idealize.ShloMosaic.StableHlo

attribute [local instance] Cert.ReferenceIdeal.Gen.facts

variable {F : FTy → Type} [FloatOps F]

/-- @main's host operations, in order: there is none. -/
abbrev ops : List (HloOp τ sig (Elt F)) := []

/-- @main is the empty line of operations followed by the return. -/
theorem main_eq (c : Dev nD) : main (F := F) c = seq ops := rfl

/-- The signature scopes no buffer. -/
theorem scopedRefs_eq : (Finset.univ.filter fun b : Ref sig .tc => b.isScoped) = ∅ := by decide

/-- The signature scopes no semaphore. -/
theorem scopedSems_eq : (Finset.univ.filter fun sm : SemLoc sig => sm.isScoped .tc) = ∅ := by decide

/-- Every operation of the (empty) line touches TensorCore buffers only. -/
theorem ops_sub : (ops : List (HloOp τ sig (Elt F))).Forall fun op => op.bufs ⊆ tcRefs τ sig :=
  trivial

/-- On the one device, for any float values, from any memory with zero counters: every weakly fair
    execution of @main terminates with the argument array, which is the result, unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩
      (fun r => ∀ c : Dev nD, r.2.mem ((c.tc : Thread nD τ).loc main_arg0) = m ((c.tc : Thread nD τ).loc main_arg0)) :=
  (θ_run defs _ _).mono (fun _ h c => (h c main_arg0).trans (by simp only [after_nil]))
    (run_seq scopedRefs_eq scopedSems_eq defs main (fun _ => ops) main_eq (fun _ => ops_sub) m ρ
      (fun _ _ h => nomatch h))

/-- The same run read at device 0 alone. -/
theorem run2 (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩
      (fun r => r.2.mem (((0 : Dev nD).tc : Thread nD τ).loc main_arg0) = m (((0 : Dev nD).tc : Thread nD τ).loc main_arg0)) :=
  (θ_run defs _ _).mono (fun _ h => h 0) (run m ρ)

end Cert.ReferenceIdeal.RefRun

/-- info: 'Cert.ReferenceIdeal.RefRun.run' depends on axioms: [propext, Classical.choice, Quot.sound] -/
#guard_msgs in #print axioms Cert.ReferenceIdeal.RefRun.run

/-- info: 'Cert.ReferenceIdeal.RefRun.run2' depends on axioms: [propext, Classical.choice, Quot.sound] -/
#guard_msgs in #print axioms Cert.ReferenceIdeal.RefRun.run2

end
-- ==== Proof.lean ====
/-
  The all-gather on the 2 x 2 x 2 mesh against the identity on the whole array. Each program runs to its end without
  a fault and leaves its argument unchanged: the kernel's two instances by the launch theorem over the protocol's
  schedule (every device's 198 memory operations stepped from the state of its resources), the reference because it
  does nothing. Nothing was rewritten by the idealization. And at the ideal instance every device's result is the
  whole array the reference returns: a device's result buffer ends with its own block in its own half and, in the
  other half, rows of the blocks of devices on the other side of the first mesh axis, each of which holds that same
  block of the whole array.
-/
import proofs.«900661_g7700000000000662_dist_ag_v7x_xyz2x2x2_x_m2048_n512_f32_1_alg».proof.Defs
import proofs.«900661_g7700000000000662_dist_ag_v7x_xyz2x2x2_x_m2048_n512_f32_1_alg».proof.Proof.Gen.Kernel
import proofs.«900661_g7700000000000662_dist_ag_v7x_xyz2x2x2_x_m2048_n512_f32_1_alg».proof.Proof.Gen.KernelIdeal
import proofs.«900661_g7700000000000662_dist_ag_v7x_xyz2x2x2_x_m2048_n512_f32_1_alg».proof.Proof.Gen.ReferenceIdeal
import proofs.«900661_g7700000000000662_dist_ag_v7x_xyz2x2x2_x_m2048_n512_f32_1_alg».proof.Proof.Gen.Pre_finite_inputs_Kernel
import proofs.«900661_g7700000000000662_dist_ag_v7x_xyz2x2x2_x_m2048_n512_f32_1_alg».proof.Proof.Gen.Pre_finite_inputs_ReferenceIdeal
import proofs.«900661_g7700000000000662_dist_ag_v7x_xyz2x2x2_x_m2048_n512_f32_1_alg».proof.Proof.Main
import proofs.«900661_g7700000000000662_dist_ag_v7x_xyz2x2x2_x_m2048_n512_f32_1_alg».proof.Proof.K.Main
import proofs.«900661_g7700000000000662_dist_ag_v7x_xyz2x2x2_x_m2048_n512_f32_1_alg».proof.Proof.Value
import proofs.«900661_g7700000000000662_dist_ag_v7x_xyz2x2x2_x_m2048_n512_f32_1_alg».proof.Proof.RefRun
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts
  Cert.Pre_finite_inputs_Kernel.Gen.facts Cert.Pre_finite_inputs_ReferenceIdeal.Gen.facts

theorem frame_k : Cert.frame_Kernel := fun m ρ _ =>
  (θ_run Cert.Kernel.defs _ _).mono (fun _ h c => (h c).2) (Cert.Kernel.AG.run_vals (F := Bits) m ρ)

theorem frame_ki : Cert.frame_KernelIdeal := fun m ρ _ =>
  (θ_run Cert.KernelIdeal.defs _ _).mono (fun _ h c => (h c).2) (Cert.KernelIdeal.AG.run_vals (F := Ideal) m ρ)

theorem frame_ri : Cert.frame_ReferenceIdeal := fun m ρ _ => Cert.ReferenceIdeal.RefRun.run (F := Ideal) m ρ

/-- Every device's result is the reference's whole array: the value the kernel's run names, rewritten by the
    blocks' agreement with the whole array. -/
theorem algebraic : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ h c => ⟨(h c).1.trans (Cert.KernelIdeal.AG.outAt_eq_whole m _ hagree c), (h c).2⟩)
      (Cert.KernelIdeal.AG.run_vals (F := Ideal) m ρ)
  · exact (θ_run Cert.ReferenceIdeal.defs _ _).mono (fun _ h => ⟨h, h⟩) (Cert.ReferenceIdeal.RefRun.run2 (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
